-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v6_0)) (v4 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v6_0) = v3 c
          ∧ r.2.mem ((c.tc : Thread Cert.KernelIdeal.nD Cert.KernelIdeal.τ).loc Cert.KernelIdeal.main_v6_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_v26) = v3 c
          ∧ r.2.mem ((c.tc : Thread Cert.ReferenceIdeal.nD Cert.ReferenceIdeal.τ).loc Cert.ReferenceIdeal.main_v28) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x32 : Shape := ⟨2, ![128, 32]⟩
abbrev S32x128 : Shape := ⟨2, ![32, 128]⟩
abbrev S1 : Shape := ⟨1, ![1]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x32 : S_.BroadcastsInDim S128x32 (![] : Fin 0 → Fin S128x32.rank)
  reducesTo_S128x32_S_d0_1 : S128x32.ReducesTo [0, 1] S_
  bcast_S_S32x128 : S_.BroadcastsInDim S32x128 (![] : Fin 0 → Fin S32x128.rank)
  reducesTo_S32x128_S_d0_1 : S32x128.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1 .f32) (main_arg12 : FVec F S1 .f32) (main_arg13 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg7 : FVec F S128x32 .f32) (main_arg8 : FVec F S32x128 .f32) (main_arg9 : FVec F S32x128 .f32) (main_arg10 : FVec F S1 .f32) (main_arg11 : FVec F S1 .f32) (main_arg12 : FVec F S1 .f32) (main_arg13 : FVec F S1 .f32) (main_v33 : IVec S_ 1) : IVec S_ 1 :=
  let main_v34 : FVec F S128x32 .f32 := Host.absf main_arg7
  let main_cst_12 : FVec F S_ .f32 := constant S_ .f32 0x7F800000#32
  let main_v35 : FVec F S128x32 .f32 := broadcastInDim S128x32 ![] bcast_S_S128x32 main_cst_12
  let main_v36 : IVec S128x32 1 := cmpf .olt main_v34 main_v35
  let main_c_13 : IVec S_ 1 := constantI S_ 1 1#1
  let main_v37 : IVec S_ 1 := (fun x v => Host.reduce IntOp.andi x v reducesTo_S128x32_S_d0_1 h_S_) main_v36 main_c_13
  let main_v38 : IVec S_ 1 := andi main_v33 main_v37
  let main_v39 : FVec F S32x128 .f32 := Host.absf main_arg8
  let main_cst_14 : FVec F S_ .f32 := constant S_ .f32 0x7F800000#32
  let main_v40 : FVec F S32x128 .f32 := broadcastInDim S32x128 ![] bcast_S_S32x128 main_cst_14
  let main_v41 : IVec S32x128 1 := cmpf .olt main_v39 main_v40
  let main_c_15 : IVec S_ 1 := constantI S_ 1 1#1
  let main_v42 : IVec S_ 1 := (fun x v => Host.reduce IntOp.andi x v reducesTo_S32x128_S_d0_1 h_S_) main_v41 main_c_15
  let main_v43 : IVec S_ 1 := andi main_v38 main_v42
  let main_v44 : FVec F S32x128 .f32 := Host.absf main_arg9
  let main_cst_16 : FVec F S_ .f32 := constant S_ .f32 0x7F800000#32
  let main_v45 : FVec F S32x128 .f32 := broadcastInDim S32x128 ![] bcast_S_S32x128 main_cst_16
  let main_v46 : IVec S32x128 1 := cmpf .olt main_v44 main_v45
  let main_c_17 : IVec S_ 1 := constantI S_ 1 1#1
  let main_v47 : IVec S_ 1 := (fun x v => Host.reduce IntOp.andi x v reducesTo_S32x128_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_arg13 main_v48 main_v49 main_v50

def fn_part1 {F : FTy → Type} [FloatOps F] (main_arg4 : FVec F S4096x4096 .f32) (main_arg5 : FVec F S4096x4096 .f32) (main_arg6 : FVec F S128x32 .f32) (main_arg7 : FVec F S128x32 .f32) (main_arg8 : FVec F S32x128 .f32) (main_arg9 : FVec F S32x128 .f32) (main_arg10 : FVec F S1 .f32) (main_arg11 : FVec F S1 .f32) (main_arg12 : FVec F S1 .f32) (main_arg13 : FVec F S1 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S128x32 .f32 := Host.absf main_arg6
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4096x128 .f32) (main_arg1 : FVec F S4096x128 .f32) (main_arg2 : FVec F S4096x4096 .f32) (main_arg3 : FVec F S4096x4096 .f32) (main_arg4 : FVec F S4096x4096 .f32) (main_arg5 : FVec F S4096x4096 .f32) (main_arg6 : FVec F S128x32 .f32) (main_arg7 : FVec F S128x32 .f32) (main_arg8 : FVec F S32x128 .f32) (main_arg9 : FVec F S32x128 .f32) (main_arg10 : FVec F S1 .f32) (main_arg11 : FVec F S1 .f32) (main_arg12 : FVec F S1 .f32) (main_arg13 : FVec F S1 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_arg12 main_arg13 main_v13 main_v16
-- ==== Kernel.lean ====
abbrev S4096x128 : Shape := ⟨2, ![4096, 128]⟩
abbrev S4096x4096 : Shape := ⟨2, ![4096, 4096]⟩
abbrev S128x32 : Shape := ⟨2, ![128, 32]⟩
abbrev S32x128 : Shape := ⟨2, ![32, 128]⟩
abbrev S1 : Shape := ⟨1, ![1]⟩
abbrev S1x1 : Shape := ⟨2, ![1, 1]⟩
abbrev S4096x32 : Shape := ⟨2, ![4096, 32]⟩
abbrev S512x512 : Shape := ⟨2, ![512, 512]⟩
abbrev S512x32 : Shape := ⟨2, ![512, 32]⟩
abbrev S512x128 : Shape := ⟨2, ![512, 128]⟩

abbrev nBuf : Space → Nat
  | .hbm => 27
  | .vmem => 48
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S128x32, .f32⟩
  | .hbm, ⟨7, _⟩ => ⟨S128x32, .f32⟩
  | .hbm, ⟨8, _⟩ => ⟨S32x128, .f32⟩
  | .hbm, ⟨9, _⟩ => ⟨S32x128, .f32⟩
  | .hbm, ⟨10, _⟩ => ⟨S1, .f32⟩
  | .hbm, ⟨11, _⟩ => ⟨S1, .f32⟩
  | .hbm, ⟨12, _⟩ => ⟨S1, .f32⟩
  | .hbm, ⟨13, _⟩ => ⟨S1, .f32⟩
  | .hbm, ⟨14, _⟩ => ⟨S1x1, .f32⟩
  | .hbm, ⟨15, _⟩ => ⟨S1x1, .f32⟩
  | .hbm, ⟨16, _⟩ => ⟨S1x1, .f32⟩
  | .hbm, ⟨17, _⟩ => ⟨S1x1, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x128, .f32⟩
  | .hbm, ⟨26, _⟩ => ⟨S4096x128, .f32⟩
  | .local _ .vmem, ⟨0, _⟩ => ⟨S4096x128, .f32⟩
  | .local _ .vmem, ⟨1, _⟩ => ⟨S4096x128, .f32⟩
  | .local _ .vmem, ⟨2, _⟩ => ⟨S128x32, .f32⟩
  | .local _ .vmem, ⟨3, _⟩ => ⟨S128x32, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | .local _ .vmem, ⟨8, _⟩ => ⟨S4096x32, .f32⟩
  | .local _ .vmem, ⟨9, _⟩ => ⟨S4096x32, .f32⟩
  | .local _ .vmem, ⟨10, _⟩ => ⟨S4096x32, .f32⟩
  | .local _ .vmem, ⟨11, _⟩ => ⟨S4096x32, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x32, .f32⟩
  | .local _ .vmem, ⟨21, _⟩ => ⟨S512x32, .f32⟩
  | .local _ .vmem, ⟨22, _⟩ => ⟨S512x32, .f32⟩
  | .local _ .vmem, ⟨23, _⟩ => ⟨S512x32, .f32⟩
  | .local _ .vmem, ⟨24, _⟩ => ⟨S512x32, .f32⟩
  | .local _ .vmem, ⟨25, _⟩ => ⟨S512x32, .f32⟩
  | .local _ .vmem, ⟨26, _⟩ => ⟨S512x32, .f32⟩
  | .local _ .vmem, ⟨27, _⟩ => ⟨S512x32, .f32⟩
  | .local _ .vmem, ⟨28, _⟩ => ⟨S512x32, .f32⟩
  | .local _ .vmem, ⟨29, _⟩ => ⟨S512x32, .f32⟩
  | .local _ .vmem, ⟨30, _⟩ => ⟨S512x32, .f32⟩
  | .local _ .vmem, ⟨31, _⟩ => ⟨S512x32, .f32⟩
  | .local _ .vmem, ⟨32, _⟩ => ⟨S512x32, .f32⟩
  | .local _ .vmem, ⟨33, _⟩ => ⟨S512x32, .f32⟩
  | .local _ .vmem, ⟨34, _⟩ => ⟨S512x512, .f32⟩
  | .local _ .vmem, ⟨35, _⟩ => ⟨S512x512, .f32⟩
  | .local _ .vmem, ⟨36, _⟩ => ⟨S512x512, .f32⟩
  | .local _ .vmem, ⟨37, _⟩ => ⟨S512x512, .f32⟩
  | .local _ .vmem, ⟨38, _⟩ => ⟨S512x32, .f32⟩
  | .local _ .vmem, ⟨39, _⟩ => ⟨S512x32, .f32⟩
  | .local _ .vmem, ⟨40, _⟩ => ⟨S32x128, .f32⟩
  | .local _ .vmem, ⟨41, _⟩ => ⟨S32x128, .f32⟩
  | .local _ .vmem, ⟨42, _⟩ => ⟨S512x128, .f32⟩
  | .local _ .vmem, ⟨43, _⟩ => ⟨S512x128, .f32⟩
  | .local _ .vmem, ⟨44, _⟩ => ⟨S512x128, .f32⟩
  | .local _ .vmem, ⟨45, _⟩ => ⟨S512x128, .f32⟩
  | .local _ .vmem, ⟨46, _⟩ => ⟨S512x32, .f32⟩
  | .local _ .vmem, ⟨47, _⟩ => ⟨S512x32, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4_0 : Ref sig .tc := ⟨.hbm, 18, rfl⟩
abbrev main_v4_1 : Ref sig .tc := ⟨.hbm, 19, rfl⟩
abbrev main_v4_2 : Ref sig .tc := ⟨.hbm, 20, rfl⟩
abbrev main_v4_3 : Ref sig .tc := ⟨.hbm, 21, rfl⟩
abbrev main_v5_0 : Ref sig .tc := ⟨.hbm, 22, rfl⟩
abbrev main_v5_1 : Ref sig .tc := ⟨.hbm, 23, rfl⟩
abbrev main_v5_2 : Ref sig .tc := ⟨.hbm, 24, rfl⟩
abbrev main_v6_0 : Ref sig .tc := ⟨.hbm, 25, rfl⟩
abbrev main_v6_1 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_stg10_1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg2_1 : Ref sig .tc := ⟨.vmem, 39, rfl⟩
abbrev cc2_stg3_0 : Ref sig .tc := ⟨.vmem, 40, rfl⟩
abbrev cc2_stg4_0 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_scratch0 : Ref sig .tc := ⟨.vmem, 46, rfl⟩
abbrev cc2_scratch1 : Ref sig .tc := ⟨.vmem, 47, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem10_1 : DmaSem sig := 33
abbrev cc2_sem0_0 : DmaSem sig := 34
abbrev cc2_sem0_1 : DmaSem sig := 35
abbrev cc2_sem1_0 : DmaSem sig := 36
abbrev cc2_sem1_1 : DmaSem sig := 37
abbrev cc2_sem2_0 : DmaSem sig := 38
abbrev cc2_sem2_1 : DmaSem sig := 39
abbrev cc2_sem3_0 : DmaSem sig := 40
abbrev cc2_sem4_0 : DmaSem sig := 41
abbrev cc2_sem5_0 : DmaSem sig := 42
abbrev cc2_sem5_1 : DmaSem sig := 43
abbrev cc2_sem6_0 : DmaSem sig := 44
abbrev cc2_sem6_1 : DmaSem sig := 45

abbrev nD : Nat := 1
abbrev τ : Topo := Topo.v7x

variable {F : FTy → Type} [FloatOps F]

abbrev grid0 : Pipeline.Grid := .none

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4096x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev grid1 : Pipeline.Grid := ⟨2, ![8, 8], ![false, false]⟩

def k1_cond1 (i : grid1.Coords) : BitVec 1 :=
  let arg1 : BitVec 32 := BitVec.ofNat 32 (i 1).val
  let c0_i32 : BitVec 32 := 0#32
  let v18 : BitVec 1 := Scalar.cmpi .eq arg1 c0_i32
  let v19 : BitVec 32 := Scalar.extui v18
  let c0_i32_18 : BitVec 32 := 0#32
  let v20 : BitVec 1 := Scalar.cmpi .ne v19 c0_i32_18
  v20

def k1_cond2 (i : grid1.Coords) : BitVec 1 :=
  let arg1 : BitVec 32 := BitVec.ofNat 32 (i 1).val
  let c0_i32_19 : BitVec 32 := 0#32
  let v21 : BitVec 1 := Scalar.cmpi .sgt arg1 c0_i32_19
  let v22 : BitVec 32 := Scalar.extui v21
  let c0_i32_20 : BitVec 32 := 0#32
  let v23 : BitVec 1 := Scalar.cmpi .ne v22 c0_i32_20
  v23

def k1_cond3 (i : grid1.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_21 : BitVec 32 := 0#32
  let v26 : BitVec 1 := Scalar.cmpi .ne v25 c0_i32_21
  v26

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S512x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S512x32 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S512x32 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S512x32 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev grid2 : Pipeline.Grid := ⟨2, ![8, 8], ![false, false]⟩

def k2_cond3 (i : grid2.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_11 : BitVec 32 := 0#32
  let v16 : BitVec 1 := Scalar.cmpi .ne v15 c0_i32_11
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 1 → Memref sig .tc .vmem S32x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S32x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S512x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S512x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  shapeCasts_S1_S1x1 : S1.ShapeCasts S1x1
  inb_S4096x128_S4096x128_0_0 : ∀ a, (![0, 0] : Fin 2 → Nat) a + S4096x128.size a ≤ S4096x128.size a
  h_S4096x128 : 0 < S4096x128.numel
  inb_S128x32_S128x32_0_0 : ∀ a, (![0, 0] : Fin 2 → Nat) a + S128x32.size a ≤ S128x32.size a
  h_S128x32 : 0 < S128x32.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S4096x32_S4096x32_0_0 : ∀ a, (![0, 0] : Fin 2 → Nat) a + S4096x32.size a ≤ S4096x32.size a
  h_S4096x32 : 0 < S4096x32.numel
  inb_S512x512_S512x512_0_0 : ∀ a, (![0, 0] : Fin 2 → Nat) a + S512x512.size a ≤ S512x512.size a
  h_S512x512 : 0 < S512x512.numel
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S32x128_S32x128_0_0 : ∀ a, (![0, 0] : Fin 2 → Nat) a + S32x128.size a ≤ S32x128.size a
  h_S32x128 : 0 < S32x128.numel
  inb_S512x128_S512x128_0_0 : ∀ a, (![0, 0] : Fin 2 → Nat) a + S512x128.size a ≤ S512x128.size a
  h_S512x128 : 0 < S512x128.numel
  dot_S4096x128_S128x32_S4096x32_1_0_0_1_n_n_wf : DotDims.WF S4096x128 S128x32 S4096x32 [1] [0] [0] [1] [] []
  dot_S512x512_S512x32_S512x32_1_0_0_1_n_n_wf : DotDims.WF S512x512 S512x32 S512x32 [1] [0] [0] [1] [] []
  dot_S512x32_S32x128_S512x128_1_0_0_1_n_n_wf : DotDims.WF S512x32 S32x128 S512x128 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hstage0_11 : ∀ j, (stage0_11 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x4096.size a
  hwx1_0 : ∀ i : grid1.Coords, EltTy.bits .f32 = 32 ∨ (Rect.block (s := S4096x4096) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S4096x4096.size a
  hwx1_1 : ∀ i : grid1.Coords, EltTy.bits .f32 = 32 ∨ (Rect.block (s := S4096x4096) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S4096x4096.size a
  hwx1_2 : ∀ i : grid1.Coords, EltTy.bits .f32 = 32 ∨ (Rect.block (s := S4096x4096) S512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S4096x4096.size a
  hwx1_3 : ∀ i : grid1.Coords, EltTy.bits .f32 = 32 ∨ (Rect.block (s := S4096x4096) S512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x32.size a ≤ S4096x32.size a
  hwx1_4 : ∀ i : grid1.Coords, EltTy.bits .f32 = 32 ∨ (Rect.block (s := S4096x32) S512x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x32.size a ≤ S4096x32.size a
  hwx1_5 : ∀ i : grid1.Coords, EltTy.bits .f32 = 32 ∨ (Rect.block (s := S4096x32) S512x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x32.size a ≤ S4096x32.size a
  hwx1_6 : ∀ i : grid1.Coords, EltTy.bits .f32 = 32 ∨ (Rect.block (s := S4096x32) S512x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x32.size a ≤ S4096x32.size a
  hwx1_7 : ∀ i : grid1.Coords, EltTy.bits .f32 = 32 ∨ (Rect.block (s := S4096x32) S512x32.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x32.size a ≤ S4096x32.size a
  hwx1_8 : ∀ i : grid1.Coords, EltTy.bits .f32 = 32 ∨ (Rect.block (s := S4096x32) S512x32.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S512x32.size a ≤ S4096x32.size a
  hwx1_9 : ∀ i : grid1.Coords, EltTy.bits .f32 = 32 ∨ (Rect.block (s := S4096x32) S512x32.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S512x32.size a ≤ S4096x32.size a
  hwx1_10 : ∀ i : grid1.Coords, EltTy.bits .f32 = 32 ∨ (Rect.block (s := S4096x32) S512x32.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S4096x4096.size a
  hwx2_0 : ∀ i : grid2.Coords, EltTy.bits .f32 = 32 ∨ (Rect.block (s := S4096x4096) S512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S4096x4096.size a
  hwx2_1 : ∀ i : grid2.Coords, EltTy.bits .f32 = 32 ∨ (Rect.block (s := S4096x4096) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x32.size a ≤ S4096x32.size a
  hwx2_2 : ∀ i : grid2.Coords, EltTy.bits .f32 = 32 ∨ (Rect.block (s := S4096x32) S512x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x128.size a ≤ S32x128.size a
  hwx2_3 : ∀ i : grid2.Coords, EltTy.bits .f32 = 32 ∨ (Rect.block (s := S32x128) S32x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x128.size a ≤ S32x128.size a
  hwx2_4 : ∀ i : grid2.Coords, EltTy.bits .f32 = 32 ∨ (Rect.block (s := S32x128) S32x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x128.size a ≤ S4096x128.size a
  hwx2_5 : ∀ i : grid2.Coords, EltTy.bits .f32 = 32 ∨ (Rect.block (s := S4096x128) S512x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x128.size a ≤ S4096x128.size a
  hwx2_6 : ∀ i : grid2.Coords, EltTy.bits .f32 = 32 ∨ (Rect.block (s := S4096x128) S512x128.size (cc2_transform_6 i) (hinb2_6 i)).WholeWords (EltTy.packing .f32)

variable [Facts₀]

def dot_S4096x128_S128x32_S4096x32_1_0_0_1_n_n : DotDims S4096x128 S128x32 S4096x32 where
  lhsContracting := [1]
  rhsContracting := [0]
  lhsNonContracting := [0]
  rhsNonContracting := [1]
  lhsBatch := []
  rhsBatch := []
  wf := dot_S4096x128_S128x32_S4096x32_1_0_0_1_n_n_wf
def dot_S512x512_S512x32_S512x32_1_0_0_1_n_n : DotDims S512x512 S512x32 S512x32 where
  lhsContracting := [1]
  rhsContracting := [0]
  lhsNonContracting := [0]
  rhsNonContracting := [1]
  lhsBatch := []
  rhsBatch := []
  wf := dot_S512x512_S512x32_S512x32_1_0_0_1_n_n_wf
def dot_S512x32_S32x128_S512x128_1_0_0_1_n_n : DotDims S512x32 S32x128 S512x128 where
  lhsContracting := [1]
  rhsContracting := [0]
  lhsNonContracting := [0]
  rhsNonContracting := [1]
  lhsBatch := []
  rhsBatch := []
  wf := dot_S512x32_S32x128_S512x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg6) false false (stage0_2 0) (sem0_2 0) (Memref.isWhole_whole _) (hstage0_2 0)

abbrev win0_3 : Pipeline.Window sig grid0 :=
  Pipeline.Window.whole (Memref.whole main_arg7) false false (stage0_3 0) (sem0_3 0) (Memref.isWhole_whole _) (hstage0_3 0)

abbrev win0_4 : Pipeline.Window sig grid0 :=
  Pipeline.Window.whole (Memref.whole main_v0) false false (stage0_4 0) (sem0_4 0) (Memref.isWhole_whole _) (hstage0_4 0)

abbrev win0_5 : Pipeline.Window sig grid0 :=
  Pipeline.Window.whole (Memref.whole main_v1) false false (stage0_5 0) (sem0_5 0) (Memref.isWhole_whole _) (hstage0_5 0)

abbrev win0_6 : Pipeline.Window sig grid0 :=
  Pipeline.Window.whole (Memref.whole main_v2) false false (stage0_6 0) (sem0_6 0) (Memref.isWhole_whole _) (hstage0_6 0)

abbrev win0_7 : Pipeline.Window sig grid0 :=
  Pipeline.Window.whole (Memref.whole main_v3) false false (stage0_7 0) (sem0_7 0) (Memref.isWhole_whole _) (hstage0_7 0)

abbrev win0_8 : Pipeline.Window sig grid0 :=
  Pipeline.Window.whole (Memref.whole main_v4_0) true false (stage0_8 0) (sem0_8 0) (Memref.isWhole_whole _) (hstage0_8 0)

abbrev win0_9 : Pipeline.Window sig grid0 :=
  Pipeline.Window.whole (Memref.whole main_v4_1) true false (stage0_9 0) (sem0_9 0) (Memref.isWhole_whole _) (hstage0_9 0)

abbrev win0_10 : Pipeline.Window sig grid0 :=
  Pipeline.Window.whole (Memref.whole main_v4_2) true false (stage0_10 0) (sem0_10 0) (Memref.isWhole_whole _) (hstage0_10 0)

abbrev win0_11 : Pipeline.Window sig grid0 :=
  Pipeline.Window.whole (Memref.whole main_v4_3) true false (stage0_11 0) (sem0_11 0) (Memref.isWhole_whole _) (hstage0_11 0)

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg2) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4_0) S512x32.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4_1) S512x32.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v4_2) S512x32.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v4_3) S512x32.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v5_0) S512x32.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v5_1) S512x32.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v5_2) S512x32.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev idle1 : Fin 11 → grid1.Coords → Bool := fun | 0 => fun _ => false | 1 => fun _ => false | 2 => fun _ => false | 3 => fun _ => false | 4 => fun _ => false | 5 => fun _ => false | 6 => fun _ => false | 7 => fun _ => false | 8 => fun i => !(k1_cond1 i == 1#1) && !(k1_cond2 i == 1#1) | 9 => fun i => !(k1_cond1 i == 1#1) && !(k1_cond2 i == 1#1) | 10 => fun i => !(k1_cond3 i == 1#1) | ⟨_ + 11, h⟩ => absurd h (Nat.not_lt.2 (Nat.le_add_left _ _))

abbrev win2_0 : Pipeline.Window sig grid2 :=
  Pipeline.Window.ofSpec (Memref.whole main_arg2) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5_2) S512x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S32x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S32x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v6_0) S512x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v6_1) S512x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun i => !(k2_cond3 i == 1#1) | 6 => fun i => !(k2_cond3 i == 1#1) | ⟨_ + 7, h⟩ => absurd h (Nat.not_lt.2 (Nat.le_add_left _ _))

class Facts : Prop extends Facts₀ where

variable [Facts]
-- ==== ReferenceIdeal.lean ====
abbrev S4096x128 : Shape := ⟨2, ![4096, 128]⟩
abbrev S4096x4096 : Shape := ⟨2, ![4096, 4096]⟩
abbrev S128x32 : Shape := ⟨2, ![128, 32]⟩
abbrev S32x128 : Shape := ⟨2, ![32, 128]⟩
abbrev S1 : Shape := ⟨1, ![1]⟩
abbrev S4096x32 : Shape := ⟨2, ![4096, 32]⟩
abbrev S1x1 : Shape := ⟨2, ![1, 1]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S128x32, .f32⟩
  | .hbm, ⟨7, _⟩ => ⟨S128x32, .f32⟩
  | .hbm, ⟨8, _⟩ => ⟨S32x128, .f32⟩
  | .hbm, ⟨9, _⟩ => ⟨S32x128, .f32⟩
  | .hbm, ⟨10, _⟩ => ⟨S1, .f32⟩
  | .hbm, ⟨11, _⟩ => ⟨S1, .f32⟩
  | .hbm, ⟨12, _⟩ => ⟨S1, .f32⟩
  | .hbm, ⟨13, _⟩ => ⟨S1, .f32⟩
  | .hbm, ⟨14, _⟩ => ⟨S4096x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S1x1, .f32⟩
  | .hbm, ⟨23, _⟩ => ⟨S4096x32, .f32⟩
  | .hbm, ⟨24, _⟩ => ⟨S4096x32, .f32⟩
  | .hbm, ⟨25, _⟩ => ⟨S1x1, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S1x1, .f32⟩
  | .hbm, ⟨30, _⟩ => ⟨S4096x32, .f32⟩
  | .hbm, ⟨31, _⟩ => ⟨S4096x32, .f32⟩
  | .hbm, ⟨32, _⟩ => ⟨S1x1, .f32⟩
  | .hbm, ⟨33, _⟩ => ⟨S4096x32, .f32⟩
  | .hbm, ⟨34, _⟩ => ⟨S4096x32, .f32⟩
  | .hbm, ⟨35, _⟩ => ⟨S4096x32, .f32⟩
  | .hbm, ⟨36, _⟩ => ⟨S4096x32, .f32⟩
  | .hbm, ⟨37, _⟩ => ⟨S_, .f32⟩
  | .hbm, ⟨38, _⟩ => ⟨S4096x32, .f32⟩
  | .hbm, ⟨39, _⟩ => ⟨S4096x32, .f32⟩
  | .hbm, ⟨40, _⟩ => ⟨S4096x128, .f32⟩
  | .hbm, ⟨41, _⟩ => ⟨S4096x128, .f32⟩
  | .hbm, ⟨42, _⟩ => ⟨S4096x128, .f32⟩
  | .hbm, ⟨43, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S4096x32_0_1 : S1x1.BroadcastsInDim S4096x32 (![0, 1] : Fin 2 → Fin S4096x32.rank)
  bcast_S_S4096x32 : S_.BroadcastsInDim S4096x32 (![] : Fin 0 → Fin S4096x32.rank)
  dot_S4096x128_S128x32_S4096x32_1_0_0_1_n_n_wf : DotDims.WF S4096x128 S128x32 S4096x32 [1] [0] [0] [1] [] []
  dot_S4096x4096_S4096x32_S4096x32_1_0_0_1_n_n_wf : DotDims.WF S4096x4096 S4096x32 S4096x32 [1] [0] [0] [1] [] []
  dot_S4096x32_S32x128_S4096x128_1_0_0_1_n_n_wf : DotDims.WF S4096x32 S32x128 S4096x128 [1] [0] [0] [1] [] []
  dot_S4096x4096_S4096x128_S4096x128_1_0_0_1_n_n_wf : DotDims.WF S4096x4096 S4096x128 S4096x128 [1] [0] [0] [1] [] []

variable [Facts₀]

def dot_S4096x128_S128x32_S4096x32_1_0_0_1_n_n : DotDims S4096x128 S128x32 S4096x32 where
  lhsContracting := [1]
  rhsContracting := [0]
  lhsNonContracting := [0]
  rhsNonContracting := [1]
  lhsBatch := []
  rhsBatch := []
  wf := dot_S4096x128_S128x32_S4096x32_1_0_0_1_n_n_wf
def dot_S4096x4096_S4096x32_S4096x32_1_0_0_1_n_n : DotDims S4096x4096 S4096x32 S4096x32 where
  lhsContracting := [1]
  rhsContracting := [0]
  lhsNonContracting := [0]
  rhsNonContracting := [1]
  lhsBatch := []
  rhsBatch := []
  wf := dot_S4096x4096_S4096x32_S4096x32_1_0_0_1_n_n_wf
def dot_S4096x32_S32x128_S4096x128_1_0_0_1_n_n : DotDims S4096x32 S32x128 S4096x128 where
  lhsContracting := [1]
  rhsContracting := [0]
  lhsNonContracting := [0]
  rhsNonContracting := [1]
  lhsBatch := []
  rhsBatch := []
  wf := dot_S4096x32_S32x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.BCarried.lean ====
/-
  What the three pallas_calls' buffers hold, as functions of the arrays a call is entered with.

  A window's block at a grid point is its array read through the point's block. Two of the calls keep running sums
  between grid points: the pass over the four adjacencies keeps each latent's row block in its output buffer while the
  column index k runs (stored at k = 0, added to afterwards), and the decoder pass keeps adjacency · combined in two
  scratch buffers the same way. Those running contents are written here by recursion on the point's position
  n = 8·i + k over the body's own arithmetic (the named payloads of the kernel functions), so that the frame's proof
  data and the value lemmas speak of one term.
-/
import proofs.«114995_g68247030333984_cont_9to1_m_654_2_alg».proof.Proof.Gen.Kernel.Launch
import proofs.«114995_g68247030333984_cont_9to1_m_654_2_alg».proof.Proof.Gen.Kernel.Skeleton
import proofs.«114995_g68247030333984_cont_9to1_m_654_2_alg».proof.Proof.Gen.Kernel.Points
import Idealize.ShloMosaic.Lib.Pipeline.FrameBody

noncomputable section

namespace Cert.Kernel.Hand

open Idealize.ShloMosaic Idealize.ShloMosaic.TcCoe
open Cert.Kernel Cert.Kernel.Gen

variable {F : FTy → Type} [FloatOps F]

/-- The TensorCore's buffer contents when a call is entered, per core. -/
abbrev Entry (F : FTy → Type) : Type := (c : Dev nD) → (b : Ref sig .tc) → Buf (Elt F) ((c : Thread nD τ).loc b)

variable (V : Entry F)

/-! ## Each window's block at a point -/

/-- The prologue's window `w` at its one point: the whole array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The latent pass's window `w` at point `t`: a 512-row (or 512 x 512) block of its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The decoder pass's window `w` at point `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The latent pass: the two running sums kept in the output buffers -/

/-- Latent 1's row block after the body at position `n`: at k = 0 the point's two adjacency products added, at k > 0
    that added to what the point before left. -/
def lat1At (c : Dev nD) : (n : Nat) → n < cfg1.N → Vec F S512x32 .f32
  | 0, hn => k1_pay1 (iblk1 V c 0 ⟨0, hn⟩) (iblk1 V c 4 ⟨0, hn⟩) (iblk1 V c 1 ⟨0, hn⟩) (iblk1 V c 5 ⟨0, hn⟩)
  | n + 1, hn =>
    if (n + 1) % 8 = 0 then
      k1_pay1 (iblk1 V c 0 ⟨n + 1, hn⟩) (iblk1 V c 4 ⟨n + 1, hn⟩) (iblk1 V c 1 ⟨n + 1, hn⟩) (iblk1 V c 5 ⟨n + 1, hn⟩)
    else
      k1_pay3 (iblk1 V c 0 ⟨n + 1, hn⟩) (iblk1 V c 4 ⟨n + 1, hn⟩) (iblk1 V c 1 ⟨n + 1, hn⟩) (iblk1 V c 5 ⟨n + 1, hn⟩)
        (lat1At c n (Nat.lt_of_succ_lt hn))

/-- Latent 2's row block after the body at position `n`, likewise over the second pair of adjacencies. -/
def lat2At (c : Dev nD) : (n : Nat) → n < cfg1.N → Vec F S512x32 .f32
  | 0, hn => k1_pay2 (iblk1 V c 2 ⟨0, hn⟩) (iblk1 V c 6 ⟨0, hn⟩) (iblk1 V c 3 ⟨0, hn⟩) (iblk1 V c 7 ⟨0, hn⟩)
  | n + 1, hn =>
    if (n + 1) % 8 = 0 then
      k1_pay2 (iblk1 V c 2 ⟨n + 1, hn⟩) (iblk1 V c 6 ⟨n + 1, hn⟩) (iblk1 V c 3 ⟨n + 1, hn⟩) (iblk1 V c 7 ⟨n + 1, hn⟩)
    else
      k1_pay4 (iblk1 V c 2 ⟨n + 1, hn⟩) (iblk1 V c 6 ⟨n + 1, hn⟩) (iblk1 V c 3 ⟨n + 1, hn⟩) (iblk1 V c 7 ⟨n + 1, hn⟩)
        (lat2At c n (Nat.lt_of_succ_lt hn))

/-- What the combined latent's buffer is given at a point whose column index is the last: one half of the two running
    sums added. (At the other points the body stores nothing there.) -/
def combAt (c : Dev nD) (n : Nat) (hn : n < cfg1.N) : Vec F S512x32 .f32 :=
  k1_pay5 (lat1At V c n hn) (lat2At V c n hn)

/-! ## The decoder pass: the two running sums kept in scratch -/

/-- Scratch 0 after the body at position `n`: adjacency 1's block times the combined latent's block, summed over k. -/
def s1At (c : Dev nD) : (n : Nat) → n < cfg2.N → Vec F S512x32 .f32
  | 0, hn => k2_pay3 (iblk2 V c 0 ⟨0, hn⟩) (iblk2 V c 2 ⟨0, hn⟩)
  | n + 1, hn =>
    if (n + 1) % 8 = 0 then k2_pay3 (iblk2 V c 0 ⟨n + 1, hn⟩) (iblk2 V c 2 ⟨n + 1, hn⟩)
    else k2_pay5 (iblk2 V c 0 ⟨n + 1, hn⟩) (iblk2 V c 2 ⟨n + 1, hn⟩) (s1At c n (Nat.lt_of_succ_lt hn))

/-- Scratch 1 after the body at position `n`, likewise for adjacency 2. -/
def s2At (c : Dev nD) : (n : Nat) → n < cfg2.N → Vec F S512x32 .f32
  | 0, hn => k2_pay4 (iblk2 V c 1 ⟨0, hn⟩) (iblk2 V c 2 ⟨0, hn⟩)
  | n + 1, hn =>
    if (n + 1) % 8 = 0 then k2_pay4 (iblk2 V c 1 ⟨n + 1, hn⟩) (iblk2 V c 2 ⟨n + 1, hn⟩)
    else k2_pay6 (iblk2 V c 1 ⟨n + 1, hn⟩) (iblk2 V c 2 ⟨n + 1, hn⟩) (s2At c n (Nat.lt_of_succ_lt hn))

/-- What reconstruction 1's buffer is given at a point whose column index is the last: scratch 0 times decoder 1. -/
def rec1At (c : Dev nD) (n : Nat) (hn : n < cfg2.N) : Vec F S512x128 .f32 :=
  k2_pay7 (s1At V c n hn) (iblk2 V c 3 ⟨n, hn⟩)

/-- What reconstruction 2's buffer is given there: scratch 1 times decoder 2. -/
def rec2At (c : Dev nD) (n : Nat) (hn : n < cfg2.N) : Vec F S512x128 .f32 :=
  k2_pay8 (s2At V c n hn) (iblk2 V c 4 ⟨n, hn⟩)

end Cert.Kernel.Hand

end
-- ==== Proof.BReg0.lean ====
/-
  The prologue call (one point, every window a whole array): the two encoder products, each scaled by two of the
  four combination scalars, stored into the four result arrays. Its proof data at the entry contents `V`, and that the
  body does at its point what the data say.
-/
import proofs.«114995_g68247030333984_cont_9to1_m_654_2_alg».proof.Proof.BCarried
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : Entry F)

/-- The prologue's proof data: the arrays as entered; each input's buffer left at its block, each output's at the
    body's stored value of the input blocks; nothing kept between points, nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => k0_pay3 (iblk0 V c 0 t) (iblk0 V c 2 t) (iblk0 V c 4 t)
    | ⟨9, _⟩ => k0_pay4 (iblk0 V c 0 t) (iblk0 V c 2 t) (iblk0 V c 5 t)
    | ⟨10, _⟩ => k0_pay5 (iblk0 V c 1 t) (iblk0 V c 3 t) (iblk0 V c 6 t)
    | ⟨11, _⟩ => k0_pay6 (iblk0 V c 1 t) (iblk0 V c 3 t) (iblk0 V c 7 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = k0_pay3 (iblk0 V c 0 t) (iblk0 V c 2 t) (iblk0 V c 4 t) := by dsimp only [dat0]
theorem after0_9 (c : Dev nD) (t : Fin cfg0.N) : (dat0 V c).after 9 t = k0_pay4 (iblk0 V c 0 t) (iblk0 V c 2 t) (iblk0 V c 5 t) := by dsimp only [dat0]
theorem after0_10 (c : Dev nD) (t : Fin cfg0.N) : (dat0 V c).after 10 t = k0_pay5 (iblk0 V c 1 t) (iblk0 V c 3 t) (iblk0 V c 6 t) := by dsimp only [dat0]
theorem after0_11 (c : Dev nD) (t : Fin cfg0.N) : (dat0 V c).after 11 t = k0_pay6 (iblk0 V c 1 t) (iblk0 V c 3 t) (iblk0 V c 7 t) := by dsimp only [dat0]

/-- What the call is handed is the invariant before the point, -/
theorem hin0 (c : Dev nD) : (Pipeline.ΦA spec0 c : sProp 𝕄) ⊢ (dat0 V c).Φ 0 := .rfl
/-- and the invariant after it is what the call hands back. -/
theorem hout0 (c : Dev nD) : (dat0 V c).Φ (Fin.last cfg0.N) ⊢ (Pipeline.ΦA spec0 c : sProp 𝕄) := .rfl

/-! ## Each input's buffer holds its block

An input window is never idle and is not cut, and the body leaves its buffer as found: so at the point the buffer
holds the window's block, whether or not the point fetched it. -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
      (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
      (fun t => by rw [after0_7]; unfold Dat.blockOf iblk0; rw [A_eq0]; try rfl) t d).trans
    (by unfold Dat.fetched Dat.blockOf iblk0; rw [A_eq0]; try rfl)

/-! ## Whole-buffer accesses

The body reads and writes every staging buffer whole, through the rectangle at zero offsets of the buffer's own sizes:
a load through it reads the contents, and one store through it leaves its payload whatever was there. -/

private theorem off00 : (![0, 0] : Fin 2 → Nat) = fun _ => 0 := funext fun a => by fin_cases a <;> rfl

private theorem load_whole {κ : Kind} {sp : Space} {S : Shape} {e : EltTy} (v : View sig κ sp S e) (f : v.ty.Contents (Elt F))
    {off : Fin S.rank → Nat} (h : off = fun _ => 0) (inb : ∀ a, off a + S.size a ≤ S.size a) :
    View.readAt (Elt F) v (Rect.unit off S.size inb).toLoadRect f = v.read (Elt F) f :=
  (View.readAt_eq_ld v f _).trans (View.ld_unit_zero h inb _)

private theorem read_store_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero h inb y⟩),
    View.canon_unit_zero h inb w]

/-! ## The body's triple -/

set_option maxHeartbeats 2000000 in
/-- The body on whole staging memrefs, the eight inputs' at read contents `x0 … x7` and the four outputs' at anything,
    runs to the continuation holding the inputs' as they were and each output's at its scaled product. -/
theorem sound_kernel0 (c : Dev nD) (E : Set ℕ) (arg0 : Memref sig .tc .vmem S4096x128 .f32) (harg0 : arg0.IsWhole) (arg1 : Memref sig .tc .vmem S4096x128 .f32) (harg1 : arg1.IsWhole) (arg2 : Memref sig .tc .vmem S128x32 .f32) (harg2 : arg2.IsWhole) (arg3 : Memref sig .tc .vmem S128x32 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S4096x32 .f32) (harg8 : arg8.IsWhole) (arg9 : Memref sig .tc .vmem S4096x32 .f32) (harg9 : arg9.IsWhole) (arg10 : Memref sig .tc .vmem S4096x32 .f32) (harg10 : arg10.IsWhole) (arg11 : Memref sig .tc .vmem S4096x32 .f32) (harg11 : arg11.IsWhole)
    (x0 : Vec F S4096x128 .f32) (x1 : Vec F S4096x128 .f32) (x2 : Vec F S128x32 .f32) (x3 : Vec F S128x32 .f32) (x4 : Vec F S1x1 .f32) (x5 : Vec F S1x1 .f32) (x6 : Vec F S1x1 .f32) (x7 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (k0_pay3 x0 x2 x4) ∗ owns (c : Thread nD τ) arg9 fullShare (k0_pay4 x0 x2 x5) ∗ owns (c : Thread nD τ) arg10 fullShare (k0_pay5 x1 x3 x6) ∗ owns (c : Thread nD τ) arg11 fullShare (k0_pay6 x1 x3 x7)) -∗ K ⟨⟩))
      ⊢ wp frame (wpE (defs₀ (F := F)) Variants.none c none) E (cc0__prologue_body arg0 harg0 arg1 harg1 arg2 harg2 arg3 harg3 arg4 harg4 arg5 harg5 arg6 harg6 arg7 harg7 arg8 harg8 arg9 harg9 arg10 harg10 arg11 harg11) K := by
  simp only [cc0__prologue_body_eq_skeleton]; unfold cc0__prologue_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [read_store_whole (S := S4096x32) _ _ off00 _, load_whole (S := S4096x128) _ _ off00 _, load_whole (S := S128x32) _ _ off00 _, load_whole (S := S1x1) _ _ off00 _]
  isplitl [H9]
  · iexists _; isplitr
    swap; · iexact H9
    ipureintro
    rw [read_store_whole (S := S4096x32) _ _ off00 _, load_whole (S := S4096x128) _ _ off00 _, load_whole (S := S128x32) _ _ off00 _, load_whole (S := S1x1) _ _ off00 _]
  isplitl [H10]
  · iexists _; isplitr
    swap; · iexact H10
    ipureintro
    rw [read_store_whole (S := S4096x32) _ _ off00 _, load_whole (S := S4096x128) _ _ off00 _, load_whole (S := S128x32) _ _ off00 _, load_whole (S := S1x1) _ _ off00 _]
  iexists _; isplitr
  swap; · iexact H11
  ipureintro
  rw [read_store_whole (S := S4096x32) _ _ off00 _, load_whole (S := S4096x128) _ _ off00 _, load_whole (S := S128x32) _ _ off00 _, load_whole (S := S1x1) _ _ off00 _]

/-! ## The body obligation at the point -/

/-- What the body is called with at point `t`: the invariant, what the core owes, and each window's current buffer
    at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it hands back: each buffer at what the data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The eight inputs' buffers hold their blocks, so the body's triple applies at those blocks; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body, called at the one point with the inputs' buffers at their blocks, leaves every buffer as the data say. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BReg1.lean ====
/-
  The latent pass (grid 8 x 8, point n = 8·i + k): each point multiplies four 512 x 512 adjacency blocks into the
  scaled encoder products' row blocks; the two latents' row blocks are kept in their output buffers while k runs (set at
  k = 0, added to for k > 0, written back after k = 7), and at k = 7 the combined latent's block is one half of their
  sum. Its proof data at the entry contents `V`, and that the body does at every point what the data say: the body is
  run once per case of the column index on any whole memrefs (k = 0, 0 < k < 7, k = 7), and the three runs are put
  together at a point through the running sums' case equations.
-/
import proofs.«114995_g68247030333984_cont_9to1_m_654_2_alg».proof.Proof.BCarried
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three branch conditions over the grid

The body branches three times on the column index k = t % 8 alone: k = 0, k > 0, k = 7. -/

theorem hcond1_1 : ∀ t : Fin cfg1.N, k1_cond1 (grid1.coords t) = 1#1 ↔ t.val % 8 = 0 :=
  (by decide +kernel : ∀ t : Fin grid1.N, k1_cond1 (grid1.coords t) = 1#1 ↔ t.val % 8 = 0)
theorem hcond1_2 : ∀ t : Fin cfg1.N, k1_cond2 (grid1.coords t) = 1#1 ↔ t.val % 8 ≠ 0 :=
  (by decide +kernel : ∀ t : Fin grid1.N, k1_cond2 (grid1.coords t) = 1#1 ↔ t.val % 8 ≠ 0)
theorem hcond1_3 : ∀ t : Fin cfg1.N, k1_cond3 (grid1.coords t) = 1#1 ↔ t.val % 8 = 7 :=
  (by decide +kernel : ∀ t : Fin grid1.N, k1_cond3 (grid1.coords t) = 1#1 ↔ t.val % 8 = 7)

/-- The two latents' windows are stored into at every point (k = 0 or k > 0). -/
theorem live1_8 : ∀ i : grid1.Coords, cfg1.idle 8 i = false := by decide +kernel
theorem live1_9 : ∀ i : grid1.Coords, cfg1.idle 9 i = false := by decide +kernel
/-- The combined latent's window is stored into at k = 7 only. -/
theorem idle1_10 : ∀ t : Fin cfg1.N, cfg1.idle 10 (cfg1.grid.coords t) = true ↔ t.val % 8 ≠ 7 :=
  (by decide +kernel : ∀ t : Fin grid1.N, idle1 10 (grid1.coords t) = true ↔ t.val % 8 ≠ 7)

/-- The zero offsets of a whole-block access. -/
theorem zeroOff1 : (![0, 0] : Fin 2 → Nat) = fun _ => 0 := by funext a; fin_cases a <;> rfl

/-! ## The body on any whole memrefs, case by case -/

/-- The eight input buffers at their contents: four adjacency blocks, four row blocks of the scaled products. -/
def ins1 (c : Dev nD) (a0 a1 a2 a3 : Memref sig .tc .vmem S512x512 .f32) (r0 r1 r2 r3 : Memref sig .tc .vmem S512x32 .f32)
    (A1 B1 A2 B2 : Vec F S512x512 .f32) (P1 Q1 P2 Q2 : Vec F S512x32 .f32) : sProp 𝕄 :=
  iprop(owns (c : Thread nD τ) a0 fullShare A1 ∗ owns (c : Thread nD τ) a1 fullShare B1
    ∗ owns (c : Thread nD τ) a2 fullShare A2 ∗ owns (c : Thread nD τ) a3 fullShare B2
    ∗ owns (c : Thread nD τ) r0 fullShare P1 ∗ owns (c : Thread nD τ) r1 fullShare Q1
    ∗ owns (c : Thread nD τ) r2 fullShare P2 ∗ owns (c : Thread nD τ) r3 fullShare Q2)

set_option maxHeartbeats 1000000 in
/-- k = 0: each latent's buffer, whatever it held, is set to the point's two products added; the combined latent's buffer
    is not touched. -/
theorem run1_first (c : Dev nD) (i : grid1.Coords)
    (a0 : Memref sig .tc .vmem S512x512 .f32) (h0 : a0.IsWhole) (a1 : Memref sig .tc .vmem S512x512 .f32) (h1 : a1.IsWhole)
    (a2 : Memref sig .tc .vmem S512x512 .f32) (h2 : a2.IsWhole) (a3 : Memref sig .tc .vmem S512x512 .f32) (h3 : a3.IsWhole)
    (r0 : Memref sig .tc .vmem S512x32 .f32) (g0 : r0.IsWhole) (r1 : Memref sig .tc .vmem S512x32 .f32) (g1 : r1.IsWhole)
    (r2 : Memref sig .tc .vmem S512x32 .f32) (g2 : r2.IsWhole) (r3 : Memref sig .tc .vmem S512x32 .f32) (g3 : r3.IsWhole)
    (o1 : Memref sig .tc .vmem S512x32 .f32) (e1 : o1.IsWhole) (o2 : Memref sig .tc .vmem S512x32 .f32) (e2 : o2.IsWhole)
    (o3 : Memref sig .tc .vmem S512x32 .f32) (e3 : o3.IsWhole)
    (hc1 : k1_cond1 i = 1#1) (hc2 : ¬k1_cond2 i = 1#1) (hc3 : ¬k1_cond3 i = 1#1)
    (A1 B1 A2 B2 : Vec F S512x512 .f32) (P1 Q1 P2 Q2 : Vec F S512x32 .f32)
    (E : Set ℕ) (K : PUnit → sProp 𝕄) :
    iprop(ins1 c a0 a1 a2 a3 r0 r1 r2 r3 A1 B1 A2 B2 P1 Q1 P2 Q2
        ∗ (∃ d, owns (c : Thread nD τ) o1 fullShare d) ∗ (∃ d, owns (c : Thread nD τ) o2 fullShare d)
        ∗ (iprop(ins1 c a0 a1 a2 a3 r0 r1 r2 r3 A1 B1 A2 B2 P1 Q1 P2 Q2
            ∗ owns (c : Thread nD τ) o1 fullShare (k1_pay1 A1 P1 B1 Q1)
            ∗ owns (c : Thread nD τ) o2 fullShare (k1_pay2 A2 P2 B2 Q2)) -∗ K ⟨⟩))
      ⊢ wp frame (wpE (defs₀ (F := F)) Variants.none c none) E
          (cc1__pass1_body i a0 h0 a1 h1 a2 h2 a3 h3 r0 g0 r1 g1 r2 g2 r3 g3 o1 e1 o2 e2 o3 e3) K := by
  simp only [cc1__pass1_body_eq_skeleton]; unfold cc1__pass1_body_skel
  unfold ins1 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%d9, %f9, -, H9⟩, Hk⟩
  obtain rfl := h0.eq_unread hf0; obtain rfl := h1.eq_unread hf1; obtain rfl := h2.eq_unread hf2; obtain rfl := h3.eq_unread hf3
  obtain rfl := g0.eq_unread hf4; obtain rfl := g1.eq_unread hf5; obtain rfl := g2.eq_unread hf6; obtain rfl := g3.eq_unread hf7
  sl_exec (disch := first | exact hc1 | exact hc2 | exact hc3)
  sl_step
  iapply Hk
  isplitl [H0 H1 H2 H3 H4 H5 H6 H7]
  · isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    iexists _; isplitr; · ipureintro; exact hf7
    iexact H7
  isplitl [H8]
  · iexists _; isplitr
    swap; · iexact H8
    ipureintro
    rw [View.read_writes_eq_canon _ _ _ (fun y => ⟨_, List.mem_singleton_self _, View.mem_set_unit_zero zeroOff1 inb_S512x32_S512x32_0_0 y⟩), View.canon_unit_zero zeroOff1]
    simp only [View.readAt_eq_ld, hf0, hf1, hf4, hf5, View.ld_unit_zero (S := S512x512) zeroOff1, View.ld_unit_zero (S := S512x32) zeroOff1]
  · iexists _; isplitr
    swap; · iexact H9
    ipureintro
    rw [View.read_writes_eq_canon _ _ _ (fun y => ⟨_, List.mem_singleton_self _, View.mem_set_unit_zero zeroOff1 inb_S512x32_S512x32_0_0 y⟩), View.canon_unit_zero zeroOff1]
    simp only [View.readAt_eq_ld, hf2, hf3, hf6, hf7, View.ld_unit_zero (S := S512x512) zeroOff1, View.ld_unit_zero (S := S512x32) zeroOff1]

set_option maxHeartbeats 1000000 in
/-- 0 < k < 7: each latent's buffer is added the point's two products added; the combined latent's buffer is not touched. -/
theorem run1_mid (c : Dev nD) (i : grid1.Coords)
    (a0 : Memref sig .tc .vmem S512x512 .f32) (h0 : a0.IsWhole) (a1 : Memref sig .tc .vmem S512x512 .f32) (h1 : a1.IsWhole)
    (a2 : Memref sig .tc .vmem S512x512 .f32) (h2 : a2.IsWhole) (a3 : Memref sig .tc .vmem S512x512 .f32) (h3 : a3.IsWhole)
    (r0 : Memref sig .tc .vmem S512x32 .f32) (g0 : r0.IsWhole) (r1 : Memref sig .tc .vmem S512x32 .f32) (g1 : r1.IsWhole)
    (r2 : Memref sig .tc .vmem S512x32 .f32) (g2 : r2.IsWhole) (r3 : Memref sig .tc .vmem S512x32 .f32) (g3 : r3.IsWhole)
    (o1 : Memref sig .tc .vmem S512x32 .f32) (e1 : o1.IsWhole) (o2 : Memref sig .tc .vmem S512x32 .f32) (e2 : o2.IsWhole)
    (o3 : Memref sig .tc .vmem S512x32 .f32) (e3 : o3.IsWhole)
    (hc1 : ¬k1_cond1 i = 1#1) (hc2 : k1_cond2 i = 1#1) (hc3 : ¬k1_cond3 i = 1#1)
    (A1 B1 A2 B2 : Vec F S512x512 .f32) (P1 Q1 P2 Q2 : Vec F S512x32 .f32) (X1 X2 : Vec F S512x32 .f32)
    (E : Set ℕ) (K : PUnit → sProp 𝕄) :
    iprop(ins1 c a0 a1 a2 a3 r0 r1 r2 r3 A1 B1 A2 B2 P1 Q1 P2 Q2
        ∗ owns (c : Thread nD τ) o1 fullShare X1 ∗ owns (c : Thread nD τ) o2 fullShare X2
        ∗ (iprop(ins1 c a0 a1 a2 a3 r0 r1 r2 r3 A1 B1 A2 B2 P1 Q1 P2 Q2
            ∗ owns (c : Thread nD τ) o1 fullShare (k1_pay3 A1 P1 B1 Q1 X1)
            ∗ owns (c : Thread nD τ) o2 fullShare (k1_pay4 A2 P2 B2 Q2 X2)) -∗ K ⟨⟩))
      ⊢ wp frame (wpE (defs₀ (F := F)) Variants.none c none) E
          (cc1__pass1_body i a0 h0 a1 h1 a2 h2 a3 h3 r0 g0 r1 g1 r2 g2 r3 g3 o1 e1 o2 e2 o3 e3) K := by
  simp only [cc1__pass1_body_eq_skeleton]; unfold cc1__pass1_body_skel
  unfold ins1 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%f8, %hf8, H8⟩, ⟨%f9, %hf9, H9⟩, Hk⟩
  obtain rfl := h0.eq_unread hf0; obtain rfl := h1.eq_unread hf1; obtain rfl := h2.eq_unread hf2; obtain rfl := h3.eq_unread hf3
  obtain rfl := g0.eq_unread hf4; obtain rfl := g1.eq_unread hf5; obtain rfl := g2.eq_unread hf6; obtain rfl := g3.eq_unread hf7
  obtain rfl := e1.eq_unread hf8; obtain rfl := e2.eq_unread hf9
  sl_exec (disch := first | exact hc1 | exact hc2 | exact hc3)
  sl_step
  iapply Hk
  isplitl [H0 H1 H2 H3 H4 H5 H6 H7]
  · isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    iexists _; isplitr; · ipureintro; exact hf7
    iexact H7
  isplitl [H8]
  · iexists _; isplitr
    swap; · iexact H8
    ipureintro
    rw [View.read_writes_eq_canon _ _ _ (fun y => ⟨_, List.mem_singleton_self _, View.mem_set_unit_zero zeroOff1 inb_S512x32_S512x32_0_0 y⟩), View.canon_unit_zero zeroOff1]
    simp only [View.readAt_eq_ld, hf0, hf1, hf4, hf5, hf8, View.ld_unit_zero (S := S512x512) zeroOff1, View.ld_unit_zero (S := S512x32) zeroOff1]
  · iexists _; isplitr
    swap; · iexact H9
    ipureintro
    rw [View.read_writes_eq_canon _ _ _ (fun y => ⟨_, List.mem_singleton_self _, View.mem_set_unit_zero zeroOff1 inb_S512x32_S512x32_0_0 y⟩), View.canon_unit_zero zeroOff1]
    simp only [View.readAt_eq_ld, hf2, hf3, hf6, hf7, hf9, View.ld_unit_zero (S := S512x512) zeroOff1, View.ld_unit_zero (S := S512x32) zeroOff1]

set_option maxHeartbeats 1000000 in
/-- k = 7: as for k > 0, and then the combined latent's buffer, whatever it held, is set to one half of the two latents'
    buffers added. -/
theorem run1_last (c : Dev nD) (i : grid1.Coords)
    (a0 : Memref sig .tc .vmem S512x512 .f32) (h0 : a0.IsWhole) (a1 : Memref sig .tc .vmem S512x512 .f32) (h1 : a1.IsWhole)
    (a2 : Memref sig .tc .vmem S512x512 .f32) (h2 : a2.IsWhole) (a3 : Memref sig .tc .vmem S512x512 .f32) (h3 : a3.IsWhole)
    (r0 : Memref sig .tc .vmem S512x32 .f32) (g0 : r0.IsWhole) (r1 : Memref sig .tc .vmem S512x32 .f32) (g1 : r1.IsWhole)
    (r2 : Memref sig .tc .vmem S512x32 .f32) (g2 : r2.IsWhole) (r3 : Memref sig .tc .vmem S512x32 .f32) (g3 : r3.IsWhole)
    (o1 : Memref sig .tc .vmem S512x32 .f32) (e1 : o1.IsWhole) (o2 : Memref sig .tc .vmem S512x32 .f32) (e2 : o2.IsWhole)
    (o3 : Memref sig .tc .vmem S512x32 .f32) (e3 : o3.IsWhole)
    (hc1 : ¬k1_cond1 i = 1#1) (hc2 : k1_cond2 i = 1#1) (hc3 : k1_cond3 i = 1#1)
    (A1 B1 A2 B2 : Vec F S512x512 .f32) (P1 Q1 P2 Q2 : Vec F S512x32 .f32) (X1 X2 : Vec F S512x32 .f32)
    (E : Set ℕ) (K : PUnit → sProp 𝕄) :
    iprop(ins1 c a0 a1 a2 a3 r0 r1 r2 r3 A1 B1 A2 B2 P1 Q1 P2 Q2
        ∗ owns (c : Thread nD τ) o1 fullShare X1 ∗ owns (c : Thread nD τ) o2 fullShare X2
        ∗ (∃ d, owns (c : Thread nD τ) o3 fullShare d)
        ∗ (iprop(ins1 c a0 a1 a2 a3 r0 r1 r2 r3 A1 B1 A2 B2 P1 Q1 P2 Q2
            ∗ owns (c : Thread nD τ) o1 fullShare (k1_pay3 A1 P1 B1 Q1 X1)
            ∗ owns (c : Thread nD τ) o2 fullShare (k1_pay4 A2 P2 B2 Q2 X2)
            ∗ owns (c : Thread nD τ) o3 fullShare (k1_pay5 (k1_pay3 A1 P1 B1 Q1 X1) (k1_pay4 A2 P2 B2 Q2 X2))) -∗ K ⟨⟩))
      ⊢ wp frame (wpE (defs₀ (F := F)) Variants.none c none) E
          (cc1__pass1_body i a0 h0 a1 h1 a2 h2 a3 h3 r0 g0 r1 g1 r2 g2 r3 g3 o1 e1 o2 e2 o3 e3) K := by
  simp only [cc1__pass1_body_eq_skeleton]; unfold cc1__pass1_body_skel
  unfold ins1 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%f8, %hf8, H8⟩, ⟨%f9, %hf9, H9⟩, ⟨%d10, %f10, -, H10⟩, Hk⟩
  obtain rfl := h0.eq_unread hf0; obtain rfl := h1.eq_unread hf1; obtain rfl := h2.eq_unread hf2; obtain rfl := h3.eq_unread hf3
  obtain rfl := g0.eq_unread hf4; obtain rfl := g1.eq_unread hf5; obtain rfl := g2.eq_unread hf6; obtain rfl := g3.eq_unread hf7
  obtain rfl := e1.eq_unread hf8; obtain rfl := e2.eq_unread hf9
  sl_exec (disch := first | exact hc1 | exact hc2 | exact hc3)
  sl_step
  iapply Hk
  isplitl [H0 H1 H2 H3 H4 H5 H6 H7]
  · isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    iexists _; isplitr; · ipureintro; exact hf7
    iexact H7
  isplitl [H8]
  · iexists _; isplitr
    swap; · iexact H8
    ipureintro
    sl_unfold_words
    rw [View.read_writes_eq_canon _ _ _ (fun y => ⟨_, List.mem_singleton_self _, View.mem_set_unit_zero zeroOff1 inb_S512x32_S512x32_0_0 y⟩), View.canon_unit_zero zeroOff1]
    simp only [View.readAt_eq_ld, hf0, hf1, hf4, hf5, hf8, View.ld_unit_zero (S := S512x512) zeroOff1, View.ld_unit_zero (S := S512x32) zeroOff1]
  isplitl [H9]
  · iexists _; isplitr
    swap; · iexact H9
    ipureintro
    sl_unfold_words
    rw [View.read_writes_eq_canon _ _ _ (fun y => ⟨_, List.mem_singleton_self _, View.mem_set_unit_zero zeroOff1 inb_S512x32_S512x32_0_0 y⟩), View.canon_unit_zero zeroOff1]
    simp only [View.readAt_eq_ld, hf2, hf3, hf6, hf7, hf9, View.ld_unit_zero (S := S512x512) zeroOff1, View.ld_unit_zero (S := S512x32) zeroOff1]
  · iexists _; isplitr
    swap; · iexact H10
    ipureintro
    sl_unfold_words
    rw [View.read_writes_eq_canon _ _ _ (fun y => ⟨_, List.mem_singleton_self _, View.mem_set_unit_zero zeroOff1 inb_S512x32_S512x32_0_0 y⟩), View.canon_unit_zero zeroOff1]
    simp only [View.readCov_unit_zero (S := S512x32) _ zeroOff1, View.readAt_eq_ld, hf0, hf1, hf2, hf3, hf4, hf5, hf6, hf7, hf8, hf9, View.ld_unit_zero (S := S512x512) zeroOff1, View.ld_unit_zero (S := S512x32) zeroOff1]

variable (V : Entry F)

/-- The latent pass's proof data: the arrays as entered; each input's buffer left at its block; the two latents'
    buffers at their running sums, the combined latent's at one half of the two added. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => lat1At V c t.val t.isLt
    | ⟨9, _⟩ => lat2At V c t.val t.isLt
    | ⟨10, _⟩ => combAt V c t.val t.isLt
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = lat1At V c t.val t.isLt := by dsimp only [dat1]
theorem after1_9 (c : Dev nD) (t : Fin cfg1.N) : (dat1 V c).after 9 t = lat2At V c t.val t.isLt := by dsimp only [dat1]
theorem after1_10 (c : Dev nD) (t : Fin cfg1.N) : (dat1 V c).after 10 t = combAt V c t.val t.isLt := by dsimp only [dat1]

theorem hin1 (c : Dev nD) : (Pipeline.ΦA spec1 c : sProp 𝕄) ⊢ (dat1 V c).Φ 0 := .rfl
theorem hout1 (c : Dev nD) : (dat1 V c).Φ (Fin.last cfg1.N) ⊢ (Pipeline.ΦA spec1 c : sProp 𝕄) := .rfl

/-! ## The running sums, by the column index -/

/-- At k = 0 latent 1's running sum is the point's two products added. -/
theorem lat1At_first (c : Dev nD) (t : Fin cfg1.N) (h : t.val % 8 = 0) :
    lat1At V c t.val t.isLt = k1_pay1 (iblk1 V c 0 t) (iblk1 V c 4 t) (iblk1 V c 1 t) (iblk1 V c 5 t) := by
  obtain ⟨n, hn⟩ := t
  cases n with
  | zero => rfl
  | succ n => exact (if_pos h).trans rfl

/-- At k > 0 it is that added to the running sum of the point before. -/
theorem lat1At_later (c : Dev nD) (t : Fin cfg1.N) (h : ¬t.val % 8 = 0) :
    lat1At V c t.val t.isLt = k1_pay3 (iblk1 V c 0 t) (iblk1 V c 4 t) (iblk1 V c 1 t) (iblk1 V c 5 t)
      (lat1At V c (t.val - 1) (Nat.lt_of_le_of_lt (Nat.sub_le _ _) t.isLt)) := by
  obtain ⟨n, hn⟩ := t
  cases n with
  | zero => exact absurd (Nat.zero_mod _) h
  | succ n => exact (if_neg h).trans rfl

/-- Latent 2's, likewise. -/
theorem lat2At_first (c : Dev nD) (t : Fin cfg1.N) (h : t.val % 8 = 0) :
    lat2At V c t.val t.isLt = k1_pay2 (iblk1 V c 2 t) (iblk1 V c 6 t) (iblk1 V c 3 t) (iblk1 V c 7 t) := by
  obtain ⟨n, hn⟩ := t
  cases n with
  | zero => rfl
  | succ n => exact (if_pos h).trans rfl

theorem lat2At_later (c : Dev nD) (t : Fin cfg1.N) (h : ¬t.val % 8 = 0) :
    lat2At V c t.val t.isLt = k1_pay4 (iblk1 V c 2 t) (iblk1 V c 6 t) (iblk1 V c 3 t) (iblk1 V c 7 t)
      (lat2At V c (t.val - 1) (Nat.lt_of_le_of_lt (Nat.sub_le _ _) t.isLt)) := by
  obtain ⟨n, hn⟩ := t
  cases n with
  | zero => exact absurd (Nat.zero_mod _) h
  | succ n => exact (if_neg h).trans rfl

/-! ## What the body finds in each buffer

An input's buffer holds its block at every point, fetched there or not; a latent's buffer at k > 0 holds what the point
before left in it (the block is written back after k = 7 only). -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

theorem before1_8 (c : Dev nD) (t : Fin cfg1.N) (h : ¬t.val % 8 = 0) (d) :
    (dat1 V c).before 8 t d = lat1At V c (t.val - 1) (Nat.lt_of_le_of_lt (Nat.sub_le _ _) t.isLt) := by
  rw [Dat.before_out_kept _ 8 rfl t (by omega)
    (Bool.eq_false_iff.mpr fun hf => by have := (flush1_8 _).mp hf; dsimp only at this; omega) live1_8 (fun _ _ => rfl)]
  dsimp only [dat1]

theorem before1_9 (c : Dev nD) (t : Fin cfg1.N) (h : ¬t.val % 8 = 0) (d) :
    (dat1 V c).before 9 t d = lat2At V c (t.val - 1) (Nat.lt_of_le_of_lt (Nat.sub_le _ _) t.isLt) := by
  rw [Dat.before_out_kept _ 9 rfl t (by omega)
    (Bool.eq_false_iff.mpr fun hf => by have := (flush1_9 _).mp hf; dsimp only at this; omega) live1_9 (fun _ _ => rfl)]
  dsimp only [dat1]

/-! ## The body at a point -/

/-- Each window's current staging memref at point `t`, as the pipeline passes it to the body, and its wholeness. -/
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x32 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x32 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x32 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x32 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x32 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S512x32 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S512x32 .f32 := win1_10.stage (cfg1.slots t 10)
abbrev hs1_10 (t : Fin cfg1.N) : (ms1_10 t).IsWhole := hstage1_10 ((cfg1.slots t 10).cast nbuf1_10)

/-- What the obligation asks of a window that is stored into at every point: its buffer at the data's contents. -/
theorem leaves1_0 (c : Dev nD) (t : Fin cfg1.N) :
    (dat1 V c).leavesExact 0 t = owns (c : Thread nD τ) (ms1_0 t) fullShare (iblk1 V c 0 t) := by
  rw [← after1_0]
theorem leaves1_1 (c : Dev nD) (t : Fin cfg1.N) :
    (dat1 V c).leavesExact 1 t = owns (c : Thread nD τ) (ms1_1 t) fullShare (iblk1 V c 1 t) := by
  rw [← after1_1]
theorem leaves1_2 (c : Dev nD) (t : Fin cfg1.N) :
    (dat1 V c).leavesExact 2 t = owns (c : Thread nD τ) (ms1_2 t) fullShare (iblk1 V c 2 t) := by
  rw [← after1_2]
theorem leaves1_3 (c : Dev nD) (t : Fin cfg1.N) :
    (dat1 V c).leavesExact 3 t = owns (c : Thread nD τ) (ms1_3 t) fullShare (iblk1 V c 3 t) := by
  rw [← after1_3]
theorem leaves1_4 (c : Dev nD) (t : Fin cfg1.N) :
    (dat1 V c).leavesExact 4 t = owns (c : Thread nD τ) (ms1_4 t) fullShare (iblk1 V c 4 t) := by
  rw [← after1_4]
theorem leaves1_5 (c : Dev nD) (t : Fin cfg1.N) :
    (dat1 V c).leavesExact 5 t = owns (c : Thread nD τ) (ms1_5 t) fullShare (iblk1 V c 5 t) := by
  rw [← after1_5]
theorem leaves1_6 (c : Dev nD) (t : Fin cfg1.N) :
    (dat1 V c).leavesExact 6 t = owns (c : Thread nD τ) (ms1_6 t) fullShare (iblk1 V c 6 t) := by
  rw [← after1_6]
theorem leaves1_7 (c : Dev nD) (t : Fin cfg1.N) :
    (dat1 V c).leavesExact 7 t = owns (c : Thread nD τ) (ms1_7 t) fullShare (iblk1 V c 7 t) := by
  rw [← after1_7]
theorem leaves1_8 (c : Dev nD) (t : Fin cfg1.N) :
    (dat1 V c).leavesExact 8 t = owns (c : Thread nD τ) (ms1_8 t) fullShare (lat1At V c t.val t.isLt) := by
  unfold Dat.leavesExact; rw [live1_8 _, after1_8]
theorem leaves1_9 (c : Dev nD) (t : Fin cfg1.N) :
    (dat1 V c).leavesExact 9 t = owns (c : Thread nD τ) (ms1_9 t) fullShare (lat2At V c t.val t.isLt) := by
  unfold Dat.leavesExact; rw [live1_9 _, after1_9]
/-- The combined latent's window at k = 7: live, its buffer at one half of the two running sums added. -/
theorem leaves1_10 (c : Dev nD) (t : Fin cfg1.N) (h : t.val % 8 = 7) :
    (dat1 V c).leavesExact 10 t = owns (c : Thread nD τ) (ms1_10 t) fullShare (combAt V c t.val t.isLt) := by
  unfold Dat.leavesExact
  rw [show cfg1.idle 10 (cfg1.grid.coords t) = false from Bool.eq_false_iff.mpr fun hi => (idle1_10 t).mp hi h, after1_10]

/-- What the body is called with at point `t`: the invariant, what the core owes, each window's current buffer at what it
    then holds; -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

/-- and what it hands back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 1600000 in
/-- The body at any point: the inputs' buffers hold their blocks; the column index k = t % 8 says which of the three cases
    the point is in; at k > 0 the latents' buffers hold the running sums the point before left; so that case's run applies,
    and what it leaves is what the data say (the running sums' case equations). At k < 7 the combined latent's buffer is
    handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    leaves1_0, leaves1_1, leaves1_2, leaves1_3, leaves1_4, leaves1_5, leaves1_6, leaves1_7, leaves1_8, leaves1_9]
  have hN : t.val < 64 := lt_of_lt_of_eq t.isLt (show cfg1.N = 64 from N_1)
  by_cases hk0 : t.val % 8 = 0
  · have hk7 : ¬t.val % 8 = 7 := by omega
    rw [Dat.leavesExact_idle (dat1 V c) 10 t ((idle1_10 t).mpr hk7) (Bool.eq_false_iff.mpr fun hf => hk7 ((flush1_10 t).mp hf))]
    rw [lat1At_first V c t hk0, lat2At_first V c t hk0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
    iapply (run1_first c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t)
      ((hcond1_1 t).mpr hk0) (fun h => (hcond1_2 t).mp h hk0) (fun h => hk7 ((hcond1_3 t).mp h))
      (iblk1 V c 0 t) (iblk1 V c 1 t) (iblk1 V c 2 t) (iblk1 V c 3 t) (iblk1 V c 4 t) (iblk1 V c 5 t) (iblk1 V c 6 t) (iblk1 V c 7 t) Set.univ _)
    unfold ins1
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    isplitl [H9]; · iexists _; iexact H9
    iintro ⟨⟨H0, H1, H2, H3, H4, H5, H6, H7⟩, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · simp only [before1_8 V c t hk0, before1_9 V c t hk0]
    rw [lat1At_later V c t hk0, lat2At_later V c t hk0]
    by_cases hk7 : t.val % 8 = 7
    · rw [leaves1_10 V c t hk7]
      unfold combAt
      rw [lat1At_later V c t hk0, lat2At_later V c t hk0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run1_last c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t)
        (fun h => hk0 ((hcond1_1 t).mp h)) ((hcond1_2 t).mpr hk0) ((hcond1_3 t).mpr hk7)
        (iblk1 V c 0 t) (iblk1 V c 1 t) (iblk1 V c 2 t) (iblk1 V c 3 t) (iblk1 V c 4 t) (iblk1 V c 5 t) (iblk1 V c 6 t) (iblk1 V c 7 t)
        (lat1At V c (t.val - 1) (Nat.lt_of_le_of_lt (Nat.sub_le _ _) t.isLt)) (lat2At V c (t.val - 1) (Nat.lt_of_le_of_lt (Nat.sub_le _ _) t.isLt)) Set.univ _)
      unfold ins1
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexact H8
      isplitl [H9]; · iexact H9
      isplitl [H10]; · iexists _; iexact H10
      iintro ⟨⟨H0, H1, H2, H3, H4, H5, H6, H7⟩, H8, H9, H10⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [Dat.leavesExact_idle (dat1 V c) 10 t ((idle1_10 t).mpr hk7) (Bool.eq_false_iff.mpr fun hf => hk7 ((flush1_10 t).mp hf))]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
      iapply (run1_mid c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t)
        (fun h => hk0 ((hcond1_1 t).mp h)) ((hcond1_2 t).mpr hk0) (fun h => hk7 ((hcond1_3 t).mp h))
        (iblk1 V c 0 t) (iblk1 V c 1 t) (iblk1 V c 2 t) (iblk1 V c 3 t) (iblk1 V c 4 t) (iblk1 V c 5 t) (iblk1 V c 6 t) (iblk1 V c 7 t)
        (lat1At V c (t.val - 1) (Nat.lt_of_le_of_lt (Nat.sub_le _ _) t.isLt)) (lat2At V c (t.val - 1) (Nat.lt_of_le_of_lt (Nat.sub_le _ _) t.isLt)) Set.univ _)
      unfold ins1
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexact H8
      isplitl [H9]; · iexact H9
      iintro ⟨⟨H0, H1, H2, H3, H4, H5, H6, H7⟩, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The body, called at any point with the inputs' buffers at their blocks and the latents' buffers at what the point
    before left (when k > 0), leaves every buffer as the data say. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BReg2Runs.lean ====
/-
  The decoder pass's body, case by case. The body's three conditionals depend on the column index k of the point alone:
  k = 0 stores each adjacency product into its scratch buffer, k > 0 adds it to what the scratch holds, and k = 7 also
  multiplies each scratch by its decoder weight into the reconstruction's buffer. Each case is run once on arbitrary whole
  memrefs, with the contents every buffer ends at written out over the body's named payloads.
-/
import proofs.«114995_g68247030333984_cont_9to1_m_654_2_alg».proof.Proof.BCarried
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's three conditions, in closed form over the grid -/

/-- The first conditional's condition: the column index is 0. -/
abbrev cond2_0 (i : grid2.Coords) : Prop :=
  (Scalar.cmpi .ne (Scalar.extui (Scalar.cmpi .eq (BitVec.ofNat 32 (i 1).val) 0#32)) 0#32) = 1#1
/-- The second conditional's condition: the column index is positive. -/
abbrev cond2_1 (i : grid2.Coords) : Prop :=
  (Scalar.cmpi .ne (Scalar.extui (Scalar.cmpi .sgt (BitVec.ofNat 32 (i 1).val) 0#32)) 0#32) = 1#1
/-- The third conditional's condition: the column index is 7. -/
abbrev cond2_2 (i : grid2.Coords) : Prop := k2_cond3 i = 1#1

theorem hcond2_0 : ∀ t : Fin cfg2.N, cond2_0 (grid2.coords t) ↔ t.val % 8 = 0 :=
  (by decide +kernel : ∀ t : Fin grid2.N, cond2_0 (grid2.coords t) ↔ t.val % 8 = 0)
theorem hcond2_1 : ∀ t : Fin cfg2.N, cond2_1 (grid2.coords t) ↔ t.val % 8 ≠ 0 :=
  (by decide +kernel : ∀ t : Fin grid2.N, cond2_1 (grid2.coords t) ↔ t.val % 8 ≠ 0)
theorem hcond2_2 : ∀ t : Fin cfg2.N, cond2_2 (grid2.coords t) ↔ t.val % 8 = 7 :=
  (by decide +kernel : ∀ t : Fin grid2.N, cond2_2 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Off the last column the two reconstructions' windows are idle and not written back; -/
theorem idleAt2_5 : ∀ t : Fin cfg2.N, ¬cond2_2 (grid2.coords t) → cfg2.idle 5 (grid2.coords t) = true := by decide +kernel
theorem idleAt2_6 : ∀ t : Fin cfg2.N, ¬cond2_2 (grid2.coords t) → cfg2.idle 6 (grid2.coords t) = true := by decide +kernel
theorem noFlush2_5 : ∀ t : Fin cfg2.N, ¬cond2_2 (grid2.coords t) → (cfg2.win 5).flush t = false := by decide +kernel
theorem noFlush2_6 : ∀ t : Fin cfg2.N, ¬cond2_2 (grid2.coords t) → (cfg2.win 6).flush t = false := by decide +kernel
/-- on it they are live. -/
theorem liveAt2_5 : ∀ t : Fin cfg2.N, cond2_2 (grid2.coords t) → cfg2.idle 5 (grid2.coords t) = false := by decide +kernel
theorem liveAt2_6 : ∀ t : Fin cfg2.N, cond2_2 (grid2.coords t) → cfg2.idle 6 (grid2.coords t) = false := by decide +kernel

/-- The zero offsets of a whole-block load or store, as the constant function. -/
theorem off2_zero : (![0, 0] : Fin 2 → Nat) = fun _ => 0 := by
  funext a; fin_cases a <;> rfl

/-! ## Whole-block loads and stores on a whole memref -/

/-- A load through the whole-shape rectangle of a whole memref whose contents read `X` reads `X`. -/
theorem readAt_whole2 {sp : Space} {S : Shape} {e : EltTy} {m : Memref sig .tc sp S e} (h : m.IsWhole)
    {off : Fin S.rank → Nat} (hz : off = fun _ => 0) (inb : ∀ a, off a + S.size a ≤ S.size a) (X : S.Idx → Elt F e) :
    m.view.readAt (Elt F) (Rect.unit off S.size inb).toLoadRect (h.unread X) = X := by
  rw [View.readAt_eq_ld, h.read_unread, View.ld_unit_zero hz]

/-- One store through the whole-shape rectangle leaves its payload, whatever the buffer held. -/
theorem read_store_whole2 {sp : Space} {S : Shape} {e : EltTy} (v : View sig .tc sp S e) (f : v.ty.Contents (Elt F))
    {off : Fin S.rank → Nat} (hz : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero hz inb y⟩),
    View.canon_unit_zero hz]

/-! ## The three runs -/

set_option maxHeartbeats 1000000 in
/-- Column index 0: each product is stored into its scratch buffer; nothing else is written. -/
theorem run2_A (c : Dev nD) (i : grid2.Coords)
    (arg2 : Memref sig .tc .vmem S512x512 .f32) (harg2 : arg2.IsWhole) (arg3 : Memref sig .tc .vmem S512x512 .f32) (harg3 : arg3.IsWhole)
    (arg4 : Memref sig .tc .vmem S512x32 .f32) (harg4 : arg4.IsWhole) (arg5 : Memref sig .tc .vmem S32x128 .f32) (harg5 : arg5.IsWhole)
    (arg6 : Memref sig .tc .vmem S32x128 .f32) (harg6 : arg6.IsWhole) (arg7 : Memref sig .tc .vmem S512x128 .f32) (harg7 : arg7.IsWhole)
    (arg8 : Memref sig .tc .vmem S512x128 .f32) (harg8 : arg8.IsWhole) (arg9 : Memref sig .tc .vmem S512x32 .f32) (harg9 : arg9.IsWhole)
    (arg10 : Memref sig .tc .vmem S512x32 .f32) (harg10 : arg10.IsWhole)
    (hc0 : cond2_0 i) (hc1 : ¬cond2_1 i) (hc2 : ¬cond2_2 i)
    (x0 : Vec F S512x512 .f32) (x1 : Vec F S512x512 .f32) (x2 : Vec F S512x32 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg9 fullShare (k2_pay3 x0 x2) ∗ owns (c : Thread nD τ) arg10 fullShare (k2_pay4 x1 x2)) -∗ K ⟨⟩))
      ⊢ wp frame (wpE (defs₀ (F := F)) Variants.none c none) E
          (cc2__pass2_body i arg2 harg2 arg3 harg3 arg4 harg4 arg5 harg5 arg6 harg6 arg7 harg7 arg8 harg8 arg9 harg9 arg10 harg10) K := by
  simp only [cc2__pass2_body_eq_skeleton]; unfold cc2__pass2_body_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg2.eq_unread hf0; obtain rfl := harg3.eq_unread hf1; obtain rfl := harg4.eq_unread hf2
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS0]
  · iexists _; isplitr
    swap; · iexact HS0
    ipureintro
    rw [read_store_whole2 _ _ off2_zero, readAt_whole2 harg2 off2_zero, readAt_whole2 harg4 off2_zero]
  · iexists _; isplitr
    swap; · iexact HS1
    ipureintro
    rw [read_store_whole2 _ _ off2_zero, readAt_whole2 harg3 off2_zero, readAt_whole2 harg4 off2_zero]

set_option maxHeartbeats 1000000 in
/-- Column index strictly between 0 and 7: each product is added to what its scratch buffer holds. -/
theorem run2_B (c : Dev nD) (i : grid2.Coords)
    (arg2 : Memref sig .tc .vmem S512x512 .f32) (harg2 : arg2.IsWhole) (arg3 : Memref sig .tc .vmem S512x512 .f32) (harg3 : arg3.IsWhole)
    (arg4 : Memref sig .tc .vmem S512x32 .f32) (harg4 : arg4.IsWhole) (arg5 : Memref sig .tc .vmem S32x128 .f32) (harg5 : arg5.IsWhole)
    (arg6 : Memref sig .tc .vmem S32x128 .f32) (harg6 : arg6.IsWhole) (arg7 : Memref sig .tc .vmem S512x128 .f32) (harg7 : arg7.IsWhole)
    (arg8 : Memref sig .tc .vmem S512x128 .f32) (harg8 : arg8.IsWhole) (arg9 : Memref sig .tc .vmem S512x32 .f32) (harg9 : arg9.IsWhole)
    (arg10 : Memref sig .tc .vmem S512x32 .f32) (harg10 : arg10.IsWhole)
    (hc0 : ¬cond2_0 i) (hc1 : cond2_1 i) (hc2 : ¬cond2_2 i)
    (x0 : Vec F S512x512 .f32) (x1 : Vec F S512x512 .f32) (x2 : Vec F S512x32 .f32)
    (xs0 : Vec F S512x32 .f32) (xs1 : Vec F S512x32 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2
            ∗ owns (c : Thread nD τ) arg9 fullShare (k2_pay5 x0 x2 xs0) ∗ owns (c : Thread nD τ) arg10 fullShare (k2_pay6 x1 x2 xs1)) -∗ K ⟨⟩))
      ⊢ wp frame (wpE (defs₀ (F := F)) Variants.none c none) E
          (cc2__pass2_body i arg2 harg2 arg3 harg3 arg4 harg4 arg5 harg5 arg6 harg6 arg7 harg7 arg8 harg8 arg9 harg9 arg10 harg10) K := by
  simp only [cc2__pass2_body_eq_skeleton]; unfold cc2__pass2_body_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS0]
  · iexists _; isplitr
    swap; · iexact HS0
    ipureintro
    rw [read_store_whole2 _ _ off2_zero, readAt_whole2 harg2 off2_zero, readAt_whole2 harg4 off2_zero, readAt_whole2 harg9 off2_zero]
  · iexists _; isplitr
    swap; · iexact HS1
    ipureintro
    rw [read_store_whole2 _ _ off2_zero, readAt_whole2 harg3 off2_zero, readAt_whole2 harg4 off2_zero, readAt_whole2 harg10 off2_zero]

set_option maxHeartbeats 1000000 in
/-- Column index 7: each product is added to its scratch buffer, and each scratch times its decoder weight is stored into
    the reconstruction's buffer. -/
theorem run2_C (c : Dev nD) (i : grid2.Coords)
    (arg2 : Memref sig .tc .vmem S512x512 .f32) (harg2 : arg2.IsWhole) (arg3 : Memref sig .tc .vmem S512x512 .f32) (harg3 : arg3.IsWhole)
    (arg4 : Memref sig .tc .vmem S512x32 .f32) (harg4 : arg4.IsWhole) (arg5 : Memref sig .tc .vmem S32x128 .f32) (harg5 : arg5.IsWhole)
    (arg6 : Memref sig .tc .vmem S32x128 .f32) (harg6 : arg6.IsWhole) (arg7 : Memref sig .tc .vmem S512x128 .f32) (harg7 : arg7.IsWhole)
    (arg8 : Memref sig .tc .vmem S512x128 .f32) (harg8 : arg8.IsWhole) (arg9 : Memref sig .tc .vmem S512x32 .f32) (harg9 : arg9.IsWhole)
    (arg10 : Memref sig .tc .vmem S512x32 .f32) (harg10 : arg10.IsWhole)
    (hc0 : ¬cond2_0 i) (hc1 : cond2_1 i) (hc2 : cond2_2 i)
    (x0 : Vec F S512x512 .f32) (x1 : Vec F S512x512 .f32) (x2 : Vec F S512x32 .f32)
    (x3 : Vec F S32x128 .f32) (x4 : Vec F S32x128 .f32)
    (xs0 : Vec F S512x32 .f32) (xs1 : Vec F S512x32 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k2_pay7 (k2_pay5 x0 x2 xs0) x3) ∗ owns (c : Thread nD τ) arg8 fullShare (k2_pay8 (k2_pay6 x1 x2 xs1) x4)
            ∗ owns (c : Thread nD τ) arg9 fullShare (k2_pay5 x0 x2 xs0) ∗ owns (c : Thread nD τ) arg10 fullShare (k2_pay6 x1 x2 xs1)) -∗ K ⟨⟩))
      ⊢ wp frame (wpE (defs₀ (F := F)) Variants.none c none) E
          (cc2__pass2_body i arg2 harg2 arg3 harg3 arg4 harg4 arg5 harg5 arg6 harg6 arg7 harg7 arg8 harg8 arg9 harg9 arg10 harg10) K := by
  simp only [cc2__pass2_body_eq_skeleton]; unfold cc2__pass2_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4
  obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_words
    rw [read_store_whole2 _ _ off2_zero, View.readCov_unit_zero _ off2_zero, readAt_whole2 harg2 off2_zero, readAt_whole2 harg4 off2_zero,
      readAt_whole2 harg9 off2_zero, readAt_whole2 harg5 off2_zero]
  isplitl [H6]
  · iexists _; isplitr
    swap; · iexact H6
    ipureintro
    sl_unfold_words
    rw [read_store_whole2 _ _ off2_zero, View.readCov_unit_zero _ off2_zero, readAt_whole2 harg3 off2_zero, readAt_whole2 harg4 off2_zero,
      readAt_whole2 harg10 off2_zero, readAt_whole2 harg6 off2_zero]
  isplitl [HS0]
  · iexists _; isplitr
    swap; · iexact HS0
    ipureintro
    sl_unfold_words
    rw [read_store_whole2 _ _ off2_zero, readAt_whole2 harg2 off2_zero, readAt_whole2 harg4 off2_zero, readAt_whole2 harg9 off2_zero]
  · iexists _; isplitr
    swap; · iexact HS1
    ipureintro
    sl_unfold_words
    rw [read_store_whole2 _ _ off2_zero, readAt_whole2 harg3 off2_zero, readAt_whole2 harg4 off2_zero, readAt_whole2 harg10 off2_zero]

end Cert.Kernel.Hand

end
-- ==== Proof.BReg2.lean ====
/-
  The decoder pass (grid 8 x 8, point n = 8·i + k): each point multiplies two 512 x 512 adjacency blocks into the
  combined latent's row block; the two products are kept in two scratch buffers while k runs (set at k = 0, added to
  for k > 0), and at k = 7 each scratch times its decoder weight is stored as the reconstruction's row block. Its proof
  data at the entry contents `V` — the scratch buffers' running contents are part of the invariant between points —
  and that the body does at every point what the data say.
-/
import proofs.«114995_g68247030333984_cont_9to1_m_654_2_alg».proof.Proof.BReg2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : Entry F)

/-- The two scratch operands as memrefs. -/
abbrev scM2_0 : Memref sig .tc .vmem S512x32 .f32 := Memref.whole cc2_scratch0
abbrev scM2_1 : Memref sig .tc .vmem S512x32 .f32 := Memref.whole cc2_scratch1

/-- The invariant before position `n`: before the first point what the call is handed (every scoped buffer at
    anything); afterwards the two scratch buffers at the running sums the point before left, the other scoped buffers
    at anything, the generator register at some state. -/
def PhiS2 (c : Dev nD) : (n : Nat) → n ≤ cfg2.N → sProp 𝕄
  | 0, _ => Pipeline.ΦA spec2 c
  | n + 1, hn => iprop(iprop(owns (c : Thread nD τ) scM2_0 fullShare (s1At V c n hn) ∗ owns (c : Thread nD τ) scM2_1 fullShare (s2At V c n hn))
      ∗ Pipeline.scopedRestBut (Ix := Unit) (Name := ℕ) (U := UR sig nD τ) (Lvl := ℕ) (Val := Elt F) spec2 c [cc2_scratch0, cc2_scratch1]
      ∗ (∃ r, prngReg c r))

/-- The decoder pass's proof data: the arrays as entered; each input's buffer left at its block; each
    reconstruction's buffer at its scratch times its decoder weight. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => rec1At V c t.val t.isLt
    | ⟨6, _⟩ => rec2At V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = rec1At V c t.val t.isLt := by dsimp only [dat2]
theorem after2_6 (c : Dev nD) (t : Fin cfg2.N) : (dat2 V c).after 6 t = rec2At V c t.val t.isLt := by dsimp only [dat2]

/-! ## The staging memrefs at a point, as the pipeline passes them to the body -/

abbrev ms2_0 (t : Fin cfg2.N) : Memref sig .tc .vmem S512x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x32 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S32x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S32x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S512x128 .f32 := win2_6.stage (cfg2.slots t 6)
abbrev hs2_6 (t : Fin cfg2.N) : (ms2_6 t).IsWhole := hstage2_6 ((cfg2.slots t 6).cast nbuf2_6)

/-! ## The invariant, point by point -/

/-- What the call is handed, with the two scratch buffers as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [scM2_0, scM2_1, owns_whole]; try rfl

theorem PhiS2_zero (c : Dev nD) (n : ℕ) (h : n ≤ cfg2.N) (hz : n = 0) : PhiS2 V c n h = Pipeline.ΦA spec2 c := by
  subst hz; rfl

/-- After point `n`: the scratch buffers at that point's running sums. -/
theorem PhiS2_succ (c : Dev nD) (n : ℕ) (hn : n < cfg2.N) :
    PhiS2 V c (n + 1) hn = iprop(iprop(owns (c : Thread nD τ) scM2_0 fullShare (s1At V c n hn) ∗ owns (c : Thread nD τ) scM2_1 fullShare (s2At V c n hn))
      ∗ Pipeline.scopedRestBut (Ix := Unit) (Name := ℕ) (U := UR sig nD τ) (Lvl := ℕ) (Val := Elt F) spec2 c [cc2_scratch0, cc2_scratch1]
      ∗ (∃ r, prngReg c r)) := rfl

/-- Before a point that is not the first: the scratch buffers at what the point before left. -/
theorem PhiS2_pos (c : Dev nD) (n : ℕ) (h : n ≤ cfg2.N) (hz : n ≠ 0) :
    PhiS2 V c n h = iprop(iprop(owns (c : Thread nD τ) scM2_0 fullShare (s1At V c (n - 1) (by omega)) ∗ owns (c : Thread nD τ) scM2_1 fullShare (s2At V c (n - 1) (by omega)))
      ∗ Pipeline.scopedRestBut (Ix := Unit) (Name := ℕ) (U := UR sig nD τ) (Lvl := ℕ) (Val := Elt F) spec2 c [cc2_scratch0, cc2_scratch1]
      ∗ (∃ r, prngReg c r)) := by
  cases n with
  | zero => exact absurd rfl hz
  | succ n => rfl

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## What the body finds in the inputs' buffers: their blocks, fetched at the point or not -/

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

theorem before2_4 (c : Dev nD) (t : Fin cfg2.N) (d) : (dat2 V c).before 4 t d = iblk2 V c 4 t :=
  ((dat2 V c).before_in_eq_fetched 4 rfl (fun _ => rfl) (fun _ _ _ => rfl)
      (fun t => by rw [after2_4]; unfold Dat.blockOf iblk2; rw [A_eq2]; try rfl) t d).trans
    (by unfold Dat.fetched Dat.blockOf iblk2; rw [A_eq2]; try rfl)

/-! ## The running sums' case equations -/

theorem s1At_first (c : Dev nD) (t : Fin cfg2.N) (h0 : t.val % 8 = 0) :
    s1At V c t.val t.isLt = k2_pay3 (iblk2 V c 0 t) (iblk2 V c 2 t) := by
  obtain ⟨n, hn⟩ := t
  cases n with
  | zero => rfl
  | succ n => exact (if_pos h0).trans rfl

theorem s1At_next (c : Dev nD) (t : Fin cfg2.N) (h0 : ¬t.val % 8 = 0) :
    s1At V c t.val t.isLt = k2_pay5 (iblk2 V c 0 t) (iblk2 V c 2 t) (s1At V c (t.val - 1) (Nat.lt_of_le_of_lt (Nat.sub_le _ _) t.isLt)) := by
  obtain ⟨n, hn⟩ := t
  cases n with
  | zero => exact absurd (Nat.zero_mod _) h0
  | succ n => exact (if_neg h0).trans rfl

theorem s2At_first (c : Dev nD) (t : Fin cfg2.N) (h0 : t.val % 8 = 0) :
    s2At V c t.val t.isLt = k2_pay4 (iblk2 V c 1 t) (iblk2 V c 2 t) := by
  obtain ⟨n, hn⟩ := t
  cases n with
  | zero => rfl
  | succ n => exact (if_pos h0).trans rfl

theorem s2At_next (c : Dev nD) (t : Fin cfg2.N) (h0 : ¬t.val % 8 = 0) :
    s2At V c t.val t.isLt = k2_pay6 (iblk2 V c 1 t) (iblk2 V c 2 t) (s2At V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The body obligation at a point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' buffers hold their blocks; the column index says which of the three cases the point
    is in; the invariant hands the body the two scratch buffers at what the point before left (at anything at the first
    point) and takes them back at this point's running sums; off the last column the reconstructions' buffers are handed
    back as found, on it they end at each scratch times its decoder weight; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  have hN : t.val < 64 := lt_of_lt_of_eq t.isLt (show cfg2.N = 64 from N_2)
  by_cases h0 : t.val % 8 = 0
  · have hc0 : cond2_0 (grid2.coords t) := (hcond2_0 t).mpr h0
    have hc1 : ¬cond2_1 (grid2.coords t) := fun h => (hcond2_1 t).mp h h0
    have hc2 : ¬cond2_2 (grid2.coords t) := fun h => by have := (hcond2_2 t).mp h; omega
    rw [Dat.leavesExact_idle (dat2 V c) 5 t (idleAt2_5 t hc2) (noFlush2_5 t hc2),
      Dat.leavesExact_idle (dat2 V c) 6 t (idleAt2_6 t hc2) (noFlush2_6 t hc2)]
    rw [s1At_first V c t h0, s2At_first V c t h0]
    by_cases hz : t.val = 0
    · rw [PhiS2_castSucc V c t, PhiS2_zero V c _ _ hz, PhiA2_eq]
      iintro ⟨⟨⟨⟨HS0, HS1⟩, HR⟩, Hg⟩, Ho, ⟨%d0, H0⟩, ⟨%d1, H1⟩, ⟨%d2, H2⟩, ⟨%d3, H3⟩, ⟨%d4, H4⟩, H5, H6⟩
      iapply (run2_A c (grid2.coords t) _ _ _ _ _ _ _ _ _ _ _ _ _ _ _ _ _ _ hc0 hc1 hc2 (iblk2 V c 0 t) (iblk2 V c 1 t) (iblk2 V c 2 t) Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1]
        · isplitl [HS0]; · iexact HS0
          iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS2_castSucc V c t, PhiS2_pos V c _ _ hz]
      iintro ⟨⟨⟨HS0, HS1⟩, HR, Hg⟩, Ho, ⟨%d0, H0⟩, ⟨%d1, H1⟩, ⟨%d2, H2⟩, ⟨%d3, H3⟩, ⟨%d4, H4⟩, H5, H6⟩
      iapply (run2_A c (grid2.coords t) _ _ _ _ _ _ _ _ _ _ _ _ _ _ _ _ _ _ hc0 hc1 hc2 (iblk2 V c 0 t) (iblk2 V c 1 t) (iblk2 V c 2 t) Set.univ _)
      isplitl [H0]; · iexact H0
      isplitl [H1]; · iexact H1
      isplitl [H2]; · iexact H2
      isplitl [HS0]; · iexists _; iexact HS0
      isplitl [HS1]; · iexists _; iexact HS1
      iintro ⟨H0, H1, H2, HS0, HS1⟩
      isplitl [HS0 HS1 HR Hg]
      · isplitl [HS0 HS1]
        · isplitl [HS0]; · iexact HS0
          iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · by_cases h7 : t.val % 8 = 7
    · have hc0 : ¬cond2_0 (grid2.coords t) := fun h => h0 ((hcond2_0 t).mp h)
      have hc1 : cond2_1 (grid2.coords t) := (hcond2_1 t).mpr h0
      have hc2 : cond2_2 (grid2.coords t) := (hcond2_2 t).mpr h7
      have hz : t.val ≠ 0 := fun h => h0 (by rw [h])
      rw [show (dat2 V c).leavesExact 5 t = owns (c : Thread nD τ) (ms2_5 t) fullShare ((dat2 V c).after 5 t) from by
        unfold Dat.leavesExact; rw [liveAt2_5 t hc2], after2_5]
      rw [show (dat2 V c).leavesExact 6 t = owns (c : Thread nD τ) (ms2_6 t) fullShare ((dat2 V c).after 6 t) from by
        unfold Dat.leavesExact; rw [liveAt2_6 t hc2], after2_6]
      unfold rec1At rec2At
      rw [s1At_next V c t h0, s2At_next V c t h0]
      rw [PhiS2_castSucc V c t, PhiS2_pos V c _ _ hz]
      iintro ⟨⟨⟨HS0, HS1⟩, HR, Hg⟩, Ho, ⟨%d0, H0⟩, ⟨%d1, H1⟩, ⟨%d2, H2⟩, ⟨%d3, H3⟩, ⟨%d4, H4⟩, ⟨%d5, H5⟩, ⟨%d6, H6⟩⟩
      iapply (run2_C c (grid2.coords t) _ _ _ _ _ _ _ _ _ _ _ _ _ _ _ _ _ _ hc0 hc1 hc2 (iblk2 V c 0 t) (iblk2 V c 1 t) (iblk2 V c 2 t) (iblk2 V c 3 t) (iblk2 V c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 HR Hg]
      · isplitl [HS0 HS1]
        · isplitl [HS0]; · iexact HS0
          iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc0 : ¬cond2_0 (grid2.coords t) := fun h => h0 ((hcond2_0 t).mp h)
      have hc1 : cond2_1 (grid2.coords t) := (hcond2_1 t).mpr h0
      have hc2 : ¬cond2_2 (grid2.coords t) := fun h => h7 ((hcond2_2 t).mp h)
      have hz : t.val ≠ 0 := fun h => h0 (by rw [h])
      rw [Dat.leavesExact_idle (dat2 V c) 5 t (idleAt2_5 t hc2) (noFlush2_5 t hc2),
        Dat.leavesExact_idle (dat2 V c) 6 t (idleAt2_6 t hc2) (noFlush2_6 t hc2)]
      rw [s1At_next V c t h0, s2At_next V c t h0]
      rw [PhiS2_castSucc V c t, PhiS2_pos V c _ _ hz]
      iintro ⟨⟨⟨HS0, HS1⟩, HR, Hg⟩, Ho, ⟨%d0, H0⟩, ⟨%d1, H1⟩, ⟨%d2, H2⟩, ⟨%d3, H3⟩, ⟨%d4, H4⟩, H5, H6⟩
      iapply (run2_B c (grid2.coords t) _ _ _ _ _ _ _ _ _ _ _ _ _ _ _ _ _ _ hc0 hc1 hc2 (iblk2 V c 0 t) (iblk2 V c 1 t) (iblk2 V c 2 t) _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1]
        · isplitl [HS0]; · iexact HS0
          iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body, called at any point with the inputs' buffers at their blocks and the scratch buffers at what the point
    before left (when k > 0), leaves every buffer and the scratch as the data say. -/
theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives back what the call was handed: the scratch buffers' contents are
    forgotten. -/
theorem Phi2_out (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HS0, HS1⟩, HR, Hg⟩
  isplitl [HS0 HS1 HR]
  · isplitl [HS0 HS1]
    · isplitl [HS0]
      · iexists _; iexact HS0
      iexists _; iexact HS1
    iexact HR
  iexact Hg

/-- After the last point the invariant gives back what the call was handed: the scratch buffers' contents are forgotten. -/
theorem hout2 (c : Dev nD) : (dat2 V c).Φ (Fin.last cfg2.N) ⊢ (Pipeline.ΦA spec2 c : sProp 𝕄) :=
  Phi2_out V c _ (by rw [Fin.val_last]; have : cfg2.N = 64 := N_2; omega)

end Cert.Kernel.Hand

end
-- ==== Proof.BLaunch.lean ====
/-
  The whole run of @main. Four host reshapes turn the four combination scalars into 1 x 1 arrays; then the three
  calls run in turn: the prologue, the latent pass, the decoder pass. Each call is entered with the contents the
  stretch before it left: the launch contents after the reshapes for the prologue; those with the prologue's four
  result arrays at what its write-backs leave for the latent pass; those with the three latent arrays at what the
  latent pass's write-backs leave for the decoder pass. A call changes its result arrays only, so the fourteen
  arguments end as launched, and the five results end at the final arrays of the two passes.
-/
import proofs.«114995_g68247030333984_cont_9to1_m_654_2_alg».proof.Proof.BReg0
import proofs.«114995_g68247030333984_cont_9to1_m_654_2_alg».proof.Proof.BReg1
import proofs.«114995_g68247030333984_cont_9to1_m_654_2_alg».proof.Proof.BReg2
import proofs.«114995_g68247030333984_cont_9to1_m_654_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents between the calls: a fold through @main -/

/-- Core `c`'s buffers when the prologue is entered: the launch contents after the four reshapes. -/
abbrev X0 (c : Dev nD) : Valuation τ sig (Elt F) := V1 m c
/-- The same read at the TensorCore's references. -/
abbrev Vent0 : Entry F := fun c b => X0 m c b

/-- After the prologue: its arrays at what its write-backs leave, every other buffer as it was entered. -/
def X1 (c : Dev nD) : Valuation τ sig (Elt F) :=
  Pipeline.withArrays spec0 c (X0 m c) fun w => (dat0 (Vent0 m) c).arrAt w cfg0.N
theorem X1_arr (c : Dev nD) (w : Fin cfg0.W) :
    X1 m c (Proc.devRef .tc (Pipeline.arrRef spec0 w)) = (dat0 (Vent0 m) c).arrAt w cfg0.N := by
  unfold X1; exact Pipeline.withArrays_arr spec0 launch0.win.arr_inj c _ _ w
theorem X1_of_ne (c : Dev nD) (b : Ref sig .tc) (hb : ∀ w, Pipeline.arrRef spec0 w ≠ b) :
    X1 m c (Proc.devRef .tc b) = X0 m c (Proc.devRef .tc b) := by
  unfold X1; exact Pipeline.withArrays_of_ne spec0 c _ _ b hb
/-- The same read at the TensorCore's references. -/
abbrev Vent1 : Entry F := fun c b => X1 m c b
/-- The two facts that put the call's arrays back among the unscoped buffers at its exit. -/
theorem hF0 (c : Dev nD) (w : Fin cfg0.W) : (dat0 (Vent0 m) c).arrAt w cfg0.N = Vent1 m c (Pipeline.arrRef spec0 w) :=
  (X1_arr m c w).symm
theorem hrest0 (c : Dev nD) : ∀ b, b ∉ Finset.univ.image (Pipeline.arrRef spec0) → Vent1 m c b = Vent0 m c b :=
  fun b hb => X1_of_ne m c b fun w e => hb (Finset.mem_image.mpr ⟨w, Finset.mem_univ _, e⟩)
/-- A window of the call whose array is none of its result arrays is an input window. -/
theorem isIn0 : ∀ w : Fin cfg0.W, Pipeline.arrRef spec0 w ∉ ([main_v4_0, main_v4_1, main_v4_2, main_v4_3] : List (Ref sig .tc)) → (cfg0.win w).isOut = false := by
  decide
/-- The call changes its result arrays only: an input window's array is never written back, and a buffer that is
    no window's array bypasses the call. -/
theorem X1_of (c : Dev nD) (b : Ref sig .tc) (hb : b ∉ ([main_v4_0, main_v4_1, main_v4_2, main_v4_3] : List (Ref sig .tc))) :
    X1 m c (Proc.devRef .tc b) = X0 m c (Proc.devRef .tc b) := by
  by_cases h : ∃ w, Pipeline.arrRef spec0 w = b
  · obtain ⟨w, rfl⟩ := h
    rw [X1_arr]
    exact ((dat0 (Vent0 m) c).arrAt_in w (isIn0 w hb) _).trans (A_eq0 (Vent0 m) c w)
  · exact X1_of_ne m c b fun w e => h ⟨w, e⟩

/-- After the latent pass: its arrays at what its write-backs leave, every other buffer as it was entered. -/
def X2 (c : Dev nD) : Valuation τ sig (Elt F) :=
  Pipeline.withArrays spec1 c (X1 m c) fun w => (dat1 (Vent1 m) c).arrAt w cfg1.N
theorem X2_arr (c : Dev nD) (w : Fin cfg1.W) :
    X2 m c (Proc.devRef .tc (Pipeline.arrRef spec1 w)) = (dat1 (Vent1 m) c).arrAt w cfg1.N := by
  unfold X2; exact Pipeline.withArrays_arr spec1 launch1.win.arr_inj c _ _ w
theorem X2_of_ne (c : Dev nD) (b : Ref sig .tc) (hb : ∀ w, Pipeline.arrRef spec1 w ≠ b) :
    X2 m c (Proc.devRef .tc b) = X1 m c (Proc.devRef .tc b) := by
  unfold X2; exact Pipeline.withArrays_of_ne spec1 c _ _ b hb
/-- The same read at the TensorCore's references. -/
abbrev Vent2 : Entry F := fun c b => X2 m c b
/-- The two facts that put the call's arrays back among the unscoped buffers at its exit. -/
theorem hF1 (c : Dev nD) (w : Fin cfg1.W) : (dat1 (Vent1 m) c).arrAt w cfg1.N = Vent2 m c (Pipeline.arrRef spec1 w) :=
  (X2_arr m c w).symm
theorem hrest1 (c : Dev nD) : ∀ b, b ∉ Finset.univ.image (Pipeline.arrRef spec1) → Vent2 m c b = Vent1 m c b :=
  fun b hb => X2_of_ne m c b fun w e => hb (Finset.mem_image.mpr ⟨w, Finset.mem_univ _, e⟩)
/-- A window of the call whose array is none of its result arrays is an input window. -/
theorem isIn1 : ∀ w : Fin cfg1.W, Pipeline.arrRef spec1 w ∉ ([main_v5_0, main_v5_1, main_v5_2] : List (Ref sig .tc)) → (cfg1.win w).isOut = false := by
  decide
/-- The call changes its result arrays only: an input window's array is never written back, and a buffer that is
    no window's array bypasses the call. -/
theorem X2_of (c : Dev nD) (b : Ref sig .tc) (hb : b ∉ ([main_v5_0, main_v5_1, main_v5_2] : List (Ref sig .tc))) :
    X2 m c (Proc.devRef .tc b) = X1 m c (Proc.devRef .tc b) := by
  by_cases h : ∃ w, Pipeline.arrRef spec1 w = b
  · obtain ⟨w, rfl⟩ := h
    rw [X2_arr]
    exact ((dat1 (Vent1 m) c).arrAt_in w (isIn1 w hb) _).trans (A_eq1 (Vent1 m) c w)
  · exact X2_of_ne m c b fun w e => h ⟨w, e⟩

/-- After the decoder pass: its arrays at what its write-backs leave, every other buffer as it was entered. -/
def X3 (c : Dev nD) : Valuation τ sig (Elt F) :=
  Pipeline.withArrays spec2 c (X2 m c) fun w => (dat2 (Vent2 m) c).arrAt w cfg2.N
theorem X3_arr (c : Dev nD) (w : Fin cfg2.W) :
    X3 m c (Proc.devRef .tc (Pipeline.arrRef spec2 w)) = (dat2 (Vent2 m) c).arrAt w cfg2.N := by
  unfold X3; exact Pipeline.withArrays_arr spec2 launch2.win.arr_inj c _ _ w
theorem X3_of_ne (c : Dev nD) (b : Ref sig .tc) (hb : ∀ w, Pipeline.arrRef spec2 w ≠ b) :
    X3 m c (Proc.devRef .tc b) = X2 m c (Proc.devRef .tc b) := by
  unfold X3; exact Pipeline.withArrays_of_ne spec2 c _ _ b hb
/-- The same read at the TensorCore's references. -/
abbrev Vfin : Entry F := fun c b => X3 m c b
/-- The two facts that put the call's arrays back among the unscoped buffers at its exit. -/
theorem hF2 (c : Dev nD) (w : Fin cfg2.W) : (dat2 (Vent2 m) c).arrAt w cfg2.N = Vfin m c (Pipeline.arrRef spec2 w) :=
  (X3_arr m c w).symm
theorem hrest2 (c : Dev nD) : ∀ b, b ∉ Finset.univ.image (Pipeline.arrRef spec2) → Vfin m c b = Vent2 m c b :=
  fun b hb => X3_of_ne m c b fun w e => hb (Finset.mem_image.mpr ⟨w, Finset.mem_univ _, e⟩)
/-- A window of the call whose array is none of its result arrays is an input window. -/
theorem isIn2 : ∀ w : Fin cfg2.W, Pipeline.arrRef spec2 w ∉ ([main_v6_0, main_v6_1] : List (Ref sig .tc)) → (cfg2.win w).isOut = false := by
  decide
/-- The call changes its result arrays only: an input window's array is never written back, and a buffer that is
    no window's array bypasses the call. -/
theorem X3_of (c : Dev nD) (b : Ref sig .tc) (hb : b ∉ ([main_v6_0, main_v6_1] : List (Ref sig .tc))) :
    X3 m c (Proc.devRef .tc b) = X2 m c (Proc.devRef .tc b) := by
  by_cases h : ∃ w, Pipeline.arrRef spec2 w = b
  · obtain ⟨w, rfl⟩ := h
    rw [X3_arr]
    exact ((dat2 (Vent2 m) c).arrAt_in w (isIn2 w hb) _).trans (A_eq2 (Vent2 m) c w)
  · exact X3_of_ne m c b fun w e => h ⟨w, e⟩

/-! ## The arguments end as launched -/

theorem X3_main_arg0 (c : Dev nD) : X3 m c (Proc.devRef .tc main_arg0) = m ((c : Thread nD τ).loc main_arg0) :=
  (X3_of m c main_arg0 (by decide)).trans <| (X2_of m c main_arg0 (by decide)).trans <| (X1_of m c main_arg0 (by decide)).trans <| (V1_of m c main_arg0 (by decide)).trans rfl
theorem X3_main_arg1 (c : Dev nD) : X3 m c (Proc.devRef .tc main_arg1) = m ((c : Thread nD τ).loc main_arg1) :=
  (X3_of m c main_arg1 (by decide)).trans <| (X2_of m c main_arg1 (by decide)).trans <| (X1_of m c main_arg1 (by decide)).trans <| (V1_of m c main_arg1 (by decide)).trans rfl
theorem X3_main_arg2 (c : Dev nD) : X3 m c (Proc.devRef .tc main_arg2) = m ((c : Thread nD τ).loc main_arg2) :=
  (X3_of m c main_arg2 (by decide)).trans <| (X2_of m c main_arg2 (by decide)).trans <| (X1_of m c main_arg2 (by decide)).trans <| (V1_of m c main_arg2 (by decide)).trans rfl
theorem X3_main_arg3 (c : Dev nD) : X3 m c (Proc.devRef .tc main_arg3) = m ((c : Thread nD τ).loc main_arg3) :=
  (X3_of m c main_arg3 (by decide)).trans <| (X2_of m c main_arg3 (by decide)).trans <| (X1_of m c main_arg3 (by decide)).trans <| (V1_of m c main_arg3 (by decide)).trans rfl
theorem X3_main_arg4 (c : Dev nD) : X3 m c (Proc.devRef .tc main_arg4) = m ((c : Thread nD τ).loc main_arg4) :=
  (X3_of m c main_arg4 (by decide)).trans <| (X2_of m c main_arg4 (by decide)).trans <| (X1_of m c main_arg4 (by decide)).trans <| (V1_of m c main_arg4 (by decide)).trans rfl
theorem X3_main_arg5 (c : Dev nD) : X3 m c (Proc.devRef .tc main_arg5) = m ((c : Thread nD τ).loc main_arg5) :=
  (X3_of m c main_arg5 (by decide)).trans <| (X2_of m c main_arg5 (by decide)).trans <| (X1_of m c main_arg5 (by decide)).trans <| (V1_of m c main_arg5 (by decide)).trans rfl
theorem X3_main_arg6 (c : Dev nD) : X3 m c (Proc.devRef .tc main_arg6) = m ((c : Thread nD τ).loc main_arg6) :=
  (X3_of m c main_arg6 (by decide)).trans <| (X2_of m c main_arg6 (by decide)).trans <| (X1_of m c main_arg6 (by decide)).trans <| (V1_of m c main_arg6 (by decide)).trans rfl
theorem X3_main_arg7 (c : Dev nD) : X3 m c (Proc.devRef .tc main_arg7) = m ((c : Thread nD τ).loc main_arg7) :=
  (X3_of m c main_arg7 (by decide)).trans <| (X2_of m c main_arg7 (by decide)).trans <| (X1_of m c main_arg7 (by decide)).trans <| (V1_of m c main_arg7 (by decide)).trans rfl
theorem X3_main_arg8 (c : Dev nD) : X3 m c (Proc.devRef .tc main_arg8) = m ((c : Thread nD τ).loc main_arg8) :=
  (X3_of m c main_arg8 (by decide)).trans <| (X2_of m c main_arg8 (by decide)).trans <| (X1_of m c main_arg8 (by decide)).trans <| (V1_of m c main_arg8 (by decide)).trans rfl
theorem X3_main_arg9 (c : Dev nD) : X3 m c (Proc.devRef .tc main_arg9) = m ((c : Thread nD τ).loc main_arg9) :=
  (X3_of m c main_arg9 (by decide)).trans <| (X2_of m c main_arg9 (by decide)).trans <| (X1_of m c main_arg9 (by decide)).trans <| (V1_of m c main_arg9 (by decide)).trans rfl
theorem X3_main_arg10 (c : Dev nD) : X3 m c (Proc.devRef .tc main_arg10) = m ((c : Thread nD τ).loc main_arg10) :=
  (X3_of m c main_arg10 (by decide)).trans <| (X2_of m c main_arg10 (by decide)).trans <| (X1_of m c main_arg10 (by decide)).trans <| (V1_of m c main_arg10 (by decide)).trans rfl
theorem X3_main_arg11 (c : Dev nD) : X3 m c (Proc.devRef .tc main_arg11) = m ((c : Thread nD τ).loc main_arg11) :=
  (X3_of m c main_arg11 (by decide)).trans <| (X2_of m c main_arg11 (by decide)).trans <| (X1_of m c main_arg11 (by decide)).trans <| (V1_of m c main_arg11 (by decide)).trans rfl
theorem X3_main_arg12 (c : Dev nD) : X3 m c (Proc.devRef .tc main_arg12) = m ((c : Thread nD τ).loc main_arg12) :=
  (X3_of m c main_arg12 (by decide)).trans <| (X2_of m c main_arg12 (by decide)).trans <| (X1_of m c main_arg12 (by decide)).trans <| (V1_of m c main_arg12 (by decide)).trans rfl
theorem X3_main_arg13 (c : Dev nD) : X3 m c (Proc.devRef .tc main_arg13) = m ((c : Thread nD τ).loc main_arg13) :=
  (X3_of m c main_arg13 (by decide)).trans <| (X2_of m c main_arg13 (by decide)).trans <| (X1_of m c main_arg13 (by decide)).trans <| (V1_of m c main_arg13 (by decide)).trans rfl

/-! ## The five results: the final arrays of the two passes -/

/-- Latent 1 after the run. -/
abbrev Res1_8 (c : Dev nD) := (dat1 (Vent1 m) c).arrAt 8 cfg1.N
/-- Latent 2 after the run. -/
abbrev Res1_9 (c : Dev nD) := (dat1 (Vent1 m) c).arrAt 9 cfg1.N
/-- The combined latent after the run. -/
abbrev Res1_10 (c : Dev nD) := (dat1 (Vent1 m) c).arrAt 10 cfg1.N
/-- Reconstruction 1 after the run. -/
abbrev Res2_5 (c : Dev nD) := (dat2 (Vent2 m) c).arrAt 5 cfg2.N
/-- Reconstruction 2 after the run. -/
abbrev Res2_6 (c : Dev nD) := (dat2 (Vent2 m) c).arrAt 6 cfg2.N

theorem X3_main_v5_0 (c : Dev nD) : X3 m c (Proc.devRef .tc main_v5_0) = Res1_8 m c :=
  (X3_of m c main_v5_0 (by decide)).trans (X2_arr m c 8)
theorem X3_main_v5_1 (c : Dev nD) : X3 m c (Proc.devRef .tc main_v5_1) = Res1_9 m c :=
  (X3_of m c main_v5_1 (by decide)).trans (X2_arr m c 9)
theorem X3_main_v5_2 (c : Dev nD) : X3 m c (Proc.devRef .tc main_v5_2) = Res1_10 m c :=
  (X3_of m c main_v5_2 (by decide)).trans (X2_arr m c 10)
theorem X3_main_v6_0 (c : Dev nD) : X3 m c (Proc.devRef .tc main_v6_0) = Res2_5 m c := X3_arr m c 5
theorem X3_main_v6_1 (c : Dev nD) : X3 m c (Proc.devRef .tc main_v6_1) = Res2_6 m c := X3_arr m c 6

/-! ## The entry contents read at named buffers -/

/-- A buffer no reshape writes holds its launch contents when the prologue is entered. -/
theorem Vent0_of (c : Dev nD) (b : Ref sig .tc) (hb : b ∉ (hostOps0_W : List (Ref sig .tc))) :
    Vent0 m c b = m ((c : Thread nD τ).loc b) :=
  (V1_of m c b hb).trans rfl
/-- The 1 x 1 array `main_v0` when the prologue is entered: the scalar `main_arg10` under the shape 1 x 1. -/
theorem Vent0_main_v0 (c : Dev nD) :
    Vent0 m c main_v0 = fun i => shapeCast main_v0.ty.shape (m ((c : Thread nD τ).loc main_arg10)) shapeCasts_S1_S1x1 i := by
  show StableHlo.after hostOps0 (V0 m c) (Proc.devRef .tc main_v0) = _
  simp only [hostOps0, StableHlo.after_cons, StableHlo.after_nil]
  rw [StableHlo.reshape_result_ne main_arg13 main_v3 _ _ _ _ _ (r := main_v0) (by decide),
    StableHlo.reshape_result_ne main_arg11 main_v2 _ _ _ _ _ (r := main_v0) (by decide),
    StableHlo.reshape_result_ne main_arg12 main_v1 _ _ _ _ _ (r := main_v0) (by decide),
    StableHlo.reshape_result] <;> rfl
/-- The 1 x 1 array `main_v1` when the prologue is entered: the scalar `main_arg12` under the shape 1 x 1. -/
theorem Vent0_main_v1 (c : Dev nD) :
    Vent0 m c main_v1 = fun i => shapeCast main_v1.ty.shape (m ((c : Thread nD τ).loc main_arg12)) shapeCasts_S1_S1x1 i := by
  show StableHlo.after hostOps0 (V0 m c) (Proc.devRef .tc main_v1) = _
  simp only [hostOps0, StableHlo.after_cons, StableHlo.after_nil]
  rw [StableHlo.reshape_result_ne main_arg13 main_v3 _ _ _ _ _ (r := main_v1) (by decide),
    StableHlo.reshape_result_ne main_arg11 main_v2 _ _ _ _ _ (r := main_v1) (by decide),
    StableHlo.reshape_result] <;> rfl
/-- The 1 x 1 array `main_v2` when the prologue is entered: the scalar `main_arg11` under the shape 1 x 1. -/
theorem Vent0_main_v2 (c : Dev nD) :
    Vent0 m c main_v2 = fun i => shapeCast main_v2.ty.shape (m ((c : Thread nD τ).loc main_arg11)) shapeCasts_S1_S1x1 i := by
  show StableHlo.after hostOps0 (V0 m c) (Proc.devRef .tc main_v2) = _
  simp only [hostOps0, StableHlo.after_cons, StableHlo.after_nil]
  rw [StableHlo.reshape_result_ne main_arg13 main_v3 _ _ _ _ _ (r := main_v2) (by decide),
    StableHlo.reshape_result] <;> rfl
/-- The 1 x 1 array `main_v3` when the prologue is entered: the scalar `main_arg13` under the shape 1 x 1. -/
theorem Vent0_main_v3 (c : Dev nD) :
    Vent0 m c main_v3 = fun i => shapeCast main_v3.ty.shape (m ((c : Thread nD τ).loc main_arg13)) shapeCasts_S1_S1x1 i := by
  show StableHlo.after hostOps0 (V0 m c) (Proc.devRef .tc main_v3) = _
  simp only [hostOps0, StableHlo.after_cons, StableHlo.after_nil]
  rw [StableHlo.reshape_result] <;> rfl

/-- The latent pass is entered with the prologue's four results at its final arrays and every other buffer as the
    prologue was entered. -/
theorem Vent1_of (c : Dev nD) (b : Ref sig .tc) (hb : b ∉ ([main_v4_0, main_v4_1, main_v4_2, main_v4_3] : List (Ref sig .tc))) :
    Vent1 m c b = Vent0 m c b := X1_of m c b hb
theorem Vent1_main_v4_0 (c : Dev nD) : Vent1 m c main_v4_0 = (dat0 (Vent0 m) c).arrAt 8 cfg0.N := X1_arr m c 8
theorem Vent1_main_v4_1 (c : Dev nD) : Vent1 m c main_v4_1 = (dat0 (Vent0 m) c).arrAt 9 cfg0.N := X1_arr m c 9
theorem Vent1_main_v4_2 (c : Dev nD) : Vent1 m c main_v4_2 = (dat0 (Vent0 m) c).arrAt 10 cfg0.N := X1_arr m c 10
theorem Vent1_main_v4_3 (c : Dev nD) : Vent1 m c main_v4_3 = (dat0 (Vent0 m) c).arrAt 11 cfg0.N := X1_arr m c 11

/-- The decoder pass is entered with the three latent arrays at the latent pass's final arrays and every other buffer
    as the latent pass was entered. -/
theorem Vent2_of (c : Dev nD) (b : Ref sig .tc) (hb : b ∉ ([main_v5_0, main_v5_1, main_v5_2] : List (Ref sig .tc))) :
    Vent2 m c b = Vent1 m c b := X2_of m c b hb
theorem Vent2_main_v5_0 (c : Dev nD) : Vent2 m c main_v5_0 = (dat1 (Vent1 m) c).arrAt 8 cfg1.N := X2_arr m c 8
theorem Vent2_main_v5_1 (c : Dev nD) : Vent2 m c main_v5_1 = (dat1 (Vent1 m) c).arrAt 9 cfg1.N := X2_arr m c 9
theorem Vent2_main_v5_2 (c : Dev nD) : Vent2 m c main_v5_2 = (dat1 (Vent1 m) c).arrAt 10 cfg1.N := X2_arr m c 10

/-- An argument holds its launch contents when each call is entered. -/
theorem Vent1_arg (c : Dev nD) (b : Ref sig .tc) (hb : b ∉ (hostOps0_W ++ [main_v4_0, main_v4_1, main_v4_2, main_v4_3] : List (Ref sig .tc))) :
    Vent1 m c b = m ((c : Thread nD τ).loc b) :=
  (Vent1_of m c b fun h => hb (List.mem_append_right _ h)).trans (Vent0_of m c b fun h => hb (List.mem_append_left _ h))
theorem Vent2_arg (c : Dev nD) (b : Ref sig .tc)
    (hb : b ∉ (hostOps0_W ++ [main_v4_0, main_v4_1, main_v4_2, main_v4_3] ++ [main_v5_0, main_v5_1, main_v5_2] : List (Ref sig .tc))) :
    Vent2 m c b = m ((c : Thread nD τ).loc b) :=
  (Vent2_of m c b fun h => hb (List.mem_append_right _ h)).trans (Vent1_arg m c b fun h => hb (List.mem_append_left _ h))

/-! ## The proof data family and the thread state -/

/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (Vent0 m) c
  | ⟨1, _⟩ => fun c => dat1 (Vent1 m) c
  | ⟨2, _⟩ => fun c => dat2 (Vent2 m) c
/-- No core owes another anything: no level is assigned. -/
abbrev L : GSem nD τ sig → Finset Unit := fun _ => ∅
abbrev lv : GSem nD τ sig → Unit → ℕ := fun _ _ => 0
/-- What rides beside the buffers through every stretch: the core's generator register at some state and its dues, at nothing. -/
abbrev Rst (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tend (c : Dev nD) : sProp 𝕄 := iprop(StableHlo.held (c : Thread nD τ) (Pipeline.ucRefs τ sig) (X3 m c) ∗ ∃ r, prngReg c r)

/-! ## The three calls as segments -/

set_option backward.isDefEq.respectTransparency.types false in
/-- Call 0 over the thread state: entered with every unscoped buffer at the contents the stretch before left, left
    with its arrays at what its write-backs leave and every other buffer as entered. Its arrays are split out of the
    unscoped buffers at entry and put back at exit; the generator register goes into the invariant between points and
    comes back; nothing is owed; the kernel has no semaphore of its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (Vent0 m) c).loose
  hwaits := Pipeline.hwaits_of_owed_zero _ _ _ _ L lv 0 fun _ _ => rfl
  pre c := iprop(StableHlo.held (c : Thread nD τ) (Pipeline.ucRefs τ sig) (X0 m c) ∗ Rst c)
  post c := iprop(StableHlo.held (c : Thread nD τ) (Pipeline.ucRefs τ sig) (X1 m c) ∗ Rst c)
  X c := iprop(∃ r, prngReg c r)
  Y c := iprop(∃ r, prngReg c r)
  Z c := Pipeline.unscopedRest (Ix := Unit) (Name := ℕ) (U := UR sig nD τ) (Lvl := ℕ) spec0 c (Vent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (Vent0 m) c).Φ 0 from rfl]
    refine BIBase.Entails.trans ?_ (hin0 (Vent0 m) c)
    unfold Pipeline.ΦA
    iintro ⟨Hp, -, Hr⟩
    isplitl [Hr]; · iexact Hr
    iexact Hp
  hout c := by
    rw [Pipeline.ownSems0_none, show (pdats m 0 c).Φ (Fin.last _) = (dat0 (Vent0 m) c).Φ (Fin.last cfg0.N) from rfl]
    refine BIBase.Entails.trans (hout0 (Vent0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vent0 m c) (Vent1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered with every unscoped buffer at the contents the stretch before left, left
    with its arrays at what its write-backs leave and every other buffer as entered. Its arrays are split out of the
    unscoped buffers at entry and put back at exit; the generator register goes into the invariant between points and
    comes back; nothing is owed; the kernel has no semaphore of its own. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (Vent1 m) c).loose
  hwaits := Pipeline.hwaits_of_owed_zero _ _ _ _ L lv 1 fun _ _ => rfl
  pre c := iprop(StableHlo.held (c : Thread nD τ) (Pipeline.ucRefs τ sig) (X1 m c) ∗ Rst c)
  post c := iprop(StableHlo.held (c : Thread nD τ) (Pipeline.ucRefs τ sig) (X2 m c) ∗ Rst c)
  X c := iprop(∃ r, prngReg c r)
  Y c := iprop(∃ r, prngReg c r)
  Z c := Pipeline.unscopedRest (Ix := Unit) (Name := ℕ) (U := UR sig nD τ) (Lvl := ℕ) spec1 c (Vent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Vent1 m) c).Φ 0 from rfl]
    refine BIBase.Entails.trans ?_ (hin1 (Vent1 m) c)
    unfold Pipeline.ΦA
    iintro ⟨Hp, -, Hr⟩
    isplitl [Hr]; · iexact Hr
    iexact Hp
  hout c := by
    rw [Pipeline.ownSems0_none, show (pdats m 1 c).Φ (Fin.last _) = (dat1 (Vent1 m) c).Φ (Fin.last cfg1.N) from rfl]
    refine BIBase.Entails.trans (hout1 (Vent1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vent1 m c) (Vent2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered with every unscoped buffer at the contents the stretch before left, left
    with its arrays at what its write-backs leave and every other buffer as entered. Its arrays are split out of the
    unscoped buffers at entry and put back at exit; the generator register goes into the invariant between points and
    comes back; nothing is owed; the kernel has no semaphore of its own. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (Vent2 m) c).loose
  hwaits := Pipeline.hwaits_of_owed_zero _ _ _ _ L lv 2 fun _ _ => rfl
  pre c := iprop(StableHlo.held (c : Thread nD τ) (Pipeline.ucRefs τ sig) (X2 m c) ∗ Rst c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vent2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vent2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (Vent2 m) c).Φ 0 from rfl]
    refine BIBase.Entails.trans ?_ (hin2 (Vent2 m) c)
    unfold Pipeline.ΦA
    iintro ⟨Hp, -, Hr⟩
    isplitl [Hr]; · iexact Hr
    iexact Hp
  hout c := by
    rw [Pipeline.ownSems0_none, show (pdats m 2 c).Φ (Fin.last _) = (dat2 (Vent2 m) c).Φ (Fin.last cfg2.N) from rfl]
    refine BIBase.Entails.trans (hout2 (Vent2 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vent2 m c) (Vfin m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order: the host reshapes from the launch contents, then the three calls. -/
abbrev theSegs : List (Pipeline.Seg (pcfgs (F := F)) adm (pdats m) () defs₀ Variants.none L lv) :=
  [ .host (seg0 m Variants.none L lv (fun _ => Rst)),
    .region (reg0 m),
    .region (reg1 m),
    .region (reg2 m) ]

set_option backward.isDefEq.respectTransparency.types false in
/-- THE RUN. From any memory with zero counters every weakly fair execution of @main terminates, nothing faulting,
    and in every final state the five results hold the final arrays of the two passes and the fourteen arguments hold
    their launch contents. -/
theorem run_main (ρ : Dev nD → PrngReg) : θ_run defs (onTc (τ := τ) (main (F := F))) ⟨m, fun _ => 0, ρ⟩ (fun r => ∀ c : Dev nD,
      r.2.mem ((c.tc : Thread nD τ).loc main_v5_0) = Res1_8 m c
      ∧ r.2.mem ((c.tc : Thread nD τ).loc main_v5_1) = Res1_9 m c
      ∧ r.2.mem ((c.tc : Thread nD τ).loc main_v5_2) = Res1_10 m c
      ∧ r.2.mem ((c.tc : Thread nD τ).loc main_v6_0) = Res2_5 m c
      ∧ r.2.mem ((c.tc : Thread nD τ).loc main_v6_1) = Res2_6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m) () cellOf_inj emb₁ defs₀ Variants.none L lv m ρ main (theSegs m)
    (fun c Q => by
      rewrite [main_chain c, Pipeline.Seg.run_eq_chain,
        show (theSegs m).map Pipeline.Seg.prog = [
          StableHlo.seq hostOps0,
          Prog.lift (.customCall (Pipeline.entry 0) ()),
          Prog.lift (.customCall (Pipeline.entry 1) ()),
          Prog.lift (.customCall (Pipeline.entry 2) ()) ] from rfl]
      exact .rfl)
    (by simp only [theSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c)) (Tₙ := Tend m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X3 m c b)
    (hfin := fun c s' => by
      iintro ⟨⟨Hh, -⟩, HSI⟩
      unfold StableHlo.held
      imodintro
      iapply (pointsTo_read_all (Pipeline.ucRefs τ sig) (fun b => (((c : Thread nD τ)).1, b)) (X3 m c) s')
      isplitl [Hh] <;> iassumption)
    (hQ := fun s h c =>
      ⟨(h c _ (mem_uc main_v5_0 (by decide))).trans (X3_main_v5_0 m c),
       (h c _ (mem_uc main_v5_1 (by decide))).trans (X3_main_v5_1 m c),
       (h c _ (mem_uc main_v5_2 (by decide))).trans (X3_main_v5_2 m c),
       (h c _ (mem_uc main_v6_0 (by decide))).trans (X3_main_v6_0 m c),
       (h c _ (mem_uc main_v6_1 (by decide))).trans (X3_main_v6_1 m c),
       (h c _ (mem_uc main_arg0 (by decide))).trans (X3_main_arg0 m c),
       (h c _ (mem_uc main_arg1 (by decide))).trans (X3_main_arg1 m c),
       (h c _ (mem_uc main_arg2 (by decide))).trans (X3_main_arg2 m c),
       (h c _ (mem_uc main_arg3 (by decide))).trans (X3_main_arg3 m c),
       (h c _ (mem_uc main_arg4 (by decide))).trans (X3_main_arg4 m c),
       (h c _ (mem_uc main_arg5 (by decide))).trans (X3_main_arg5 m c),
       (h c _ (mem_uc main_arg6 (by decide))).trans (X3_main_arg6 m c),
       (h c _ (mem_uc main_arg7 (by decide))).trans (X3_main_arg7 m c),
       (h c _ (mem_uc main_arg8 (by decide))).trans (X3_main_arg8 m c),
       (h c _ (mem_uc main_arg9 (by decide))).trans (X3_main_arg9 m c),
       (h c _ (mem_uc main_arg10 (by decide))).trans (X3_main_arg10 m c),
       (h c _ (mem_uc main_arg11 (by decide))).trans (X3_main_arg11 m c),
       (h c _ (mem_uc main_arg12 (by decide))).trans (X3_main_arg12 m c),
       (h c _ (mem_uc main_arg13 (by decide))).trans (X3_main_arg13 m c)⟩)

end Cert.Kernel.Hand

end
-- ==== Proof.Carried.lean ====
/-
  What the three pallas_calls' buffers hold, as functions of the arrays a call is entered with.

  A window's block at a grid point is its array read through the point's block. Two of the calls keep running sums
  between grid points: the pass over the four adjacencies keeps each latent's row block in its output buffer while the
  column index k runs (stored at k = 0, added to afterwards), and the decoder pass keeps adjacency · combined in two
  scratch buffers the same way. Those running contents are written here by recursion on the point's position
  n = 8·i + k over the body's own arithmetic (the named payloads of the kernel functions), so that the frame's proof
  data and the value lemmas speak of one term.
-/
import proofs.«114995_g68247030333984_cont_9to1_m_654_2_alg».proof.Proof.Gen.KernelIdeal.Launch
import proofs.«114995_g68247030333984_cont_9to1_m_654_2_alg».proof.Proof.Gen.KernelIdeal.Skeleton
import proofs.«114995_g68247030333984_cont_9to1_m_654_2_alg».proof.Proof.Gen.KernelIdeal.Points
import Idealize.ShloMosaic.Lib.Pipeline.FrameBody

noncomputable section

namespace Cert.KernelIdeal.Hand

open Idealize.ShloMosaic Idealize.ShloMosaic.TcCoe
open Cert.KernelIdeal Cert.KernelIdeal.Gen

variable {F : FTy → Type} [FloatOps F]

/-- The TensorCore's buffer contents when a call is entered, per core. -/
abbrev Entry (F : FTy → Type) : Type := (c : Dev nD) → (b : Ref sig .tc) → Buf (Elt F) ((c : Thread nD τ).loc b)

variable (V : Entry F)

/-! ## Each window's block at a point -/

/-- The prologue's window `w` at its one point: the whole array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The latent pass's window `w` at point `t`: a 512-row (or 512 x 512) block of its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The decoder pass's window `w` at point `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The latent pass: the two running sums kept in the output buffers -/

/-- Latent 1's row block after the body at position `n`: at k = 0 the point's two adjacency products added, at k > 0
    that added to what the point before left. -/
def lat1At (c : Dev nD) : (n : Nat) → n < cfg1.N → Vec F S512x32 .f32
  | 0, hn => k1_pay1 (iblk1 V c 0 ⟨0, hn⟩) (iblk1 V c 4 ⟨0, hn⟩) (iblk1 V c 1 ⟨0, hn⟩) (iblk1 V c 5 ⟨0, hn⟩)
  | n + 1, hn =>
    if (n + 1) % 8 = 0 then
      k1_pay1 (iblk1 V c 0 ⟨n + 1, hn⟩) (iblk1 V c 4 ⟨n + 1, hn⟩) (iblk1 V c 1 ⟨n + 1, hn⟩) (iblk1 V c 5 ⟨n + 1, hn⟩)
    else
      k1_pay3 (iblk1 V c 0 ⟨n + 1, hn⟩) (iblk1 V c 4 ⟨n + 1, hn⟩) (iblk1 V c 1 ⟨n + 1, hn⟩) (iblk1 V c 5 ⟨n + 1, hn⟩)
        (lat1At c n (Nat.lt_of_succ_lt hn))

/-- Latent 2's row block after the body at position `n`, likewise over the second pair of adjacencies. -/
def lat2At (c : Dev nD) : (n : Nat) → n < cfg1.N → Vec F S512x32 .f32
  | 0, hn => k1_pay2 (iblk1 V c 2 ⟨0, hn⟩) (iblk1 V c 6 ⟨0, hn⟩) (iblk1 V c 3 ⟨0, hn⟩) (iblk1 V c 7 ⟨0, hn⟩)
  | n + 1, hn =>
    if (n + 1) % 8 = 0 then
      k1_pay2 (iblk1 V c 2 ⟨n + 1, hn⟩) (iblk1 V c 6 ⟨n + 1, hn⟩) (iblk1 V c 3 ⟨n + 1, hn⟩) (iblk1 V c 7 ⟨n + 1, hn⟩)
    else
      k1_pay4 (iblk1 V c 2 ⟨n + 1, hn⟩) (iblk1 V c 6 ⟨n + 1, hn⟩) (iblk1 V c 3 ⟨n + 1, hn⟩) (iblk1 V c 7 ⟨n + 1, hn⟩)
        (lat2At c n (Nat.lt_of_succ_lt hn))

/-- What the combined latent's buffer is given at a point whose column index is the last: one half of the two running
    sums added. (At the other points the body stores nothing there.) -/
def combAt (c : Dev nD) (n : Nat) (hn : n < cfg1.N) : Vec F S512x32 .f32 :=
  k1_pay5 (lat1At V c n hn) (lat2At V c n hn)

/-! ## The decoder pass: the two running sums kept in scratch -/

/-- Scratch 0 after the body at position `n`: adjacency 1's block times the combined latent's block, summed over k. -/
def s1At (c : Dev nD) : (n : Nat) → n < cfg2.N → Vec F S512x32 .f32
  | 0, hn => k2_pay3 (iblk2 V c 0 ⟨0, hn⟩) (iblk2 V c 2 ⟨0, hn⟩)
  | n + 1, hn =>
    if (n + 1) % 8 = 0 then k2_pay3 (iblk2 V c 0 ⟨n + 1, hn⟩) (iblk2 V c 2 ⟨n + 1, hn⟩)
    else k2_pay5 (iblk2 V c 0 ⟨n + 1, hn⟩) (iblk2 V c 2 ⟨n + 1, hn⟩) (s1At c n (Nat.lt_of_succ_lt hn))

/-- Scratch 1 after the body at position `n`, likewise for adjacency 2. -/
def s2At (c : Dev nD) : (n : Nat) → n < cfg2.N → Vec F S512x32 .f32
  | 0, hn => k2_pay4 (iblk2 V c 1 ⟨0, hn⟩) (iblk2 V c 2 ⟨0, hn⟩)
  | n + 1, hn =>
    if (n + 1) % 8 = 0 then k2_pay4 (iblk2 V c 1 ⟨n + 1, hn⟩) (iblk2 V c 2 ⟨n + 1, hn⟩)
    else k2_pay6 (iblk2 V c 1 ⟨n + 1, hn⟩) (iblk2 V c 2 ⟨n + 1, hn⟩) (s2At c n (Nat.lt_of_succ_lt hn))

/-- What reconstruction 1's buffer is given at a point whose column index is the last: scratch 0 times decoder 1. -/
def rec1At (c : Dev nD) (n : Nat) (hn : n < cfg2.N) : Vec F S512x128 .f32 :=
  k2_pay7 (s1At V c n hn) (iblk2 V c 3 ⟨n, hn⟩)

/-- What reconstruction 2's buffer is given there: scratch 1 times decoder 2. -/
def rec2At (c : Dev nD) (n : Nat) (hn : n < cfg2.N) : Vec F S512x128 .f32 :=
  k2_pay8 (s2At V c n hn) (iblk2 V c 4 ⟨n, hn⟩)

end Cert.KernelIdeal.Hand

end
-- ==== Proof.Reg0.lean ====
/-
  The prologue call (one point, every window a whole array): the two encoder products, each scaled by two of the
  four combination scalars, stored into the four result arrays. Its proof data at the entry contents `V`, and that the
  body does at its point what the data say.
-/
import proofs.«114995_g68247030333984_cont_9to1_m_654_2_alg».proof.Proof.Carried
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Entry F)

/-- The prologue's proof data: the arrays as entered; each input's buffer left at its block, each output's at the
    body's stored value of the input blocks; nothing kept between points, nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => k0_pay3 (iblk0 V c 0 t) (iblk0 V c 2 t) (iblk0 V c 4 t)
    | ⟨9, _⟩ => k0_pay4 (iblk0 V c 0 t) (iblk0 V c 2 t) (iblk0 V c 5 t)
    | ⟨10, _⟩ => k0_pay5 (iblk0 V c 1 t) (iblk0 V c 3 t) (iblk0 V c 6 t)
    | ⟨11, _⟩ => k0_pay6 (iblk0 V c 1 t) (iblk0 V c 3 t) (iblk0 V c 7 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = k0_pay3 (iblk0 V c 0 t) (iblk0 V c 2 t) (iblk0 V c 4 t) := by dsimp only [dat0]
theorem after0_9 (c : Dev nD) (t : Fin cfg0.N) : (dat0 V c).after 9 t = k0_pay4 (iblk0 V c 0 t) (iblk0 V c 2 t) (iblk0 V c 5 t) := by dsimp only [dat0]
theorem after0_10 (c : Dev nD) (t : Fin cfg0.N) : (dat0 V c).after 10 t = k0_pay5 (iblk0 V c 1 t) (iblk0 V c 3 t) (iblk0 V c 6 t) := by dsimp only [dat0]
theorem after0_11 (c : Dev nD) (t : Fin cfg0.N) : (dat0 V c).after 11 t = k0_pay6 (iblk0 V c 1 t) (iblk0 V c 3 t) (iblk0 V c 7 t) := by dsimp only [dat0]

/-- What the call is handed is the invariant before the point, -/
theorem hin0 (c : Dev nD) : (Pipeline.ΦA spec0 c : sProp 𝕄) ⊢ (dat0 V c).Φ 0 := .rfl
/-- and the invariant after it is what the call hands back. -/
theorem hout0 (c : Dev nD) : (dat0 V c).Φ (Fin.last cfg0.N) ⊢ (Pipeline.ΦA spec0 c : sProp 𝕄) := .rfl

/-! ## Each input's buffer holds its block

An input window is never idle and is not cut, and the body leaves its buffer as found: so at the point the buffer
holds the window's block, whether or not the point fetched it. -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
      (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
      (fun t => by rw [after0_7]; unfold Dat.blockOf iblk0; rw [A_eq0]; try rfl) t d).trans
    (by unfold Dat.fetched Dat.blockOf iblk0; rw [A_eq0]; try rfl)

/-! ## Whole-buffer accesses

The body reads and writes every staging buffer whole, through the rectangle at zero offsets of the buffer's own sizes:
a load through it reads the contents, and one store through it leaves its payload whatever was there. -/

private theorem off00 : (![0, 0] : Fin 2 → Nat) = fun _ => 0 := funext fun a => by fin_cases a <;> rfl

private theorem load_whole {κ : Kind} {sp : Space} {S : Shape} {e : EltTy} (v : View sig κ sp S e) (f : v.ty.Contents (Elt F))
    {off : Fin S.rank → Nat} (h : off = fun _ => 0) (inb : ∀ a, off a + S.size a ≤ S.size a) :
    View.readAt (Elt F) v (Rect.unit off S.size inb).toLoadRect f = v.read (Elt F) f :=
  (View.readAt_eq_ld v f _).trans (View.ld_unit_zero h inb _)

private theorem read_store_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero h inb y⟩),
    View.canon_unit_zero h inb w]

/-! ## The body's triple -/

set_option maxHeartbeats 2000000 in
/-- The body on whole staging memrefs, the eight inputs' at read contents `x0 … x7` and the four outputs' at anything,
    runs to the continuation holding the inputs' as they were and each output's at its scaled product. -/
theorem sound_kernel0 (c : Dev nD) (E : Set ℕ) (arg0 : Memref sig .tc .vmem S4096x128 .f32) (harg0 : arg0.IsWhole) (arg1 : Memref sig .tc .vmem S4096x128 .f32) (harg1 : arg1.IsWhole) (arg2 : Memref sig .tc .vmem S128x32 .f32) (harg2 : arg2.IsWhole) (arg3 : Memref sig .tc .vmem S128x32 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S4096x32 .f32) (harg8 : arg8.IsWhole) (arg9 : Memref sig .tc .vmem S4096x32 .f32) (harg9 : arg9.IsWhole) (arg10 : Memref sig .tc .vmem S4096x32 .f32) (harg10 : arg10.IsWhole) (arg11 : Memref sig .tc .vmem S4096x32 .f32) (harg11 : arg11.IsWhole)
    (x0 : Vec F S4096x128 .f32) (x1 : Vec F S4096x128 .f32) (x2 : Vec F S128x32 .f32) (x3 : Vec F S128x32 .f32) (x4 : Vec F S1x1 .f32) (x5 : Vec F S1x1 .f32) (x6 : Vec F S1x1 .f32) (x7 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (k0_pay3 x0 x2 x4) ∗ owns (c : Thread nD τ) arg9 fullShare (k0_pay4 x0 x2 x5) ∗ owns (c : Thread nD τ) arg10 fullShare (k0_pay5 x1 x3 x6) ∗ owns (c : Thread nD τ) arg11 fullShare (k0_pay6 x1 x3 x7)) -∗ K ⟨⟩))
      ⊢ wp frame (wpE (defs₀ (F := F)) Variants.none c none) E (cc0__prologue_body arg0 harg0 arg1 harg1 arg2 harg2 arg3 harg3 arg4 harg4 arg5 harg5 arg6 harg6 arg7 harg7 arg8 harg8 arg9 harg9 arg10 harg10 arg11 harg11) K := by
  simp only [cc0__prologue_body_eq_skeleton]; unfold cc0__prologue_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [read_store_whole (S := S4096x32) _ _ off00 _, load_whole (S := S4096x128) _ _ off00 _, load_whole (S := S128x32) _ _ off00 _, load_whole (S := S1x1) _ _ off00 _]
  isplitl [H9]
  · iexists _; isplitr
    swap; · iexact H9
    ipureintro
    rw [read_store_whole (S := S4096x32) _ _ off00 _, load_whole (S := S4096x128) _ _ off00 _, load_whole (S := S128x32) _ _ off00 _, load_whole (S := S1x1) _ _ off00 _]
  isplitl [H10]
  · iexists _; isplitr
    swap; · iexact H10
    ipureintro
    rw [read_store_whole (S := S4096x32) _ _ off00 _, load_whole (S := S4096x128) _ _ off00 _, load_whole (S := S128x32) _ _ off00 _, load_whole (S := S1x1) _ _ off00 _]
  iexists _; isplitr
  swap; · iexact H11
  ipureintro
  rw [read_store_whole (S := S4096x32) _ _ off00 _, load_whole (S := S4096x128) _ _ off00 _, load_whole (S := S128x32) _ _ off00 _, load_whole (S := S1x1) _ _ off00 _]

/-! ## The body obligation at the point -/

/-- What the body is called with at point `t`: the invariant, what the core owes, and each window's current buffer
    at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it hands back: each buffer at what the data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The eight inputs' buffers hold their blocks, so the body's triple applies at those blocks; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body, called at the one point with the inputs' buffers at their blocks, leaves every buffer as the data say. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Reg1.lean ====
/-
  The latent pass (grid 8 x 8, point n = 8·i + k): each point multiplies four 512 x 512 adjacency blocks into the
  scaled encoder products' row blocks; the two latents' row blocks are kept in their output buffers while k runs (set at
  k = 0, added to for k > 0, written back after k = 7), and at k = 7 the combined latent's block is one half of their
  sum. Its proof data at the entry contents `V`, and that the body does at every point what the data say: the body is
  run once per case of the column index on any whole memrefs (k = 0, 0 < k < 7, k = 7), and the three runs are put
  together at a point through the running sums' case equations.
-/
import proofs.«114995_g68247030333984_cont_9to1_m_654_2_alg».proof.Proof.Carried
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three branch conditions over the grid

The body branches three times on the column index k = t % 8 alone: k = 0, k > 0, k = 7. -/

theorem hcond1_1 : ∀ t : Fin cfg1.N, k1_cond1 (grid1.coords t) = 1#1 ↔ t.val % 8 = 0 :=
  (by decide +kernel : ∀ t : Fin grid1.N, k1_cond1 (grid1.coords t) = 1#1 ↔ t.val % 8 = 0)
theorem hcond1_2 : ∀ t : Fin cfg1.N, k1_cond2 (grid1.coords t) = 1#1 ↔ t.val % 8 ≠ 0 :=
  (by decide +kernel : ∀ t : Fin grid1.N, k1_cond2 (grid1.coords t) = 1#1 ↔ t.val % 8 ≠ 0)
theorem hcond1_3 : ∀ t : Fin cfg1.N, k1_cond3 (grid1.coords t) = 1#1 ↔ t.val % 8 = 7 :=
  (by decide +kernel : ∀ t : Fin grid1.N, k1_cond3 (grid1.coords t) = 1#1 ↔ t.val % 8 = 7)

/-- The two latents' windows are stored into at every point (k = 0 or k > 0). -/
theorem live1_8 : ∀ i : grid1.Coords, cfg1.idle 8 i = false := by decide +kernel
theorem live1_9 : ∀ i : grid1.Coords, cfg1.idle 9 i = false := by decide +kernel
/-- The combined latent's window is stored into at k = 7 only. -/
theorem idle1_10 : ∀ t : Fin cfg1.N, cfg1.idle 10 (cfg1.grid.coords t) = true ↔ t.val % 8 ≠ 7 :=
  (by decide +kernel : ∀ t : Fin grid1.N, idle1 10 (grid1.coords t) = true ↔ t.val % 8 ≠ 7)

/-- The zero offsets of a whole-block access. -/
theorem zeroOff1 : (![0, 0] : Fin 2 → Nat) = fun _ => 0 := by funext a; fin_cases a <;> rfl

/-! ## The body on any whole memrefs, case by case -/

/-- The eight input buffers at their contents: four adjacency blocks, four row blocks of the scaled products. -/
def ins1 (c : Dev nD) (a0 a1 a2 a3 : Memref sig .tc .vmem S512x512 .f32) (r0 r1 r2 r3 : Memref sig .tc .vmem S512x32 .f32)
    (A1 B1 A2 B2 : Vec F S512x512 .f32) (P1 Q1 P2 Q2 : Vec F S512x32 .f32) : sProp 𝕄 :=
  iprop(owns (c : Thread nD τ) a0 fullShare A1 ∗ owns (c : Thread nD τ) a1 fullShare B1
    ∗ owns (c : Thread nD τ) a2 fullShare A2 ∗ owns (c : Thread nD τ) a3 fullShare B2
    ∗ owns (c : Thread nD τ) r0 fullShare P1 ∗ owns (c : Thread nD τ) r1 fullShare Q1
    ∗ owns (c : Thread nD τ) r2 fullShare P2 ∗ owns (c : Thread nD τ) r3 fullShare Q2)

set_option maxHeartbeats 1000000 in
/-- k = 0: each latent's buffer, whatever it held, is set to the point's two products added; the combined latent's buffer
    is not touched. -/
theorem run1_first (c : Dev nD) (i : grid1.Coords)
    (a0 : Memref sig .tc .vmem S512x512 .f32) (h0 : a0.IsWhole) (a1 : Memref sig .tc .vmem S512x512 .f32) (h1 : a1.IsWhole)
    (a2 : Memref sig .tc .vmem S512x512 .f32) (h2 : a2.IsWhole) (a3 : Memref sig .tc .vmem S512x512 .f32) (h3 : a3.IsWhole)
    (r0 : Memref sig .tc .vmem S512x32 .f32) (g0 : r0.IsWhole) (r1 : Memref sig .tc .vmem S512x32 .f32) (g1 : r1.IsWhole)
    (r2 : Memref sig .tc .vmem S512x32 .f32) (g2 : r2.IsWhole) (r3 : Memref sig .tc .vmem S512x32 .f32) (g3 : r3.IsWhole)
    (o1 : Memref sig .tc .vmem S512x32 .f32) (e1 : o1.IsWhole) (o2 : Memref sig .tc .vmem S512x32 .f32) (e2 : o2.IsWhole)
    (o3 : Memref sig .tc .vmem S512x32 .f32) (e3 : o3.IsWhole)
    (hc1 : k1_cond1 i = 1#1) (hc2 : ¬k1_cond2 i = 1#1) (hc3 : ¬k1_cond3 i = 1#1)
    (A1 B1 A2 B2 : Vec F S512x512 .f32) (P1 Q1 P2 Q2 : Vec F S512x32 .f32)
    (E : Set ℕ) (K : PUnit → sProp 𝕄) :
    iprop(ins1 c a0 a1 a2 a3 r0 r1 r2 r3 A1 B1 A2 B2 P1 Q1 P2 Q2
        ∗ (∃ d, owns (c : Thread nD τ) o1 fullShare d) ∗ (∃ d, owns (c : Thread nD τ) o2 fullShare d)
        ∗ (iprop(ins1 c a0 a1 a2 a3 r0 r1 r2 r3 A1 B1 A2 B2 P1 Q1 P2 Q2
            ∗ owns (c : Thread nD τ) o1 fullShare (k1_pay1 A1 P1 B1 Q1)
            ∗ owns (c : Thread nD τ) o2 fullShare (k1_pay2 A2 P2 B2 Q2)) -∗ K ⟨⟩))
      ⊢ wp frame (wpE (defs₀ (F := F)) Variants.none c none) E
          (cc1__pass1_body i a0 h0 a1 h1 a2 h2 a3 h3 r0 g0 r1 g1 r2 g2 r3 g3 o1 e1 o2 e2 o3 e3) K := by
  simp only [cc1__pass1_body_eq_skeleton]; unfold cc1__pass1_body_skel
  unfold ins1 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%d9, %f9, -, H9⟩, Hk⟩
  obtain rfl := h0.eq_unread hf0; obtain rfl := h1.eq_unread hf1; obtain rfl := h2.eq_unread hf2; obtain rfl := h3.eq_unread hf3
  obtain rfl := g0.eq_unread hf4; obtain rfl := g1.eq_unread hf5; obtain rfl := g2.eq_unread hf6; obtain rfl := g3.eq_unread hf7
  sl_exec (disch := first | exact hc1 | exact hc2 | exact hc3)
  sl_step
  iapply Hk
  isplitl [H0 H1 H2 H3 H4 H5 H6 H7]
  · isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    iexists _; isplitr; · ipureintro; exact hf7
    iexact H7
  isplitl [H8]
  · iexists _; isplitr
    swap; · iexact H8
    ipureintro
    rw [View.read_writes_eq_canon _ _ _ (fun y => ⟨_, List.mem_singleton_self _, View.mem_set_unit_zero zeroOff1 inb_S512x32_S512x32_0_0 y⟩), View.canon_unit_zero zeroOff1]
    simp only [View.readAt_eq_ld, hf0, hf1, hf4, hf5, View.ld_unit_zero (S := S512x512) zeroOff1, View.ld_unit_zero (S := S512x32) zeroOff1]
  · iexists _; isplitr
    swap; · iexact H9
    ipureintro
    rw [View.read_writes_eq_canon _ _ _ (fun y => ⟨_, List.mem_singleton_self _, View.mem_set_unit_zero zeroOff1 inb_S512x32_S512x32_0_0 y⟩), View.canon_unit_zero zeroOff1]
    simp only [View.readAt_eq_ld, hf2, hf3, hf6, hf7, View.ld_unit_zero (S := S512x512) zeroOff1, View.ld_unit_zero (S := S512x32) zeroOff1]

set_option maxHeartbeats 1000000 in
/-- 0 < k < 7: each latent's buffer is added the point's two products added; the combined latent's buffer is not touched. -/
theorem run1_mid (c : Dev nD) (i : grid1.Coords)
    (a0 : Memref sig .tc .vmem S512x512 .f32) (h0 : a0.IsWhole) (a1 : Memref sig .tc .vmem S512x512 .f32) (h1 : a1.IsWhole)
    (a2 : Memref sig .tc .vmem S512x512 .f32) (h2 : a2.IsWhole) (a3 : Memref sig .tc .vmem S512x512 .f32) (h3 : a3.IsWhole)
    (r0 : Memref sig .tc .vmem S512x32 .f32) (g0 : r0.IsWhole) (r1 : Memref sig .tc .vmem S512x32 .f32) (g1 : r1.IsWhole)
    (r2 : Memref sig .tc .vmem S512x32 .f32) (g2 : r2.IsWhole) (r3 : Memref sig .tc .vmem S512x32 .f32) (g3 : r3.IsWhole)
    (o1 : Memref sig .tc .vmem S512x32 .f32) (e1 : o1.IsWhole) (o2 : Memref sig .tc .vmem S512x32 .f32) (e2 : o2.IsWhole)
    (o3 : Memref sig .tc .vmem S512x32 .f32) (e3 : o3.IsWhole)
    (hc1 : ¬k1_cond1 i = 1#1) (hc2 : k1_cond2 i = 1#1) (hc3 : ¬k1_cond3 i = 1#1)
    (A1 B1 A2 B2 : Vec F S512x512 .f32) (P1 Q1 P2 Q2 : Vec F S512x32 .f32) (X1 X2 : Vec F S512x32 .f32)
    (E : Set ℕ) (K : PUnit → sProp 𝕄) :
    iprop(ins1 c a0 a1 a2 a3 r0 r1 r2 r3 A1 B1 A2 B2 P1 Q1 P2 Q2
        ∗ owns (c : Thread nD τ) o1 fullShare X1 ∗ owns (c : Thread nD τ) o2 fullShare X2
        ∗ (iprop(ins1 c a0 a1 a2 a3 r0 r1 r2 r3 A1 B1 A2 B2 P1 Q1 P2 Q2
            ∗ owns (c : Thread nD τ) o1 fullShare (k1_pay3 A1 P1 B1 Q1 X1)
            ∗ owns (c : Thread nD τ) o2 fullShare (k1_pay4 A2 P2 B2 Q2 X2)) -∗ K ⟨⟩))
      ⊢ wp frame (wpE (defs₀ (F := F)) Variants.none c none) E
          (cc1__pass1_body i a0 h0 a1 h1 a2 h2 a3 h3 r0 g0 r1 g1 r2 g2 r3 g3 o1 e1 o2 e2 o3 e3) K := by
  simp only [cc1__pass1_body_eq_skeleton]; unfold cc1__pass1_body_skel
  unfold ins1 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%f8, %hf8, H8⟩, ⟨%f9, %hf9, H9⟩, Hk⟩
  obtain rfl := h0.eq_unread hf0; obtain rfl := h1.eq_unread hf1; obtain rfl := h2.eq_unread hf2; obtain rfl := h3.eq_unread hf3
  obtain rfl := g0.eq_unread hf4; obtain rfl := g1.eq_unread hf5; obtain rfl := g2.eq_unread hf6; obtain rfl := g3.eq_unread hf7
  obtain rfl := e1.eq_unread hf8; obtain rfl := e2.eq_unread hf9
  sl_exec (disch := first | exact hc1 | exact hc2 | exact hc3)
  sl_step
  iapply Hk
  isplitl [H0 H1 H2 H3 H4 H5 H6 H7]
  · isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    iexists _; isplitr; · ipureintro; exact hf7
    iexact H7
  isplitl [H8]
  · iexists _; isplitr
    swap; · iexact H8
    ipureintro
    rw [View.read_writes_eq_canon _ _ _ (fun y => ⟨_, List.mem_singleton_self _, View.mem_set_unit_zero zeroOff1 inb_S512x32_S512x32_0_0 y⟩), View.canon_unit_zero zeroOff1]
    simp only [View.readAt_eq_ld, hf0, hf1, hf4, hf5, hf8, View.ld_unit_zero (S := S512x512) zeroOff1, View.ld_unit_zero (S := S512x32) zeroOff1]
  · iexists _; isplitr
    swap; · iexact H9
    ipureintro
    rw [View.read_writes_eq_canon _ _ _ (fun y => ⟨_, List.mem_singleton_self _, View.mem_set_unit_zero zeroOff1 inb_S512x32_S512x32_0_0 y⟩), View.canon_unit_zero zeroOff1]
    simp only [View.readAt_eq_ld, hf2, hf3, hf6, hf7, hf9, View.ld_unit_zero (S := S512x512) zeroOff1, View.ld_unit_zero (S := S512x32) zeroOff1]

set_option maxHeartbeats 1000000 in
/-- k = 7: as for k > 0, and then the combined latent's buffer, whatever it held, is set to one half of the two latents'
    buffers added. -/
theorem run1_last (c : Dev nD) (i : grid1.Coords)
    (a0 : Memref sig .tc .vmem S512x512 .f32) (h0 : a0.IsWhole) (a1 : Memref sig .tc .vmem S512x512 .f32) (h1 : a1.IsWhole)
    (a2 : Memref sig .tc .vmem S512x512 .f32) (h2 : a2.IsWhole) (a3 : Memref sig .tc .vmem S512x512 .f32) (h3 : a3.IsWhole)
    (r0 : Memref sig .tc .vmem S512x32 .f32) (g0 : r0.IsWhole) (r1 : Memref sig .tc .vmem S512x32 .f32) (g1 : r1.IsWhole)
    (r2 : Memref sig .tc .vmem S512x32 .f32) (g2 : r2.IsWhole) (r3 : Memref sig .tc .vmem S512x32 .f32) (g3 : r3.IsWhole)
    (o1 : Memref sig .tc .vmem S512x32 .f32) (e1 : o1.IsWhole) (o2 : Memref sig .tc .vmem S512x32 .f32) (e2 : o2.IsWhole)
    (o3 : Memref sig .tc .vmem S512x32 .f32) (e3 : o3.IsWhole)
    (hc1 : ¬k1_cond1 i = 1#1) (hc2 : k1_cond2 i = 1#1) (hc3 : k1_cond3 i = 1#1)
    (A1 B1 A2 B2 : Vec F S512x512 .f32) (P1 Q1 P2 Q2 : Vec F S512x32 .f32) (X1 X2 : Vec F S512x32 .f32)
    (E : Set ℕ) (K : PUnit → sProp 𝕄) :
    iprop(ins1 c a0 a1 a2 a3 r0 r1 r2 r3 A1 B1 A2 B2 P1 Q1 P2 Q2
        ∗ owns (c : Thread nD τ) o1 fullShare X1 ∗ owns (c : Thread nD τ) o2 fullShare X2
        ∗ (∃ d, owns (c : Thread nD τ) o3 fullShare d)
        ∗ (iprop(ins1 c a0 a1 a2 a3 r0 r1 r2 r3 A1 B1 A2 B2 P1 Q1 P2 Q2
            ∗ owns (c : Thread nD τ) o1 fullShare (k1_pay3 A1 P1 B1 Q1 X1)
            ∗ owns (c : Thread nD τ) o2 fullShare (k1_pay4 A2 P2 B2 Q2 X2)
            ∗ owns (c : Thread nD τ) o3 fullShare (k1_pay5 (k1_pay3 A1 P1 B1 Q1 X1) (k1_pay4 A2 P2 B2 Q2 X2))) -∗ K ⟨⟩))
      ⊢ wp frame (wpE (defs₀ (F := F)) Variants.none c none) E
          (cc1__pass1_body i a0 h0 a1 h1 a2 h2 a3 h3 r0 g0 r1 g1 r2 g2 r3 g3 o1 e1 o2 e2 o3 e3) K := by
  simp only [cc1__pass1_body_eq_skeleton]; unfold cc1__pass1_body_skel
  unfold ins1 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%f8, %hf8, H8⟩, ⟨%f9, %hf9, H9⟩, ⟨%d10, %f10, -, H10⟩, Hk⟩
  obtain rfl := h0.eq_unread hf0; obtain rfl := h1.eq_unread hf1; obtain rfl := h2.eq_unread hf2; obtain rfl := h3.eq_unread hf3
  obtain rfl := g0.eq_unread hf4; obtain rfl := g1.eq_unread hf5; obtain rfl := g2.eq_unread hf6; obtain rfl := g3.eq_unread hf7
  obtain rfl := e1.eq_unread hf8; obtain rfl := e2.eq_unread hf9
  sl_exec (disch := first | exact hc1 | exact hc2 | exact hc3)
  sl_step
  iapply Hk
  isplitl [H0 H1 H2 H3 H4 H5 H6 H7]
  · isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    iexists _; isplitr; · ipureintro; exact hf7
    iexact H7
  isplitl [H8]
  · iexists _; isplitr
    swap; · iexact H8
    ipureintro
    sl_unfold_words
    rw [View.read_writes_eq_canon _ _ _ (fun y => ⟨_, List.mem_singleton_self _, View.mem_set_unit_zero zeroOff1 inb_S512x32_S512x32_0_0 y⟩), View.canon_unit_zero zeroOff1]
    simp only [View.readAt_eq_ld, hf0, hf1, hf4, hf5, hf8, View.ld_unit_zero (S := S512x512) zeroOff1, View.ld_unit_zero (S := S512x32) zeroOff1]
  isplitl [H9]
  · iexists _; isplitr
    swap; · iexact H9
    ipureintro
    sl_unfold_words
    rw [View.read_writes_eq_canon _ _ _ (fun y => ⟨_, List.mem_singleton_self _, View.mem_set_unit_zero zeroOff1 inb_S512x32_S512x32_0_0 y⟩), View.canon_unit_zero zeroOff1]
    simp only [View.readAt_eq_ld, hf2, hf3, hf6, hf7, hf9, View.ld_unit_zero (S := S512x512) zeroOff1, View.ld_unit_zero (S := S512x32) zeroOff1]
  · iexists _; isplitr
    swap; · iexact H10
    ipureintro
    sl_unfold_words
    rw [View.read_writes_eq_canon _ _ _ (fun y => ⟨_, List.mem_singleton_self _, View.mem_set_unit_zero zeroOff1 inb_S512x32_S512x32_0_0 y⟩), View.canon_unit_zero zeroOff1]
    simp only [View.readCov_unit_zero (S := S512x32) _ zeroOff1, View.readAt_eq_ld, hf0, hf1, hf2, hf3, hf4, hf5, hf6, hf7, hf8, hf9, View.ld_unit_zero (S := S512x512) zeroOff1, View.ld_unit_zero (S := S512x32) zeroOff1]

variable (V : Entry F)

/-- The latent pass's proof data: the arrays as entered; each input's buffer left at its block; the two latents'
    buffers at their running sums, the combined latent's at one half of the two added. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => lat1At V c t.val t.isLt
    | ⟨9, _⟩ => lat2At V c t.val t.isLt
    | ⟨10, _⟩ => combAt V c t.val t.isLt
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = lat1At V c t.val t.isLt := by dsimp only [dat1]
theorem after1_9 (c : Dev nD) (t : Fin cfg1.N) : (dat1 V c).after 9 t = lat2At V c t.val t.isLt := by dsimp only [dat1]
theorem after1_10 (c : Dev nD) (t : Fin cfg1.N) : (dat1 V c).after 10 t = combAt V c t.val t.isLt := by dsimp only [dat1]

theorem hin1 (c : Dev nD) : (Pipeline.ΦA spec1 c : sProp 𝕄) ⊢ (dat1 V c).Φ 0 := .rfl
theorem hout1 (c : Dev nD) : (dat1 V c).Φ (Fin.last cfg1.N) ⊢ (Pipeline.ΦA spec1 c : sProp 𝕄) := .rfl

/-! ## The running sums, by the column index -/

/-- At k = 0 latent 1's running sum is the point's two products added. -/
theorem lat1At_first (c : Dev nD) (t : Fin cfg1.N) (h : t.val % 8 = 0) :
    lat1At V c t.val t.isLt = k1_pay1 (iblk1 V c 0 t) (iblk1 V c 4 t) (iblk1 V c 1 t) (iblk1 V c 5 t) := by
  obtain ⟨n, hn⟩ := t
  cases n with
  | zero => rfl
  | succ n => exact (if_pos h).trans rfl

/-- At k > 0 it is that added to the running sum of the point before. -/
theorem lat1At_later (c : Dev nD) (t : Fin cfg1.N) (h : ¬t.val % 8 = 0) :
    lat1At V c t.val t.isLt = k1_pay3 (iblk1 V c 0 t) (iblk1 V c 4 t) (iblk1 V c 1 t) (iblk1 V c 5 t)
      (lat1At V c (t.val - 1) (Nat.lt_of_le_of_lt (Nat.sub_le _ _) t.isLt)) := by
  obtain ⟨n, hn⟩ := t
  cases n with
  | zero => exact absurd (Nat.zero_mod _) h
  | succ n => exact (if_neg h).trans rfl

/-- Latent 2's, likewise. -/
theorem lat2At_first (c : Dev nD) (t : Fin cfg1.N) (h : t.val % 8 = 0) :
    lat2At V c t.val t.isLt = k1_pay2 (iblk1 V c 2 t) (iblk1 V c 6 t) (iblk1 V c 3 t) (iblk1 V c 7 t) := by
  obtain ⟨n, hn⟩ := t
  cases n with
  | zero => rfl
  | succ n => exact (if_pos h).trans rfl

theorem lat2At_later (c : Dev nD) (t : Fin cfg1.N) (h : ¬t.val % 8 = 0) :
    lat2At V c t.val t.isLt = k1_pay4 (iblk1 V c 2 t) (iblk1 V c 6 t) (iblk1 V c 3 t) (iblk1 V c 7 t)
      (lat2At V c (t.val - 1) (Nat.lt_of_le_of_lt (Nat.sub_le _ _) t.isLt)) := by
  obtain ⟨n, hn⟩ := t
  cases n with
  | zero => exact absurd (Nat.zero_mod _) h
  | succ n => exact (if_neg h).trans rfl

/-! ## What the body finds in each buffer

An input's buffer holds its block at every point, fetched there or not; a latent's buffer at k > 0 holds what the point
before left in it (the block is written back after k = 7 only). -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

theorem before1_8 (c : Dev nD) (t : Fin cfg1.N) (h : ¬t.val % 8 = 0) (d) :
    (dat1 V c).before 8 t d = lat1At V c (t.val - 1) (Nat.lt_of_le_of_lt (Nat.sub_le _ _) t.isLt) := by
  rw [Dat.before_out_kept _ 8 rfl t (by omega)
    (Bool.eq_false_iff.mpr fun hf => by have := (flush1_8 _).mp hf; dsimp only at this; omega) live1_8 (fun _ _ => rfl)]
  dsimp only [dat1]

theorem before1_9 (c : Dev nD) (t : Fin cfg1.N) (h : ¬t.val % 8 = 0) (d) :
    (dat1 V c).before 9 t d = lat2At V c (t.val - 1) (Nat.lt_of_le_of_lt (Nat.sub_le _ _) t.isLt) := by
  rw [Dat.before_out_kept _ 9 rfl t (by omega)
    (Bool.eq_false_iff.mpr fun hf => by have := (flush1_9 _).mp hf; dsimp only at this; omega) live1_9 (fun _ _ => rfl)]
  dsimp only [dat1]

/-! ## The body at a point -/

/-- Each window's current staging memref at point `t`, as the pipeline passes it to the body, and its wholeness. -/
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x32 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x32 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x32 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x32 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x32 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S512x32 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S512x32 .f32 := win1_10.stage (cfg1.slots t 10)
abbrev hs1_10 (t : Fin cfg1.N) : (ms1_10 t).IsWhole := hstage1_10 ((cfg1.slots t 10).cast nbuf1_10)

/-- What the obligation asks of a window that is stored into at every point: its buffer at the data's contents. -/
theorem leaves1_0 (c : Dev nD) (t : Fin cfg1.N) :
    (dat1 V c).leavesExact 0 t = owns (c : Thread nD τ) (ms1_0 t) fullShare (iblk1 V c 0 t) := by
  rw [← after1_0]
theorem leaves1_1 (c : Dev nD) (t : Fin cfg1.N) :
    (dat1 V c).leavesExact 1 t = owns (c : Thread nD τ) (ms1_1 t) fullShare (iblk1 V c 1 t) := by
  rw [← after1_1]
theorem leaves1_2 (c : Dev nD) (t : Fin cfg1.N) :
    (dat1 V c).leavesExact 2 t = owns (c : Thread nD τ) (ms1_2 t) fullShare (iblk1 V c 2 t) := by
  rw [← after1_2]
theorem leaves1_3 (c : Dev nD) (t : Fin cfg1.N) :
    (dat1 V c).leavesExact 3 t = owns (c : Thread nD τ) (ms1_3 t) fullShare (iblk1 V c 3 t) := by
  rw [← after1_3]
theorem leaves1_4 (c : Dev nD) (t : Fin cfg1.N) :
    (dat1 V c).leavesExact 4 t = owns (c : Thread nD τ) (ms1_4 t) fullShare (iblk1 V c 4 t) := by
  rw [← after1_4]
theorem leaves1_5 (c : Dev nD) (t : Fin cfg1.N) :
    (dat1 V c).leavesExact 5 t = owns (c : Thread nD τ) (ms1_5 t) fullShare (iblk1 V c 5 t) := by
  rw [← after1_5]
theorem leaves1_6 (c : Dev nD) (t : Fin cfg1.N) :
    (dat1 V c).leavesExact 6 t = owns (c : Thread nD τ) (ms1_6 t) fullShare (iblk1 V c 6 t) := by
  rw [← after1_6]
theorem leaves1_7 (c : Dev nD) (t : Fin cfg1.N) :
    (dat1 V c).leavesExact 7 t = owns (c : Thread nD τ) (ms1_7 t) fullShare (iblk1 V c 7 t) := by
  rw [← after1_7]
theorem leaves1_8 (c : Dev nD) (t : Fin cfg1.N) :
    (dat1 V c).leavesExact 8 t = owns (c : Thread nD τ) (ms1_8 t) fullShare (lat1At V c t.val t.isLt) := by
  unfold Dat.leavesExact; rw [live1_8 _, after1_8]
theorem leaves1_9 (c : Dev nD) (t : Fin cfg1.N) :
    (dat1 V c).leavesExact 9 t = owns (c : Thread nD τ) (ms1_9 t) fullShare (lat2At V c t.val t.isLt) := by
  unfold Dat.leavesExact; rw [live1_9 _, after1_9]
/-- The combined latent's window at k = 7: live, its buffer at one half of the two running sums added. -/
theorem leaves1_10 (c : Dev nD) (t : Fin cfg1.N) (h : t.val % 8 = 7) :
    (dat1 V c).leavesExact 10 t = owns (c : Thread nD τ) (ms1_10 t) fullShare (combAt V c t.val t.isLt) := by
  unfold Dat.leavesExact
  rw [show cfg1.idle 10 (cfg1.grid.coords t) = false from Bool.eq_false_iff.mpr fun hi => (idle1_10 t).mp hi h, after1_10]

/-- What the body is called with at point `t`: the invariant, what the core owes, each window's current buffer at what it
    then holds; -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

/-- and what it hands back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 1600000 in
/-- The body at any point: the inputs' buffers hold their blocks; the column index k = t % 8 says which of the three cases
    the point is in; at k > 0 the latents' buffers hold the running sums the point before left; so that case's run applies,
    and what it leaves is what the data say (the running sums' case equations). At k < 7 the combined latent's buffer is
    handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    leaves1_0, leaves1_1, leaves1_2, leaves1_3, leaves1_4, leaves1_5, leaves1_6, leaves1_7, leaves1_8, leaves1_9]
  have hN : t.val < 64 := lt_of_lt_of_eq t.isLt (show cfg1.N = 64 from N_1)
  by_cases hk0 : t.val % 8 = 0
  · have hk7 : ¬t.val % 8 = 7 := by omega
    rw [Dat.leavesExact_idle (dat1 V c) 10 t ((idle1_10 t).mpr hk7) (Bool.eq_false_iff.mpr fun hf => hk7 ((flush1_10 t).mp hf))]
    rw [lat1At_first V c t hk0, lat2At_first V c t hk0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
    iapply (run1_first c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t)
      ((hcond1_1 t).mpr hk0) (fun h => (hcond1_2 t).mp h hk0) (fun h => hk7 ((hcond1_3 t).mp h))
      (iblk1 V c 0 t) (iblk1 V c 1 t) (iblk1 V c 2 t) (iblk1 V c 3 t) (iblk1 V c 4 t) (iblk1 V c 5 t) (iblk1 V c 6 t) (iblk1 V c 7 t) Set.univ _)
    unfold ins1
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    isplitl [H9]; · iexists _; iexact H9
    iintro ⟨⟨H0, H1, H2, H3, H4, H5, H6, H7⟩, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · simp only [before1_8 V c t hk0, before1_9 V c t hk0]
    rw [lat1At_later V c t hk0, lat2At_later V c t hk0]
    by_cases hk7 : t.val % 8 = 7
    · rw [leaves1_10 V c t hk7]
      unfold combAt
      rw [lat1At_later V c t hk0, lat2At_later V c t hk0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run1_last c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t)
        (fun h => hk0 ((hcond1_1 t).mp h)) ((hcond1_2 t).mpr hk0) ((hcond1_3 t).mpr hk7)
        (iblk1 V c 0 t) (iblk1 V c 1 t) (iblk1 V c 2 t) (iblk1 V c 3 t) (iblk1 V c 4 t) (iblk1 V c 5 t) (iblk1 V c 6 t) (iblk1 V c 7 t)
        (lat1At V c (t.val - 1) (Nat.lt_of_le_of_lt (Nat.sub_le _ _) t.isLt)) (lat2At V c (t.val - 1) (Nat.lt_of_le_of_lt (Nat.sub_le _ _) t.isLt)) Set.univ _)
      unfold ins1
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexact H8
      isplitl [H9]; · iexact H9
      isplitl [H10]; · iexists _; iexact H10
      iintro ⟨⟨H0, H1, H2, H3, H4, H5, H6, H7⟩, H8, H9, H10⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [Dat.leavesExact_idle (dat1 V c) 10 t ((idle1_10 t).mpr hk7) (Bool.eq_false_iff.mpr fun hf => hk7 ((flush1_10 t).mp hf))]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
      iapply (run1_mid c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t)
        (fun h => hk0 ((hcond1_1 t).mp h)) ((hcond1_2 t).mpr hk0) (fun h => hk7 ((hcond1_3 t).mp h))
        (iblk1 V c 0 t) (iblk1 V c 1 t) (iblk1 V c 2 t) (iblk1 V c 3 t) (iblk1 V c 4 t) (iblk1 V c 5 t) (iblk1 V c 6 t) (iblk1 V c 7 t)
        (lat1At V c (t.val - 1) (Nat.lt_of_le_of_lt (Nat.sub_le _ _) t.isLt)) (lat2At V c (t.val - 1) (Nat.lt_of_le_of_lt (Nat.sub_le _ _) t.isLt)) Set.univ _)
      unfold ins1
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexact H8
      isplitl [H9]; · iexact H9
      iintro ⟨⟨H0, H1, H2, H3, H4, H5, H6, H7⟩, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The body, called at any point with the inputs' buffers at their blocks and the latents' buffers at what the point
    before left (when k > 0), leaves every buffer as the data say. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Reg2Runs.lean ====
/-
  The decoder pass's body, case by case. The body's three conditionals depend on the column index k of the point alone:
  k = 0 stores each adjacency product into its scratch buffer, k > 0 adds it to what the scratch holds, and k = 7 also
  multiplies each scratch by its decoder weight into the reconstruction's buffer. Each case is run once on arbitrary whole
  memrefs, with the contents every buffer ends at written out over the body's named payloads.
-/
import proofs.«114995_g68247030333984_cont_9to1_m_654_2_alg».proof.Proof.Carried
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's three conditions, in closed form over the grid -/

/-- The first conditional's condition: the column index is 0. -/
abbrev cond2_0 (i : grid2.Coords) : Prop :=
  (Scalar.cmpi .ne (Scalar.extui (Scalar.cmpi .eq (BitVec.ofNat 32 (i 1).val) 0#32)) 0#32) = 1#1
/-- The second conditional's condition: the column index is positive. -/
abbrev cond2_1 (i : grid2.Coords) : Prop :=
  (Scalar.cmpi .ne (Scalar.extui (Scalar.cmpi .sgt (BitVec.ofNat 32 (i 1).val) 0#32)) 0#32) = 1#1
/-- The third conditional's condition: the column index is 7. -/
abbrev cond2_2 (i : grid2.Coords) : Prop := k2_cond3 i = 1#1

theorem hcond2_0 : ∀ t : Fin cfg2.N, cond2_0 (grid2.coords t) ↔ t.val % 8 = 0 :=
  (by decide +kernel : ∀ t : Fin grid2.N, cond2_0 (grid2.coords t) ↔ t.val % 8 = 0)
theorem hcond2_1 : ∀ t : Fin cfg2.N, cond2_1 (grid2.coords t) ↔ t.val % 8 ≠ 0 :=
  (by decide +kernel : ∀ t : Fin grid2.N, cond2_1 (grid2.coords t) ↔ t.val % 8 ≠ 0)
theorem hcond2_2 : ∀ t : Fin cfg2.N, cond2_2 (grid2.coords t) ↔ t.val % 8 = 7 :=
  (by decide +kernel : ∀ t : Fin grid2.N, cond2_2 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Off the last column the two reconstructions' windows are idle and not written back; -/
theorem idleAt2_5 : ∀ t : Fin cfg2.N, ¬cond2_2 (grid2.coords t) → cfg2.idle 5 (grid2.coords t) = true := by decide +kernel
theorem idleAt2_6 : ∀ t : Fin cfg2.N, ¬cond2_2 (grid2.coords t) → cfg2.idle 6 (grid2.coords t) = true := by decide +kernel
theorem noFlush2_5 : ∀ t : Fin cfg2.N, ¬cond2_2 (grid2.coords t) → (cfg2.win 5).flush t = false := by decide +kernel
theorem noFlush2_6 : ∀ t : Fin cfg2.N, ¬cond2_2 (grid2.coords t) → (cfg2.win 6).flush t = false := by decide +kernel
/-- on it they are live. -/
theorem liveAt2_5 : ∀ t : Fin cfg2.N, cond2_2 (grid2.coords t) → cfg2.idle 5 (grid2.coords t) = false := by decide +kernel
theorem liveAt2_6 : ∀ t : Fin cfg2.N, cond2_2 (grid2.coords t) → cfg2.idle 6 (grid2.coords t) = false := by decide +kernel

/-- The zero offsets of a whole-block load or store, as the constant function. -/
theorem off2_zero : (![0, 0] : Fin 2 → Nat) = fun _ => 0 := by
  funext a; fin_cases a <;> rfl

/-! ## Whole-block loads and stores on a whole memref -/

/-- A load through the whole-shape rectangle of a whole memref whose contents read `X` reads `X`. -/
theorem readAt_whole2 {sp : Space} {S : Shape} {e : EltTy} {m : Memref sig .tc sp S e} (h : m.IsWhole)
    {off : Fin S.rank → Nat} (hz : off = fun _ => 0) (inb : ∀ a, off a + S.size a ≤ S.size a) (X : S.Idx → Elt F e) :
    m.view.readAt (Elt F) (Rect.unit off S.size inb).toLoadRect (h.unread X) = X := by
  rw [View.readAt_eq_ld, h.read_unread, View.ld_unit_zero hz]

/-- One store through the whole-shape rectangle leaves its payload, whatever the buffer held. -/
theorem read_store_whole2 {sp : Space} {S : Shape} {e : EltTy} (v : View sig .tc sp S e) (f : v.ty.Contents (Elt F))
    {off : Fin S.rank → Nat} (hz : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero hz inb y⟩),
    View.canon_unit_zero hz]

/-! ## The three runs -/

set_option maxHeartbeats 1000000 in
/-- Column index 0: each product is stored into its scratch buffer; nothing else is written. -/
theorem run2_A (c : Dev nD) (i : grid2.Coords)
    (arg2 : Memref sig .tc .vmem S512x512 .f32) (harg2 : arg2.IsWhole) (arg3 : Memref sig .tc .vmem S512x512 .f32) (harg3 : arg3.IsWhole)
    (arg4 : Memref sig .tc .vmem S512x32 .f32) (harg4 : arg4.IsWhole) (arg5 : Memref sig .tc .vmem S32x128 .f32) (harg5 : arg5.IsWhole)
    (arg6 : Memref sig .tc .vmem S32x128 .f32) (harg6 : arg6.IsWhole) (arg7 : Memref sig .tc .vmem S512x128 .f32) (harg7 : arg7.IsWhole)
    (arg8 : Memref sig .tc .vmem S512x128 .f32) (harg8 : arg8.IsWhole) (arg9 : Memref sig .tc .vmem S512x32 .f32) (harg9 : arg9.IsWhole)
    (arg10 : Memref sig .tc .vmem S512x32 .f32) (harg10 : arg10.IsWhole)
    (hc0 : cond2_0 i) (hc1 : ¬cond2_1 i) (hc2 : ¬cond2_2 i)
    (x0 : Vec F S512x512 .f32) (x1 : Vec F S512x512 .f32) (x2 : Vec F S512x32 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg9 fullShare (k2_pay3 x0 x2) ∗ owns (c : Thread nD τ) arg10 fullShare (k2_pay4 x1 x2)) -∗ K ⟨⟩))
      ⊢ wp frame (wpE (defs₀ (F := F)) Variants.none c none) E
          (cc2__pass2_body i arg2 harg2 arg3 harg3 arg4 harg4 arg5 harg5 arg6 harg6 arg7 harg7 arg8 harg8 arg9 harg9 arg10 harg10) K := by
  simp only [cc2__pass2_body_eq_skeleton]; unfold cc2__pass2_body_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg2.eq_unread hf0; obtain rfl := harg3.eq_unread hf1; obtain rfl := harg4.eq_unread hf2
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS0]
  · iexists _; isplitr
    swap; · iexact HS0
    ipureintro
    rw [read_store_whole2 _ _ off2_zero, readAt_whole2 harg2 off2_zero, readAt_whole2 harg4 off2_zero]
  · iexists _; isplitr
    swap; · iexact HS1
    ipureintro
    rw [read_store_whole2 _ _ off2_zero, readAt_whole2 harg3 off2_zero, readAt_whole2 harg4 off2_zero]

set_option maxHeartbeats 1000000 in
/-- Column index strictly between 0 and 7: each product is added to what its scratch buffer holds. -/
theorem run2_B (c : Dev nD) (i : grid2.Coords)
    (arg2 : Memref sig .tc .vmem S512x512 .f32) (harg2 : arg2.IsWhole) (arg3 : Memref sig .tc .vmem S512x512 .f32) (harg3 : arg3.IsWhole)
    (arg4 : Memref sig .tc .vmem S512x32 .f32) (harg4 : arg4.IsWhole) (arg5 : Memref sig .tc .vmem S32x128 .f32) (harg5 : arg5.IsWhole)
    (arg6 : Memref sig .tc .vmem S32x128 .f32) (harg6 : arg6.IsWhole) (arg7 : Memref sig .tc .vmem S512x128 .f32) (harg7 : arg7.IsWhole)
    (arg8 : Memref sig .tc .vmem S512x128 .f32) (harg8 : arg8.IsWhole) (arg9 : Memref sig .tc .vmem S512x32 .f32) (harg9 : arg9.IsWhole)
    (arg10 : Memref sig .tc .vmem S512x32 .f32) (harg10 : arg10.IsWhole)
    (hc0 : ¬cond2_0 i) (hc1 : cond2_1 i) (hc2 : ¬cond2_2 i)
    (x0 : Vec F S512x512 .f32) (x1 : Vec F S512x512 .f32) (x2 : Vec F S512x32 .f32)
    (xs0 : Vec F S512x32 .f32) (xs1 : Vec F S512x32 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2
            ∗ owns (c : Thread nD τ) arg9 fullShare (k2_pay5 x0 x2 xs0) ∗ owns (c : Thread nD τ) arg10 fullShare (k2_pay6 x1 x2 xs1)) -∗ K ⟨⟩))
      ⊢ wp frame (wpE (defs₀ (F := F)) Variants.none c none) E
          (cc2__pass2_body i arg2 harg2 arg3 harg3 arg4 harg4 arg5 harg5 arg6 harg6 arg7 harg7 arg8 harg8 arg9 harg9 arg10 harg10) K := by
  simp only [cc2__pass2_body_eq_skeleton]; unfold cc2__pass2_body_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS0]
  · iexists _; isplitr
    swap; · iexact HS0
    ipureintro
    rw [read_store_whole2 _ _ off2_zero, readAt_whole2 harg2 off2_zero, readAt_whole2 harg4 off2_zero, readAt_whole2 harg9 off2_zero]
  · iexists _; isplitr
    swap; · iexact HS1
    ipureintro
    rw [read_store_whole2 _ _ off2_zero, readAt_whole2 harg3 off2_zero, readAt_whole2 harg4 off2_zero, readAt_whole2 harg10 off2_zero]

set_option maxHeartbeats 1000000 in
/-- Column index 7: each product is added to its scratch buffer, and each scratch times its decoder weight is stored into
    the reconstruction's buffer. -/
theorem run2_C (c : Dev nD) (i : grid2.Coords)
    (arg2 : Memref sig .tc .vmem S512x512 .f32) (harg2 : arg2.IsWhole) (arg3 : Memref sig .tc .vmem S512x512 .f32) (harg3 : arg3.IsWhole)
    (arg4 : Memref sig .tc .vmem S512x32 .f32) (harg4 : arg4.IsWhole) (arg5 : Memref sig .tc .vmem S32x128 .f32) (harg5 : arg5.IsWhole)
    (arg6 : Memref sig .tc .vmem S32x128 .f32) (harg6 : arg6.IsWhole) (arg7 : Memref sig .tc .vmem S512x128 .f32) (harg7 : arg7.IsWhole)
    (arg8 : Memref sig .tc .vmem S512x128 .f32) (harg8 : arg8.IsWhole) (arg9 : Memref sig .tc .vmem S512x32 .f32) (harg9 : arg9.IsWhole)
    (arg10 : Memref sig .tc .vmem S512x32 .f32) (harg10 : arg10.IsWhole)
    (hc0 : ¬cond2_0 i) (hc1 : cond2_1 i) (hc2 : cond2_2 i)
    (x0 : Vec F S512x512 .f32) (x1 : Vec F S512x512 .f32) (x2 : Vec F S512x32 .f32)
    (x3 : Vec F S32x128 .f32) (x4 : Vec F S32x128 .f32)
    (xs0 : Vec F S512x32 .f32) (xs1 : Vec F S512x32 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ owns (c : Thread nD τ) arg9 fullShare xs0 ∗ owns (c : Thread nD τ) arg10 fullShare xs1
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k2_pay7 (k2_pay5 x0 x2 xs0) x3) ∗ owns (c : Thread nD τ) arg8 fullShare (k2_pay8 (k2_pay6 x1 x2 xs1) x4)
            ∗ owns (c : Thread nD τ) arg9 fullShare (k2_pay5 x0 x2 xs0) ∗ owns (c : Thread nD τ) arg10 fullShare (k2_pay6 x1 x2 xs1)) -∗ K ⟨⟩))
      ⊢ wp frame (wpE (defs₀ (F := F)) Variants.none c none) E
          (cc2__pass2_body i arg2 harg2 arg3 harg3 arg4 harg4 arg5 harg5 arg6 harg6 arg7 harg7 arg8 harg8 arg9 harg9 arg10 harg10) K := by
  simp only [cc2__pass2_body_eq_skeleton]; unfold cc2__pass2_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4
  obtain rfl := harg9.eq_unread hfs0; obtain rfl := harg10.eq_unread hfs1
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_words
    rw [read_store_whole2 _ _ off2_zero, View.readCov_unit_zero _ off2_zero, readAt_whole2 harg2 off2_zero, readAt_whole2 harg4 off2_zero,
      readAt_whole2 harg9 off2_zero, readAt_whole2 harg5 off2_zero]
  isplitl [H6]
  · iexists _; isplitr
    swap; · iexact H6
    ipureintro
    sl_unfold_words
    rw [read_store_whole2 _ _ off2_zero, View.readCov_unit_zero _ off2_zero, readAt_whole2 harg3 off2_zero, readAt_whole2 harg4 off2_zero,
      readAt_whole2 harg10 off2_zero, readAt_whole2 harg6 off2_zero]
  isplitl [HS0]
  · iexists _; isplitr
    swap; · iexact HS0
    ipureintro
    sl_unfold_words
    rw [read_store_whole2 _ _ off2_zero, readAt_whole2 harg2 off2_zero, readAt_whole2 harg4 off2_zero, readAt_whole2 harg9 off2_zero]
  · iexists _; isplitr
    swap; · iexact HS1
    ipureintro
    sl_unfold_words
    rw [read_store_whole2 _ _ off2_zero, readAt_whole2 harg3 off2_zero, readAt_whole2 harg4 off2_zero, readAt_whole2 harg10 off2_zero]

end Cert.KernelIdeal.Hand

end
-- ==== Proof.Reg2.lean ====
/-
  The decoder pass (grid 8 x 8, point n = 8·i + k): each point multiplies two 512 x 512 adjacency blocks into the
  combined latent's row block; the two products are kept in two scratch buffers while k runs (set at k = 0, added to
  for k > 0), and at k = 7 each scratch times its decoder weight is stored as the reconstruction's row block. Its proof
  data at the entry contents `V` — the scratch buffers' running contents are part of the invariant between points —
  and that the body does at every point what the data say.
-/
import proofs.«114995_g68247030333984_cont_9to1_m_654_2_alg».proof.Proof.Reg2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Entry F)

/-- The two scratch operands as memrefs. -/
abbrev scM2_0 : Memref sig .tc .vmem S512x32 .f32 := Memref.whole cc2_scratch0
abbrev scM2_1 : Memref sig .tc .vmem S512x32 .f32 := Memref.whole cc2_scratch1

/-- The invariant before position `n`: before the first point what the call is handed (every scoped buffer at
    anything); afterwards the two scratch buffers at the running sums the point before left, the other scoped buffers
    at anything, the generator register at some state. -/
def PhiS2 (c : Dev nD) : (n : Nat) → n ≤ cfg2.N → sProp 𝕄
  | 0, _ => Pipeline.ΦA spec2 c
  | n + 1, hn => iprop(iprop(owns (c : Thread nD τ) scM2_0 fullShare (s1At V c n hn) ∗ owns (c : Thread nD τ) scM2_1 fullShare (s2At V c n hn))
      ∗ Pipeline.scopedRestBut (Ix := Unit) (Name := ℕ) (U := UR sig nD τ) (Lvl := ℕ) (Val := Elt F) spec2 c [cc2_scratch0, cc2_scratch1]
      ∗ (∃ r, prngReg c r))

/-- The decoder pass's proof data: the arrays as entered; each input's buffer left at its block; each
    reconstruction's buffer at its scratch times its decoder weight. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => rec1At V c t.val t.isLt
    | ⟨6, _⟩ => rec2At V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = rec1At V c t.val t.isLt := by dsimp only [dat2]
theorem after2_6 (c : Dev nD) (t : Fin cfg2.N) : (dat2 V c).after 6 t = rec2At V c t.val t.isLt := by dsimp only [dat2]

/-! ## The staging memrefs at a point, as the pipeline passes them to the body -/

abbrev ms2_0 (t : Fin cfg2.N) : Memref sig .tc .vmem S512x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x32 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S32x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S32x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S512x128 .f32 := win2_6.stage (cfg2.slots t 6)
abbrev hs2_6 (t : Fin cfg2.N) : (ms2_6 t).IsWhole := hstage2_6 ((cfg2.slots t 6).cast nbuf2_6)

/-! ## The invariant, point by point -/

/-- What the call is handed, with the two scratch buffers as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [scM2_0, scM2_1, owns_whole]; try rfl

theorem PhiS2_zero (c : Dev nD) (n : ℕ) (h : n ≤ cfg2.N) (hz : n = 0) : PhiS2 V c n h = Pipeline.ΦA spec2 c := by
  subst hz; rfl

/-- After point `n`: the scratch buffers at that point's running sums. -/
theorem PhiS2_succ (c : Dev nD) (n : ℕ) (hn : n < cfg2.N) :
    PhiS2 V c (n + 1) hn = iprop(iprop(owns (c : Thread nD τ) scM2_0 fullShare (s1At V c n hn) ∗ owns (c : Thread nD τ) scM2_1 fullShare (s2At V c n hn))
      ∗ Pipeline.scopedRestBut (Ix := Unit) (Name := ℕ) (U := UR sig nD τ) (Lvl := ℕ) (Val := Elt F) spec2 c [cc2_scratch0, cc2_scratch1]
      ∗ (∃ r, prngReg c r)) := rfl

/-- Before a point that is not the first: the scratch buffers at what the point before left. -/
theorem PhiS2_pos (c : Dev nD) (n : ℕ) (h : n ≤ cfg2.N) (hz : n ≠ 0) :
    PhiS2 V c n h = iprop(iprop(owns (c : Thread nD τ) scM2_0 fullShare (s1At V c (n - 1) (by omega)) ∗ owns (c : Thread nD τ) scM2_1 fullShare (s2At V c (n - 1) (by omega)))
      ∗ Pipeline.scopedRestBut (Ix := Unit) (Name := ℕ) (U := UR sig nD τ) (Lvl := ℕ) (Val := Elt F) spec2 c [cc2_scratch0, cc2_scratch1]
      ∗ (∃ r, prngReg c r)) := by
  cases n with
  | zero => exact absurd rfl hz
  | succ n => rfl

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## What the body finds in the inputs' buffers: their blocks, fetched at the point or not -/

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

theorem before2_4 (c : Dev nD) (t : Fin cfg2.N) (d) : (dat2 V c).before 4 t d = iblk2 V c 4 t :=
  ((dat2 V c).before_in_eq_fetched 4 rfl (fun _ => rfl) (fun _ _ _ => rfl)
      (fun t => by rw [after2_4]; unfold Dat.blockOf iblk2; rw [A_eq2]; try rfl) t d).trans
    (by unfold Dat.fetched Dat.blockOf iblk2; rw [A_eq2]; try rfl)

/-! ## The running sums' case equations -/

theorem s1At_first (c : Dev nD) (t : Fin cfg2.N) (h0 : t.val % 8 = 0) :
    s1At V c t.val t.isLt = k2_pay3 (iblk2 V c 0 t) (iblk2 V c 2 t) := by
  obtain ⟨n, hn⟩ := t
  cases n with
  | zero => rfl
  | succ n => exact (if_pos h0).trans rfl

theorem s1At_next (c : Dev nD) (t : Fin cfg2.N) (h0 : ¬t.val % 8 = 0) :
    s1At V c t.val t.isLt = k2_pay5 (iblk2 V c 0 t) (iblk2 V c 2 t) (s1At V c (t.val - 1) (Nat.lt_of_le_of_lt (Nat.sub_le _ _) t.isLt)) := by
  obtain ⟨n, hn⟩ := t
  cases n with
  | zero => exact absurd (Nat.zero_mod _) h0
  | succ n => exact (if_neg h0).trans rfl

theorem s2At_first (c : Dev nD) (t : Fin cfg2.N) (h0 : t.val % 8 = 0) :
    s2At V c t.val t.isLt = k2_pay4 (iblk2 V c 1 t) (iblk2 V c 2 t) := by
  obtain ⟨n, hn⟩ := t
  cases n with
  | zero => rfl
  | succ n => exact (if_pos h0).trans rfl

theorem s2At_next (c : Dev nD) (t : Fin cfg2.N) (h0 : ¬t.val % 8 = 0) :
    s2At V c t.val t.isLt = k2_pay6 (iblk2 V c 1 t) (iblk2 V c 2 t) (s2At V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The body obligation at a point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' buffers hold their blocks; the column index says which of the three cases the point
    is in; the invariant hands the body the two scratch buffers at what the point before left (at anything at the first
    point) and takes them back at this point's running sums; off the last column the reconstructions' buffers are handed
    back as found, on it they end at each scratch times its decoder weight; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  have hN : t.val < 64 := lt_of_lt_of_eq t.isLt (show cfg2.N = 64 from N_2)
  by_cases h0 : t.val % 8 = 0
  · have hc0 : cond2_0 (grid2.coords t) := (hcond2_0 t).mpr h0
    have hc1 : ¬cond2_1 (grid2.coords t) := fun h => (hcond2_1 t).mp h h0
    have hc2 : ¬cond2_2 (grid2.coords t) := fun h => by have := (hcond2_2 t).mp h; omega
    rw [Dat.leavesExact_idle (dat2 V c) 5 t (idleAt2_5 t hc2) (noFlush2_5 t hc2),
      Dat.leavesExact_idle (dat2 V c) 6 t (idleAt2_6 t hc2) (noFlush2_6 t hc2)]
    rw [s1At_first V c t h0, s2At_first V c t h0]
    by_cases hz : t.val = 0
    · rw [PhiS2_castSucc V c t, PhiS2_zero V c _ _ hz, PhiA2_eq]
      iintro ⟨⟨⟨⟨HS0, HS1⟩, HR⟩, Hg⟩, Ho, ⟨%d0, H0⟩, ⟨%d1, H1⟩, ⟨%d2, H2⟩, ⟨%d3, H3⟩, ⟨%d4, H4⟩, H5, H6⟩
      iapply (run2_A c (grid2.coords t) _ _ _ _ _ _ _ _ _ _ _ _ _ _ _ _ _ _ hc0 hc1 hc2 (iblk2 V c 0 t) (iblk2 V c 1 t) (iblk2 V c 2 t) Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1]
        · isplitl [HS0]; · iexact HS0
          iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS2_castSucc V c t, PhiS2_pos V c _ _ hz]
      iintro ⟨⟨⟨HS0, HS1⟩, HR, Hg⟩, Ho, ⟨%d0, H0⟩, ⟨%d1, H1⟩, ⟨%d2, H2⟩, ⟨%d3, H3⟩, ⟨%d4, H4⟩, H5, H6⟩
      iapply (run2_A c (grid2.coords t) _ _ _ _ _ _ _ _ _ _ _ _ _ _ _ _ _ _ hc0 hc1 hc2 (iblk2 V c 0 t) (iblk2 V c 1 t) (iblk2 V c 2 t) Set.univ _)
      isplitl [H0]; · iexact H0
      isplitl [H1]; · iexact H1
      isplitl [H2]; · iexact H2
      isplitl [HS0]; · iexists _; iexact HS0
      isplitl [HS1]; · iexists _; iexact HS1
      iintro ⟨H0, H1, H2, HS0, HS1⟩
      isplitl [HS0 HS1 HR Hg]
      · isplitl [HS0 HS1]
        · isplitl [HS0]; · iexact HS0
          iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · by_cases h7 : t.val % 8 = 7
    · have hc0 : ¬cond2_0 (grid2.coords t) := fun h => h0 ((hcond2_0 t).mp h)
      have hc1 : cond2_1 (grid2.coords t) := (hcond2_1 t).mpr h0
      have hc2 : cond2_2 (grid2.coords t) := (hcond2_2 t).mpr h7
      have hz : t.val ≠ 0 := fun h => h0 (by rw [h])
      rw [show (dat2 V c).leavesExact 5 t = owns (c : Thread nD τ) (ms2_5 t) fullShare ((dat2 V c).after 5 t) from by
        unfold Dat.leavesExact; rw [liveAt2_5 t hc2], after2_5]
      rw [show (dat2 V c).leavesExact 6 t = owns (c : Thread nD τ) (ms2_6 t) fullShare ((dat2 V c).after 6 t) from by
        unfold Dat.leavesExact; rw [liveAt2_6 t hc2], after2_6]
      unfold rec1At rec2At
      rw [s1At_next V c t h0, s2At_next V c t h0]
      rw [PhiS2_castSucc V c t, PhiS2_pos V c _ _ hz]
      iintro ⟨⟨⟨HS0, HS1⟩, HR, Hg⟩, Ho, ⟨%d0, H0⟩, ⟨%d1, H1⟩, ⟨%d2, H2⟩, ⟨%d3, H3⟩, ⟨%d4, H4⟩, ⟨%d5, H5⟩, ⟨%d6, H6⟩⟩
      iapply (run2_C c (grid2.coords t) _ _ _ _ _ _ _ _ _ _ _ _ _ _ _ _ _ _ hc0 hc1 hc2 (iblk2 V c 0 t) (iblk2 V c 1 t) (iblk2 V c 2 t) (iblk2 V c 3 t) (iblk2 V c 4 t) _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 HR Hg]
      · isplitl [HS0 HS1]
        · isplitl [HS0]; · iexact HS0
          iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc0 : ¬cond2_0 (grid2.coords t) := fun h => h0 ((hcond2_0 t).mp h)
      have hc1 : cond2_1 (grid2.coords t) := (hcond2_1 t).mpr h0
      have hc2 : ¬cond2_2 (grid2.coords t) := fun h => h7 ((hcond2_2 t).mp h)
      have hz : t.val ≠ 0 := fun h => h0 (by rw [h])
      rw [Dat.leavesExact_idle (dat2 V c) 5 t (idleAt2_5 t hc2) (noFlush2_5 t hc2),
        Dat.leavesExact_idle (dat2 V c) 6 t (idleAt2_6 t hc2) (noFlush2_6 t hc2)]
      rw [s1At_next V c t h0, s2At_next V c t h0]
      rw [PhiS2_castSucc V c t, PhiS2_pos V c _ _ hz]
      iintro ⟨⟨⟨HS0, HS1⟩, HR, Hg⟩, Ho, ⟨%d0, H0⟩, ⟨%d1, H1⟩, ⟨%d2, H2⟩, ⟨%d3, H3⟩, ⟨%d4, H4⟩, H5, H6⟩
      iapply (run2_B c (grid2.coords t) _ _ _ _ _ _ _ _ _ _ _ _ _ _ _ _ _ _ hc0 hc1 hc2 (iblk2 V c 0 t) (iblk2 V c 1 t) (iblk2 V c 2 t) _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1]
        · isplitl [HS0]; · iexact HS0
          iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body, called at any point with the inputs' buffers at their blocks and the scratch buffers at what the point
    before left (when k > 0), leaves every buffer and the scratch as the data say. -/
theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives back what the call was handed: the scratch buffers' contents are
    forgotten. -/
theorem Phi2_out (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HS0, HS1⟩, HR, Hg⟩
  isplitl [HS0 HS1 HR]
  · isplitl [HS0 HS1]
    · isplitl [HS0]
      · iexists _; iexact HS0
      iexists _; iexact HS1
    iexact HR
  iexact Hg

/-- After the last point the invariant gives back what the call was handed: the scratch buffers' contents are forgotten. -/
theorem hout2 (c : Dev nD) : (dat2 V c).Φ (Fin.last cfg2.N) ⊢ (Pipeline.ΦA spec2 c : sProp 𝕄) :=
  Phi2_out V c _ (by rw [Fin.val_last]; have : cfg2.N = 64 := N_2; omega)

end Cert.KernelIdeal.Hand

end
-- ==== Proof.Launch.lean ====
/-
  The whole run of @main. Four host reshapes turn the four combination scalars into 1 x 1 arrays; then the three
  calls run in turn: the prologue, the latent pass, the decoder pass. Each call is entered with the contents the
  stretch before it left: the launch contents after the reshapes for the prologue; those with the prologue's four
  result arrays at what its write-backs leave for the latent pass; those with the three latent arrays at what the
  latent pass's write-backs leave for the decoder pass. A call changes its result arrays only, so the fourteen
  arguments end as launched, and the five results end at the final arrays of the two passes.
-/
import proofs.«114995_g68247030333984_cont_9to1_m_654_2_alg».proof.Proof.Reg0
import proofs.«114995_g68247030333984_cont_9to1_m_654_2_alg».proof.Proof.Reg1
import proofs.«114995_g68247030333984_cont_9to1_m_654_2_alg».proof.Proof.Reg2
import proofs.«114995_g68247030333984_cont_9to1_m_654_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents between the calls: a fold through @main -/

/-- Core `c`'s buffers when the prologue is entered: the launch contents after the four reshapes. -/
abbrev X0 (c : Dev nD) : Valuation τ sig (Elt F) := V1 m c
/-- The same read at the TensorCore's references. -/
abbrev Vent0 : Entry F := fun c b => X0 m c b

/-- After the prologue: its arrays at what its write-backs leave, every other buffer as it was entered. -/
def X1 (c : Dev nD) : Valuation τ sig (Elt F) :=
  Pipeline.withArrays spec0 c (X0 m c) fun w => (dat0 (Vent0 m) c).arrAt w cfg0.N
theorem X1_arr (c : Dev nD) (w : Fin cfg0.W) :
    X1 m c (Proc.devRef .tc (Pipeline.arrRef spec0 w)) = (dat0 (Vent0 m) c).arrAt w cfg0.N := by
  unfold X1; exact Pipeline.withArrays_arr spec0 launch0.win.arr_inj c _ _ w
theorem X1_of_ne (c : Dev nD) (b : Ref sig .tc) (hb : ∀ w, Pipeline.arrRef spec0 w ≠ b) :
    X1 m c (Proc.devRef .tc b) = X0 m c (Proc.devRef .tc b) := by
  unfold X1; exact Pipeline.withArrays_of_ne spec0 c _ _ b hb
/-- The same read at the TensorCore's references. -/
abbrev Vent1 : Entry F := fun c b => X1 m c b
/-- The two facts that put the call's arrays back among the unscoped buffers at its exit. -/
theorem hF0 (c : Dev nD) (w : Fin cfg0.W) : (dat0 (Vent0 m) c).arrAt w cfg0.N = Vent1 m c (Pipeline.arrRef spec0 w) :=
  (X1_arr m c w).symm
theorem hrest0 (c : Dev nD) : ∀ b, b ∉ Finset.univ.image (Pipeline.arrRef spec0) → Vent1 m c b = Vent0 m c b :=
  fun b hb => X1_of_ne m c b fun w e => hb (Finset.mem_image.mpr ⟨w, Finset.mem_univ _, e⟩)
/-- A window of the call whose array is none of its result arrays is an input window. -/
theorem isIn0 : ∀ w : Fin cfg0.W, Pipeline.arrRef spec0 w ∉ ([main_v4_0, main_v4_1, main_v4_2, main_v4_3] : List (Ref sig .tc)) → (cfg0.win w).isOut = false := by
  decide
/-- The call changes its result arrays only: an input window's array is never written back, and a buffer that is
    no window's array bypasses the call. -/
theorem X1_of (c : Dev nD) (b : Ref sig .tc) (hb : b ∉ ([main_v4_0, main_v4_1, main_v4_2, main_v4_3] : List (Ref sig .tc))) :
    X1 m c (Proc.devRef .tc b) = X0 m c (Proc.devRef .tc b) := by
  by_cases h : ∃ w, Pipeline.arrRef spec0 w = b
  · obtain ⟨w, rfl⟩ := h
    rw [X1_arr]
    exact ((dat0 (Vent0 m) c).arrAt_in w (isIn0 w hb) _).trans (A_eq0 (Vent0 m) c w)
  · exact X1_of_ne m c b fun w e => h ⟨w, e⟩

/-- After the latent pass: its arrays at what its write-backs leave, every other buffer as it was entered. -/
def X2 (c : Dev nD) : Valuation τ sig (Elt F) :=
  Pipeline.withArrays spec1 c (X1 m c) fun w => (dat1 (Vent1 m) c).arrAt w cfg1.N
theorem X2_arr (c : Dev nD) (w : Fin cfg1.W) :
    X2 m c (Proc.devRef .tc (Pipeline.arrRef spec1 w)) = (dat1 (Vent1 m) c).arrAt w cfg1.N := by
  unfold X2; exact Pipeline.withArrays_arr spec1 launch1.win.arr_inj c _ _ w
theorem X2_of_ne (c : Dev nD) (b : Ref sig .tc) (hb : ∀ w, Pipeline.arrRef spec1 w ≠ b) :
    X2 m c (Proc.devRef .tc b) = X1 m c (Proc.devRef .tc b) := by
  unfold X2; exact Pipeline.withArrays_of_ne spec1 c _ _ b hb
/-- The same read at the TensorCore's references. -/
abbrev Vent2 : Entry F := fun c b => X2 m c b
/-- The two facts that put the call's arrays back among the unscoped buffers at its exit. -/
theorem hF1 (c : Dev nD) (w : Fin cfg1.W) : (dat1 (Vent1 m) c).arrAt w cfg1.N = Vent2 m c (Pipeline.arrRef spec1 w) :=
  (X2_arr m c w).symm
theorem hrest1 (c : Dev nD) : ∀ b, b ∉ Finset.univ.image (Pipeline.arrRef spec1) → Vent2 m c b = Vent1 m c b :=
  fun b hb => X2_of_ne m c b fun w e => hb (Finset.mem_image.mpr ⟨w, Finset.mem_univ _, e⟩)
/-- A window of the call whose array is none of its result arrays is an input window. -/
theorem isIn1 : ∀ w : Fin cfg1.W, Pipeline.arrRef spec1 w ∉ ([main_v5_0, main_v5_1, main_v5_2] : List (Ref sig .tc)) → (cfg1.win w).isOut = false := by
  decide
/-- The call changes its result arrays only: an input window's array is never written back, and a buffer that is
    no window's array bypasses the call. -/
theorem X2_of (c : Dev nD) (b : Ref sig .tc) (hb : b ∉ ([main_v5_0, main_v5_1, main_v5_2] : List (Ref sig .tc))) :
    X2 m c (Proc.devRef .tc b) = X1 m c (Proc.devRef .tc b) := by
  by_cases h : ∃ w, Pipeline.arrRef spec1 w = b
  · obtain ⟨w, rfl⟩ := h
    rw [X2_arr]
    exact ((dat1 (Vent1 m) c).arrAt_in w (isIn1 w hb) _).trans (A_eq1 (Vent1 m) c w)
  · exact X2_of_ne m c b fun w e => h ⟨w, e⟩

/-- After the decoder pass: its arrays at what its write-backs leave, every other buffer as it was entered. -/
def X3 (c : Dev nD) : Valuation τ sig (Elt F) :=
  Pipeline.withArrays spec2 c (X2 m c) fun w => (dat2 (Vent2 m) c).arrAt w cfg2.N
theorem X3_arr (c : Dev nD) (w : Fin cfg2.W) :
    X3 m c (Proc.devRef .tc (Pipeline.arrRef spec2 w)) = (dat2 (Vent2 m) c).arrAt w cfg2.N := by
  unfold X3; exact Pipeline.withArrays_arr spec2 launch2.win.arr_inj c _ _ w
theorem X3_of_ne (c : Dev nD) (b : Ref sig .tc) (hb : ∀ w, Pipeline.arrRef spec2 w ≠ b) :
    X3 m c (Proc.devRef .tc b) = X2 m c (Proc.devRef .tc b) := by
  unfold X3; exact Pipeline.withArrays_of_ne spec2 c _ _ b hb
/-- The same read at the TensorCore's references. -/
abbrev Vfin : Entry F := fun c b => X3 m c b
/-- The two facts that put the call's arrays back among the unscoped buffers at its exit. -/
theorem hF2 (c : Dev nD) (w : Fin cfg2.W) : (dat2 (Vent2 m) c).arrAt w cfg2.N = Vfin m c (Pipeline.arrRef spec2 w) :=
  (X3_arr m c w).symm
theorem hrest2 (c : Dev nD) : ∀ b, b ∉ Finset.univ.image (Pipeline.arrRef spec2) → Vfin m c b = Vent2 m c b :=
  fun b hb => X3_of_ne m c b fun w e => hb (Finset.mem_image.mpr ⟨w, Finset.mem_univ _, e⟩)
/-- A window of the call whose array is none of its result arrays is an input window. -/
theorem isIn2 : ∀ w : Fin cfg2.W, Pipeline.arrRef spec2 w ∉ ([main_v6_0, main_v6_1] : List (Ref sig .tc)) → (cfg2.win w).isOut = false := by
  decide
/-- The call changes its result arrays only: an input window's array is never written back, and a buffer that is
    no window's array bypasses the call. -/
theorem X3_of (c : Dev nD) (b : Ref sig .tc) (hb : b ∉ ([main_v6_0, main_v6_1] : List (Ref sig .tc))) :
    X3 m c (Proc.devRef .tc b) = X2 m c (Proc.devRef .tc b) := by
  by_cases h : ∃ w, Pipeline.arrRef spec2 w = b
  · obtain ⟨w, rfl⟩ := h
    rw [X3_arr]
    exact ((dat2 (Vent2 m) c).arrAt_in w (isIn2 w hb) _).trans (A_eq2 (Vent2 m) c w)
  · exact X3_of_ne m c b fun w e => h ⟨w, e⟩

/-! ## The arguments end as launched -/

theorem X3_main_arg0 (c : Dev nD) : X3 m c (Proc.devRef .tc main_arg0) = m ((c : Thread nD τ).loc main_arg0) :=
  (X3_of m c main_arg0 (by decide)).trans <| (X2_of m c main_arg0 (by decide)).trans <| (X1_of m c main_arg0 (by decide)).trans <| (V1_of m c main_arg0 (by decide)).trans rfl
theorem X3_main_arg1 (c : Dev nD) : X3 m c (Proc.devRef .tc main_arg1) = m ((c : Thread nD τ).loc main_arg1) :=
  (X3_of m c main_arg1 (by decide)).trans <| (X2_of m c main_arg1 (by decide)).trans <| (X1_of m c main_arg1 (by decide)).trans <| (V1_of m c main_arg1 (by decide)).trans rfl
theorem X3_main_arg2 (c : Dev nD) : X3 m c (Proc.devRef .tc main_arg2) = m ((c : Thread nD τ).loc main_arg2) :=
  (X3_of m c main_arg2 (by decide)).trans <| (X2_of m c main_arg2 (by decide)).trans <| (X1_of m c main_arg2 (by decide)).trans <| (V1_of m c main_arg2 (by decide)).trans rfl
theorem X3_main_arg3 (c : Dev nD) : X3 m c (Proc.devRef .tc main_arg3) = m ((c : Thread nD τ).loc main_arg3) :=
  (X3_of m c main_arg3 (by decide)).trans <| (X2_of m c main_arg3 (by decide)).trans <| (X1_of m c main_arg3 (by decide)).trans <| (V1_of m c main_arg3 (by decide)).trans rfl
theorem X3_main_arg4 (c : Dev nD) : X3 m c (Proc.devRef .tc main_arg4) = m ((c : Thread nD τ).loc main_arg4) :=
  (X3_of m c main_arg4 (by decide)).trans <| (X2_of m c main_arg4 (by decide)).trans <| (X1_of m c main_arg4 (by decide)).trans <| (V1_of m c main_arg4 (by decide)).trans rfl
theorem X3_main_arg5 (c : Dev nD) : X3 m c (Proc.devRef .tc main_arg5) = m ((c : Thread nD τ).loc main_arg5) :=
  (X3_of m c main_arg5 (by decide)).trans <| (X2_of m c main_arg5 (by decide)).trans <| (X1_of m c main_arg5 (by decide)).trans <| (V1_of m c main_arg5 (by decide)).trans rfl
theorem X3_main_arg6 (c : Dev nD) : X3 m c (Proc.devRef .tc main_arg6) = m ((c : Thread nD τ).loc main_arg6) :=
  (X3_of m c main_arg6 (by decide)).trans <| (X2_of m c main_arg6 (by decide)).trans <| (X1_of m c main_arg6 (by decide)).trans <| (V1_of m c main_arg6 (by decide)).trans rfl
theorem X3_main_arg7 (c : Dev nD) : X3 m c (Proc.devRef .tc main_arg7) = m ((c : Thread nD τ).loc main_arg7) :=
  (X3_of m c main_arg7 (by decide)).trans <| (X2_of m c main_arg7 (by decide)).trans <| (X1_of m c main_arg7 (by decide)).trans <| (V1_of m c main_arg7 (by decide)).trans rfl
theorem X3_main_arg8 (c : Dev nD) : X3 m c (Proc.devRef .tc main_arg8) = m ((c : Thread nD τ).loc main_arg8) :=
  (X3_of m c main_arg8 (by decide)).trans <| (X2_of m c main_arg8 (by decide)).trans <| (X1_of m c main_arg8 (by decide)).trans <| (V1_of m c main_arg8 (by decide)).trans rfl
theorem X3_main_arg9 (c : Dev nD) : X3 m c (Proc.devRef .tc main_arg9) = m ((c : Thread nD τ).loc main_arg9) :=
  (X3_of m c main_arg9 (by decide)).trans <| (X2_of m c main_arg9 (by decide)).trans <| (X1_of m c main_arg9 (by decide)).trans <| (V1_of m c main_arg9 (by decide)).trans rfl
theorem X3_main_arg10 (c : Dev nD) : X3 m c (Proc.devRef .tc main_arg10) = m ((c : Thread nD τ).loc main_arg10) :=
  (X3_of m c main_arg10 (by decide)).trans <| (X2_of m c main_arg10 (by decide)).trans <| (X1_of m c main_arg10 (by decide)).trans <| (V1_of m c main_arg10 (by decide)).trans rfl
theorem X3_main_arg11 (c : Dev nD) : X3 m c (Proc.devRef .tc main_arg11) = m ((c : Thread nD τ).loc main_arg11) :=
  (X3_of m c main_arg11 (by decide)).trans <| (X2_of m c main_arg11 (by decide)).trans <| (X1_of m c main_arg11 (by decide)).trans <| (V1_of m c main_arg11 (by decide)).trans rfl
theorem X3_main_arg12 (c : Dev nD) : X3 m c (Proc.devRef .tc main_arg12) = m ((c : Thread nD τ).loc main_arg12) :=
  (X3_of m c main_arg12 (by decide)).trans <| (X2_of m c main_arg12 (by decide)).trans <| (X1_of m c main_arg12 (by decide)).trans <| (V1_of m c main_arg12 (by decide)).trans rfl
theorem X3_main_arg13 (c : Dev nD) : X3 m c (Proc.devRef .tc main_arg13) = m ((c : Thread nD τ).loc main_arg13) :=
  (X3_of m c main_arg13 (by decide)).trans <| (X2_of m c main_arg13 (by decide)).trans <| (X1_of m c main_arg13 (by decide)).trans <| (V1_of m c main_arg13 (by decide)).trans rfl

/-! ## The five results: the final arrays of the two passes -/

/-- Latent 1 after the run. -/
abbrev Res1_8 (c : Dev nD) := (dat1 (Vent1 m) c).arrAt 8 cfg1.N
/-- Latent 2 after the run. -/
abbrev Res1_9 (c : Dev nD) := (dat1 (Vent1 m) c).arrAt 9 cfg1.N
/-- The combined latent after the run. -/
abbrev Res1_10 (c : Dev nD) := (dat1 (Vent1 m) c).arrAt 10 cfg1.N
/-- Reconstruction 1 after the run. -/
abbrev Res2_5 (c : Dev nD) := (dat2 (Vent2 m) c).arrAt 5 cfg2.N
/-- Reconstruction 2 after the run. -/
abbrev Res2_6 (c : Dev nD) := (dat2 (Vent2 m) c).arrAt 6 cfg2.N

theorem X3_main_v5_0 (c : Dev nD) : X3 m c (Proc.devRef .tc main_v5_0) = Res1_8 m c :=
  (X3_of m c main_v5_0 (by decide)).trans (X2_arr m c 8)
theorem X3_main_v5_1 (c : Dev nD) : X3 m c (Proc.devRef .tc main_v5_1) = Res1_9 m c :=
  (X3_of m c main_v5_1 (by decide)).trans (X2_arr m c 9)
theorem X3_main_v5_2 (c : Dev nD) : X3 m c (Proc.devRef .tc main_v5_2) = Res1_10 m c :=
  (X3_of m c main_v5_2 (by decide)).trans (X2_arr m c 10)
theorem X3_main_v6_0 (c : Dev nD) : X3 m c (Proc.devRef .tc main_v6_0) = Res2_5 m c := X3_arr m c 5
theorem X3_main_v6_1 (c : Dev nD) : X3 m c (Proc.devRef .tc main_v6_1) = Res2_6 m c := X3_arr m c 6

/-! ## The entry contents read at named buffers -/

/-- A buffer no reshape writes holds its launch contents when the prologue is entered. -/
theorem Vent0_of (c : Dev nD) (b : Ref sig .tc) (hb : b ∉ (hostOps0_W : List (Ref sig .tc))) :
    Vent0 m c b = m ((c : Thread nD τ).loc b) :=
  (V1_of m c b hb).trans rfl
/-- The 1 x 1 array `main_v0` when the prologue is entered: the scalar `main_arg10` under the shape 1 x 1. -/
theorem Vent0_main_v0 (c : Dev nD) :
    Vent0 m c main_v0 = fun i => shapeCast main_v0.ty.shape (m ((c : Thread nD τ).loc main_arg10)) shapeCasts_S1_S1x1 i := by
  show StableHlo.after hostOps0 (V0 m c) (Proc.devRef .tc main_v0) = _
  simp only [hostOps0, StableHlo.after_cons, StableHlo.after_nil]
  rw [StableHlo.reshape_result_ne main_arg13 main_v3 _ _ _ _ _ (r := main_v0) (by decide),
    StableHlo.reshape_result_ne main_arg11 main_v2 _ _ _ _ _ (r := main_v0) (by decide),
    StableHlo.reshape_result_ne main_arg12 main_v1 _ _ _ _ _ (r := main_v0) (by decide),
    StableHlo.reshape_result] <;> rfl
/-- The 1 x 1 array `main_v1` when the prologue is entered: the scalar `main_arg12` under the shape 1 x 1. -/
theorem Vent0_main_v1 (c : Dev nD) :
    Vent0 m c main_v1 = fun i => shapeCast main_v1.ty.shape (m ((c : Thread nD τ).loc main_arg12)) shapeCasts_S1_S1x1 i := by
  show StableHlo.after hostOps0 (V0 m c) (Proc.devRef .tc main_v1) = _
  simp only [hostOps0, StableHlo.after_cons, StableHlo.after_nil]
  rw [StableHlo.reshape_result_ne main_arg13 main_v3 _ _ _ _ _ (r := main_v1) (by decide),
    StableHlo.reshape_result_ne main_arg11 main_v2 _ _ _ _ _ (r := main_v1) (by decide),
    StableHlo.reshape_result] <;> rfl
/-- The 1 x 1 array `main_v2` when the prologue is entered: the scalar `main_arg11` under the shape 1 x 1. -/
theorem Vent0_main_v2 (c : Dev nD) :
    Vent0 m c main_v2 = fun i => shapeCast main_v2.ty.shape (m ((c : Thread nD τ).loc main_arg11)) shapeCasts_S1_S1x1 i := by
  show StableHlo.after hostOps0 (V0 m c) (Proc.devRef .tc main_v2) = _
  simp only [hostOps0, StableHlo.after_cons, StableHlo.after_nil]
  rw [StableHlo.reshape_result_ne main_arg13 main_v3 _ _ _ _ _ (r := main_v2) (by decide),
    StableHlo.reshape_result] <;> rfl
/-- The 1 x 1 array `main_v3` when the prologue is entered: the scalar `main_arg13` under the shape 1 x 1. -/
theorem Vent0_main_v3 (c : Dev nD) :
    Vent0 m c main_v3 = fun i => shapeCast main_v3.ty.shape (m ((c : Thread nD τ).loc main_arg13)) shapeCasts_S1_S1x1 i := by
  show StableHlo.after hostOps0 (V0 m c) (Proc.devRef .tc main_v3) = _
  simp only [hostOps0, StableHlo.after_cons, StableHlo.after_nil]
  rw [StableHlo.reshape_result] <;> rfl

/-- The latent pass is entered with the prologue's four results at its final arrays and every other buffer as the
    prologue was entered. -/
theorem Vent1_of (c : Dev nD) (b : Ref sig .tc) (hb : b ∉ ([main_v4_0, main_v4_1, main_v4_2, main_v4_3] : List (Ref sig .tc))) :
    Vent1 m c b = Vent0 m c b := X1_of m c b hb
theorem Vent1_main_v4_0 (c : Dev nD) : Vent1 m c main_v4_0 = (dat0 (Vent0 m) c).arrAt 8 cfg0.N := X1_arr m c 8
theorem Vent1_main_v4_1 (c : Dev nD) : Vent1 m c main_v4_1 = (dat0 (Vent0 m) c).arrAt 9 cfg0.N := X1_arr m c 9
theorem Vent1_main_v4_2 (c : Dev nD) : Vent1 m c main_v4_2 = (dat0 (Vent0 m) c).arrAt 10 cfg0.N := X1_arr m c 10
theorem Vent1_main_v4_3 (c : Dev nD) : Vent1 m c main_v4_3 = (dat0 (Vent0 m) c).arrAt 11 cfg0.N := X1_arr m c 11

/-- The decoder pass is entered with the three latent arrays at the latent pass's final arrays and every other buffer
    as the latent pass was entered. -/
theorem Vent2_of (c : Dev nD) (b : Ref sig .tc) (hb : b ∉ ([main_v5_0, main_v5_1, main_v5_2] : List (Ref sig .tc))) :
    Vent2 m c b = Vent1 m c b := X2_of m c b hb
theorem Vent2_main_v5_0 (c : Dev nD) : Vent2 m c main_v5_0 = (dat1 (Vent1 m) c).arrAt 8 cfg1.N := X2_arr m c 8
theorem Vent2_main_v5_1 (c : Dev nD) : Vent2 m c main_v5_1 = (dat1 (Vent1 m) c).arrAt 9 cfg1.N := X2_arr m c 9
theorem Vent2_main_v5_2 (c : Dev nD) : Vent2 m c main_v5_2 = (dat1 (Vent1 m) c).arrAt 10 cfg1.N := X2_arr m c 10

/-- An argument holds its launch contents when each call is entered. -/
theorem Vent1_arg (c : Dev nD) (b : Ref sig .tc) (hb : b ∉ (hostOps0_W ++ [main_v4_0, main_v4_1, main_v4_2, main_v4_3] : List (Ref sig .tc))) :
    Vent1 m c b = m ((c : Thread nD τ).loc b) :=
  (Vent1_of m c b fun h => hb (List.mem_append_right _ h)).trans (Vent0_of m c b fun h => hb (List.mem_append_left _ h))
theorem Vent2_arg (c : Dev nD) (b : Ref sig .tc)
    (hb : b ∉ (hostOps0_W ++ [main_v4_0, main_v4_1, main_v4_2, main_v4_3] ++ [main_v5_0, main_v5_1, main_v5_2] : List (Ref sig .tc))) :
    Vent2 m c b = m ((c : Thread nD τ).loc b) :=
  (Vent2_of m c b fun h => hb (List.mem_append_right _ h)).trans (Vent1_arg m c b fun h => hb (List.mem_append_left _ h))

/-! ## The proof data family and the thread state -/

/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (Vent0 m) c
  | ⟨1, _⟩ => fun c => dat1 (Vent1 m) c
  | ⟨2, _⟩ => fun c => dat2 (Vent2 m) c
/-- No core owes another anything: no level is assigned. -/
abbrev L : GSem nD τ sig → Finset Unit := fun _ => ∅
abbrev lv : GSem nD τ sig → Unit → ℕ := fun _ _ => 0
/-- What rides beside the buffers through every stretch: the core's generator register at some state and its dues, at nothing. -/
abbrev Rst (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tend (c : Dev nD) : sProp 𝕄 := iprop(StableHlo.held (c : Thread nD τ) (Pipeline.ucRefs τ sig) (X3 m c) ∗ ∃ r, prngReg c r)

/-! ## The three calls as segments -/

set_option backward.isDefEq.respectTransparency.types false in
/-- Call 0 over the thread state: entered with every unscoped buffer at the contents the stretch before left, left
    with its arrays at what its write-backs leave and every other buffer as entered. Its arrays are split out of the
    unscoped buffers at entry and put back at exit; the generator register goes into the invariant between points and
    comes back; nothing is owed; the kernel has no semaphore of its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (Vent0 m) c).loose
  hwaits := Pipeline.hwaits_of_owed_zero _ _ _ _ L lv 0 fun _ _ => rfl
  pre c := iprop(StableHlo.held (c : Thread nD τ) (Pipeline.ucRefs τ sig) (X0 m c) ∗ Rst c)
  post c := iprop(StableHlo.held (c : Thread nD τ) (Pipeline.ucRefs τ sig) (X1 m c) ∗ Rst c)
  X c := iprop(∃ r, prngReg c r)
  Y c := iprop(∃ r, prngReg c r)
  Z c := Pipeline.unscopedRest (Ix := Unit) (Name := ℕ) (U := UR sig nD τ) (Lvl := ℕ) spec0 c (Vent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (Vent0 m) c).Φ 0 from rfl]
    refine BIBase.Entails.trans ?_ (hin0 (Vent0 m) c)
    unfold Pipeline.ΦA
    iintro ⟨Hp, -, Hr⟩
    isplitl [Hr]; · iexact Hr
    iexact Hp
  hout c := by
    rw [Pipeline.ownSems0_none, show (pdats m 0 c).Φ (Fin.last _) = (dat0 (Vent0 m) c).Φ (Fin.last cfg0.N) from rfl]
    refine BIBase.Entails.trans (hout0 (Vent0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vent0 m c) (Vent1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered with every unscoped buffer at the contents the stretch before left, left
    with its arrays at what its write-backs leave and every other buffer as entered. Its arrays are split out of the
    unscoped buffers at entry and put back at exit; the generator register goes into the invariant between points and
    comes back; nothing is owed; the kernel has no semaphore of its own. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (Vent1 m) c).loose
  hwaits := Pipeline.hwaits_of_owed_zero _ _ _ _ L lv 1 fun _ _ => rfl
  pre c := iprop(StableHlo.held (c : Thread nD τ) (Pipeline.ucRefs τ sig) (X1 m c) ∗ Rst c)
  post c := iprop(StableHlo.held (c : Thread nD τ) (Pipeline.ucRefs τ sig) (X2 m c) ∗ Rst c)
  X c := iprop(∃ r, prngReg c r)
  Y c := iprop(∃ r, prngReg c r)
  Z c := Pipeline.unscopedRest (Ix := Unit) (Name := ℕ) (U := UR sig nD τ) (Lvl := ℕ) spec1 c (Vent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Vent1 m) c).Φ 0 from rfl]
    refine BIBase.Entails.trans ?_ (hin1 (Vent1 m) c)
    unfold Pipeline.ΦA
    iintro ⟨Hp, -, Hr⟩
    isplitl [Hr]; · iexact Hr
    iexact Hp
  hout c := by
    rw [Pipeline.ownSems0_none, show (pdats m 1 c).Φ (Fin.last _) = (dat1 (Vent1 m) c).Φ (Fin.last cfg1.N) from rfl]
    refine BIBase.Entails.trans (hout1 (Vent1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vent1 m c) (Vent2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered with every unscoped buffer at the contents the stretch before left, left
    with its arrays at what its write-backs leave and every other buffer as entered. Its arrays are split out of the
    unscoped buffers at entry and put back at exit; the generator register goes into the invariant between points and
    comes back; nothing is owed; the kernel has no semaphore of its own. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (Vent2 m) c).loose
  hwaits := Pipeline.hwaits_of_owed_zero _ _ _ _ L lv 2 fun _ _ => rfl
  pre c := iprop(StableHlo.held (c : Thread nD τ) (Pipeline.ucRefs τ sig) (X2 m c) ∗ Rst c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vent2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vent2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (Vent2 m) c).Φ 0 from rfl]
    refine BIBase.Entails.trans ?_ (hin2 (Vent2 m) c)
    unfold Pipeline.ΦA
    iintro ⟨Hp, -, Hr⟩
    isplitl [Hr]; · iexact Hr
    iexact Hp
  hout c := by
    rw [Pipeline.ownSems0_none, show (pdats m 2 c).Φ (Fin.last _) = (dat2 (Vent2 m) c).Φ (Fin.last cfg2.N) from rfl]
    refine BIBase.Entails.trans (hout2 (Vent2 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vent2 m c) (Vfin m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order: the host reshapes from the launch contents, then the three calls. -/
abbrev theSegs : List (Pipeline.Seg (pcfgs (F := F)) adm (pdats m) () defs₀ Variants.none L lv) :=
  [ .host (seg0 m Variants.none L lv (fun _ => Rst)),
    .region (reg0 m),
    .region (reg1 m),
    .region (reg2 m) ]

set_option backward.isDefEq.respectTransparency.types false in
/-- THE RUN. From any memory with zero counters every weakly fair execution of @main terminates, nothing faulting,
    and in every final state the five results hold the final arrays of the two passes and the fourteen arguments hold
    their launch contents. -/
theorem run_main (ρ : Dev nD → PrngReg) : θ_run defs (onTc (τ := τ) (main (F := F))) ⟨m, fun _ => 0, ρ⟩ (fun r => ∀ c : Dev nD,
      r.2.mem ((c.tc : Thread nD τ).loc main_v5_0) = Res1_8 m c
      ∧ r.2.mem ((c.tc : Thread nD τ).loc main_v5_1) = Res1_9 m c
      ∧ r.2.mem ((c.tc : Thread nD τ).loc main_v5_2) = Res1_10 m c
      ∧ r.2.mem ((c.tc : Thread nD τ).loc main_v6_0) = Res2_5 m c
      ∧ r.2.mem ((c.tc : Thread nD τ).loc main_v6_1) = Res2_6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m) () cellOf_inj emb₁ defs₀ Variants.none L lv m ρ main (theSegs m)
    (fun c Q => by
      rewrite [main_chain c, Pipeline.Seg.run_eq_chain,
        show (theSegs m).map Pipeline.Seg.prog = [
          StableHlo.seq hostOps0,
          Prog.lift (.customCall (Pipeline.entry 0) ()),
          Prog.lift (.customCall (Pipeline.entry 1) ()),
          Prog.lift (.customCall (Pipeline.entry 2) ()) ] from rfl]
      exact .rfl)
    (by simp only [theSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c)) (Tₙ := Tend m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X3 m c b)
    (hfin := fun c s' => by
      iintro ⟨⟨Hh, -⟩, HSI⟩
      unfold StableHlo.held
      imodintro
      iapply (pointsTo_read_all (Pipeline.ucRefs τ sig) (fun b => (((c : Thread nD τ)).1, b)) (X3 m c) s')
      isplitl [Hh] <;> iassumption)
    (hQ := fun s h c =>
      ⟨(h c _ (mem_uc main_v5_0 (by decide))).trans (X3_main_v5_0 m c),
       (h c _ (mem_uc main_v5_1 (by decide))).trans (X3_main_v5_1 m c),
       (h c _ (mem_uc main_v5_2 (by decide))).trans (X3_main_v5_2 m c),
       (h c _ (mem_uc main_v6_0 (by decide))).trans (X3_main_v6_0 m c),
       (h c _ (mem_uc main_v6_1 (by decide))).trans (X3_main_v6_1 m c),
       (h c _ (mem_uc main_arg0 (by decide))).trans (X3_main_arg0 m c),
       (h c _ (mem_uc main_arg1 (by decide))).trans (X3_main_arg1 m c),
       (h c _ (mem_uc main_arg2 (by decide))).trans (X3_main_arg2 m c),
       (h c _ (mem_uc main_arg3 (by decide))).trans (X3_main_arg3 m c),
       (h c _ (mem_uc main_arg4 (by decide))).trans (X3_main_arg4 m c),
       (h c _ (mem_uc main_arg5 (by decide))).trans (X3_main_arg5 m c),
       (h c _ (mem_uc main_arg6 (by decide))).trans (X3_main_arg6 m c),
       (h c _ (mem_uc main_arg7 (by decide))).trans (X3_main_arg7 m c),
       (h c _ (mem_uc main_arg8 (by decide))).trans (X3_main_arg8 m c),
       (h c _ (mem_uc main_arg9 (by decide))).trans (X3_main_arg9 m c),
       (h c _ (mem_uc main_arg10 (by decide))).trans (X3_main_arg10 m c),
       (h c _ (mem_uc main_arg11 (by decide))).trans (X3_main_arg11 m c),
       (h c _ (mem_uc main_arg12 (by decide))).trans (X3_main_arg12 m c),
       (h c _ (mem_uc main_arg13 (by decide))).trans (X3_main_arg13 m c)⟩)

end Cert.KernelIdeal.Hand

end
-- ==== Proof.Spec.lean ====
/-
  The five results as functions of the fourteen argument arrays, written twice over the extended reals.

  The KERNEL form follows the order the three pallas_calls compute in: the encoder products scaled by the four
  combination scalars first (P·w, the scalar on the right), each latent row as a running sum over the eight column
  blocks of 512 of the two adjacency products added (block 0, then + block 1, …), the combined latent as 1/2 times the
  sum, and each reconstruction as (adjacency · combined), again block by block, times the decoder weight.

  The REFERENCE form is jnp's: w · (adj · (feat · W)) with the scalar on the left and every contraction a single sum,
  the combined latent as the sum divided by 2, each reconstruction as adj · (combined · decoder).

  Nothing here mentions a program: the arrays are functions on a shape's indices.
-/
import Idealize.ShloMosaic.PureOps.Ideal
import Idealize.ShloMosaic.Lib.ValueIdx

noncomputable section

namespace Cert.Spec

open Idealize.ShloMosaic Idealize.ShloMosaic.ValueIdx

/-- A rank-2 array of extended reals. -/
abbrev Arr2 (n0 n1 : Nat) : Type := (⟨2, ![n0, n1]⟩ : Shape).Idx → EReal
/-- A rank-1 array of extended reals. -/
abbrev Arr1 (n : Nat) : Type := (⟨1, ![n]⟩ : Shape).Idx → EReal
/-- A 4096 x 32 table given by coordinates. -/
abbrev Tab32 : Type := Fin 4096 → Fin 32 → EReal
/-- A 4096 x 128 table given by coordinates. -/
abbrev Tab128 : Type := Fin 4096 → Fin 128 → EReal

/-- Column 512·kb + kk of a 4096-wide axis: the kk-th column of column block kb. -/
def col (kb : Fin 8) (kk : Fin 512) : Fin 4096 := ⟨512 * kb.val + kk.val, by have := kb.isLt; have := kk.isLt; omega⟩

/-- The one entry of a length-1 vector. -/
def scal (w : Arr1 1) : EReal := w (ix1 0)

/-- feat · W at (r, j): the encoder product, one sum over the 128 features. -/
def proj (f : Arr2 4096 128) (W : Arr2 128 32) : Tab32 := fun r j => ∑ d : Fin 128, f (ix2 r d) * W (ix2 d j)

/-- A running sum over the eight column blocks in the kernel's order: block 0, then each later block added on the right. -/
def accUpTo (g : Fin 8 → EReal) : (k : Nat) → k < 8 → EReal
  | 0, h => g ⟨0, h⟩
  | k + 1, h => accUpTo g k (Nat.lt_of_succ_lt h) + g ⟨k + 1, h⟩

/-! ## The kernel's form -/

/-- The prologue's output: the encoder product times a combination scalar, the scalar on the right. -/
def scaledK (f : Arr2 4096 128) (W : Arr2 128 32) (w : Arr1 1) : Tab32 := fun r j => proj f W r j * scal w

/-- One column block's contribution to a latent entry: the two adjacency blocks against their scaled products, added. -/
def latBlockK (a b : Arr2 4096 4096) (rs rf : Tab32) (p : Fin 4096) (j : Fin 32) (kb : Fin 8) : EReal :=
  (∑ kk : Fin 512, a (ix2 p (col kb kk)) * rs (col kb kk) j) + (∑ kk : Fin 512, b (ix2 p (col kb kk)) * rf (col kb kk) j)

/-- A latent entry: the eight blocks' contributions summed in order. -/
def latK (a b : Arr2 4096 4096) (f : Arr2 4096 128) (W : Arr2 128 32) (ws wf : Arr1 1) : Tab32 := fun p j =>
  accUpTo (latBlockK a b (scaledK f W ws) (scaledK f W wf) p j) 7 (by decide)

/-- The literal 0.5 as the kernel spells it. -/
def half : EReal := Ideal.ofBits .f32 0x3F000000#32

/-- The combined latent: one half times the sum of the two latents. -/
def combK (l1 l2 : Tab32) : Tab32 := fun p j => half * (l1 p j + l2 p j)

/-- adjacency · combined at (p, j), block by block in order. -/
def adjCombK (a : Arr2 4096 4096) (cmb : Tab32) : Tab32 := fun p j =>
  accUpTo (fun kb => ∑ kk : Fin 512, a (ix2 p (col kb kk)) * cmb (col kb kk) j) 7 (by decide)

/-- A reconstruction entry: (adjacency · combined) times the decoder weight. -/
def reconK (a : Arr2 4096 4096) (cmb : Tab32) (d : Arr2 32 128) : Tab128 := fun p q =>
  ∑ j : Fin 32, adjCombK a cmb p j * d (ix2 j q)

/-! ## The reference's form -/

/-- adjacency · (feat · W) at (p, j): one sum over all 4096 columns. -/
def embR (a : Arr2 4096 4096) (f : Arr2 4096 128) (W : Arr2 128 32) : Tab32 := fun p j =>
  ∑ k : Fin 4096, a (ix2 p k) * proj f W k j

/-- A latent entry: the two embeddings, each scaled on the left, added. -/
def latR (a b : Arr2 4096 4096) (f : Arr2 4096 128) (W : Arr2 128 32) (ws wf : Arr1 1) : Tab32 := fun p j =>
  scal ws * embR a f W p j + scal wf * embR b f W p j

/-- The literal 2.0 as the reference spells it. -/
def two : EReal := Ideal.ofBits .f32 0x40000000#32

/-- The combined latent: the sum of the two latents divided by two. -/
def combR (l1 l2 : Tab32) : Tab32 := fun p j => Ideal.div (l1 p j + l2 p j) two

/-- combined · decoder at (k, q). -/
def decR (cmb : Tab32) (d : Arr2 32 128) : Tab128 := fun k q => ∑ j : Fin 32, cmb k j * d (ix2 j q)

/-- A reconstruction entry: adjacency · (combined · decoder), one sum over all 4096 columns. -/
def reconR (a : Arr2 4096 4096) (cmb : Tab32) (d : Arr2 32 128) : Tab128 := fun p q =>
  ∑ k : Fin 4096, a (ix2 p k) * decR cmb d k q

end Cert.Spec

end
-- ==== Proof.Val0.lean ====
/-
  The prologue call's four result arrays as functions of the arrays the call is entered with: each is an encoder
  product feat · W, one sum over the 128 features, times one combination scalar on the right.

  The call has one grid point and every window is its whole array, so each result array after the call is the one
  write-back of what the body stored, and each input block is the input array itself.
-/
import proofs.«114995_g68247030333984_cont_9to1_m_654_2_alg».proof.Proof.Reg0
import proofs.«114995_g68247030333984_cont_9to1_m_654_2_alg».proof.Proof.Spec
import Idealize.ShloMosaic.Lib.Pipeline.Value
import Idealize.ShloMosaic.Lib.ValueIdx
import Idealize.ShloMosaic.PureOps.Ideal.Laws

noncomputable section

namespace Cert.KernelIdeal.Val0

open Idealize.ShloMosaic Idealize.ShloMosaic.TcCoe Idealize.ShloMosaic.ValueIdx
open Idealize.ShloMosaic.Pipeline (Dat Cfg Window)
open Cert.KernelIdeal Cert.KernelIdeal.Gen Cert.KernelIdeal.Hand

/-! ## The encoder product at an index

The product contracts the left operand's axis 1 against the right operand's axis 0: at output index (r, j) and
contraction coordinate k the operands are read at (r, k) and (k, j). -/

theorem lhs_enc_0 (i : S4096x32.Idx) (q : dot_S4096x128_S128x32_S4096x32_1_0_0_1_n_n.contr.Idx) :
    (dot_S4096x128_S128x32_S4096x32_1_0_0_1_n_n.lhsIdx i q 0).val = (i 0).val := by
  unfold DotDims.lhsIdx
  rw [dif_neg (show ¬(0 : Fin S4096x128.rank) ∈ dot_S4096x128_S128x32_S4096x32_1_0_0_1_n_n.lhsBatch by decide), dif_pos (show (0 : Fin S4096x128.rank) ∈ dot_S4096x128_S128x32_S4096x32_1_0_0_1_n_n.lhsNonContracting by decide)]
  rfl
theorem lhs_enc_1 (i : S4096x32.Idx) (q : dot_S4096x128_S128x32_S4096x32_1_0_0_1_n_n.contr.Idx) :
    (dot_S4096x128_S128x32_S4096x32_1_0_0_1_n_n.lhsIdx i q 1).val = (q ⟨0, by decide⟩).val :=
  dot_S4096x128_S128x32_S4096x32_1_0_0_1_n_n.lhsIdx_val_of_single rfl i q
theorem rhs_enc_0 (i : S4096x32.Idx) (q : dot_S4096x128_S128x32_S4096x32_1_0_0_1_n_n.contr.Idx) :
    (dot_S4096x128_S128x32_S4096x32_1_0_0_1_n_n.rhsIdx i q 0).val = (q ⟨0, by decide⟩).val :=
  dot_S4096x128_S128x32_S4096x32_1_0_0_1_n_n.rhsIdx_val_of_single rfl i q
theorem rhs_enc_1 (i : S4096x32.Idx) (q : dot_S4096x128_S128x32_S4096x32_1_0_0_1_n_n.contr.Idx) :
    (dot_S4096x128_S128x32_S4096x32_1_0_0_1_n_n.rhsIdx i q 1).val = (i 1).val := by
  unfold DotDims.rhsIdx
  rw [dif_neg (show ¬(1 : Fin S128x32.rank) ∈ dot_S4096x128_S128x32_S4096x32_1_0_0_1_n_n.rhsBatch by decide), dif_pos (show (1 : Fin S128x32.rank) ∈ dot_S4096x128_S128x32_S4096x32_1_0_0_1_n_n.rhsNonContracting by decide)]
  rfl

/-- The encoder product into a zero accumulator, at (r, j): the sum over the 128 features. -/
theorem encProd_apply (x0 : Vec Ideal S4096x128 .f32) (x1 : Vec Ideal S128x32 .f32) (r : Fin 4096) (j : Fin 32) :
    k0_pay1 (F := Ideal) x0 x1 (ix2 r j) = ∑ d : Fin 128, x0 (ix2 r d) * x1 (ix2 d j) := by
  unfold k0_pay1
  simp only [matmul]
  rw [Ideal.matmul_constant_zero_apply, ← Equiv.sum_comp (contrEquiv1 dot_S4096x128_S128x32_S4096x32_1_0_0_1_n_n 128 rfl rfl).symm]
  refine Finset.sum_congr rfl fun k _ => ?_
  have hk := contrEquiv1_symm_val dot_S4096x128_S128x32_S4096x32_1_0_0_1_n_n 128 rfl rfl k
  have el : dot_S4096x128_S128x32_S4096x32_1_0_0_1_n_n.lhsIdx (ix2 r j) ((contrEquiv1 dot_S4096x128_S128x32_S4096x32_1_0_0_1_n_n 128 rfl rfl).symm k) = ix2 r k := funext fun a => Fin.ext (by
    match a with
    | ⟨0, _⟩ => exact lhs_enc_0 _ _
    | ⟨1, _⟩ => exact (lhs_enc_1 _ _).trans hk)
  have er : dot_S4096x128_S128x32_S4096x32_1_0_0_1_n_n.rhsIdx (ix2 r j) ((contrEquiv1 dot_S4096x128_S128x32_S4096x32_1_0_0_1_n_n 128 rfl rfl).symm k) = ix2 k j := funext fun a => Fin.ext (by
    match a with
    | ⟨0, _⟩ => exact (rhs_enc_0 _ _).trans hk
    | ⟨1, _⟩ => exact rhs_enc_1 _ _)
  rw [el, er]

/-- The same product over the second pair of operands. -/
theorem encProd2_apply (x3 : Vec Ideal S4096x128 .f32) (x4 : Vec Ideal S128x32 .f32) (r : Fin 4096) (j : Fin 32) :
    k0_pay2 (F := Ideal) x3 x4 (ix2 r j) = ∑ d : Fin 128, x3 (ix2 r d) * x4 (ix2 d j) :=
  encProd_apply x3 x4 r j

/-- The one entry of a 1 x 1 block, as the body extracts it. -/
theorem extract00 (x : Vec Ideal S1x1 .f32) : extractAt ![0, 0] x inpos_S1x1_p0_0 = x (ix2 0 0) := by
  unfold extractAt
  exact congrArg x (funext fun a => by match a with | ⟨0, _⟩ => rfl | ⟨1, _⟩ => rfl)

/-- A stored value at (r, j): the product there times the one entry of the 1 x 1 scalar block. -/
theorem pay3_apply (x0 : Vec Ideal S4096x128 .f32) (x1 : Vec Ideal S128x32 .f32) (x6 : Vec Ideal S1x1 .f32)
    (r : Fin 4096) (j : Fin 32) :
    k0_pay3 (F := Ideal) x0 x1 x6 (ix2 r j) = (∑ d : Fin 128, x0 (ix2 r d) * x1 (ix2 d j)) * x6 (ix2 0 0) := by
  unfold k0_pay3
  refine (mulf_apply _ _ _).trans ?_
  rw [encProd_apply]
  exact congrArg ((∑ d : Fin 128, x0 (ix2 r d) * x1 (ix2 d j)) * ·) (extract00 x6)
theorem pay4_apply (x0 : Vec Ideal S4096x128 .f32) (x1 : Vec Ideal S128x32 .f32) (x6 : Vec Ideal S1x1 .f32)
    (r : Fin 4096) (j : Fin 32) :
    k0_pay4 (F := Ideal) x0 x1 x6 (ix2 r j) = (∑ d : Fin 128, x0 (ix2 r d) * x1 (ix2 d j)) * x6 (ix2 0 0) := by
  unfold k0_pay4
  refine (mulf_apply _ _ _).trans ?_
  rw [encProd_apply]
  exact congrArg ((∑ d : Fin 128, x0 (ix2 r d) * x1 (ix2 d j)) * ·) (extract00 x6)
theorem pay5_apply (x0 : Vec Ideal S4096x128 .f32) (x1 : Vec Ideal S128x32 .f32) (x6 : Vec Ideal S1x1 .f32)
    (r : Fin 4096) (j : Fin 32) :
    k0_pay5 (F := Ideal) x0 x1 x6 (ix2 r j) = (∑ d : Fin 128, x0 (ix2 r d) * x1 (ix2 d j)) * x6 (ix2 0 0) := by
  unfold k0_pay5
  refine (mulf_apply _ _ _).trans ?_
  rw [encProd2_apply]
  exact congrArg ((∑ d : Fin 128, x0 (ix2 r d) * x1 (ix2 d j)) * ·) (extract00 x6)
theorem pay6_apply (x0 : Vec Ideal S4096x128 .f32) (x1 : Vec Ideal S128x32 .f32) (x6 : Vec Ideal S1x1 .f32)
    (r : Fin 4096) (j : Fin 32) :
    k0_pay6 (F := Ideal) x0 x1 x6 (ix2 r j) = (∑ d : Fin 128, x0 (ix2 r d) * x1 (ix2 d j)) * x6 (ix2 0 0) := by
  unfold k0_pay6
  refine (mulf_apply _ _ _).trans ?_
  rw [encProd2_apply]
  exact congrArg ((∑ d : Fin 128, x0 (ix2 r d) * x1 (ix2 d j)) * ·) (extract00 x6)

/-! ## A whole window's block is its array

Every window of this call is its whole array at block index 0: an index of the block is the same index of the array. -/

theorem emb0_0 (t : Fin cfg0.N) (p : Fin 4096) (q : Fin 128) :
    ((cfg0.win 0).blk t).view.emb (ix2 p q) = ix2 p q := funext fun a => Fin.ext (by
  match a with
  | ⟨0, _⟩ => show 0 * 4096 + 1 * p.val = p.val; omega
  | ⟨1, _⟩ => show 0 * 128 + 1 * q.val = q.val; omega)
theorem emb0_1 (t : Fin cfg0.N) (p : Fin 4096) (q : Fin 128) :
    ((cfg0.win 1).blk t).view.emb (ix2 p q) = ix2 p q := funext fun a => Fin.ext (by
  match a with
  | ⟨0, _⟩ => show 0 * 4096 + 1 * p.val = p.val; omega
  | ⟨1, _⟩ => show 0 * 128 + 1 * q.val = q.val; omega)
theorem emb0_2 (t : Fin cfg0.N) (p : Fin 128) (q : Fin 32) :
    ((cfg0.win 2).blk t).view.emb (ix2 p q) = ix2 p q := funext fun a => Fin.ext (by
  match a with
  | ⟨0, _⟩ => show 0 * 128 + 1 * p.val = p.val; omega
  | ⟨1, _⟩ => show 0 * 32 + 1 * q.val = q.val; omega)
theorem emb0_3 (t : Fin cfg0.N) (p : Fin 128) (q : Fin 32) :
    ((cfg0.win 3).blk t).view.emb (ix2 p q) = ix2 p q := funext fun a => Fin.ext (by
  match a with
  | ⟨0, _⟩ => show 0 * 128 + 1 * p.val = p.val; omega
  | ⟨1, _⟩ => show 0 * 32 + 1 * q.val = q.val; omega)
theorem emb0_4 (t : Fin cfg0.N) (p : Fin 1) (q : Fin 1) :
    ((cfg0.win 4).blk t).view.emb (ix2 p q) = ix2 p q := funext fun a => Fin.ext (by
  match a with
  | ⟨0, _⟩ => show 0 * 1 + 1 * p.val = p.val; omega
  | ⟨1, _⟩ => show 0 * 1 + 1 * q.val = q.val; omega)
theorem emb0_5 (t : Fin cfg0.N) (p : Fin 1) (q : Fin 1) :
    ((cfg0.win 5).blk t).view.emb (ix2 p q) = ix2 p q := funext fun a => Fin.ext (by
  match a with
  | ⟨0, _⟩ => show 0 * 1 + 1 * p.val = p.val; omega
  | ⟨1, _⟩ => show 0 * 1 + 1 * q.val = q.val; omega)
theorem emb0_6 (t : Fin cfg0.N) (p : Fin 1) (q : Fin 1) :
    ((cfg0.win 6).blk t).view.emb (ix2 p q) = ix2 p q := funext fun a => Fin.ext (by
  match a with
  | ⟨0, _⟩ => show 0 * 1 + 1 * p.val = p.val; omega
  | ⟨1, _⟩ => show 0 * 1 + 1 * q.val = q.val; omega)
theorem emb0_7 (t : Fin cfg0.N) (p : Fin 1) (q : Fin 1) :
    ((cfg0.win 7).blk t).view.emb (ix2 p q) = ix2 p q := funext fun a => Fin.ext (by
  match a with
  | ⟨0, _⟩ => show 0 * 1 + 1 * p.val = p.val; omega
  | ⟨1, _⟩ => show 0 * 1 + 1 * q.val = q.val; omega)
theorem emb0_8 (t : Fin cfg0.N) (p : Fin 4096) (q : Fin 32) :
    ((cfg0.win 8).blk t).view.emb (ix2 p q) = ix2 p q := funext fun a => Fin.ext (by
  match a with
  | ⟨0, _⟩ => show 0 * 4096 + 1 * p.val = p.val; omega
  | ⟨1, _⟩ => show 0 * 32 + 1 * q.val = q.val; omega)
theorem emb0_9 (t : Fin cfg0.N) (p : Fin 4096) (q : Fin 32) :
    ((cfg0.win 9).blk t).view.emb (ix2 p q) = ix2 p q := funext fun a => Fin.ext (by
  match a with
  | ⟨0, _⟩ => show 0 * 4096 + 1 * p.val = p.val; omega
  | ⟨1, _⟩ => show 0 * 32 + 1 * q.val = q.val; omega)
theorem emb0_10 (t : Fin cfg0.N) (p : Fin 4096) (q : Fin 32) :
    ((cfg0.win 10).blk t).view.emb (ix2 p q) = ix2 p q := funext fun a => Fin.ext (by
  match a with
  | ⟨0, _⟩ => show 0 * 4096 + 1 * p.val = p.val; omega
  | ⟨1, _⟩ => show 0 * 32 + 1 * q.val = q.val; omega)
theorem emb0_11 (t : Fin cfg0.N) (p : Fin 4096) (q : Fin 32) :
    ((cfg0.win 11).blk t).view.emb (ix2 p q) = ix2 p q := funext fun a => Fin.ext (by
  match a with
  | ⟨0, _⟩ => show 0 * 4096 + 1 * p.val = p.val; omega
  | ⟨1, _⟩ => show 0 * 32 + 1 * q.val = q.val; omega)

variable (V : Entry Ideal)

/-- So each input block, read at an index, is the entry contents of its array there. -/
theorem iblk0_0_apply (c : Dev nD) (t : Fin cfg0.N) (p : Fin 4096) (q : Fin 128) :
    iblk0 V c 0 t (ix2 p q) = V c main_arg0 (ix2 p q) := by
  show V c main_arg0 (((cfg0.win 0).blk t).view.emb (ix2 p q)) = V c main_arg0 (ix2 p q)
  exact congrArg (V c main_arg0) (emb0_0 t p q)
theorem iblk0_1_apply (c : Dev nD) (t : Fin cfg0.N) (p : Fin 4096) (q : Fin 128) :
    iblk0 V c 1 t (ix2 p q) = V c main_arg1 (ix2 p q) := by
  show V c main_arg1 (((cfg0.win 1).blk t).view.emb (ix2 p q)) = V c main_arg1 (ix2 p q)
  exact congrArg (V c main_arg1) (emb0_1 t p q)
theorem iblk0_2_apply (c : Dev nD) (t : Fin cfg0.N) (p : Fin 128) (q : Fin 32) :
    iblk0 V c 2 t (ix2 p q) = V c main_arg6 (ix2 p q) := by
  show V c main_arg6 (((cfg0.win 2).blk t).view.emb (ix2 p q)) = V c main_arg6 (ix2 p q)
  exact congrArg (V c main_arg6) (emb0_2 t p q)
theorem iblk0_3_apply (c : Dev nD) (t : Fin cfg0.N) (p : Fin 128) (q : Fin 32) :
    iblk0 V c 3 t (ix2 p q) = V c main_arg7 (ix2 p q) := by
  show V c main_arg7 (((cfg0.win 3).blk t).view.emb (ix2 p q)) = V c main_arg7 (ix2 p q)
  exact congrArg (V c main_arg7) (emb0_3 t p q)
theorem iblk0_4_apply (c : Dev nD) (t : Fin cfg0.N) (p : Fin 1) (q : Fin 1) :
    iblk0 V c 4 t (ix2 p q) = V c main_v0 (ix2 p q) := by
  show V c main_v0 (((cfg0.win 4).blk t).view.emb (ix2 p q)) = V c main_v0 (ix2 p q)
  exact congrArg (V c main_v0) (emb0_4 t p q)
theorem iblk0_5_apply (c : Dev nD) (t : Fin cfg0.N) (p : Fin 1) (q : Fin 1) :
    iblk0 V c 5 t (ix2 p q) = V c main_v1 (ix2 p q) := by
  show V c main_v1 (((cfg0.win 5).blk t).view.emb (ix2 p q)) = V c main_v1 (ix2 p q)
  exact congrArg (V c main_v1) (emb0_5 t p q)
theorem iblk0_6_apply (c : Dev nD) (t : Fin cfg0.N) (p : Fin 1) (q : Fin 1) :
    iblk0 V c 6 t (ix2 p q) = V c main_v2 (ix2 p q) := by
  show V c main_v2 (((cfg0.win 6).blk t).view.emb (ix2 p q)) = V c main_v2 (ix2 p q)
  exact congrArg (V c main_v2) (emb0_6 t p q)
theorem iblk0_7_apply (c : Dev nD) (t : Fin cfg0.N) (p : Fin 1) (q : Fin 1) :
    iblk0 V c 7 t (ix2 p q) = V c main_v3 (ix2 p q) := by
  show V c main_v3 (((cfg0.win 7).blk t).view.emb (ix2 p q)) = V c main_v3 (ix2 p q)
  exact congrArg (V c main_v3) (emb0_7 t p q)

/-! ## The four result arrays -/

/-- An encoder product times a scalar on the right, as an array over the 4096 x 32 indices. -/
def scaledAt (f : Cert.Spec.Arr2 4096 128) (W : Cert.Spec.Arr2 128 32) (s : EReal) : S4096x32.Idx → EReal :=
  fun i => Cert.Spec.proj f W ⟨(i 0).val, idx2_lt0 i⟩ ⟨(i 1).val, idx2_lt1 i⟩ * s

/-! ### Result window 8 -/

/-- What the one point writes back to window 8's array is that array's scaled product, read through the window. -/
theorem flushed0_8_eq (c : Dev nD) (t : Fin cfg0.N) :
    (dat0 V c).flushed 8 t = ((cfg0.win 8).blk t).view.read (Elt Ideal)
      (scaledAt (V c main_arg0) (V c main_arg6) (V c main_v0 (ix2 0 0))) := by
  show (cfg0.win 8).cut (grid0.coords t) ((dat0 V c).after 8 t) = _
  rw [after0_8]
  funext y
  obtain ⟨r, j, rfl⟩ : ∃ (r : Fin 4096) (j : Fin 32), y = ix2 r j := ⟨y 0, y 1, eq_ix2 y⟩
  show k0_pay3 (iblk0 V c 0 t) (iblk0 V c 2 t) (iblk0 V c 4 t) (ix2 r j)
    = scaledAt (V c main_arg0) (V c main_arg6) (V c main_v0 (ix2 0 0)) (((cfg0.win 8).blk t).view.emb (ix2 r j))
  rw [emb0_8 t r j]
  refine (pay3_apply (iblk0 V c 0 t) (iblk0 V c 2 t) (iblk0 V c 4 t) r j).trans ?_
  show _ = Cert.Spec.proj (V c main_arg0) (V c main_arg6) r j * V c main_v0 (ix2 0 0)
  unfold Cert.Spec.proj
  rw [iblk0_4_apply V c t 0 0]
  refine congrArg (· * (V c main_v0 (ix2 0 0) : EReal)) (Finset.sum_congr rfl fun d _ => ?_)
  rw [iblk0_0_apply V c t r d, iblk0_2_apply V c t d j]

/-- Every index of window 8's array lies in the one point's block: the block is the whole array. -/
theorem mem_blk0_8 (t : Fin cfg0.N) (i : S4096x32.Idx) : i ∈ ((cfg0.win 8).blk t).view.set := by
  show i ∈ ((View.whole main_v4_0).slice (win0_8.rect t)).set
  rw [View.set_slice_whole, Rect.mem_set_unit]
  intro a
  match a with
  | ⟨0, _⟩ => exact ⟨(by show 0 * 4096 ≤ (i 0).val; omega), (by show (i 0).val < 0 * 4096 + 4096; have := idx2_lt0 i; omega)⟩
  | ⟨1, _⟩ => exact ⟨(by show 0 * 32 ≤ (i 1).val; omega), (by show (i 1).val < 0 * 32 + 32; have := idx2_lt1 i; omega)⟩

/-- Window 8's array after the call. -/
theorem arr0_8 (c : Dev nD) :
    (dat0 V c).arrAt 8 cfg0.N = scaledAt (V c main_arg0) (V c main_arg6) (V c main_v0 (ix2 0 0)) :=
  (dat0 V c).arrAt_eq_of_cover 8 _ (fun t _ => flushed0_8_eq V c t)
    (fun i => ⟨t0_0, flush0_8 t0_0, mem_blk0_8 t0_0 i⟩)

theorem val0_8 (c : Dev nD) (r : Fin 4096) (j : Fin 32) :
    (dat0 V c).arrAt 8 cfg0.N (ix2 r j)
      = Cert.Spec.proj (V c main_arg0) (V c main_arg6) r j * V c main_v0 (ix2 0 0) :=
  (congrFun (arr0_8 V c) (ix2 r j)).trans rfl

/-! ### Result window 9 -/

/-- What the one point writes back to window 9's array is that array's scaled product, read through the window. -/
theorem flushed0_9_eq (c : Dev nD) (t : Fin cfg0.N) :
    (dat0 V c).flushed 9 t = ((cfg0.win 9).blk t).view.read (Elt Ideal)
      (scaledAt (V c main_arg0) (V c main_arg6) (V c main_v1 (ix2 0 0))) := by
  show (cfg0.win 9).cut (grid0.coords t) ((dat0 V c).after 9 t) = _
  rw [after0_9]
  funext y
  obtain ⟨r, j, rfl⟩ : ∃ (r : Fin 4096) (j : Fin 32), y = ix2 r j := ⟨y 0, y 1, eq_ix2 y⟩
  show k0_pay4 (iblk0 V c 0 t) (iblk0 V c 2 t) (iblk0 V c 5 t) (ix2 r j)
    = scaledAt (V c main_arg0) (V c main_arg6) (V c main_v1 (ix2 0 0)) (((cfg0.win 9).blk t).view.emb (ix2 r j))
  rw [emb0_9 t r j]
  refine (pay4_apply (iblk0 V c 0 t) (iblk0 V c 2 t) (iblk0 V c 5 t) r j).trans ?_
  show _ = Cert.Spec.proj (V c main_arg0) (V c main_arg6) r j * V c main_v1 (ix2 0 0)
  unfold Cert.Spec.proj
  rw [iblk0_5_apply V c t 0 0]
  refine congrArg (· * (V c main_v1 (ix2 0 0) : EReal)) (Finset.sum_congr rfl fun d _ => ?_)
  rw [iblk0_0_apply V c t r d, iblk0_2_apply V c t d j]

/-- Every index of window 9's array lies in the one point's block: the block is the whole array. -/
theorem mem_blk0_9 (t : Fin cfg0.N) (i : S4096x32.Idx) : i ∈ ((cfg0.win 9).blk t).view.set := by
  show i ∈ ((View.whole main_v4_1).slice (win0_9.rect t)).set
  rw [View.set_slice_whole, Rect.mem_set_unit]
  intro a
  match a with
  | ⟨0, _⟩ => exact ⟨(by show 0 * 4096 ≤ (i 0).val; omega), (by show (i 0).val < 0 * 4096 + 4096; have := idx2_lt0 i; omega)⟩
  | ⟨1, _⟩ => exact ⟨(by show 0 * 32 ≤ (i 1).val; omega), (by show (i 1).val < 0 * 32 + 32; have := idx2_lt1 i; omega)⟩

/-- Window 9's array after the call. -/
theorem arr0_9 (c : Dev nD) :
    (dat0 V c).arrAt 9 cfg0.N = scaledAt (V c main_arg0) (V c main_arg6) (V c main_v1 (ix2 0 0)) :=
  (dat0 V c).arrAt_eq_of_cover 9 _ (fun t _ => flushed0_9_eq V c t)
    (fun i => ⟨t0_0, flush0_9 t0_0, mem_blk0_9 t0_0 i⟩)

theorem val0_9 (c : Dev nD) (r : Fin 4096) (j : Fin 32) :
    (dat0 V c).arrAt 9 cfg0.N (ix2 r j)
      = Cert.Spec.proj (V c main_arg0) (V c main_arg6) r j * V c main_v1 (ix2 0 0) :=
  (congrFun (arr0_9 V c) (ix2 r j)).trans rfl

/-! ### Result window 10 -/

/-- What the one point writes back to window 10's array is that array's scaled product, read through the window. -/
theorem flushed0_10_eq (c : Dev nD) (t : Fin cfg0.N) :
    (dat0 V c).flushed 10 t = ((cfg0.win 10).blk t).view.read (Elt Ideal)
      (scaledAt (V c main_arg1) (V c main_arg7) (V c main_v2 (ix2 0 0))) := by
  show (cfg0.win 10).cut (grid0.coords t) ((dat0 V c).after 10 t) = _
  rw [after0_10]
  funext y
  obtain ⟨r, j, rfl⟩ : ∃ (r : Fin 4096) (j : Fin 32), y = ix2 r j := ⟨y 0, y 1, eq_ix2 y⟩
  show k0_pay5 (iblk0 V c 1 t) (iblk0 V c 3 t) (iblk0 V c 6 t) (ix2 r j)
    = scaledAt (V c main_arg1) (V c main_arg7) (V c main_v2 (ix2 0 0)) (((cfg0.win 10).blk t).view.emb (ix2 r j))
  rw [emb0_10 t r j]
  refine (pay5_apply (iblk0 V c 1 t) (iblk0 V c 3 t) (iblk0 V c 6 t) r j).trans ?_
  show _ = Cert.Spec.proj (V c main_arg1) (V c main_arg7) r j * V c main_v2 (ix2 0 0)
  unfold Cert.Spec.proj
  rw [iblk0_6_apply V c t 0 0]
  refine congrArg (· * (V c main_v2 (ix2 0 0) : EReal)) (Finset.sum_congr rfl fun d _ => ?_)
  rw [iblk0_1_apply V c t r d, iblk0_3_apply V c t d j]

/-- Every index of window 10's array lies in the one point's block: the block is the whole array. -/
theorem mem_blk0_10 (t : Fin cfg0.N) (i : S4096x32.Idx) : i ∈ ((cfg0.win 10).blk t).view.set := by
  show i ∈ ((View.whole main_v4_2).slice (win0_10.rect t)).set
  rw [View.set_slice_whole, Rect.mem_set_unit]
  intro a
  match a with
  | ⟨0, _⟩ => exact ⟨(by show 0 * 4096 ≤ (i 0).val; omega), (by show (i 0).val < 0 * 4096 + 4096; have := idx2_lt0 i; omega)⟩
  | ⟨1, _⟩ => exact ⟨(by show 0 * 32 ≤ (i 1).val; omega), (by show (i 1).val < 0 * 32 + 32; have := idx2_lt1 i; omega)⟩

/-- Window 10's array after the call. -/
theorem arr0_10 (c : Dev nD) :
    (dat0 V c).arrAt 10 cfg0.N = scaledAt (V c main_arg1) (V c main_arg7) (V c main_v2 (ix2 0 0)) :=
  (dat0 V c).arrAt_eq_of_cover 10 _ (fun t _ => flushed0_10_eq V c t)
    (fun i => ⟨t0_0, flush0_10 t0_0, mem_blk0_10 t0_0 i⟩)

theorem val0_10 (c : Dev nD) (r : Fin 4096) (j : Fin 32) :
    (dat0 V c).arrAt 10 cfg0.N (ix2 r j)
      = Cert.Spec.proj (V c main_arg1) (V c main_arg7) r j * V c main_v2 (ix2 0 0) :=
  (congrFun (arr0_10 V c) (ix2 r j)).trans rfl

/-! ### Result window 11 -/

/-- What the one point writes back to window 11's array is that array's scaled product, read through the window. -/
theorem flushed0_11_eq (c : Dev nD) (t : Fin cfg0.N) :
    (dat0 V c).flushed 11 t = ((cfg0.win 11).blk t).view.read (Elt Ideal)
      (scaledAt (V c main_arg1) (V c main_arg7) (V c main_v3 (ix2 0 0))) := by
  show (cfg0.win 11).cut (grid0.coords t) ((dat0 V c).after 11 t) = _
  rw [after0_11]
  funext y
  obtain ⟨r, j, rfl⟩ : ∃ (r : Fin 4096) (j : Fin 32), y = ix2 r j := ⟨y 0, y 1, eq_ix2 y⟩
  show k0_pay6 (iblk0 V c 1 t) (iblk0 V c 3 t) (iblk0 V c 7 t) (ix2 r j)
    = scaledAt (V c main_arg1) (V c main_arg7) (V c main_v3 (ix2 0 0)) (((cfg0.win 11).blk t).view.emb (ix2 r j))
  rw [emb0_11 t r j]
  refine (pay6_apply (iblk0 V c 1 t) (iblk0 V c 3 t) (iblk0 V c 7 t) r j).trans ?_
  show _ = Cert.Spec.proj (V c main_arg1) (V c main_arg7) r j * V c main_v3 (ix2 0 0)
  unfold Cert.Spec.proj
  rw [iblk0_7_apply V c t 0 0]
  refine congrArg (· * (V c main_v3 (ix2 0 0) : EReal)) (Finset.sum_congr rfl fun d _ => ?_)
  rw [iblk0_1_apply V c t r d, iblk0_3_apply V c t d j]

/-- Every index of window 11's array lies in the one point's block: the block is the whole array. -/
theorem mem_blk0_11 (t : Fin cfg0.N) (i : S4096x32.Idx) : i ∈ ((cfg0.win 11).blk t).view.set := by
  show i ∈ ((View.whole main_v4_3).slice (win0_11.rect t)).set
  rw [View.set_slice_whole, Rect.mem_set_unit]
  intro a
  match a with
  | ⟨0, _⟩ => exact ⟨(by show 0 * 4096 ≤ (i 0).val; omega), (by show (i 0).val < 0 * 4096 + 4096; have := idx2_lt0 i; omega)⟩
  | ⟨1, _⟩ => exact ⟨(by show 0 * 32 ≤ (i 1).val; omega), (by show (i 1).val < 0 * 32 + 32; have := idx2_lt1 i; omega)⟩

/-- Window 11's array after the call. -/
theorem arr0_11 (c : Dev nD) :
    (dat0 V c).arrAt 11 cfg0.N = scaledAt (V c main_arg1) (V c main_arg7) (V c main_v3 (ix2 0 0)) :=
  (dat0 V c).arrAt_eq_of_cover 11 _ (fun t _ => flushed0_11_eq V c t)
    (fun i => ⟨t0_0, flush0_11 t0_0, mem_blk0_11 t0_0 i⟩)

theorem val0_11 (c : Dev nD) (r : Fin 4096) (j : Fin 32) :
    (dat0 V c).arrAt 11 cfg0.N (ix2 r j)
      = Cert.Spec.proj (V c main_arg1) (V c main_arg7) r j * V c main_v3 (ix2 0 0) :=
  (congrFun (arr0_11 V c) (ix2 r j)).trans rfl

end Cert.KernelIdeal.Val0

end
-- ==== Proof.Val1.lean ====
/-
  The latent pass's three result arrays, read at the ideal values.

  Point n = 8·i + k of the 8 x 8 grid multiplies adjacency blocks (i, k) into row block k of the scaled encoder
  products. The two latents' row blocks are running sums over k kept in the output buffers: stored at k = 0, added to
  for k > 0, written back after k = 7. So row p = 512·i + r of a latent ends holding the eight column blocks'
  contributions added in order, block 0 first, and the combined latent one half of the two latents added.
  The induction runs over k along the recursion that defines the running contents; the row blocks written back at the
  points with k = 7 tile the 4096 rows, row p lying in block p / 512.
-/
import proofs.«114995_g68247030333984_cont_9to1_m_654_2_alg».proof.Proof.Reg1
import proofs.«114995_g68247030333984_cont_9to1_m_654_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val1

open Idealize.ShloMosaic Idealize.ShloMosaic.TcCoe Idealize.ShloMosaic.ValueIdx
open Idealize.ShloMosaic.Pipeline (Dat Cfg Window)
open Cert.KernelIdeal Cert.KernelIdeal.Gen Cert.KernelIdeal.Hand

variable (V : Entry Ideal)

/-! ## The two latents in the order the pass adds them -/

/-- A 4096 x 32 array of the entry contents read by coordinates. -/
def tab32 (x : Cert.Spec.Arr2 4096 32) : Cert.Spec.Tab32 := fun r j => x (ix2 r j)

/-- Latent 1 in the kernel's order, over the arrays the pass is entered with. -/
def lat1V (c : Dev nD) : Cert.Spec.Tab32 := fun p j =>
  Cert.Spec.accUpTo (Cert.Spec.latBlockK (V c main_arg2) (V c main_arg3) (tab32 (V c main_v4_0)) (tab32 (V c main_v4_1)) p j) 7 (by decide)

/-- Latent 2 likewise, over the second pair of adjacencies and scaled products. -/
def lat2V (c : Dev nD) : Cert.Spec.Tab32 := fun p j =>
  Cert.Spec.accUpTo (Cert.Spec.latBlockK (V c main_arg4) (V c main_arg5) (tab32 (V c main_v4_2)) (tab32 (V c main_v4_3)) p j) 7 (by decide)

/-! ## One block product at an index -/

theorem lhs_blk_0 (i : S512x32.Idx) (q : dot_S512x512_S512x32_S512x32_1_0_0_1_n_n.contr.Idx) :
    (dot_S512x512_S512x32_S512x32_1_0_0_1_n_n.lhsIdx i q 0).val = (i 0).val := by
  unfold DotDims.lhsIdx
  rw [dif_neg (show ¬(0 : Fin S512x512.rank) ∈ dot_S512x512_S512x32_S512x32_1_0_0_1_n_n.lhsBatch by decide), dif_pos (show (0 : Fin S512x512.rank) ∈ dot_S512x512_S512x32_S512x32_1_0_0_1_n_n.lhsNonContracting by decide)]
  rfl
theorem lhs_blk_1 (i : S512x32.Idx) (q : dot_S512x512_S512x32_S512x32_1_0_0_1_n_n.contr.Idx) :
    (dot_S512x512_S512x32_S512x32_1_0_0_1_n_n.lhsIdx i q 1).val = (q ⟨0, by decide⟩).val :=
  dot_S512x512_S512x32_S512x32_1_0_0_1_n_n.lhsIdx_val_of_single rfl i q
theorem rhs_blk_0 (i : S512x32.Idx) (q : dot_S512x512_S512x32_S512x32_1_0_0_1_n_n.contr.Idx) :
    (dot_S512x512_S512x32_S512x32_1_0_0_1_n_n.rhsIdx i q 0).val = (q ⟨0, by decide⟩).val :=
  dot_S512x512_S512x32_S512x32_1_0_0_1_n_n.rhsIdx_val_of_single rfl i q
theorem rhs_blk_1 (i : S512x32.Idx) (q : dot_S512x512_S512x32_S512x32_1_0_0_1_n_n.contr.Idx) :
    (dot_S512x512_S512x32_S512x32_1_0_0_1_n_n.rhsIdx i q 1).val = (i 1).val := by
  unfold DotDims.rhsIdx
  rw [dif_neg (show ¬(1 : Fin S512x32.rank) ∈ dot_S512x512_S512x32_S512x32_1_0_0_1_n_n.rhsBatch by decide), dif_pos (show (1 : Fin S512x32.rank) ∈ dot_S512x512_S512x32_S512x32_1_0_0_1_n_n.rhsNonContracting by decide)]
  rfl

/-- A 512 x 512 block times a 512 x 32 block into the zero block, at (r, j): the sum over the block's 512 columns. -/
theorem blockDot_apply (x : FVec Ideal S512x512 .f32) (y : FVec Ideal S512x32 .f32) (r : Fin 512) (j : Fin 32) :
    matmul (F := Ideal) dot_S512x512_S512x32_S512x32_1_0_0_1_n_n none x y (constant (F := Ideal) S512x32 .f32 0x00000000#32) (ix2 r j)
      = ∑ kk : Fin 512, x (ix2 r kk) * y (ix2 kk j) := by
  simp only [matmul]
  rw [Ideal.matmul_constant_zero_apply, ← Equiv.sum_comp (contrEquiv1 dot_S512x512_S512x32_S512x32_1_0_0_1_n_n 512 rfl rfl).symm]
  refine Finset.sum_congr rfl fun k _ => ?_
  have hk := contrEquiv1_symm_val dot_S512x512_S512x32_S512x32_1_0_0_1_n_n 512 rfl rfl k
  have el : dot_S512x512_S512x32_S512x32_1_0_0_1_n_n.lhsIdx (ix2 r j) ((contrEquiv1 dot_S512x512_S512x32_S512x32_1_0_0_1_n_n 512 rfl rfl).symm k) = ix2 r k := funext fun a => Fin.ext (by
    match a with
    | ⟨0, _⟩ => exact lhs_blk_0 _ _
    | ⟨1, _⟩ => exact (lhs_blk_1 _ _).trans hk)
  have er : dot_S512x512_S512x32_S512x32_1_0_0_1_n_n.rhsIdx (ix2 r j) ((contrEquiv1 dot_S512x512_S512x32_S512x32_1_0_0_1_n_n 512 rfl rfl).symm k) = ix2 k j := funext fun a => Fin.ext (by
    match a with
    | ⟨0, _⟩ => exact (rhs_blk_0 _ _).trans hk
    | ⟨1, _⟩ => exact rhs_blk_1 _ _)
  rw [el, er]

/-- The two adjacency blocks against their scaled products' blocks, added, at (r, j). -/
theorem pay1_apply (x0 : Vec Ideal S512x512 .f32) (x1 : Vec Ideal S512x32 .f32) (x4 : Vec Ideal S512x512 .f32) (x5 : Vec Ideal S512x32 .f32)
    (r : Fin 512) (j : Fin 32) :
    k1_pay1 x0 x1 x4 x5 (ix2 r j)
      = (∑ kk : Fin 512, x0 (ix2 r kk) * x1 (ix2 kk j)) + (∑ kk : Fin 512, x4 (ix2 r kk) * x5 (ix2 kk j)) := by
  unfold k1_pay1
  simp only [shapeCast_self]
  rw [addf_apply, blockDot_apply, blockDot_apply]

theorem pay2_eq : @k1_pay2 Ideal _ = @k1_pay1 Ideal _ := rfl

theorem pay3_apply (x0 : Vec Ideal S512x512 .f32) (x1 : Vec Ideal S512x32 .f32) (x4 : Vec Ideal S512x512 .f32) (x5 : Vec Ideal S512x32 .f32)
    (acc : Vec Ideal S512x32 .f32) (r : Fin 512) (j : Fin 32) :
    k1_pay3 x0 x1 x4 x5 acc (ix2 r j) = acc (ix2 r j) + k1_pay1 x0 x1 x4 x5 (ix2 r j) := by
  unfold k1_pay3
  simp only [shapeCast_self]
  rw [addf_apply]

theorem pay4_eq : @k1_pay4 Ideal _ = @k1_pay3 Ideal _ := rfl

theorem pay5_apply (l1 l2 : Vec Ideal S512x32 .f32) (r : Fin 512) (j : Fin 32) :
    k1_pay5 l1 l2 (ix2 r j) = Cert.Spec.half * (l1 (ix2 r j) + l2 (ix2 r j)) := by
  unfold k1_pay5
  simp only [shapeCast_self]
  rw [mulf_apply, addf_apply, broadcast_apply]
  rfl

/-! ## The blocks a point reads, by coordinates -/

/-- The adjacency windows' block index at point t is (t / 8, t % 8). -/
theorem idx1_adj : ∀ t : Fin cfg1.N,
    win1_0.index t (0 : Fin 2) = t.val / 8 ∧ win1_0.index t (1 : Fin 2) = t.val % 8
    ∧ win1_1.index t (0 : Fin 2) = t.val / 8 ∧ win1_1.index t (1 : Fin 2) = t.val % 8
    ∧ win1_2.index t (0 : Fin 2) = t.val / 8 ∧ win1_2.index t (1 : Fin 2) = t.val % 8
    ∧ win1_3.index t (0 : Fin 2) = t.val / 8 ∧ win1_3.index t (1 : Fin 2) = t.val % 8 :=
  (by decide +kernel : ∀ t : Fin grid1.N, _)

/-- The scaled products' windows' block index at point t is (t % 8, 0). -/
theorem idx1_rows : ∀ t : Fin cfg1.N,
    win1_4.index t (0 : Fin 2) = t.val % 8 ∧ win1_4.index t (1 : Fin 2) = 0
    ∧ win1_5.index t (0 : Fin 2) = t.val % 8 ∧ win1_5.index t (1 : Fin 2) = 0
    ∧ win1_6.index t (0 : Fin 2) = t.val % 8 ∧ win1_6.index t (1 : Fin 2) = 0
    ∧ win1_7.index t (0 : Fin 2) = t.val % 8 ∧ win1_7.index t (1 : Fin 2) = 0 :=
  (by decide +kernel : ∀ t : Fin grid1.N, _)

/-- The result windows' block index at point t is (t / 8, 0). -/
theorem idx1_out : ∀ t : Fin cfg1.N,
    win1_8.index t (0 : Fin 2) = t.val / 8 ∧ win1_8.index t (1 : Fin 2) = 0
    ∧ win1_9.index t (0 : Fin 2) = t.val / 8 ∧ win1_9.index t (1 : Fin 2) = 0
    ∧ win1_10.index t (0 : Fin 2) = t.val / 8 ∧ win1_10.index t (1 : Fin 2) = 0 :=
  (by decide +kernel : ∀ t : Fin grid1.N, _)

theorem iblk1_0_apply (c : Dev nD) (t : Fin cfg1.N) (i k : Fin 8) (ht : t.val = 8 * i.val + k.val) (r kk : Fin 512) :
    iblk1 V c 0 t (ix2 r kk) = V c main_arg2 (ix2 (Cert.Spec.col i r) (Cert.Spec.col k kk)) := by
  have e := idx1_adj t
  unfold iblk1
  rw [View.read_apply]
  show V c main_arg2 _ = V c main_arg2 _
  congr 1
  funext a
  apply Fin.ext
  match a with
  | ⟨0, _⟩ => show win1_0.index t (0 : Fin 2) * 512 + 1 * r.val = 512 * i.val + r.val; have := i.isLt; have := k.isLt; omega
  | ⟨1, _⟩ => show win1_0.index t (1 : Fin 2) * 512 + 1 * kk.val = 512 * k.val + kk.val; have := i.isLt; have := k.isLt; omega

theorem iblk1_1_apply (c : Dev nD) (t : Fin cfg1.N) (i k : Fin 8) (ht : t.val = 8 * i.val + k.val) (r kk : Fin 512) :
    iblk1 V c 1 t (ix2 r kk) = V c main_arg3 (ix2 (Cert.Spec.col i r) (Cert.Spec.col k kk)) := by
  have e := idx1_adj t
  unfold iblk1
  rw [View.read_apply]
  show V c main_arg3 _ = V c main_arg3 _
  congr 1
  funext a
  apply Fin.ext
  match a with
  | ⟨0, _⟩ => show win1_1.index t (0 : Fin 2) * 512 + 1 * r.val = 512 * i.val + r.val; have := i.isLt; have := k.isLt; omega
  | ⟨1, _⟩ => show win1_1.index t (1 : Fin 2) * 512 + 1 * kk.val = 512 * k.val + kk.val; have := i.isLt; have := k.isLt; omega

theorem iblk1_2_apply (c : Dev nD) (t : Fin cfg1.N) (i k : Fin 8) (ht : t.val = 8 * i.val + k.val) (r kk : Fin 512) :
    iblk1 V c 2 t (ix2 r kk) = V c main_arg4 (ix2 (Cert.Spec.col i r) (Cert.Spec.col k kk)) := by
  have e := idx1_adj t
  unfold iblk1
  rw [View.read_apply]
  show V c main_arg4 _ = V c main_arg4 _
  congr 1
  funext a
  apply Fin.ext
  match a with
  | ⟨0, _⟩ => show win1_2.index t (0 : Fin 2) * 512 + 1 * r.val = 512 * i.val + r.val; have := i.isLt; have := k.isLt; omega
  | ⟨1, _⟩ => show win1_2.index t (1 : Fin 2) * 512 + 1 * kk.val = 512 * k.val + kk.val; have := i.isLt; have := k.isLt; omega

theorem iblk1_3_apply (c : Dev nD) (t : Fin cfg1.N) (i k : Fin 8) (ht : t.val = 8 * i.val + k.val) (r kk : Fin 512) :
    iblk1 V c 3 t (ix2 r kk) = V c main_arg5 (ix2 (Cert.Spec.col i r) (Cert.Spec.col k kk)) := by
  have e := idx1_adj t
  unfold iblk1
  rw [View.read_apply]
  show V c main_arg5 _ = V c main_arg5 _
  congr 1
  funext a
  apply Fin.ext
  match a with
  | ⟨0, _⟩ => show win1_3.index t (0 : Fin 2) * 512 + 1 * r.val = 512 * i.val + r.val; have := i.isLt; have := k.isLt; omega
  | ⟨1, _⟩ => show win1_3.index t (1 : Fin 2) * 512 + 1 * kk.val = 512 * k.val + kk.val; have := i.isLt; have := k.isLt; omega

theorem iblk1_4_apply (c : Dev nD) (t : Fin cfg1.N) (i k : Fin 8) (ht : t.val = 8 * i.val + k.val) (kk : Fin 512) (j : Fin 32) :
    iblk1 V c 4 t (ix2 kk j) = V c main_v4_0 (ix2 (Cert.Spec.col k kk) j) := by
  have e := idx1_rows t
  unfold iblk1
  rw [View.read_apply]
  show V c main_v4_0 _ = V c main_v4_0 _
  congr 1
  funext a
  apply Fin.ext
  match a with
  | ⟨0, _⟩ => show win1_4.index t (0 : Fin 2) * 512 + 1 * kk.val = 512 * k.val + kk.val; have := i.isLt; have := k.isLt; omega
  | ⟨1, _⟩ => show win1_4.index t (1 : Fin 2) * 32 + 1 * j.val = j.val; omega

theorem iblk1_5_apply (c : Dev nD) (t : Fin cfg1.N) (i k : Fin 8) (ht : t.val = 8 * i.val + k.val) (kk : Fin 512) (j : Fin 32) :
    iblk1 V c 5 t (ix2 kk j) = V c main_v4_1 (ix2 (Cert.Spec.col k kk) j) := by
  have e := idx1_rows t
  unfold iblk1
  rw [View.read_apply]
  show V c main_v4_1 _ = V c main_v4_1 _
  congr 1
  funext a
  apply Fin.ext
  match a with
  | ⟨0, _⟩ => show win1_5.index t (0 : Fin 2) * 512 + 1 * kk.val = 512 * k.val + kk.val; have := i.isLt; have := k.isLt; omega
  | ⟨1, _⟩ => show win1_5.index t (1 : Fin 2) * 32 + 1 * j.val = j.val; omega

theorem iblk1_6_apply (c : Dev nD) (t : Fin cfg1.N) (i k : Fin 8) (ht : t.val = 8 * i.val + k.val) (kk : Fin 512) (j : Fin 32) :
    iblk1 V c 6 t (ix2 kk j) = V c main_v4_2 (ix2 (Cert.Spec.col k kk) j) := by
  have e := idx1_rows t
  unfold iblk1
  rw [View.read_apply]
  show V c main_v4_2 _ = V c main_v4_2 _
  congr 1
  funext a
  apply Fin.ext
  match a with
  | ⟨0, _⟩ => show win1_6.index t (0 : Fin 2) * 512 + 1 * kk.val = 512 * k.val + kk.val; have := i.isLt; have := k.isLt; omega
  | ⟨1, _⟩ => show win1_6.index t (1 : Fin 2) * 32 + 1 * j.val = j.val; omega

theorem iblk1_7_apply (c : Dev nD) (t : Fin cfg1.N) (i k : Fin 8) (ht : t.val = 8 * i.val + k.val) (kk : Fin 512) (j : Fin 32) :
    iblk1 V c 7 t (ix2 kk j) = V c main_v4_3 (ix2 (Cert.Spec.col k kk) j) := by
  have e := idx1_rows t
  unfold iblk1
  rw [View.read_apply]
  show V c main_v4_3 _ = V c main_v4_3 _
  congr 1
  funext a
  apply Fin.ext
  match a with
  | ⟨0, _⟩ => show win1_7.index t (0 : Fin 2) * 512 + 1 * kk.val = 512 * k.val + kk.val; have := i.isLt; have := k.isLt; omega
  | ⟨1, _⟩ => show win1_7.index t (1 : Fin 2) * 32 + 1 * j.val = j.val; omega

/-! ## The running sums at an element -/

theorem lat1At_reset (c : Dev nD) (n : Nat) (hn : n < cfg1.N) (h0 : n % 8 = 0) :
    lat1At V c n hn = k1_pay1 (iblk1 V c 0 ⟨n, hn⟩) (iblk1 V c 4 ⟨n, hn⟩) (iblk1 V c 1 ⟨n, hn⟩) (iblk1 V c 5 ⟨n, hn⟩) := by
  cases n with
  | zero => rfl
  | succ n => rw [lat1At, if_pos h0]

theorem lat1At_step (c : Dev nD) (n : Nat) (hn : n + 1 < cfg1.N) (h0 : ¬(n + 1) % 8 = 0) :
    lat1At V c (n + 1) hn = k1_pay3 (iblk1 V c 0 ⟨n + 1, hn⟩) (iblk1 V c 4 ⟨n + 1, hn⟩) (iblk1 V c 1 ⟨n + 1, hn⟩) (iblk1 V c 5 ⟨n + 1, hn⟩)
      (lat1At V c n (Nat.lt_of_succ_lt hn)) := by
  rw [lat1At, if_neg h0]

theorem lat2At_reset (c : Dev nD) (n : Nat) (hn : n < cfg1.N) (h0 : n % 8 = 0) :
    lat2At V c n hn = k1_pay2 (iblk1 V c 2 ⟨n, hn⟩) (iblk1 V c 6 ⟨n, hn⟩) (iblk1 V c 3 ⟨n, hn⟩) (iblk1 V c 7 ⟨n, hn⟩) := by
  cases n with
  | zero => rfl
  | succ n => rw [lat2At, if_pos h0]

theorem lat2At_step (c : Dev nD) (n : Nat) (hn : n + 1 < cfg1.N) (h0 : ¬(n + 1) % 8 = 0) :
    lat2At V c (n + 1) hn = k1_pay4 (iblk1 V c 2 ⟨n + 1, hn⟩) (iblk1 V c 6 ⟨n + 1, hn⟩) (iblk1 V c 3 ⟨n + 1, hn⟩) (iblk1 V c 7 ⟨n + 1, hn⟩)
      (lat2At V c n (Nat.lt_of_succ_lt hn)) := by
  rw [lat2At, if_neg h0]

/-- Point 8·i + k's contribution to latent 1 at row r of row block i: column block k's two products added. -/
theorem pay1_blocks (c : Dev nD) (t : Fin cfg1.N) (i k : Fin 8) (ht : t.val = 8 * i.val + k.val) (r : Fin 512) (j : Fin 32) :
    k1_pay1 (iblk1 V c 0 t) (iblk1 V c 4 t) (iblk1 V c 1 t) (iblk1 V c 5 t) (ix2 r j)
      = Cert.Spec.latBlockK (V c main_arg2) (V c main_arg3) (tab32 (V c main_v4_0)) (tab32 (V c main_v4_1)) (Cert.Spec.col i r) j k := by
  refine (pay1_apply _ _ _ _ r j).trans ?_
  unfold Cert.Spec.latBlockK
  congr 1 <;> refine Finset.sum_congr rfl fun kk _ => ?_
  · rw [iblk1_0_apply V c t i k ht, iblk1_4_apply V c t i k ht]; rfl
  · rw [iblk1_1_apply V c t i k ht, iblk1_5_apply V c t i k ht]; rfl

theorem pay2_blocks (c : Dev nD) (t : Fin cfg1.N) (i k : Fin 8) (ht : t.val = 8 * i.val + k.val) (r : Fin 512) (j : Fin 32) :
    k1_pay2 (iblk1 V c 2 t) (iblk1 V c 6 t) (iblk1 V c 3 t) (iblk1 V c 7 t) (ix2 r j)
      = Cert.Spec.latBlockK (V c main_arg4) (V c main_arg5) (tab32 (V c main_v4_2)) (tab32 (V c main_v4_3)) (Cert.Spec.col i r) j k := by
  rw [pay2_eq]
  refine (pay1_apply _ _ _ _ r j).trans ?_
  unfold Cert.Spec.latBlockK
  congr 1 <;> refine Finset.sum_congr rfl fun kk _ => ?_
  · rw [iblk1_2_apply V c t i k ht, iblk1_6_apply V c t i k ht]; rfl
  · rw [iblk1_3_apply V c t i k ht, iblk1_7_apply V c t i k ht]; rfl

/-- Latent 1's buffer after point 8·i + k, at row r: the contributions of column blocks 0 … k added in order. -/
theorem lat1At_apply (c : Dev nD) (i : Fin 8) (r : Fin 512) (j : Fin 32) :
    ∀ (k : Nat) (hk : k < 8) (hn : 8 * i.val + k < cfg1.N),
      lat1At V c (8 * i.val + k) hn (ix2 r j)
        = Cert.Spec.accUpTo (Cert.Spec.latBlockK (V c main_arg2) (V c main_arg3) (tab32 (V c main_v4_0)) (tab32 (V c main_v4_1)) (Cert.Spec.col i r) j) k hk
  | 0, hk, hn => by
    rw [lat1At_reset V c _ hn (by omega)]
    exact pay1_blocks V c ⟨8 * i.val + 0, hn⟩ i ⟨0, hk⟩ rfl r j
  | k + 1, hk, hn => by
    show lat1At V c (8 * i.val + k + 1) hn (ix2 r j) = _
    rw [lat1At_step V c (8 * i.val + k) hn (by omega)]
    refine (pay3_apply _ _ _ _ _ r j).trans ?_
    rw [lat1At_apply c i r j k (Nat.lt_of_succ_lt hk) (Nat.lt_of_succ_lt hn)]
    rw [Cert.Spec.accUpTo]
    exact congrArg _ (pay1_blocks V c ⟨8 * i.val + k + 1, hn⟩ i ⟨k + 1, hk⟩ rfl r j)

theorem lat2At_apply (c : Dev nD) (i : Fin 8) (r : Fin 512) (j : Fin 32) :
    ∀ (k : Nat) (hk : k < 8) (hn : 8 * i.val + k < cfg1.N),
      lat2At V c (8 * i.val + k) hn (ix2 r j)
        = Cert.Spec.accUpTo (Cert.Spec.latBlockK (V c main_arg4) (V c main_arg5) (tab32 (V c main_v4_2)) (tab32 (V c main_v4_3)) (Cert.Spec.col i r) j) k hk
  | 0, hk, hn => by
    rw [lat2At_reset V c _ hn (by omega)]
    exact pay2_blocks V c ⟨8 * i.val + 0, hn⟩ i ⟨0, hk⟩ rfl r j
  | k + 1, hk, hn => by
    show lat2At V c (8 * i.val + k + 1) hn (ix2 r j) = _
    rw [lat2At_step V c (8 * i.val + k) hn (by omega), pay4_eq]
    refine (pay3_apply _ _ _ _ _ r j).trans ?_
    rw [lat2At_apply c i r j k (Nat.lt_of_succ_lt hk) (Nat.lt_of_succ_lt hn)]
    rw [Cert.Spec.accUpTo]
    exact congrArg _ (pay2_blocks V c ⟨8 * i.val + k + 1, hn⟩ i ⟨k + 1, hk⟩ rfl r j)

/-! ## From the row blocks written back to the arrays -/

/-- Latent 1 as contents of its array. -/
def arr1_8 (c : Dev nD) : S4096x32.Idx → EReal := fun i => lat1V V c (i 0) (i 1)
/-- Latent 2 as contents of its array. -/
def arr1_9 (c : Dev nD) : S4096x32.Idx → EReal := fun i => lat2V V c (i 0) (i 1)
/-- The combined latent as contents of its array. -/
def arr1_10 (c : Dev nD) : S4096x32.Idx → EReal := fun i => Cert.Spec.combK (lat1V V c) (lat2V V c) (i 0) (i 1)

theorem mem_blk1_8 (t : Fin cfg1.N) (i : S4096x32.Idx) :
    i ∈ ((cfg1.win 8).blk t).view.set ↔ ∀ a : Fin 2, win1_8.index t a * S512x32.size a ≤ (i a).val ∧ (i a).val < win1_8.index t a * S512x32.size a + S512x32.size a := by
  show i ∈ ((View.whole main_v5_0).slice (win1_8.rect t)).set ↔ _
  rw [View.set_slice_whole, Rect.mem_set_unit]
  exact Iff.rfl

/-- Row p lies in the row block that point 8·(p / 512) + 7 writes back. -/
theorem cover1_8 (i : S4096x32.Idx) : ∃ t : Fin cfg1.N, (cfg1.win 8).flush t = true ∧ i ∈ ((cfg1.win 8).blk t).view.set := by
  have hN : cfg1.N = 64 := N_1
  have h0 : (i 0).val < 4096 := idx2_lt0 i
  have h1 : (i 1).val < 32 := idx2_lt1 i
  have e := idx1_out ⟨8 * ((i 0).val / 512) + 7, by omega⟩
  refine ⟨⟨8 * ((i 0).val / 512) + 7, by omega⟩, (flush1_8 _).mpr (by show (8 * ((i 0).val / 512) + 7) % 8 = 7; omega), ?_⟩
  rw [mem_blk1_8]
  intro a
  have hd : (8 * ((i 0).val / 512) + 7) / 8 = (i 0).val / 512 := by omega
  rw [show ((⟨8 * ((i 0).val / 512) + 7, by omega⟩ : Fin cfg1.N).val) = 8 * ((i 0).val / 512) + 7 from rfl, hd] at e
  match a with
  | ⟨0, _⟩ =>
    show win1_8.index _ (0 : Fin 2) * 512 ≤ (i 0).val ∧ (i 0).val < win1_8.index _ (0 : Fin 2) * 512 + 512
    omega
  | ⟨1, _⟩ =>
    show win1_8.index _ (1 : Fin 2) * 32 ≤ (i 1).val ∧ (i 1).val < win1_8.index _ (1 : Fin 2) * 32 + 32
    omega

/-- An element of the row block written back at point t sits at row 512·(t / 8) + r of the array. -/
theorem emb1_8 (t : Fin cfg1.N) (hi : t.val / 8 < 8) (r : Fin 512) (j : Fin 32) :
    ((cfg1.win 8).blk t).view.emb (ix2 r j) = ix2 (Cert.Spec.col ⟨t.val / 8, hi⟩ r) j := by
  have e := idx1_out t
  funext a
  apply Fin.ext
  match a with
  | ⟨0, _⟩ => show win1_8.index t (0 : Fin 2) * 512 + 1 * r.val = 512 * (t.val / 8) + r.val; omega
  | ⟨1, _⟩ => show win1_8.index t (1 : Fin 2) * 32 + 1 * j.val = j.val; omega

theorem mem_blk1_9 (t : Fin cfg1.N) (i : S4096x32.Idx) :
    i ∈ ((cfg1.win 9).blk t).view.set ↔ ∀ a : Fin 2, win1_9.index t a * S512x32.size a ≤ (i a).val ∧ (i a).val < win1_9.index t a * S512x32.size a + S512x32.size a := by
  show i ∈ ((View.whole main_v5_1).slice (win1_9.rect t)).set ↔ _
  rw [View.set_slice_whole, Rect.mem_set_unit]
  exact Iff.rfl

/-- Row p lies in the row block that point 8·(p / 512) + 7 writes back. -/
theorem cover1_9 (i : S4096x32.Idx) : ∃ t : Fin cfg1.N, (cfg1.win 9).flush t = true ∧ i ∈ ((cfg1.win 9).blk t).view.set := by
  have hN : cfg1.N = 64 := N_1
  have h0 : (i 0).val < 4096 := idx2_lt0 i
  have h1 : (i 1).val < 32 := idx2_lt1 i
  have e := idx1_out ⟨8 * ((i 0).val / 512) + 7, by omega⟩
  refine ⟨⟨8 * ((i 0).val / 512) + 7, by omega⟩, (flush1_9 _).mpr (by show (8 * ((i 0).val / 512) + 7) % 8 = 7; omega), ?_⟩
  rw [mem_blk1_9]
  intro a
  have hd : (8 * ((i 0).val / 512) + 7) / 8 = (i 0).val / 512 := by omega
  rw [show ((⟨8 * ((i 0).val / 512) + 7, by omega⟩ : Fin cfg1.N).val) = 8 * ((i 0).val / 512) + 7 from rfl, hd] at e
  match a with
  | ⟨0, _⟩ =>
    show win1_9.index _ (0 : Fin 2) * 512 ≤ (i 0).val ∧ (i 0).val < win1_9.index _ (0 : Fin 2) * 512 + 512
    omega
  | ⟨1, _⟩ =>
    show win1_9.index _ (1 : Fin 2) * 32 ≤ (i 1).val ∧ (i 1).val < win1_9.index _ (1 : Fin 2) * 32 + 32
    omega

/-- An element of the row block written back at point t sits at row 512·(t / 8) + r of the array. -/
theorem emb1_9 (t : Fin cfg1.N) (hi : t.val / 8 < 8) (r : Fin 512) (j : Fin 32) :
    ((cfg1.win 9).blk t).view.emb (ix2 r j) = ix2 (Cert.Spec.col ⟨t.val / 8, hi⟩ r) j := by
  have e := idx1_out t
  funext a
  apply Fin.ext
  match a with
  | ⟨0, _⟩ => show win1_9.index t (0 : Fin 2) * 512 + 1 * r.val = 512 * (t.val / 8) + r.val; omega
  | ⟨1, _⟩ => show win1_9.index t (1 : Fin 2) * 32 + 1 * j.val = j.val; omega

theorem mem_blk1_10 (t : Fin cfg1.N) (i : S4096x32.Idx) :
    i ∈ ((cfg1.win 10).blk t).view.set ↔ ∀ a : Fin 2, win1_10.index t a * S512x32.size a ≤ (i a).val ∧ (i a).val < win1_10.index t a * S512x32.size a + S512x32.size a := by
  show i ∈ ((View.whole main_v5_2).slice (win1_10.rect t)).set ↔ _
  rw [View.set_slice_whole, Rect.mem_set_unit]
  exact Iff.rfl

/-- Row p lies in the row block that point 8·(p / 512) + 7 writes back. -/
theorem cover1_10 (i : S4096x32.Idx) : ∃ t : Fin cfg1.N, (cfg1.win 10).flush t = true ∧ i ∈ ((cfg1.win 10).blk t).view.set := by
  have hN : cfg1.N = 64 := N_1
  have h0 : (i 0).val < 4096 := idx2_lt0 i
  have h1 : (i 1).val < 32 := idx2_lt1 i
  have e := idx1_out ⟨8 * ((i 0).val / 512) + 7, by omega⟩
  refine ⟨⟨8 * ((i 0).val / 512) + 7, by omega⟩, (flush1_10 _).mpr (by show (8 * ((i 0).val / 512) + 7) % 8 = 7; omega), ?_⟩
  rw [mem_blk1_10]
  intro a
  have hd : (8 * ((i 0).val / 512) + 7) / 8 = (i 0).val / 512 := by omega
  rw [show ((⟨8 * ((i 0).val / 512) + 7, by omega⟩ : Fin cfg1.N).val) = 8 * ((i 0).val / 512) + 7 from rfl, hd] at e
  match a with
  | ⟨0, _⟩ =>
    show win1_10.index _ (0 : Fin 2) * 512 ≤ (i 0).val ∧ (i 0).val < win1_10.index _ (0 : Fin 2) * 512 + 512
    omega
  | ⟨1, _⟩ =>
    show win1_10.index _ (1 : Fin 2) * 32 ≤ (i 1).val ∧ (i 1).val < win1_10.index _ (1 : Fin 2) * 32 + 32
    omega

/-- An element of the row block written back at point t sits at row 512·(t / 8) + r of the array. -/
theorem emb1_10 (t : Fin cfg1.N) (hi : t.val / 8 < 8) (r : Fin 512) (j : Fin 32) :
    ((cfg1.win 10).blk t).view.emb (ix2 r j) = ix2 (Cert.Spec.col ⟨t.val / 8, hi⟩ r) j := by
  have e := idx1_out t
  funext a
  apply Fin.ext
  match a with
  | ⟨0, _⟩ => show win1_10.index t (0 : Fin 2) * 512 + 1 * r.val = 512 * (t.val / 8) + r.val; omega
  | ⟨1, _⟩ => show win1_10.index t (1 : Fin 2) * 32 + 1 * j.val = j.val; omega

theorem lat1At_cast (c : Dev nD) (t : Fin cfg1.N) (u : Nat) (hu : u < cfg1.N) (e : u = t.val) :
    lat1At V c t.val t.isLt = lat1At V c u hu := by subst e; rfl
theorem lat2At_cast (c : Dev nD) (t : Fin cfg1.N) (u : Nat) (hu : u < cfg1.N) (e : u = t.val) :
    lat2At V c t.val t.isLt = lat2At V c u hu := by subst e; rfl

/-- What a point with k = 7 writes back for latent 1 is its row block of the whole latent. -/
theorem flushed1_8 (c : Dev nD) (t : Fin cfg1.N) (hf : (cfg1.win 8).flush t = true) :
    (dat1 V c).flushed 8 t = ((cfg1.win 8).blk t).view.read (Elt Ideal) (arr1_8 V c) := by
  have h7 : t.val % 8 = 7 := (flush1_8 t).mp hf
  have hN : cfg1.N = 64 := N_1
  have hi : t.val / 8 < 8 := by have := t.isLt; omega
  show (cfg1.win 8).cut (grid1.coords t) ((dat1 V c).after 8 t) = _
  rw [after1_8]
  funext y
  obtain ⟨r, j, rfl⟩ : ∃ (r : Fin 512) (j : Fin 32), y = ix2 r j := ⟨y 0, y 1, eq_ix2 y⟩
  rw [View.read_apply]
  show lat1At V c t.val t.isLt (ix2 r j) = arr1_8 V c (((cfg1.win 8).blk t).view.emb (ix2 r j))
  rw [emb1_8 t hi r j, lat1At_cast V c t (8 * (t.val / 8) + 7) (by omega) (by omega)]
  exact lat1At_apply V c ⟨t.val / 8, hi⟩ r j 7 (by decide) _

theorem flushed1_9 (c : Dev nD) (t : Fin cfg1.N) (hf : (cfg1.win 9).flush t = true) :
    (dat1 V c).flushed 9 t = ((cfg1.win 9).blk t).view.read (Elt Ideal) (arr1_9 V c) := by
  have h7 : t.val % 8 = 7 := (flush1_9 t).mp hf
  have hN : cfg1.N = 64 := N_1
  have hi : t.val / 8 < 8 := by have := t.isLt; omega
  show (cfg1.win 9).cut (grid1.coords t) ((dat1 V c).after 9 t) = _
  rw [after1_9]
  funext y
  obtain ⟨r, j, rfl⟩ : ∃ (r : Fin 512) (j : Fin 32), y = ix2 r j := ⟨y 0, y 1, eq_ix2 y⟩
  rw [View.read_apply]
  show lat2At V c t.val t.isLt (ix2 r j) = arr1_9 V c (((cfg1.win 9).blk t).view.emb (ix2 r j))
  rw [emb1_9 t hi r j, lat2At_cast V c t (8 * (t.val / 8) + 7) (by omega) (by omega)]
  exact lat2At_apply V c ⟨t.val / 8, hi⟩ r j 7 (by decide) _

/-- What a point with k = 7 writes back for the combined latent is its row block of one half of the two latents added. -/
theorem flushed1_10 (c : Dev nD) (t : Fin cfg1.N) (hf : (cfg1.win 10).flush t = true) :
    (dat1 V c).flushed 10 t = ((cfg1.win 10).blk t).view.read (Elt Ideal) (arr1_10 V c) := by
  have h7 : t.val % 8 = 7 := (flush1_10 t).mp hf
  have hN : cfg1.N = 64 := N_1
  have hi : t.val / 8 < 8 := by have := t.isLt; omega
  show (cfg1.win 10).cut (grid1.coords t) ((dat1 V c).after 10 t) = _
  rw [after1_10]
  funext y
  obtain ⟨r, j, rfl⟩ : ∃ (r : Fin 512) (j : Fin 32), y = ix2 r j := ⟨y 0, y 1, eq_ix2 y⟩
  rw [View.read_apply]
  show combAt V c t.val t.isLt (ix2 r j) = arr1_10 V c (((cfg1.win 10).blk t).view.emb (ix2 r j))
  rw [emb1_10 t hi r j]
  unfold combAt
  refine (pay5_apply _ _ r j).trans ?_
  rw [lat1At_cast V c t (8 * (t.val / 8) + 7) (by omega) (by omega), lat2At_cast V c t (8 * (t.val / 8) + 7) (by omega) (by omega),
    lat1At_apply V c ⟨t.val / 8, hi⟩ r j 7 (by decide) _, lat2At_apply V c ⟨t.val / 8, hi⟩ r j 7 (by decide) _]
  rfl

/-! ## The three arrays after the pass -/

/-- Latent 1's array after the pass. -/
theorem val1_8 (c : Dev nD) (p : Fin 4096) (j : Fin 32) :
    (dat1 V c).arrAt 8 cfg1.N (ix2 p j) = lat1V V c p j :=
  congrFun ((dat1 V c).arrAt_eq_of_cover 8 (arr1_8 V c) (flushed1_8 V c) cover1_8) (ix2 p j)

/-- Latent 2's array after the pass. -/
theorem val1_9 (c : Dev nD) (p : Fin 4096) (j : Fin 32) :
    (dat1 V c).arrAt 9 cfg1.N (ix2 p j) = lat2V V c p j :=
  congrFun ((dat1 V c).arrAt_eq_of_cover 9 (arr1_9 V c) (flushed1_9 V c) cover1_9) (ix2 p j)

/-- The combined latent's array after the pass: one half of the two latents added. -/
theorem val1_10 (c : Dev nD) (p : Fin 4096) (j : Fin 32) :
    (dat1 V c).arrAt 10 cfg1.N (ix2 p j) = Cert.Spec.combK (lat1V V c) (lat2V V c) p j :=
  congrFun ((dat1 V c).arrAt_eq_of_cover 10 (arr1_10 V c) (flushed1_10 V c) cover1_10) (ix2 p j)

end Cert.KernelIdeal.Val1

end
-- ==== Proof.Val2.lean ====
/-
  The decoder pass's two result arrays as functions of the arrays the call is entered with, over the extended reals.

  Point n = 8·i + k multiplies the 512 x 512 block (i, k) of an adjacency into row block k of the combined latent; the
  products are summed over k in a scratch buffer (set at k = 0, added to afterwards), and at k = 7 the sum times the
  decoder weight is written back as row block i of the reconstruction. So entry (p, q) of a reconstruction is
  ∑ j, (the eight column blocks' partial products of row p against latent column j, added in order) · d (j, q): the
  specification's kernel form.

  The order of the argument: each product of the body read at an index as a finite sum; the running sums' recursion
  case by case; where each window's block sits in its array (block index times block size plus the coordinate inside
  the block); the scratch contents at point 8·i + k by induction on k; what the point with k = 7 stores; the row blocks
  cover the array (row p lies in row block p / 512), so the array after the pass is the specification's function.
-/
import proofs.«114995_g68247030333984_cont_9to1_m_654_2_alg».proof.Proof.Reg2
import proofs.«114995_g68247030333984_cont_9to1_m_654_2_alg».proof.Proof.Spec
import Idealize.ShloMosaic.Lib.Pipeline.Value
import Idealize.ShloMosaic.Lib.ValueIdx
import Idealize.ShloMosaic.PureOps.Ideal.Laws

noncomputable section

namespace Cert.KernelIdeal.Val2

open Idealize.ShloMosaic Idealize.ShloMosaic.TcCoe Idealize.ShloMosaic.ValueIdx
open Idealize.ShloMosaic.Pipeline (Dat)
open Cert.KernelIdeal Cert.KernelIdeal.Gen Cert.KernelIdeal.Hand

/-! ## The two products of the body, read at an index -/

theorem lhsA_0 (i : S512x32.Idx) (q : dot_S512x512_S512x32_S512x32_1_0_0_1_n_n.contr.Idx) :
    (dot_S512x512_S512x32_S512x32_1_0_0_1_n_n.lhsIdx i q 0).val = (i 0).val := by
  unfold DotDims.lhsIdx
  rw [dif_neg (show ¬(0 : Fin S512x512.rank) ∈ dot_S512x512_S512x32_S512x32_1_0_0_1_n_n.lhsBatch by decide), dif_pos (show (0 : Fin S512x512.rank) ∈ dot_S512x512_S512x32_S512x32_1_0_0_1_n_n.lhsNonContracting by decide)]
  rfl
theorem lhsA_1 (i : S512x32.Idx) (q : dot_S512x512_S512x32_S512x32_1_0_0_1_n_n.contr.Idx) :
    (dot_S512x512_S512x32_S512x32_1_0_0_1_n_n.lhsIdx i q 1).val = (q ⟨0, by decide⟩).val :=
  dot_S512x512_S512x32_S512x32_1_0_0_1_n_n.lhsIdx_val_of_single rfl i q
theorem rhsA_0 (i : S512x32.Idx) (q : dot_S512x512_S512x32_S512x32_1_0_0_1_n_n.contr.Idx) :
    (dot_S512x512_S512x32_S512x32_1_0_0_1_n_n.rhsIdx i q 0).val = (q ⟨0, by decide⟩).val :=
  dot_S512x512_S512x32_S512x32_1_0_0_1_n_n.rhsIdx_val_of_single rfl i q
theorem rhsA_1 (i : S512x32.Idx) (q : dot_S512x512_S512x32_S512x32_1_0_0_1_n_n.contr.Idx) :
    (dot_S512x512_S512x32_S512x32_1_0_0_1_n_n.rhsIdx i q 1).val = (i 1).val := by
  unfold DotDims.rhsIdx
  rw [dif_neg (show ¬(1 : Fin S512x32.rank) ∈ dot_S512x512_S512x32_S512x32_1_0_0_1_n_n.rhsBatch by decide), dif_pos (show (1 : Fin S512x32.rank) ∈ dot_S512x512_S512x32_S512x32_1_0_0_1_n_n.rhsNonContracting by decide)]
  rfl

/-- A 512 x 512 block times a 512 x 32 block into the zero block, at (r, j): the sum over the block's 512 columns. -/
theorem adjProd_apply (x : Vec Ideal S512x512 .f32) (y : Vec Ideal S512x32 .f32) (r : Fin 512) (j : Fin 32) :
    matmul (F := Ideal) (φ₁ := .f32) (φ₂ := .f32) dot_S512x512_S512x32_S512x32_1_0_0_1_n_n none x y (constant (F := Ideal) S512x32 .f32 0x00000000#32) (ix2 r j)
      = ∑ kk : Fin 512, x (ix2 r kk) * y (ix2 kk j) := by
  simp only [matmul]
  rw [Ideal.matmul_constant_zero_apply, ← Equiv.sum_comp (contrEquiv1 dot_S512x512_S512x32_S512x32_1_0_0_1_n_n 512 rfl rfl).symm]
  refine Finset.sum_congr rfl fun k _ => ?_
  have hk := contrEquiv1_symm_val dot_S512x512_S512x32_S512x32_1_0_0_1_n_n 512 rfl rfl k
  have el : dot_S512x512_S512x32_S512x32_1_0_0_1_n_n.lhsIdx (ix2 r j) ((contrEquiv1 dot_S512x512_S512x32_S512x32_1_0_0_1_n_n 512 rfl rfl).symm k) = ix2 r k := funext fun a => Fin.ext (by
    match a with
    | ⟨0, _⟩ => exact lhsA_0 _ _
    | ⟨1, _⟩ => exact (lhsA_1 _ _).trans hk)
  have er : dot_S512x512_S512x32_S512x32_1_0_0_1_n_n.rhsIdx (ix2 r j) ((contrEquiv1 dot_S512x512_S512x32_S512x32_1_0_0_1_n_n 512 rfl rfl).symm k) = ix2 k j := funext fun a => Fin.ext (by
    match a with
    | ⟨0, _⟩ => exact (rhsA_0 _ _).trans hk
    | ⟨1, _⟩ => exact rhsA_1 _ _)
  rw [el, er]

theorem lhsB_0 (i : S512x128.Idx) (q : dot_S512x32_S32x128_S512x128_1_0_0_1_n_n.contr.Idx) :
    (dot_S512x32_S32x128_S512x128_1_0_0_1_n_n.lhsIdx i q 0).val = (i 0).val := by
  unfold DotDims.lhsIdx
  rw [dif_neg (show ¬(0 : Fin S512x32.rank) ∈ dot_S512x32_S32x128_S512x128_1_0_0_1_n_n.lhsBatch by decide), dif_pos (show (0 : Fin S512x32.rank) ∈ dot_S512x32_S32x128_S512x128_1_0_0_1_n_n.lhsNonContracting by decide)]
  rfl
theorem lhsB_1 (i : S512x128.Idx) (q : dot_S512x32_S32x128_S512x128_1_0_0_1_n_n.contr.Idx) :
    (dot_S512x32_S32x128_S512x128_1_0_0_1_n_n.lhsIdx i q 1).val = (q ⟨0, by decide⟩).val :=
  dot_S512x32_S32x128_S512x128_1_0_0_1_n_n.lhsIdx_val_of_single rfl i q
theorem rhsB_0 (i : S512x128.Idx) (q : dot_S512x32_S32x128_S512x128_1_0_0_1_n_n.contr.Idx) :
    (dot_S512x32_S32x128_S512x128_1_0_0_1_n_n.rhsIdx i q 0).val = (q ⟨0, by decide⟩).val :=
  dot_S512x32_S32x128_S512x128_1_0_0_1_n_n.rhsIdx_val_of_single rfl i q
theorem rhsB_1 (i : S512x128.Idx) (q : dot_S512x32_S32x128_S512x128_1_0_0_1_n_n.contr.Idx) :
    (dot_S512x32_S32x128_S512x128_1_0_0_1_n_n.rhsIdx i q 1).val = (i 1).val := by
  unfold DotDims.rhsIdx
  rw [dif_neg (show ¬(1 : Fin S32x128.rank) ∈ dot_S512x32_S32x128_S512x128_1_0_0_1_n_n.rhsBatch by decide), dif_pos (show (1 : Fin S32x128.rank) ∈ dot_S512x32_S32x128_S512x128_1_0_0_1_n_n.rhsNonContracting by decide)]
  rfl

/-- A 512 x 32 block times the 32 x 128 decoder weight into the zero block, at (r, q): the sum over the 32 latent columns. -/
theorem decProd_apply (x : Vec Ideal S512x32 .f32) (y : Vec Ideal S32x128 .f32) (r : Fin 512) (q : Fin 128) :
    matmul (F := Ideal) (φ₁ := .f32) (φ₂ := .f32) dot_S512x32_S32x128_S512x128_1_0_0_1_n_n none x y (constant (F := Ideal) S512x128 .f32 0x00000000#32) (ix2 r q)
      = ∑ j : Fin 32, x (ix2 r j) * y (ix2 j q) := by
  simp only [matmul]
  rw [Ideal.matmul_constant_zero_apply, ← Equiv.sum_comp (contrEquiv1 dot_S512x32_S32x128_S512x128_1_0_0_1_n_n 32 rfl rfl).symm]
  refine Finset.sum_congr rfl fun k _ => ?_
  have hk := contrEquiv1_symm_val dot_S512x32_S32x128_S512x128_1_0_0_1_n_n 32 rfl rfl k
  have el : dot_S512x32_S32x128_S512x128_1_0_0_1_n_n.lhsIdx (ix2 r q) ((contrEquiv1 dot_S512x32_S32x128_S512x128_1_0_0_1_n_n 32 rfl rfl).symm k) = ix2 r k := funext fun a => Fin.ext (by
    match a with
    | ⟨0, _⟩ => exact lhsB_0 _ _
    | ⟨1, _⟩ => exact (lhsB_1 _ _).trans hk)
  have er : dot_S512x32_S32x128_S512x128_1_0_0_1_n_n.rhsIdx (ix2 r q) ((contrEquiv1 dot_S512x32_S32x128_S512x128_1_0_0_1_n_n 32 rfl rfl).symm k) = ix2 k q := funext fun a => Fin.ext (by
    match a with
    | ⟨0, _⟩ => exact (rhsB_0 _ _).trans hk
    | ⟨1, _⟩ => exact rhsB_1 _ _)
  rw [el, er]

/-! ## The body's payloads at an index -/

/-- The product stored at k = 0 (either scratch): the adjacency block against the latent block. -/
theorem pay3_apply (x : Vec Ideal S512x512 .f32) (y : Vec Ideal S512x32 .f32) (r : Fin 512) (j : Fin 32) :
    k2_pay3 x y (ix2 r j) = ∑ kk : Fin 512, x (ix2 r kk) * y (ix2 kk j) := by
  unfold k2_pay3 k2_pay1
  simp only [shapeCast_self]
  exact adjProd_apply x y r j

theorem pay4_apply (x : Vec Ideal S512x512 .f32) (y : Vec Ideal S512x32 .f32) (r : Fin 512) (j : Fin 32) :
    k2_pay4 x y (ix2 r j) = ∑ kk : Fin 512, x (ix2 r kk) * y (ix2 kk j) := by
  unfold k2_pay4 k2_pay2
  simp only [shapeCast_self]
  exact adjProd_apply x y r j

/-- The sum stored at k > 0: what the scratch held plus the product. -/
theorem pay5_apply (x : Vec Ideal S512x512 .f32) (y : Vec Ideal S512x32 .f32) (s : Vec Ideal S512x32 .f32) (r : Fin 512) (j : Fin 32) :
    k2_pay5 x y s (ix2 r j) = s (ix2 r j) + ∑ kk : Fin 512, x (ix2 r kk) * y (ix2 kk j) := by
  unfold k2_pay5 k2_pay1
  simp only [shapeCast_self]
  show s (ix2 r j) + _ = _
  exact congrArg (s (ix2 r j) + ·) (adjProd_apply x y r j)

theorem pay6_apply (x : Vec Ideal S512x512 .f32) (y : Vec Ideal S512x32 .f32) (s : Vec Ideal S512x32 .f32) (r : Fin 512) (j : Fin 32) :
    k2_pay6 x y s (ix2 r j) = s (ix2 r j) + ∑ kk : Fin 512, x (ix2 r kk) * y (ix2 kk j) := by
  unfold k2_pay6 k2_pay2
  simp only [shapeCast_self]
  show s (ix2 r j) + _ = _
  exact congrArg (s (ix2 r j) + ·) (adjProd_apply x y r j)

/-- What is stored at k = 7: the scratch times the decoder weight. -/
theorem pay7_apply (s : Vec Ideal S512x32 .f32) (d : Vec Ideal S32x128 .f32) (r : Fin 512) (q : Fin 128) :
    k2_pay7 s d (ix2 r q) = ∑ j : Fin 32, s (ix2 r j) * d (ix2 j q) := by
  unfold k2_pay7
  exact decProd_apply s d r q

theorem pay8_apply (s : Vec Ideal S512x32 .f32) (d : Vec Ideal S32x128 .f32) (r : Fin 512) (q : Fin 128) :
    k2_pay8 s d (ix2 r q) = ∑ j : Fin 32, s (ix2 r j) * d (ix2 j q) := by
  unfold k2_pay8
  exact decProd_apply s d r q

variable (V : Entry Ideal)

/-! ## The arrays the pass reads, and each window's block at a point, at their literal shapes -/

abbrev adj1 (c : Dev nD) : Vec Ideal S4096x4096 .f32 := V c main_arg2
abbrev adj2 (c : Dev nD) : Vec Ideal S4096x4096 .f32 := V c main_arg4
abbrev cmbArr (c : Dev nD) : Vec Ideal S4096x32 .f32 := V c main_v5_2
abbrev dec1 (c : Dev nD) : Vec Ideal S32x128 .f32 := V c main_arg8
abbrev dec2 (c : Dev nD) : Vec Ideal S32x128 .f32 := V c main_arg9

abbrev adj1Blk (c : Dev nD) (t : Fin cfg2.N) : Vec Ideal S512x512 .f32 := iblk2 V c 0 t
abbrev adj2Blk (c : Dev nD) (t : Fin cfg2.N) : Vec Ideal S512x512 .f32 := iblk2 V c 1 t
abbrev cmbBlk (c : Dev nD) (t : Fin cfg2.N) : Vec Ideal S512x32 .f32 := iblk2 V c 2 t
abbrev dec1Blk (c : Dev nD) (t : Fin cfg2.N) : Vec Ideal S32x128 .f32 := iblk2 V c 3 t
abbrev dec2Blk (c : Dev nD) (t : Fin cfg2.N) : Vec Ideal S32x128 .f32 := iblk2 V c 4 t

/-! ## The running sums' recursion, case by case -/

theorem s1At_reset (c : Dev nD) (n : Nat) (hn : n < cfg2.N) (h : n % 8 = 0) :
    s1At V c n hn = k2_pay3 (adj1Blk V c ⟨n, hn⟩) (cmbBlk V c ⟨n, hn⟩) := by
  cases n with
  | zero => rfl
  | succ n => rw [s1At, if_pos h]

theorem s1At_step (c : Dev nD) (n : Nat) (hn : n + 1 < cfg2.N) (h : ¬(n + 1) % 8 = 0) :
    s1At V c (n + 1) hn = k2_pay5 (adj1Blk V c ⟨n + 1, hn⟩) (cmbBlk V c ⟨n + 1, hn⟩) (s1At V c n (Nat.lt_of_succ_lt hn)) := by
  rw [s1At, if_neg h]

theorem s2At_reset (c : Dev nD) (n : Nat) (hn : n < cfg2.N) (h : n % 8 = 0) :
    s2At V c n hn = k2_pay4 (adj2Blk V c ⟨n, hn⟩) (cmbBlk V c ⟨n, hn⟩) := by
  cases n with
  | zero => rfl
  | succ n => rw [s2At, if_pos h]

theorem s2At_step (c : Dev nD) (n : Nat) (hn : n + 1 < cfg2.N) (h : ¬(n + 1) % 8 = 0) :
    s2At V c (n + 1) hn = k2_pay6 (adj2Blk V c ⟨n + 1, hn⟩) (cmbBlk V c ⟨n + 1, hn⟩) (s2At V c n (Nat.lt_of_succ_lt hn)) := by
  rw [s2At, if_neg h]

/-! ## Where each window's block sits in its array -/

/-- The block indices at point t = 8·i + k: the adjacency blocks at (i, k), the latent block at row block k, the decoder
    weights whole, the reconstructions at row block i. -/
theorem idx_facts : ∀ t : Fin cfg2.N,
    win2_0.index t (0 : Fin 2) = t.val / 8 ∧ win2_0.index t (1 : Fin 2) = t.val % 8
    ∧ win2_1.index t (0 : Fin 2) = t.val / 8 ∧ win2_1.index t (1 : Fin 2) = t.val % 8
    ∧ win2_2.index t (0 : Fin 2) = t.val % 8 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val / 8 ∧ win2_5.index t (1 : Fin 2) = 0
    ∧ win2_6.index t (0 : Fin 2) = t.val / 8 ∧ win2_6.index t (1 : Fin 2) = 0 :=
  (by decide +kernel : ∀ t : Fin grid2.N, _)

theorem adj1Blk_apply (c : Dev nD) (t : Fin cfg2.N) (r kk : Fin 512) (P K : Fin 4096)
    (hP : P.val = 512 * (t.val / 8) + r.val) (hK : K.val = 512 * (t.val % 8) + kk.val) :
    adj1Blk V c t (ix2 r kk) = adj1 V c (ix2 P K) := by
  obtain ⟨e0, e1, -⟩ := idx_facts t
  unfold adj1Blk iblk2
  rw [View.read_apply]
  show V c main_arg2 _ = V c main_arg2 _
  congr 1
  funext a
  apply Fin.ext
  match a with
  | ⟨0, _⟩ => show win2_0.index t 0 * 512 + 1 * r.val = P.val; rw [e0, hP]; omega
  | ⟨1, _⟩ => show win2_0.index t 1 * 512 + 1 * kk.val = K.val; rw [e1, hK]; omega

theorem adj2Blk_apply (c : Dev nD) (t : Fin cfg2.N) (r kk : Fin 512) (P K : Fin 4096)
    (hP : P.val = 512 * (t.val / 8) + r.val) (hK : K.val = 512 * (t.val % 8) + kk.val) :
    adj2Blk V c t (ix2 r kk) = adj2 V c (ix2 P K) := by
  obtain ⟨-, -, e0, e1, -⟩ := idx_facts t
  unfold adj2Blk iblk2
  rw [View.read_apply]
  show V c main_arg4 _ = V c main_arg4 _
  congr 1
  funext a
  apply Fin.ext
  match a with
  | ⟨0, _⟩ => show win2_1.index t 0 * 512 + 1 * r.val = P.val; rw [e0, hP]; omega
  | ⟨1, _⟩ => show win2_1.index t 1 * 512 + 1 * kk.val = K.val; rw [e1, hK]; omega

theorem cmbBlk_apply (c : Dev nD) (t : Fin cfg2.N) (kk : Fin 512) (j : Fin 32) (K : Fin 4096)
    (hK : K.val = 512 * (t.val % 8) + kk.val) :
    cmbBlk V c t (ix2 kk j) = cmbArr V c (ix2 K j) := by
  obtain ⟨-, -, -, -, e0, e1, -⟩ := idx_facts t
  unfold cmbBlk iblk2
  rw [View.read_apply]
  show V c main_v5_2 _ = V c main_v5_2 _
  congr 1
  funext a
  apply Fin.ext
  match a with
  | ⟨0, _⟩ => show win2_2.index t 0 * 512 + 1 * kk.val = K.val; rw [e0, hK]; omega
  | ⟨1, _⟩ => show win2_2.index t 1 * 32 + 1 * j.val = j.val; rw [e1]; omega

theorem dec1Blk_eq (c : Dev nD) (t : Fin cfg2.N) : dec1Blk V c t = dec1 V c := by
  obtain ⟨-, -, -, -, -, -, e0, e1, -⟩ := idx_facts t
  funext y
  unfold dec1Blk iblk2
  rw [View.read_apply]
  show V c main_arg8 _ = V c main_arg8 _
  congr 1
  funext a
  apply Fin.ext
  match a with
  | ⟨0, _⟩ => show win2_3.index t 0 * 32 + 1 * (y 0).val = (y 0).val; rw [e0]; omega
  | ⟨1, _⟩ => show win2_3.index t 1 * 128 + 1 * (y 1).val = (y 1).val; rw [e1]; omega

theorem dec2Blk_eq (c : Dev nD) (t : Fin cfg2.N) : dec2Blk V c t = dec2 V c := by
  obtain ⟨-, -, -, -, -, -, -, -, e0, e1, -⟩ := idx_facts t
  funext y
  unfold dec2Blk iblk2
  rw [View.read_apply]
  show V c main_arg9 _ = V c main_arg9 _
  congr 1
  funext a
  apply Fin.ext
  match a with
  | ⟨0, _⟩ => show win2_4.index t 0 * 32 + 1 * (y 0).val = (y 0).val; rw [e0]; omega
  | ⟨1, _⟩ => show win2_4.index t 1 * 128 + 1 * (y 1).val = (y 1).val; rw [e1]; omega

/-! ## The scratch buffers as running sums over the column blocks -/

/-- A buffer that holds g's first column block at the first point of a row block and has g's next column block added at
    each later point holds, at point 8·i + k, the column blocks 0 … k of g added in order. -/
theorem running_eq (f : (n : Nat) → n < cfg2.N → Vec Ideal S512x32 .f32) (g : Fin 8 → Fin 512 → Fin 32 → Fin 8 → EReal)
    (h0 : ∀ (ib : Fin 8) (hn : 8 * ib.val < cfg2.N) (r : Fin 512) (j : Fin 32), f (8 * ib.val) hn (ix2 r j) = g ib r j ⟨0, by decide⟩)
    (hs : ∀ (ib : Fin 8) (k : Nat) (hk : k + 1 < 8) (hn : 8 * ib.val + (k + 1) < cfg2.N) (r : Fin 512) (j : Fin 32),
      f (8 * ib.val + (k + 1)) hn (ix2 r j) = f (8 * ib.val + k) (Nat.lt_of_succ_lt hn) (ix2 r j) + g ib r j ⟨k + 1, hk⟩)
    (ib : Fin 8) : ∀ (k : Nat) (hk : k < 8) (hn : 8 * ib.val + k < cfg2.N) (r : Fin 512) (j : Fin 32),
      f (8 * ib.val + k) hn (ix2 r j) = Cert.Spec.accUpTo (g ib r j) k hk
  | 0, hk, hn, r, j => h0 ib hn r j
  | k + 1, hk, hn, r, j => by
    rw [hs ib k hk hn r j, running_eq f g h0 hs ib k (Nat.lt_of_succ_lt hk) (Nat.lt_of_succ_lt hn) r j]
    rfl

/-- Column block kb's part of (adjacency · combined) at row r of row block ib and latent column j. -/
abbrev part (a : Vec Ideal S4096x4096 .f32) (cmb : Vec Ideal S4096x32 .f32) (ib : Fin 8) (r : Fin 512) (j : Fin 32) (kb : Fin 8) : EReal :=
  ∑ kk : Fin 512, a (ix2 (Cert.Spec.col ib r) (Cert.Spec.col kb kk)) * cmb (ix2 (Cert.Spec.col kb kk) j)

theorem s1At_closed (c : Dev nD) (ib : Fin 8) (k : Nat) (hk : k < 8) (hn : 8 * ib.val + k < cfg2.N) (r : Fin 512) (j : Fin 32) :
    s1At V c (8 * ib.val + k) hn (ix2 r j) = Cert.Spec.accUpTo (part (adj1 V c) (cmbArr V c) ib r j) k hk := by
  refine running_eq (s1At V c) (part (adj1 V c) (cmbArr V c)) (fun ib hn r j => ?_) (fun ib k hk hn r j => ?_) ib k hk hn r j
  · rw [s1At_reset V c (8 * ib.val) hn (by omega)]
    refine (pay3_apply (adj1Blk V c ⟨8 * ib.val, hn⟩) (cmbBlk V c ⟨8 * ib.val, hn⟩) r j).trans ?_
    refine Finset.sum_congr rfl fun kk _ => ?_
    rw [adj1Blk_apply V c ⟨8 * ib.val, hn⟩ r kk (Cert.Spec.col ib r) (Cert.Spec.col ⟨0, by decide⟩ kk)
        (by show 512 * ib.val + r.val = 512 * (8 * ib.val / 8) + r.val; omega)
        (by show 512 * 0 + kk.val = 512 * (8 * ib.val % 8) + kk.val; omega),
      cmbBlk_apply V c ⟨8 * ib.val, hn⟩ kk j (Cert.Spec.col ⟨0, by decide⟩ kk)
        (by show 512 * 0 + kk.val = 512 * (8 * ib.val % 8) + kk.val; omega)]
  · refine (congrFun (s1At_step V c (8 * ib.val + k) hn (by omega)) (ix2 r j)).trans ?_
    refine (pay5_apply (adj1Blk V c ⟨8 * ib.val + k + 1, hn⟩) (cmbBlk V c ⟨8 * ib.val + k + 1, hn⟩)
      (s1At V c (8 * ib.val + k) (Nat.lt_of_succ_lt hn)) r j).trans ?_
    refine congrArg (s1At V c (8 * ib.val + k) (Nat.lt_of_succ_lt hn) (ix2 r j) + ·) (Finset.sum_congr rfl fun kk _ => ?_)
    rw [adj1Blk_apply V c ⟨8 * ib.val + k + 1, hn⟩ r kk (Cert.Spec.col ib r) (Cert.Spec.col ⟨k + 1, hk⟩ kk)
        (by show 512 * ib.val + r.val = 512 * ((8 * ib.val + k + 1) / 8) + r.val; omega)
        (by show 512 * (k + 1) + kk.val = 512 * ((8 * ib.val + k + 1) % 8) + kk.val; omega),
      cmbBlk_apply V c ⟨8 * ib.val + k + 1, hn⟩ kk j (Cert.Spec.col ⟨k + 1, hk⟩ kk)
        (by show 512 * (k + 1) + kk.val = 512 * ((8 * ib.val + k + 1) % 8) + kk.val; omega)]

theorem s2At_closed (c : Dev nD) (ib : Fin 8) (k : Nat) (hk : k < 8) (hn : 8 * ib.val + k < cfg2.N) (r : Fin 512) (j : Fin 32) :
    s2At V c (8 * ib.val + k) hn (ix2 r j) = Cert.Spec.accUpTo (part (adj2 V c) (cmbArr V c) ib r j) k hk := by
  refine running_eq (s2At V c) (part (adj2 V c) (cmbArr V c)) (fun ib hn r j => ?_) (fun ib k hk hn r j => ?_) ib k hk hn r j
  · rw [s2At_reset V c (8 * ib.val) hn (by omega)]
    refine (pay4_apply (adj2Blk V c ⟨8 * ib.val, hn⟩) (cmbBlk V c ⟨8 * ib.val, hn⟩) r j).trans ?_
    refine Finset.sum_congr rfl fun kk _ => ?_
    rw [adj2Blk_apply V c ⟨8 * ib.val, hn⟩ r kk (Cert.Spec.col ib r) (Cert.Spec.col ⟨0, by decide⟩ kk)
        (by show 512 * ib.val + r.val = 512 * (8 * ib.val / 8) + r.val; omega)
        (by show 512 * 0 + kk.val = 512 * (8 * ib.val % 8) + kk.val; omega),
      cmbBlk_apply V c ⟨8 * ib.val, hn⟩ kk j (Cert.Spec.col ⟨0, by decide⟩ kk)
        (by show 512 * 0 + kk.val = 512 * (8 * ib.val % 8) + kk.val; omega)]
  · refine (congrFun (s2At_step V c (8 * ib.val + k) hn (by omega)) (ix2 r j)).trans ?_
    refine (pay6_apply (adj2Blk V c ⟨8 * ib.val + k + 1, hn⟩) (cmbBlk V c ⟨8 * ib.val + k + 1, hn⟩)
      (s2At V c (8 * ib.val + k) (Nat.lt_of_succ_lt hn)) r j).trans ?_
    refine congrArg (s2At V c (8 * ib.val + k) (Nat.lt_of_succ_lt hn) (ix2 r j) + ·) (Finset.sum_congr rfl fun kk _ => ?_)
    rw [adj2Blk_apply V c ⟨8 * ib.val + k + 1, hn⟩ r kk (Cert.Spec.col ib r) (Cert.Spec.col ⟨k + 1, hk⟩ kk)
        (by show 512 * ib.val + r.val = 512 * ((8 * ib.val + k + 1) / 8) + r.val; omega)
        (by show 512 * (k + 1) + kk.val = 512 * ((8 * ib.val + k + 1) % 8) + kk.val; omega),
      cmbBlk_apply V c ⟨8 * ib.val + k + 1, hn⟩ kk j (Cert.Spec.col ⟨k + 1, hk⟩ kk)
        (by show 512 * (k + 1) + kk.val = 512 * ((8 * ib.val + k + 1) % 8) + kk.val; omega)]

/-- The running sums depend on the point only through its position. -/
theorem s1At_congr (c : Dev nD) (n n' : Nat) (h : n = n') (hn : n < cfg2.N) (hn' : n' < cfg2.N) : s1At V c n hn = s1At V c n' hn' := by
  subst h; rfl
theorem s2At_congr (c : Dev nD) (n n' : Nat) (h : n = n') (hn : n < cfg2.N) (hn' : n' < cfg2.N) : s2At V c n hn = s2At V c n' hn' := by
  subst h; rfl

/-! ## What the last point of a row block stores, and the arrays after the pass -/

/-- Reconstruction 1, index by index. -/
abbrev G1 (c : Dev nD) : Vec Ideal S4096x128 .f32 := fun i =>
  Cert.Spec.reconK (adj1 V c) (fun r j => cmbArr V c (ix2 r j)) (dec1 V c) ⟨(i 0).val, idx2_lt0 i⟩ ⟨(i 1).val, idx2_lt1 i⟩
/-- Reconstruction 2, index by index. -/
abbrev G2 (c : Dev nD) : Vec Ideal S4096x128 .f32 := fun i =>
  Cert.Spec.reconK (adj2 V c) (fun r j => cmbArr V c (ix2 r j)) (dec2 V c) ⟨(i 0).val, idx2_lt0 i⟩ ⟨(i 1).val, idx2_lt1 i⟩

/-- At the last column block, scratch 0 times decoder 1 at (r, q) is reconstruction 1 at row r of the point's row block. -/
theorem rec1_blk (c : Dev nD) (t : Fin cfg2.N) (h7 : t.val % 8 = 7) (r : Fin 512) (q : Fin 128) (P : Fin 4096) (Q : Fin 128)
    (hP : P.val = 512 * (t.val / 8) + r.val) (hQ : Q.val = q.val) :
    rec1At V c t.val t.isLt (ix2 r q) = Cert.Spec.reconK (adj1 V c) (fun r j => cmbArr V c (ix2 r j)) (dec1 V c) P Q := by
  have hN : cfg2.N = 64 := N_2
  have hib : t.val / 8 < 8 := by have ht : t.val < 64 := hN ▸ t.isLt; clear hP hQ; omega
  obtain rfl : Q = q := Fin.ext hQ
  obtain rfl : P = Cert.Spec.col ⟨t.val / 8, hib⟩ r := Fin.ext hP
  unfold rec1At
  refine (pay7_apply (s1At V c t.val t.isLt) (dec1Blk V c t) r Q).trans ?_
  rw [dec1Blk_eq V c t]
  refine Finset.sum_congr rfl fun j _ => ?_
  have e : t.val = 8 * (⟨t.val / 8, hib⟩ : Fin 8).val + 7 := by show t.val = 8 * (t.val / 8) + 7; omega
  rw [s1At_congr V c t.val _ e t.isLt (e ▸ t.isLt), s1At_closed V c ⟨t.val / 8, hib⟩ 7 (by decide) (e ▸ t.isLt) r j]
  rfl

theorem rec2_blk (c : Dev nD) (t : Fin cfg2.N) (h7 : t.val % 8 = 7) (r : Fin 512) (q : Fin 128) (P : Fin 4096) (Q : Fin 128)
    (hP : P.val = 512 * (t.val / 8) + r.val) (hQ : Q.val = q.val) :
    rec2At V c t.val t.isLt (ix2 r q) = Cert.Spec.reconK (adj2 V c) (fun r j => cmbArr V c (ix2 r j)) (dec2 V c) P Q := by
  have hN : cfg2.N = 64 := N_2
  have hib : t.val / 8 < 8 := by have ht : t.val < 64 := hN ▸ t.isLt; clear hP hQ; omega
  obtain rfl : Q = q := Fin.ext hQ
  obtain rfl : P = Cert.Spec.col ⟨t.val / 8, hib⟩ r := Fin.ext hP
  unfold rec2At
  refine (pay8_apply (s2At V c t.val t.isLt) (dec2Blk V c t) r Q).trans ?_
  rw [dec2Blk_eq V c t]
  refine Finset.sum_congr rfl fun j _ => ?_
  have e : t.val = 8 * (⟨t.val / 8, hib⟩ : Fin 8).val + 7 := by show t.val = 8 * (t.val / 8) + 7; omega
  rw [s2At_congr V c t.val _ e t.isLt (e ▸ t.isLt), s2At_closed V c ⟨t.val / 8, hib⟩ 7 (by decide) (e ▸ t.isLt) r j]
  rfl

/-- What a write-back of reconstruction 1 writes is the point's block of reconstruction 1. -/
theorem flushed5_eq (c : Dev nD) (t : Fin cfg2.N) (hf : (cfg2.win 5).flush t = true) :
    (dat2 V c).flushed 5 t = ((cfg2.win 5).blk t).view.read (Elt Ideal) (G1 V c) := by
  have h7 : t.val % 8 = 7 := (flush2_5 t).mp hf
  obtain ⟨-, -, -, -, -, -, -, -, -, -, e0, e1, -⟩ := idx_facts t
  show (cfg2.win 5).cut (grid2.coords t) ((dat2 V c).after 5 t) = _
  rw [after2_5]
  funext y
  have hy : (cfg2.win 5).xinj (grid2.coords t) y = ix2 (n0 := 512) (n1 := 128) (y 0) (y 1) := by
    funext a
    match a with
    | ⟨0, _⟩ => rfl
    | ⟨1, _⟩ => rfl
  show rec1At V c t.val t.isLt ((cfg2.win 5).xinj (grid2.coords t) y) = G1 V c (((cfg2.win 5).blk t).view.emb y)
  rw [hy]
  exact rec1_blk V c t h7 (y 0) (y 1) _ _
    (by show win2_5.index t (0 : Fin 2) * 512 + 1 * (y 0).val = 512 * (t.val / 8) + (y 0).val; rw [e0]; omega)
    (by show win2_5.index t (1 : Fin 2) * 128 + 1 * (y 1).val = (y 1).val; rw [e1]; omega)

theorem flushed6_eq (c : Dev nD) (t : Fin cfg2.N) (hf : (cfg2.win 6).flush t = true) :
    (dat2 V c).flushed 6 t = ((cfg2.win 6).blk t).view.read (Elt Ideal) (G2 V c) := by
  have h7 : t.val % 8 = 7 := (flush2_6 t).mp hf
  obtain ⟨-, -, -, -, -, -, -, -, -, -, -, -, e0, e1⟩ := idx_facts t
  show (cfg2.win 6).cut (grid2.coords t) ((dat2 V c).after 6 t) = _
  rw [after2_6]
  funext y
  have hy : (cfg2.win 6).xinj (grid2.coords t) y = ix2 (n0 := 512) (n1 := 128) (y 0) (y 1) := by
    funext a
    match a with
    | ⟨0, _⟩ => rfl
    | ⟨1, _⟩ => rfl
  show rec2At V c t.val t.isLt ((cfg2.win 6).xinj (grid2.coords t) y) = G2 V c (((cfg2.win 6).blk t).view.emb y)
  rw [hy]
  exact rec2_blk V c t h7 (y 0) (y 1) _ _
    (by show win2_6.index t (0 : Fin 2) * 512 + 1 * (y 0).val = 512 * (t.val / 8) + (y 0).val; rw [e0]; omega)
    (by show win2_6.index t (1 : Fin 2) * 128 + 1 * (y 1).val = (y 1).val; rw [e1]; omega)

/-- An index of the array is in point t's block iff each coordinate is in the block's range on its axis. -/
theorem mem_blk5 (t : Fin cfg2.N) (i : S4096x128.Idx) :
    i ∈ ((cfg2.win 5).blk t).view.set ↔ ∀ a : Fin 2, win2_5.index t a * S512x128.size a ≤ (i a).val ∧ (i a).val < win2_5.index t a * S512x128.size a + S512x128.size a := by
  show i ∈ ((View.whole main_v6_0).slice (win2_5.rect t)).set ↔ _
  rw [View.set_slice_whole, Rect.mem_set_unit]
  exact Iff.rfl
theorem mem_blk6 (t : Fin cfg2.N) (i : S4096x128.Idx) :
    i ∈ ((cfg2.win 6).blk t).view.set ↔ ∀ a : Fin 2, win2_6.index t a * S512x128.size a ≤ (i a).val ∧ (i a).val < win2_6.index t a * S512x128.size a + S512x128.size a := by
  show i ∈ ((View.whole main_v6_1).slice (win2_6.rect t)).set ↔ _
  rw [View.set_slice_whole, Rect.mem_set_unit]
  exact Iff.rfl

/-- Row p lies in row block p / 512, which the point 8·(p / 512) + 7 writes back. -/
theorem cover5 (i : S4096x128.Idx) : ∃ t : Fin cfg2.N, (cfg2.win 5).flush t = true ∧ i ∈ ((cfg2.win 5).blk t).view.set := by
  have hN : cfg2.N = 64 := N_2
  have h0 : (i 0).val < 4096 := idx2_lt0 i
  have h1 : (i 1).val < 128 := idx2_lt1 i
  have hlt : 8 * ((i 0).val / 512) + 7 < cfg2.N := by rw [hN]; omega
  refine ⟨⟨8 * ((i 0).val / 512) + 7, hlt⟩, (flush2_5 _).mpr (by show (8 * ((i 0).val / 512) + 7) % 8 = 7; omega), ?_⟩
  obtain ⟨-, -, -, -, -, -, -, -, -, -, e0, e1, -⟩ := idx_facts ⟨8 * ((i 0).val / 512) + 7, hlt⟩
  rw [mem_blk5]
  intro a
  match a with
  | ⟨0, _⟩ =>
    show win2_5.index ⟨8 * ((i 0).val / 512) + 7, hlt⟩ (0 : Fin 2) * 512 ≤ (i 0).val ∧ (i 0).val < win2_5.index ⟨8 * ((i 0).val / 512) + 7, hlt⟩ (0 : Fin 2) * 512 + 512
    rw [e0]; show (8 * ((i 0).val / 512) + 7) / 8 * 512 ≤ (i 0).val ∧ (i 0).val < (8 * ((i 0).val / 512) + 7) / 8 * 512 + 512; omega
  | ⟨1, _⟩ =>
    show win2_5.index ⟨8 * ((i 0).val / 512) + 7, hlt⟩ (1 : Fin 2) * 128 ≤ (i 1).val ∧ (i 1).val < win2_5.index ⟨8 * ((i 0).val / 512) + 7, hlt⟩ (1 : Fin 2) * 128 + 128
    rw [e1]; omega

theorem cover6 (i : S4096x128.Idx) : ∃ t : Fin cfg2.N, (cfg2.win 6).flush t = true ∧ i ∈ ((cfg2.win 6).blk t).view.set := by
  have hN : cfg2.N = 64 := N_2
  have h0 : (i 0).val < 4096 := idx2_lt0 i
  have h1 : (i 1).val < 128 := idx2_lt1 i
  have hlt : 8 * ((i 0).val / 512) + 7 < cfg2.N := by rw [hN]; omega
  refine ⟨⟨8 * ((i 0).val / 512) + 7, hlt⟩, (flush2_6 _).mpr (by show (8 * ((i 0).val / 512) + 7) % 8 = 7; omega), ?_⟩
  obtain ⟨-, -, -, -, -, -, -, -, -, -, -, -, e0, e1⟩ := idx_facts ⟨8 * ((i 0).val / 512) + 7, hlt⟩
  rw [mem_blk6]
  intro a
  match a with
  | ⟨0, _⟩ =>
    show win2_6.index ⟨8 * ((i 0).val / 512) + 7, hlt⟩ (0 : Fin 2) * 512 ≤ (i 0).val ∧ (i 0).val < win2_6.index ⟨8 * ((i 0).val / 512) + 7, hlt⟩ (0 : Fin 2) * 512 + 512
    rw [e0]; show (8 * ((i 0).val / 512) + 7) / 8 * 512 ≤ (i 0).val ∧ (i 0).val < (8 * ((i 0).val / 512) + 7) / 8 * 512 + 512; omega
  | ⟨1, _⟩ =>
    show win2_6.index ⟨8 * ((i 0).val / 512) + 7, hlt⟩ (1 : Fin 2) * 128 ≤ (i 1).val ∧ (i 1).val < win2_6.index ⟨8 * ((i 0).val / 512) + 7, hlt⟩ (1 : Fin 2) * 128 + 128
    rw [e1]; omega

/-- Reconstruction 1's array after the pass. -/
theorem rec1_arr (c : Dev nD) : (dat2 V c).arrAt 5 cfg2.N = G1 V c :=
  (dat2 V c).arrAt_eq_of_cover 5 (G1 V c) (flushed5_eq V c) cover5
/-- Reconstruction 2's array after the pass. -/
theorem rec2_arr (c : Dev nD) : (dat2 V c).arrAt 6 cfg2.N = G2 V c :=
  (dat2 V c).arrAt_eq_of_cover 6 (G2 V c) (flushed6_eq V c) cover6

/-- Reconstruction 1 after the decoder pass: adjacency 1 times the combined latent, block by block, times decoder 1. -/
theorem rec1_final (c : Dev nD) (p : Fin 4096) (q : Fin 128) :
    (dat2 V c).arrAt 5 cfg2.N (ix2 p q)
      = Cert.Spec.reconK (V c main_arg2) (fun r j => V c main_v5_2 (ix2 r j)) (V c main_arg8) p q := by
  rw [rec1_arr V c]

/-- Reconstruction 2 after the decoder pass: adjacency 2 times the combined latent, block by block, times decoder 2. -/
theorem rec2_final (c : Dev nD) (p : Fin 4096) (q : Fin 128) :
    (dat2 V c).arrAt 6 cfg2.N (ix2 p q)
      = Cert.Spec.reconK (V c main_arg4) (fun r j => V c main_v5_2 (ix2 r j)) (V c main_arg9) p q := by
  rw [rec2_arr V c]

end Cert.KernelIdeal.Val2

end
-- ==== Proof.Bridge.lean ====
/-
  The three calls' result arrays composed into the kernel form of the five results.

  The prologue leaves the four scaled encoder products; the latent pass is entered with those and the four adjacencies
  and leaves the two latents and their half-sum; the decoder pass is entered with the combined latent, two adjacencies
  and the two decoder weights and leaves the two reconstructions. Each call's value lemma speaks of the arrays that call
  is entered with; here they are chained, the later calls' entry contents given by hypotheses as the earlier calls'
  final arrays and the unchanged arguments, so that every result is a function of the arguments alone.
-/
import proofs.«114995_g68247030333984_cont_9to1_m_654_2_alg».proof.Proof.Val0
import proofs.«114995_g68247030333984_cont_9to1_m_654_2_alg».proof.Proof.Val1
import proofs.«114995_g68247030333984_cont_9to1_m_654_2_alg».proof.Proof.Val2
import proofs.«114995_g68247030333984_cont_9to1_m_654_2_alg».proof.Proof.Spec
import Idealize.ShloMosaic.Lib.ValueIdx

noncomputable section

namespace Cert.KernelIdeal.Bridge

open Idealize.ShloMosaic Idealize.ShloMosaic.TcCoe Idealize.ShloMosaic.ValueIdx
open Idealize.ShloMosaic.Pipeline (Dat Cfg Window)
open Cert.KernelIdeal Cert.KernelIdeal.Gen Cert.KernelIdeal.Hand
open Cert.KernelIdeal.Val0 Cert.KernelIdeal.Val1
open Cert.Spec (latK combK reconK scaledK scal Arr1)

variable (V0 V1 V2 : Entry Ideal) (c : Dev nD) (ws1 wf1 ws2 wf2 : Arr1 1)

/-- Latent 1 in the kernel's form, over the arguments the prologue is entered with. -/
abbrev latK1 : Cert.Spec.Tab32 := latK (V0 c main_arg2) (V0 c main_arg3) (V0 c main_arg0) (V0 c main_arg6) ws1 wf1
/-- Latent 2 likewise. -/
abbrev latK2 : Cert.Spec.Tab32 := latK (V0 c main_arg4) (V0 c main_arg5) (V0 c main_arg1) (V0 c main_arg7) ws2 wf2

/-! ## The latent pass's scaled products are the prologue's results -/

theorem scaled_8 (h40 : V1 c main_v4_0 = (dat0 V0 c).arrAt 8 cfg0.N) (hs : V0 c main_v0 (ix2 0 0) = scal ws1) :
    tab32 (V1 c main_v4_0) = scaledK (V0 c main_arg0) (V0 c main_arg6) ws1 := by
  funext r j
  unfold tab32 scaledK
  rw [h40, val0_8, hs]

theorem scaled_9 (h41 : V1 c main_v4_1 = (dat0 V0 c).arrAt 9 cfg0.N) (hs : V0 c main_v1 (ix2 0 0) = scal wf1) :
    tab32 (V1 c main_v4_1) = scaledK (V0 c main_arg0) (V0 c main_arg6) wf1 := by
  funext r j
  unfold tab32 scaledK
  rw [h41, val0_9, hs]

theorem scaled_10 (h42 : V1 c main_v4_2 = (dat0 V0 c).arrAt 10 cfg0.N) (hs : V0 c main_v2 (ix2 0 0) = scal ws2) :
    tab32 (V1 c main_v4_2) = scaledK (V0 c main_arg1) (V0 c main_arg7) ws2 := by
  funext r j
  unfold tab32 scaledK
  rw [h42, val0_10, hs]

theorem scaled_11 (h43 : V1 c main_v4_3 = (dat0 V0 c).arrAt 11 cfg0.N) (hs : V0 c main_v3 (ix2 0 0) = scal wf2) :
    tab32 (V1 c main_v4_3) = scaledK (V0 c main_arg1) (V0 c main_arg7) wf2 := by
  funext r j
  unfold tab32 scaledK
  rw [h43, val0_11, hs]

/-! ## The two latents over the arguments -/

theorem lat1V_eq (ha2 : V1 c main_arg2 = V0 c main_arg2) (ha3 : V1 c main_arg3 = V0 c main_arg3)
    (h40 : V1 c main_v4_0 = (dat0 V0 c).arrAt 8 cfg0.N) (h41 : V1 c main_v4_1 = (dat0 V0 c).arrAt 9 cfg0.N)
    (hs1 : V0 c main_v0 (ix2 0 0) = scal ws1) (hf1 : V0 c main_v1 (ix2 0 0) = scal wf1) :
    lat1V V1 c = latK1 V0 c ws1 wf1 := by
  funext p j
  unfold lat1V latK1 latK
  rw [scaled_8 V0 V1 c ws1 h40 hs1, scaled_9 V0 V1 c wf1 h41 hf1, ha2, ha3]

theorem lat2V_eq (ha4 : V1 c main_arg4 = V0 c main_arg4) (ha5 : V1 c main_arg5 = V0 c main_arg5)
    (h42 : V1 c main_v4_2 = (dat0 V0 c).arrAt 10 cfg0.N) (h43 : V1 c main_v4_3 = (dat0 V0 c).arrAt 11 cfg0.N)
    (hs2 : V0 c main_v2 (ix2 0 0) = scal ws2) (hf2 : V0 c main_v3 (ix2 0 0) = scal wf2) :
    lat2V V1 c = latK2 V0 c ws2 wf2 := by
  funext p j
  unfold lat2V latK2 latK
  rw [scaled_10 V0 V1 c ws2 h42 hs2, scaled_11 V0 V1 c wf2 h43 hf2, ha4, ha5]

/-! ## The five results -/

/-- Latent 1's array after the latent pass, over the arguments. -/
theorem bridge_lat1 (ha2 : V1 c main_arg2 = V0 c main_arg2) (ha3 : V1 c main_arg3 = V0 c main_arg3)
    (h40 : V1 c main_v4_0 = (dat0 V0 c).arrAt 8 cfg0.N) (h41 : V1 c main_v4_1 = (dat0 V0 c).arrAt 9 cfg0.N)
    (hs1 : V0 c main_v0 (ix2 0 0) = scal ws1) (hf1 : V0 c main_v1 (ix2 0 0) = scal wf1) :
    (dat1 V1 c).arrAt 8 cfg1.N = (fun i => latK1 V0 c ws1 wf1 (i 0) (i 1) : Cert.Spec.Arr2 4096 32) := by
  funext i
  obtain ⟨p, j, rfl⟩ : ∃ (p : Fin 4096) (j : Fin 32), i = ix2 p j := ⟨i 0, i 1, eq_ix2 i⟩
  rw [val1_8, lat1V_eq V0 V1 c ws1 wf1 ha2 ha3 h40 h41 hs1 hf1]

/-- Latent 2's array after the latent pass, over the arguments. -/
theorem bridge_lat2 (ha4 : V1 c main_arg4 = V0 c main_arg4) (ha5 : V1 c main_arg5 = V0 c main_arg5)
    (h42 : V1 c main_v4_2 = (dat0 V0 c).arrAt 10 cfg0.N) (h43 : V1 c main_v4_3 = (dat0 V0 c).arrAt 11 cfg0.N)
    (hs2 : V0 c main_v2 (ix2 0 0) = scal ws2) (hf2 : V0 c main_v3 (ix2 0 0) = scal wf2) :
    (dat1 V1 c).arrAt 9 cfg1.N = (fun i => latK2 V0 c ws2 wf2 (i 0) (i 1) : Cert.Spec.Arr2 4096 32) := by
  funext i
  obtain ⟨p, j, rfl⟩ : ∃ (p : Fin 4096) (j : Fin 32), i = ix2 p j := ⟨i 0, i 1, eq_ix2 i⟩
  rw [val1_9, lat2V_eq V0 V1 c ws2 wf2 ha4 ha5 h42 h43 hs2 hf2]

/-- The combined latent's array after the latent pass, over the arguments. -/
theorem bridge_comb (ha2 : V1 c main_arg2 = V0 c main_arg2) (ha3 : V1 c main_arg3 = V0 c main_arg3)
    (h40 : V1 c main_v4_0 = (dat0 V0 c).arrAt 8 cfg0.N) (h41 : V1 c main_v4_1 = (dat0 V0 c).arrAt 9 cfg0.N)
    (hs1 : V0 c main_v0 (ix2 0 0) = scal ws1) (hf1 : V0 c main_v1 (ix2 0 0) = scal wf1)
    (ha4 : V1 c main_arg4 = V0 c main_arg4) (ha5 : V1 c main_arg5 = V0 c main_arg5)
    (h42 : V1 c main_v4_2 = (dat0 V0 c).arrAt 10 cfg0.N) (h43 : V1 c main_v4_3 = (dat0 V0 c).arrAt 11 cfg0.N)
    (hs2 : V0 c main_v2 (ix2 0 0) = scal ws2) (hf2 : V0 c main_v3 (ix2 0 0) = scal wf2) :
    (dat1 V1 c).arrAt 10 cfg1.N
      = (fun i => combK (latK1 V0 c ws1 wf1) (latK2 V0 c ws2 wf2) (i 0) (i 1) : Cert.Spec.Arr2 4096 32) := by
  funext i
  obtain ⟨p, j, rfl⟩ : ∃ (p : Fin 4096) (j : Fin 32), i = ix2 p j := ⟨i 0, i 1, eq_ix2 i⟩
  rw [val1_10, lat1V_eq V0 V1 c ws1 wf1 ha2 ha3 h40 h41 hs1 hf1, lat2V_eq V0 V1 c ws2 wf2 ha4 ha5 h42 h43 hs2 hf2]

/-- The combined latent the decoder pass is entered with, read by coordinates, over the arguments. -/
theorem comb_entry (ha2 : V1 c main_arg2 = V0 c main_arg2) (ha3 : V1 c main_arg3 = V0 c main_arg3)
    (h40 : V1 c main_v4_0 = (dat0 V0 c).arrAt 8 cfg0.N) (h41 : V1 c main_v4_1 = (dat0 V0 c).arrAt 9 cfg0.N)
    (hs1 : V0 c main_v0 (ix2 0 0) = scal ws1) (hf1 : V0 c main_v1 (ix2 0 0) = scal wf1)
    (ha4 : V1 c main_arg4 = V0 c main_arg4) (ha5 : V1 c main_arg5 = V0 c main_arg5)
    (h42 : V1 c main_v4_2 = (dat0 V0 c).arrAt 10 cfg0.N) (h43 : V1 c main_v4_3 = (dat0 V0 c).arrAt 11 cfg0.N)
    (hs2 : V0 c main_v2 (ix2 0 0) = scal ws2) (hf2 : V0 c main_v3 (ix2 0 0) = scal wf2)
    (h52 : V2 c main_v5_2 = (dat1 V1 c).arrAt 10 cfg1.N) :
    (fun r j => V2 c main_v5_2 (ix2 r j)) = combK (latK1 V0 c ws1 wf1) (latK2 V0 c ws2 wf2) := by
  funext r j
  rw [h52, val1_10, lat1V_eq V0 V1 c ws1 wf1 ha2 ha3 h40 h41 hs1 hf1, lat2V_eq V0 V1 c ws2 wf2 ha4 ha5 h42 h43 hs2 hf2]

/-- Reconstruction 1's array after the decoder pass, over the arguments. -/
theorem bridge_rec1 (ha2 : V1 c main_arg2 = V0 c main_arg2) (ha3 : V1 c main_arg3 = V0 c main_arg3)
    (h40 : V1 c main_v4_0 = (dat0 V0 c).arrAt 8 cfg0.N) (h41 : V1 c main_v4_1 = (dat0 V0 c).arrAt 9 cfg0.N)
    (hs1 : V0 c main_v0 (ix2 0 0) = scal ws1) (hf1 : V0 c main_v1 (ix2 0 0) = scal wf1)
    (ha4 : V1 c main_arg4 = V0 c main_arg4) (ha5 : V1 c main_arg5 = V0 c main_arg5)
    (h42 : V1 c main_v4_2 = (dat0 V0 c).arrAt 10 cfg0.N) (h43 : V1 c main_v4_3 = (dat0 V0 c).arrAt 11 cfg0.N)
    (hs2 : V0 c main_v2 (ix2 0 0) = scal ws2) (hf2 : V0 c main_v3 (ix2 0 0) = scal wf2)
    (h52 : V2 c main_v5_2 = (dat1 V1 c).arrAt 10 cfg1.N)
    (hb2 : V2 c main_arg2 = V0 c main_arg2) (hb8 : V2 c main_arg8 = V0 c main_arg8) :
    (dat2 V2 c).arrAt 5 cfg2.N
      = (fun i => reconK (V0 c main_arg2) (combK (latK1 V0 c ws1 wf1) (latK2 V0 c ws2 wf2)) (V0 c main_arg8) (i 0) (i 1)
          : Cert.Spec.Arr2 4096 128) := by
  funext i
  obtain ⟨p, q, rfl⟩ : ∃ (p : Fin 4096) (q : Fin 128), i = ix2 p q := ⟨i 0, i 1, eq_ix2 i⟩
  rw [Cert.KernelIdeal.Val2.rec1_final,
    comb_entry V0 V1 V2 c ws1 wf1 ws2 wf2 ha2 ha3 h40 h41 hs1 hf1 ha4 ha5 h42 h43 hs2 hf2 h52, hb2, hb8]

/-- Reconstruction 2's array after the decoder pass, over the arguments. -/
theorem bridge_rec2 (ha2 : V1 c main_arg2 = V0 c main_arg2) (ha3 : V1 c main_arg3 = V0 c main_arg3)
    (h40 : V1 c main_v4_0 = (dat0 V0 c).arrAt 8 cfg0.N) (h41 : V1 c main_v4_1 = (dat0 V0 c).arrAt 9 cfg0.N)
    (hs1 : V0 c main_v0 (ix2 0 0) = scal ws1) (hf1 : V0 c main_v1 (ix2 0 0) = scal wf1)
    (ha4 : V1 c main_arg4 = V0 c main_arg4) (ha5 : V1 c main_arg5 = V0 c main_arg5)
    (h42 : V1 c main_v4_2 = (dat0 V0 c).arrAt 10 cfg0.N) (h43 : V1 c main_v4_3 = (dat0 V0 c).arrAt 11 cfg0.N)
    (hs2 : V0 c main_v2 (ix2 0 0) = scal ws2) (hf2 : V0 c main_v3 (ix2 0 0) = scal wf2)
    (h52 : V2 c main_v5_2 = (dat1 V1 c).arrAt 10 cfg1.N)
    (hb4 : V2 c main_arg4 = V0 c main_arg4) (hb9 : V2 c main_arg9 = V0 c main_arg9) :
    (dat2 V2 c).arrAt 6 cfg2.N
      = (fun i => reconK (V0 c main_arg4) (combK (latK1 V0 c ws1 wf1) (latK2 V0 c ws2 wf2)) (V0 c main_arg9) (i 0) (i 1)
          : Cert.Spec.Arr2 4096 128) := by
  funext i
  obtain ⟨p, q, rfl⟩ : ∃ (p : Fin 4096) (q : Fin 128), i = ix2 p q := ⟨i 0, i 1, eq_ix2 i⟩
  rw [Cert.KernelIdeal.Val2.rec2_final,
    comb_entry V0 V1 V2 c ws1 wf1 ws2 wf2 ha2 ha3 h40 h41 hs1 hf1 ha4 ha5 h42 h43 hs2 hf2 h52, hb4, hb9]

end Cert.KernelIdeal.Bridge

end
-- ==== Proof.Algebra.lean ====
/-
  The kernel's form of the five results equals the reference's form wherever every entry of every array is a real
  number.

  On the extended reals multiplication does not distribute over addition in general (the sum ∞ + (-∞) is ⊥), so each
  identity is proved by naming the real entries, moving the embedding ℝ → EReal outside every sum and product, and
  proving the identity in ℝ: distributivity, the regrouping of a sum over 4096 columns into eight blocks of 512,
  (1/2)·x = x/2, and the exchange of two finite sums (associativity of the matrix product).
-/
import proofs.«114995_g68247030333984_cont_9to1_m_654_2_alg».proof.Proof.Spec
import Idealize.ShloMosaic.PureOps.Ideal
import Mathlib.Data.EReal.Basic
import Mathlib.Algebra.BigOperators.Fin
import Mathlib.Data.Fintype.BigOperators
import Mathlib.Algebra.BigOperators.Ring.Finset
import Mathlib.Tactic.Ring
import Mathlib.Tactic.NormNum.Basic

namespace Cert.Spec

open Idealize.ShloMosaic Idealize.ShloMosaic.ValueIdx

/-! ## Tools -/

/-- The embedding of the reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A pair (column block, column inside the block) is the same thing as a column: 512·kb + kk. -/
def colEquiv : Fin 8 × Fin 512 ≃ Fin 4096 where
  toFun x := col x.1 x.2
  invFun k := (⟨k.val / 512, by have := k.isLt; omega⟩, ⟨k.val % 512, Nat.mod_lt _ (by decide)⟩)
  left_inv := by
    rintro ⟨kb, kk⟩
    have := kk.isLt
    apply Prod.ext <;> apply Fin.ext <;> simp only [col] <;> omega
  right_inv := by
    intro k
    apply Fin.ext
    simp only [col]
    omega

/-- A sum over the 4096 columns regrouped into eight blocks of 512. -/
theorem sum_col {M : Type*} [AddCommMonoid M] (g : Fin 4096 → M) :
    ∑ k : Fin 4096, g k = ∑ kb : Fin 8, ∑ kk : Fin 512, g (col kb kk) := by
  rw [← Equiv.sum_comp colEquiv g, Fintype.sum_prod_type]
  rfl

/-- The running sum over all eight blocks is the sum over the eight blocks. -/
theorem accUpTo_seven (g : Fin 8 → EReal) (h : 7 < 8) : accUpTo g 7 h = ∑ kb : Fin 8, g kb := by
  rw [Fin.sum_univ_eight]
  rfl

/-- The pattern 0x3F000000 is the real number 1/2. -/
theorem half_eq : half = ((1 / 2 : ℝ) : EReal) := by
  simp [half, Ideal.ofBits, Ideal.ieee]
  rw [← EReal.coe_mul, EReal.coe_eq_coe_iff]
  norm_num

/-- The pattern 0x40000000 is the real number 2. -/
theorem two_eq : two = ((2 : ℝ) : EReal) := by
  simp [two, Ideal.ofBits, Ideal.ieee]
  rw [← EReal.coe_mul, EReal.coe_eq_coe_iff]
  norm_num

/-! ## The identities over the reals -/

/-- Distributivity and regrouping for one latent entry: the eight blocks' contributions, each adjacency entry against a
    product already scaled on the right, sum to the two full contractions scaled on the left. -/
theorem lat_real (A B P : Fin 4096 → ℝ) (s t : ℝ) :
    ∑ kb : Fin 8, ((∑ kk : Fin 512, A (col kb kk) * (P (col kb kk) * s))
        + ∑ kk : Fin 512, B (col kb kk) * (P (col kb kk) * t))
      = s * ∑ k : Fin 4096, A k * P k + t * ∑ k : Fin 4096, B k * P k := by
  rw [sum_col (fun k => A k * P k), sum_col (fun k => B k * P k), Finset.mul_sum, Finset.mul_sum,
    ← Finset.sum_add_distrib]
  refine Finset.sum_congr rfl fun kb _ => ?_
  rw [Finset.mul_sum, Finset.mul_sum]
  congr 1 <;> exact Finset.sum_congr rfl fun kk _ => by ring

/-- Associativity of the matrix product for one reconstruction entry, the inner contraction taken block by block. -/
theorem recon_real (A : Fin 4096 → ℝ) (C : Fin 4096 → Fin 32 → ℝ) (D : Fin 32 → ℝ) :
    ∑ j : Fin 32, (∑ kb : Fin 8, ∑ kk : Fin 512, A (col kb kk) * C (col kb kk) j) * D j
      = ∑ k : Fin 4096, A k * ∑ j : Fin 32, C k j * D j := by
  have h : ∀ j : Fin 32, (∑ kb : Fin 8, ∑ kk : Fin 512, A (col kb kk) * C (col kb kk) j)
      = ∑ k : Fin 4096, A k * C k j := fun j => (sum_col (fun k => A k * C k j)).symm
  simp only [h, Finset.sum_mul, Finset.mul_sum]
  rw [Finset.sum_comm]
  exact Finset.sum_congr rfl fun k _ => Finset.sum_congr rfl fun j _ => by ring

/-! ## The latent entries -/

/-- With real entries the reference's latent is a real number at every index. -/
theorem latR_real (a b : Arr2 4096 4096) (f : Arr2 4096 128) (W : Arr2 128 32) (ws wf : Arr1 1)
    (ha : ∀ i, ∃ x : ℝ, a i = (x : EReal)) (hb : ∀ i, ∃ x : ℝ, b i = (x : EReal))
    (hf : ∀ i, ∃ x : ℝ, f i = (x : EReal)) (hW : ∀ i, ∃ x : ℝ, W i = (x : EReal))
    (hws : ∀ i, ∃ x : ℝ, ws i = (x : EReal)) (hwf : ∀ i, ∃ x : ℝ, wf i = (x : EReal)) :
    ∀ p j, ∃ x : ℝ, latR a b f W ws wf p j = (x : EReal) := by
  choose A hA using ha
  choose B hB using hb
  choose F hF using hf
  choose V hV using hW
  choose S hS using hws
  choose T hT using hwf
  intro p j
  simp only [latR, embR, proj, scal, hA, hB, hF, hV, hS, hT, ← EReal.coe_mul, ← coe_sum, ← EReal.coe_add]
  exact ⟨_, rfl⟩

/-- With real entries the kernel's latent, block by block with the scalars on the right, is the reference's. -/
theorem latK_eq_latR (a b : Arr2 4096 4096) (f : Arr2 4096 128) (W : Arr2 128 32) (ws wf : Arr1 1)
    (ha : ∀ i, ∃ x : ℝ, a i = (x : EReal)) (hb : ∀ i, ∃ x : ℝ, b i = (x : EReal))
    (hf : ∀ i, ∃ x : ℝ, f i = (x : EReal)) (hW : ∀ i, ∃ x : ℝ, W i = (x : EReal))
    (hws : ∀ i, ∃ x : ℝ, ws i = (x : EReal)) (hwf : ∀ i, ∃ x : ℝ, wf i = (x : EReal)) :
    latK a b f W ws wf = latR a b f W ws wf := by
  choose A hA using ha
  choose B hB using hb
  choose F hF using hf
  choose V hV using hW
  choose S hS using hws
  choose T hT using hwf
  funext p j
  simp only [latK, latR, accUpTo_seven, latBlockK, scaledK, embR, proj, scal, hA, hB, hF, hV, hS, hT,
    ← EReal.coe_mul, ← coe_sum, ← EReal.coe_add]
  rw [EReal.coe_eq_coe_iff]
  exact lat_real (fun k => A (ix2 p k)) (fun k => B (ix2 p k)) (fun k => ∑ d : Fin 128, F (ix2 k d) * V (ix2 d j))
    (S (ix1 0)) (T (ix1 0))

/-- So the kernel's latent is a real number at every index too. -/
theorem latK_real (a b : Arr2 4096 4096) (f : Arr2 4096 128) (W : Arr2 128 32) (ws wf : Arr1 1)
    (ha : ∀ i, ∃ x : ℝ, a i = (x : EReal)) (hb : ∀ i, ∃ x : ℝ, b i = (x : EReal))
    (hf : ∀ i, ∃ x : ℝ, f i = (x : EReal)) (hW : ∀ i, ∃ x : ℝ, W i = (x : EReal))
    (hws : ∀ i, ∃ x : ℝ, ws i = (x : EReal)) (hwf : ∀ i, ∃ x : ℝ, wf i = (x : EReal)) :
    ∀ p j, ∃ x : ℝ, latK a b f W ws wf p j = (x : EReal) := by
  rw [latK_eq_latR a b f W ws wf ha hb hf hW hws hwf]
  exact latR_real a b f W ws wf ha hb hf hW hws hwf

/-! ## The combined latent -/

/-- One half times a sum is the sum divided by two: on every extended real, since 2 is a nonzero real. -/
theorem combK_eq_combR (l1 l2 : Tab32) : combK l1 l2 = combR l1 l2 := by
  funext p j
  simp only [combK, combR]
  rw [half_eq, two_eq, Ideal.div_coe (by norm_num : (2 : ℝ) ≠ 0), mul_comm]

/-- The combined latent of two real-valued latents is real-valued. -/
theorem combR_real (l1 l2 : Tab32) (h1 : ∀ p j, ∃ x : ℝ, l1 p j = (x : EReal))
    (h2 : ∀ p j, ∃ x : ℝ, l2 p j = (x : EReal)) : ∀ p j, ∃ x : ℝ, combR l1 l2 p j = (x : EReal) := by
  choose L1 hL1 using h1
  choose L2 hL2 using h2
  intro p j
  simp only [combR, two_eq, Ideal.div_coe (by norm_num : (2 : ℝ) ≠ 0), hL1, hL2, ← EReal.coe_add, ← EReal.coe_mul]
  exact ⟨_, rfl⟩

/-- Likewise in the kernel's spelling. -/
theorem combK_real (l1 l2 : Tab32) (h1 : ∀ p j, ∃ x : ℝ, l1 p j = (x : EReal))
    (h2 : ∀ p j, ∃ x : ℝ, l2 p j = (x : EReal)) : ∀ p j, ∃ x : ℝ, combK l1 l2 p j = (x : EReal) := by
  rw [combK_eq_combR]
  exact combR_real l1 l2 h1 h2

/-! ## The reconstructions -/

/-- With real entries, (adjacency · combined) · decoder, the first product taken block by block, is
    adjacency · (combined · decoder). -/
theorem reconK_eq_reconR (a : Arr2 4096 4096) (cmb : Tab32) (d : Arr2 32 128)
    (ha : ∀ i, ∃ x : ℝ, a i = (x : EReal)) (hc : ∀ p j, ∃ x : ℝ, cmb p j = (x : EReal))
    (hd : ∀ i, ∃ x : ℝ, d i = (x : EReal)) : reconK a cmb d = reconR a cmb d := by
  choose A hA using ha
  choose C hC using hc
  choose D hD using hd
  funext p q
  simp only [reconK, reconR, adjCombK, decR, accUpTo_seven, hA, hC, hD, ← EReal.coe_mul, ← coe_sum]
  rw [EReal.coe_eq_coe_iff]
  exact recon_real (fun k => A (ix2 p k)) C (fun j => D (ix2 j q))

/-- With real entries a reconstruction is a real number at every index. -/
theorem reconR_real (a : Arr2 4096 4096) (cmb : Tab32) (d : Arr2 32 128)
    (ha : ∀ i, ∃ x : ℝ, a i = (x : EReal)) (hc : ∀ p j, ∃ x : ℝ, cmb p j = (x : EReal))
    (hd : ∀ i, ∃ x : ℝ, d i = (x : EReal)) : ∀ p q, ∃ x : ℝ, reconR a cmb d p q = (x : EReal) := by
  choose A hA using ha
  choose C hC using hc
  choose D hD using hd
  intro p q
  simp only [reconR, decR, hA, hC, hD, ← EReal.coe_mul, ← coe_sum]
  exact ⟨_, rfl⟩

/-! ## The five results chained -/

/-- The combined latent over the kernel's two latents is the reference's combined latent over its two latents. -/
theorem comb_chain (a1 b1 a2 b2 : Arr2 4096 4096) (f1 f2 : Arr2 4096 128) (W1 W2 : Arr2 128 32)
    (ws1 wf1 ws2 wf2 : Arr1 1)
    (ha1 : ∀ i, ∃ x : ℝ, a1 i = (x : EReal)) (hb1 : ∀ i, ∃ x : ℝ, b1 i = (x : EReal))
    (ha2 : ∀ i, ∃ x : ℝ, a2 i = (x : EReal)) (hb2 : ∀ i, ∃ x : ℝ, b2 i = (x : EReal))
    (hf1 : ∀ i, ∃ x : ℝ, f1 i = (x : EReal)) (hf2 : ∀ i, ∃ x : ℝ, f2 i = (x : EReal))
    (hW1 : ∀ i, ∃ x : ℝ, W1 i = (x : EReal)) (hW2 : ∀ i, ∃ x : ℝ, W2 i = (x : EReal))
    (hws1 : ∀ i, ∃ x : ℝ, ws1 i = (x : EReal)) (hwf1 : ∀ i, ∃ x : ℝ, wf1 i = (x : EReal))
    (hws2 : ∀ i, ∃ x : ℝ, ws2 i = (x : EReal)) (hwf2 : ∀ i, ∃ x : ℝ, wf2 i = (x : EReal)) :
    combK (latK a1 b1 f1 W1 ws1 wf1) (latK a2 b2 f2 W2 ws2 wf2)
      = combR (latR a1 b1 f1 W1 ws1 wf1) (latR a2 b2 f2 W2 ws2 wf2) := by
  rw [latK_eq_latR a1 b1 f1 W1 ws1 wf1 ha1 hb1 hf1 hW1 hws1 hwf1,
    latK_eq_latR a2 b2 f2 W2 ws2 wf2 ha2 hb2 hf2 hW2 hws2 hwf2, combK_eq_combR]

/-- A reconstruction over the kernel's combined latent is the reference's reconstruction over its combined latent. -/
theorem recon_chain (a a1 b1 a2 b2 : Arr2 4096 4096) (f1 f2 : Arr2 4096 128) (W1 W2 : Arr2 128 32)
    (ws1 wf1 ws2 wf2 : Arr1 1) (d : Arr2 32 128)
    (ha : ∀ i, ∃ x : ℝ, a i = (x : EReal)) (hd : ∀ i, ∃ x : ℝ, d i = (x : EReal))
    (ha1 : ∀ i, ∃ x : ℝ, a1 i = (x : EReal)) (hb1 : ∀ i, ∃ x : ℝ, b1 i = (x : EReal))
    (ha2 : ∀ i, ∃ x : ℝ, a2 i = (x : EReal)) (hb2 : ∀ i, ∃ x : ℝ, b2 i = (x : EReal))
    (hf1 : ∀ i, ∃ x : ℝ, f1 i = (x : EReal)) (hf2 : ∀ i, ∃ x : ℝ, f2 i = (x : EReal))
    (hW1 : ∀ i, ∃ x : ℝ, W1 i = (x : EReal)) (hW2 : ∀ i, ∃ x : ℝ, W2 i = (x : EReal))
    (hws1 : ∀ i, ∃ x : ℝ, ws1 i = (x : EReal)) (hwf1 : ∀ i, ∃ x : ℝ, wf1 i = (x : EReal))
    (hws2 : ∀ i, ∃ x : ℝ, ws2 i = (x : EReal)) (hwf2 : ∀ i, ∃ x : ℝ, wf2 i = (x : EReal)) :
    reconK a (combK (latK a1 b1 f1 W1 ws1 wf1) (latK a2 b2 f2 W2 ws2 wf2)) d
      = reconR a (combR (latR a1 b1 f1 W1 ws1 wf1) (latR a2 b2 f2 W2 ws2 wf2)) d := by
  rw [comb_chain a1 b1 a2 b2 f1 f2 W1 W2 ws1 wf1 ws2 wf2 ha1 hb1 ha2 hb2 hf1 hf2 hW1 hW2 hws1 hwf1 hws2 hwf2]
  exact reconK_eq_reconR a _ d ha
    (combR_real _ _ (latR_real a1 b1 f1 W1 ws1 wf1 ha1 hb1 hf1 hW1 hws1 hwf1)
      (latR_real a2 b2 f2 W2 ws2 wf2 ha2 hb2 hf2 hW2 hws2 hwf2)) hd

end Cert.Spec
-- ==== Proof.Finite.lean ====
/-
  From the precondition to real entries.

  The precondition is the conjunction, over the fourteen argument arrays, of "every entry has absolute value below
  plus infinity". Over the extended reals an entry x with max x (-x) < ⊤ is neither ⊤ nor ⊥, hence a real number.
  The conjunction is a chain of one-bit "and"s, each "all" a reduction by "and" from the constant one, so the result
  being one gives every comparison bit, entry by entry.
-/
import proofs.«114995_g68247030333984_cont_9to1_m_654_2_alg».proof.Pre_finite_inputs
import Idealize.ShloMosaic.PureOps.Ideal
import Idealize.ShloMosaic.Lib.ReduceAll
import Idealize.ShloMosaic.Lib.ValueIdx

noncomputable section

namespace Cert.Finite

open Idealize.ShloMosaic Idealize.ShloMosaic.ValueIdx Cert.Pre_finite_inputs

/-- The scalar shape has one index. -/
instance : Subsingleton S_.Idx := ⟨fun _ _ => funext fun d => d.elim0⟩

/-- The word 0x7F800000 denotes plus infinity. -/
theorem inf_word : Ideal.ofBits .f32 0x7F800000#32 = (⊤ : EReal) := by simp [Ideal.ofBits, Ideal.ieee]

/-- An extended real whose absolute value compares below plus infinity is a real number. -/
theorem real_of_abs_lt_inf (x : EReal)
    (h : Ideal.cmp .olt (max x (-x)) (Ideal.ofBits .f32 0x7F800000#32) = 1#1) : ∃ r : ℝ, x = (r : EReal) := by
  rw [inf_word] at h
  unfold Ideal.cmp at h
  induction x using EReal.rec with
  | bot => exact absurd h (by simp)
  | coe r => exact ⟨r, rfl⟩
  | top => exact absurd h (by simp)

/-- One array: if the "and" over all entries of "|x| < +inf" is one, every entry is a real number. -/
theorem entries_real {s : Shape} {axes : List (Fin s.rank)} (x : FVec Ideal s .f32)
    (bc : S_.BroadcastsInDim s (![] : Fin 0 → Fin s.rank)) (hr : s.ReducesTo axes S_) (hu : 0 < S_.numel)
    (h : Host.reduce IntOp.andi (cmpf .olt (Host.absf x) (broadcastInDim s ![] bc (constant (F := Ideal) S_ .f32 0x7F800000#32)))
          (constantI S_ 1 1#1) hr hu ix0 = 1#1) :
    ∀ i : s.Idx, ∃ r : ℝ, x i = (r : EReal) := fun i =>
  real_of_abs_lt_inf (x i) (Host.reduce_andi_all _ _ hr hu ix0 h i)

variable [Facts]

/-- Under the precondition every entry of every one of the fourteen argument arrays is a real number. -/
theorem args_real (x0 x1 : FVec Ideal S4096x128 .f32) (x2 x3 x4 x5 : FVec Ideal S4096x4096 .f32)
    (x6 x7 : FVec Ideal S128x32 .f32) (x8 x9 : FVec Ideal S32x128 .f32) (x10 x11 x12 x13 : FVec Ideal S1 .f32)
    (h : fn (F := Ideal) x0 x1 x2 x3 x4 x5 x6 x7 x8 x9 x10 x11 x12 x13 = fun _ => 1#1) :
    (∀ i, ∃ r : ℝ, x0 i = (r : EReal)) ∧ (∀ i, ∃ r : ℝ, x1 i = (r : EReal)) ∧ (∀ i, ∃ r : ℝ, x2 i = (r : EReal))
    ∧ (∀ i, ∃ r : ℝ, x3 i = (r : EReal)) ∧ (∀ i, ∃ r : ℝ, x4 i = (r : EReal)) ∧ (∀ i, ∃ r : ℝ, x5 i = (r : EReal))
    ∧ (∀ i, ∃ r : ℝ, x6 i = (r : EReal)) ∧ (∀ i, ∃ r : ℝ, x7 i = (r : EReal)) ∧ (∀ i, ∃ r : ℝ, x8 i = (r : EReal))
    ∧ (∀ i, ∃ r : ℝ, x9 i = (r : EReal)) ∧ (∀ i, ∃ r : ℝ, x10 i = (r : EReal)) ∧ (∀ i, ∃ r : ℝ, x11 i = (r : EReal))
    ∧ (∀ i, ∃ r : ℝ, x12 i = (r : EReal)) ∧ (∀ i, ∃ r : ℝ, x13 i = (r : EReal)) := by
  have h0 := congrFun h ix0
  dsimp only [fn, fn_part1, fn_part2, fn_part3, fn_part4, andi] at h0
  simp only [IntOp.andi_eq_one] at h0
  obtain ⟨⟨⟨⟨⟨⟨⟨⟨⟨⟨⟨⟨⟨e0, e1⟩, e2⟩, e3⟩, e4⟩, e5⟩, e6⟩, e7⟩, e8⟩, e9⟩, e10⟩, e11⟩, e12⟩, e13⟩ := h0
  exact ⟨entries_real x0 _ _ _ e0, entries_real x1 _ _ _ e1, entries_real x2 _ _ _ e2, entries_real x3 _ _ _ e3,
    entries_real x4 _ _ _ e4, entries_real x5 _ _ _ e5, entries_real x6 _ _ _ e6, entries_real x7 _ _ _ e7,
    entries_real x8 _ _ _ e8, entries_real x9 _ _ _ e9, entries_real x10 _ _ _ e10, entries_real x11 _ _ _ e11,
    entries_real x12 _ _ _ e12, entries_real x13 _ _ _ e13⟩

end Cert.Finite

end
-- ==== Proof.Results.lean ====
/-
  The five result arrays, as arrays: the reference's form of each result (jnp's w · (adj · (feat · W)), the half-sum,
  adj · (combined · decoder)) read at an index's two coordinates. Both programs' runs are stated to end at these.
-/
import proofs.«114995_g68247030333984_cont_9to1_m_654_2_alg».proof.Proof.Spec

noncomputable section

namespace Cert.Spec

open Idealize.ShloMosaic

/-- A latent as an array. -/
def latRes (a b : Arr2 4096 4096) (f : Arr2 4096 128) (W : Arr2 128 32) (ws wf : Arr1 1) : Arr2 4096 32 :=
  fun i => latR a b f W ws wf (i 0) (i 1)

/-- The combined latent as an array. -/
def combRes (a1 b1 a2 b2 : Arr2 4096 4096) (f1 f2 : Arr2 4096 128) (W1 W2 : Arr2 128 32) (ws1 wf1 ws2 wf2 : Arr1 1) : Arr2 4096 32 :=
  fun i => combR (latR a1 b1 f1 W1 ws1 wf1) (latR a2 b2 f2 W2 ws2 wf2) (i 0) (i 1)

/-- A reconstruction as an array: adjacency `a` against the combined latent times decoder weight `d`. -/
def recRes (a a1 b1 a2 b2 : Arr2 4096 4096) (f1 f2 : Arr2 4096 128) (W1 W2 : Arr2 128 32) (ws1 wf1 ws2 wf2 : Arr1 1)
    (d : Arr2 32 128) : Arr2 4096 128 :=
  fun i => reconR a (combR (latR a1 b1 f1 W1 ws1 wf1) (latR a2 b2 f2 W2 ws2 wf2)) d (i 0) (i 1)

end Cert.Spec

end
-- ==== Proof.KerClaim.lean ====
/-
  The idealized kernel's run, with its five result arrays read as the reference's form.

  The launch runs the three calls in turn and names each result buffer's final contents as a call's final array; the
  calls' value lemmas chained give each final array in the kernel's form over the launch contents of the arguments (the
  scaled encoder products, the latents summed block by block, one half of their sum, adjacency times combined times
  decoder weight); under the precondition every entry of every argument is a real number, and on real numbers the
  kernel's form of each result is the reference's (distributivity, regrouping a sum of 4096 terms into eight blocks of
  512, a half for a division by two, associativity of the matrix product).
-/
import proofs.«114995_g68247030333984_cont_9to1_m_654_2_alg».proof.Defs
import proofs.«114995_g68247030333984_cont_9to1_m_654_2_alg».proof.Proof.Gen.KernelIdeal
import proofs.«114995_g68247030333984_cont_9to1_m_654_2_alg».proof.Proof.Gen.Pre_finite_inputs
import proofs.«114995_g68247030333984_cont_9to1_m_654_2_alg».proof.Proof.Launch
import proofs.«114995_g68247030333984_cont_9to1_m_654_2_alg».proof.Proof.Bridge
import proofs.«114995_g68247030333984_cont_9to1_m_654_2_alg».proof.Proof.Algebra
import proofs.«114995_g68247030333984_cont_9to1_m_654_2_alg».proof.Proof.Finite
import proofs.«114995_g68247030333984_cont_9to1_m_654_2_alg».proof.Proof.Results
import Idealize.ShloMosaic.Lib.ValueIdx
import Idealize.ShloMosaic.Lib.ValueLayout

noncomputable section

namespace Cert.KernelIdeal.Hand

open Idealize.ShloMosaic Idealize.ShloMosaic.TcCoe Idealize.ShloMosaic.ValueIdx Idealize.SL.Sem
open Cert.KernelIdeal Cert.KernelIdeal.Gen Cert.KernelIdeal.Bridge
open Cert.Spec (latK latR combK combR reconK reconR latRes combRes recRes scal)

/-! ## Replacing equal arrays under the kernel's forms -/

section Congr

open Cert.Spec (Arr1 Arr2)

variable {a0 a0' a1 a1' b1 b1' a2 a2' b2 b2' : Arr2 4096 4096} {f1 f1' f2 f2' : Arr2 4096 128} {W1 W1' W2 W2' : Arr2 128 32}
  {d d' : Arr2 32 128}

theorem lat_arr_congr (ws wf : Arr1 1) (ea : a1' = a1) (eb : b1' = b1) (ef : f1' = f1) (eW : W1' = W1) :
    (fun i => latK a1' b1' f1' W1' ws wf (i 0) (i 1) : Arr2 4096 32) = (fun i => latK a1 b1 f1 W1 ws wf (i 0) (i 1) : Arr2 4096 32) := by
  subst ea eb ef eW; rfl

theorem comb_arr_congr (ws1 wf1 ws2 wf2 : Arr1 1) (ea1 : a1' = a1) (eb1 : b1' = b1) (ef1 : f1' = f1) (eW1 : W1' = W1)
    (ea2 : a2' = a2) (eb2 : b2' = b2) (ef2 : f2' = f2) (eW2 : W2' = W2) :
    (fun i => combK (latK a1' b1' f1' W1' ws1 wf1) (latK a2' b2' f2' W2' ws2 wf2) (i 0) (i 1) : Arr2 4096 32)
      = (fun i => combK (latK a1 b1 f1 W1 ws1 wf1) (latK a2 b2 f2 W2 ws2 wf2) (i 0) (i 1) : Arr2 4096 32) := by
  subst ea1 eb1 ef1 eW1 ea2 eb2 ef2 eW2; rfl

theorem rec_arr_congr (ws1 wf1 ws2 wf2 : Arr1 1) (ea0 : a0' = a0) (ea1 : a1' = a1) (eb1 : b1' = b1) (ef1 : f1' = f1) (eW1 : W1' = W1)
    (ea2 : a2' = a2) (eb2 : b2' = b2) (ef2 : f2' = f2) (eW2 : W2' = W2) (ed : d' = d) :
    (fun i => reconK a0' (combK (latK a1' b1' f1' W1' ws1 wf1) (latK a2' b2' f2' W2' ws2 wf2)) d' (i 0) (i 1) : Arr2 4096 128)
      = (fun i => reconK a0 (combK (latK a1 b1 f1 W1 ws1 wf1) (latK a2 b2 f2 W2 ws2 wf2)) d (i 0) (i 1) : Arr2 4096 128) := by
  subst ea0 ea1 eb1 ef1 eW1 ea2 eb2 ef2 eW2 ed; rfl

end Congr

section Glue

variable (m : (ℓ : Loc nD τ sig) → Buf (Elt Ideal) ℓ) (c : Dev nD)

/-! ## The four combination scalars as the prologue is entered

Each 1 x 1 array is a length-1 vector under another shape: its one entry is the vector's one entry. -/

theorem scal_v0 : Vent0 m c main_v0 (ix2 0 0) = scal (m ((c : Thread nD τ).loc main_arg10)) :=
  (congrFun (Vent0_main_v0 m c) (ix2 0 0)).trans (shapeCast_a_1a_apply _ _ 0 0)
theorem scal_v1 : Vent0 m c main_v1 (ix2 0 0) = scal (m ((c : Thread nD τ).loc main_arg12)) :=
  (congrFun (Vent0_main_v1 m c) (ix2 0 0)).trans (shapeCast_a_1a_apply _ _ 0 0)
theorem scal_v2 : Vent0 m c main_v2 (ix2 0 0) = scal (m ((c : Thread nD τ).loc main_arg11)) :=
  (congrFun (Vent0_main_v2 m c) (ix2 0 0)).trans (shapeCast_a_1a_apply _ _ 0 0)
theorem scal_v3 : Vent0 m c main_v3 (ix2 0 0) = scal (m ((c : Thread nD τ).loc main_arg13)) :=
  (congrFun (Vent0_main_v3 m c) (ix2 0 0)).trans (shapeCast_a_1a_apply _ _ 0 0)

/-! ## The five final arrays in the kernel's form, over the launch contents of the arguments -/

/-- Latent 1's final array is the kernel's form of latent 1 over the launch contents. -/
theorem res_lat1 : Res1_8 m c = (fun i => latK (m ((c.tc : Thread nD τ).loc main_arg2)) (m ((c.tc : Thread nD τ).loc main_arg3)) (m ((c.tc : Thread nD τ).loc main_arg0)) (m ((c.tc : Thread nD τ).loc main_arg6)) (m ((c.tc : Thread nD τ).loc main_arg10)) (m ((c.tc : Thread nD τ).loc main_arg12)) (i 0) (i 1) : Cert.Spec.Arr2 4096 32) :=
  (bridge_lat1 (Vent0 m) (Vent1 m) c (m ((c.tc : Thread nD τ).loc main_arg10)) (m ((c.tc : Thread nD τ).loc main_arg12))
      (Vent1_of m c main_arg2 (by decide)) (Vent1_of m c main_arg3 (by decide))
      (Vent1_main_v4_0 m c) (Vent1_main_v4_1 m c) (scal_v0 m c) (scal_v1 m c)).trans
    (lat_arr_congr _ _ (Vent0_of m c main_arg2 (by decide)) (Vent0_of m c main_arg3 (by decide)) (Vent0_of m c main_arg0 (by decide)) (Vent0_of m c main_arg6 (by decide)))

/-- Latent 2's final array likewise. -/
theorem res_lat2 : Res1_9 m c = (fun i => latK (m ((c.tc : Thread nD τ).loc main_arg4)) (m ((c.tc : Thread nD τ).loc main_arg5)) (m ((c.tc : Thread nD τ).loc main_arg1)) (m ((c.tc : Thread nD τ).loc main_arg7)) (m ((c.tc : Thread nD τ).loc main_arg11)) (m ((c.tc : Thread nD τ).loc main_arg13)) (i 0) (i 1) : Cert.Spec.Arr2 4096 32) :=
  (bridge_lat2 (Vent0 m) (Vent1 m) c (m ((c.tc : Thread nD τ).loc main_arg11)) (m ((c.tc : Thread nD τ).loc main_arg13))
      (Vent1_of m c main_arg4 (by decide)) (Vent1_of m c main_arg5 (by decide))
      (Vent1_main_v4_2 m c) (Vent1_main_v4_3 m c) (scal_v2 m c) (scal_v3 m c)).trans
    (lat_arr_congr _ _ (Vent0_of m c main_arg4 (by decide)) (Vent0_of m c main_arg5 (by decide)) (Vent0_of m c main_arg1 (by decide)) (Vent0_of m c main_arg7 (by decide)))

/-- The combined latent's final array: one half of the two kernel-form latents added. -/
theorem res_comb : Res1_10 m c = (fun i => combK (latK (m ((c.tc : Thread nD τ).loc main_arg2)) (m ((c.tc : Thread nD τ).loc main_arg3)) (m ((c.tc : Thread nD τ).loc main_arg0)) (m ((c.tc : Thread nD τ).loc main_arg6)) (m ((c.tc : Thread nD τ).loc main_arg10)) (m ((c.tc : Thread nD τ).loc main_arg12)))
      (latK (m ((c.tc : Thread nD τ).loc main_arg4)) (m ((c.tc : Thread nD τ).loc main_arg5)) (m ((c.tc : Thread nD τ).loc main_arg1)) (m ((c.tc : Thread nD τ).loc main_arg7)) (m ((c.tc : Thread nD τ).loc main_arg11)) (m ((c.tc : Thread nD τ).loc main_arg13))) (i 0) (i 1) : Cert.Spec.Arr2 4096 32) :=
  (bridge_comb (Vent0 m) (Vent1 m) c (m ((c.tc : Thread nD τ).loc main_arg10)) (m ((c.tc : Thread nD τ).loc main_arg12)) (m ((c.tc : Thread nD τ).loc main_arg11)) (m ((c.tc : Thread nD τ).loc main_arg13))
      (Vent1_of m c main_arg2 (by decide)) (Vent1_of m c main_arg3 (by decide))
      (Vent1_main_v4_0 m c) (Vent1_main_v4_1 m c) (scal_v0 m c) (scal_v1 m c)
      (Vent1_of m c main_arg4 (by decide)) (Vent1_of m c main_arg5 (by decide))
      (Vent1_main_v4_2 m c) (Vent1_main_v4_3 m c) (scal_v2 m c) (scal_v3 m c)).trans
    (comb_arr_congr _ _ _ _ (Vent0_of m c main_arg2 (by decide)) (Vent0_of m c main_arg3 (by decide)) (Vent0_of m c main_arg0 (by decide)) (Vent0_of m c main_arg6 (by decide)) (Vent0_of m c main_arg4 (by decide)) (Vent0_of m c main_arg5 (by decide)) (Vent0_of m c main_arg1 (by decide)) (Vent0_of m c main_arg7 (by decide)))

/-- Reconstruction 1's final array: adjacency 1 against the kernel-form combined latent, times decoder weight 1. -/
theorem res_rec1 : Res2_5 m c = (fun i => reconK (m ((c.tc : Thread nD τ).loc main_arg2)) (combK (latK (m ((c.tc : Thread nD τ).loc main_arg2)) (m ((c.tc : Thread nD τ).loc main_arg3)) (m ((c.tc : Thread nD τ).loc main_arg0)) (m ((c.tc : Thread nD τ).loc main_arg6)) (m ((c.tc : Thread nD τ).loc main_arg10)) (m ((c.tc : Thread nD τ).loc main_arg12)))
      (latK (m ((c.tc : Thread nD τ).loc main_arg4)) (m ((c.tc : Thread nD τ).loc main_arg5)) (m ((c.tc : Thread nD τ).loc main_arg1)) (m ((c.tc : Thread nD τ).loc main_arg7)) (m ((c.tc : Thread nD τ).loc main_arg11)) (m ((c.tc : Thread nD τ).loc main_arg13)))) (m ((c.tc : Thread nD τ).loc main_arg8)) (i 0) (i 1) : Cert.Spec.Arr2 4096 128) :=
  (bridge_rec1 (Vent0 m) (Vent1 m) (Vent2 m) c (m ((c.tc : Thread nD τ).loc main_arg10)) (m ((c.tc : Thread nD τ).loc main_arg12)) (m ((c.tc : Thread nD τ).loc main_arg11)) (m ((c.tc : Thread nD τ).loc main_arg13))
      (Vent1_of m c main_arg2 (by decide)) (Vent1_of m c main_arg3 (by decide))
      (Vent1_main_v4_0 m c) (Vent1_main_v4_1 m c) (scal_v0 m c) (scal_v1 m c)
      (Vent1_of m c main_arg4 (by decide)) (Vent1_of m c main_arg5 (by decide))
      (Vent1_main_v4_2 m c) (Vent1_main_v4_3 m c) (scal_v2 m c) (scal_v3 m c)
      (Vent2_main_v5_2 m c)
      ((Vent2_of m c main_arg2 (by decide)).trans (Vent1_of m c main_arg2 (by decide)))
      ((Vent2_of m c main_arg8 (by decide)).trans (Vent1_of m c main_arg8 (by decide)))).trans
    (rec_arr_congr _ _ _ _ (Vent0_of m c main_arg2 (by decide)) (Vent0_of m c main_arg2 (by decide)) (Vent0_of m c main_arg3 (by decide)) (Vent0_of m c main_arg0 (by decide)) (Vent0_of m c main_arg6 (by decide)) (Vent0_of m c main_arg4 (by decide)) (Vent0_of m c main_arg5 (by decide)) (Vent0_of m c main_arg1 (by decide)) (Vent0_of m c main_arg7 (by decide)) (Vent0_of m c main_arg8 (by decide)))

/-- Reconstruction 2's final array: adjacency 2 against the kernel-form combined latent, times decoder weight 2. -/
theorem res_rec2 : Res2_6 m c = (fun i => reconK (m ((c.tc : Thread nD τ).loc main_arg4)) (combK (latK (m ((c.tc : Thread nD τ).loc main_arg2)) (m ((c.tc : Thread nD τ).loc main_arg3)) (m ((c.tc : Thread nD τ).loc main_arg0)) (m ((c.tc : Thread nD τ).loc main_arg6)) (m ((c.tc : Thread nD τ).loc main_arg10)) (m ((c.tc : Thread nD τ).loc main_arg12)))
      (latK (m ((c.tc : Thread nD τ).loc main_arg4)) (m ((c.tc : Thread nD τ).loc main_arg5)) (m ((c.tc : Thread nD τ).loc main_arg1)) (m ((c.tc : Thread nD τ).loc main_arg7)) (m ((c.tc : Thread nD τ).loc main_arg11)) (m ((c.tc : Thread nD τ).loc main_arg13)))) (m ((c.tc : Thread nD τ).loc main_arg9)) (i 0) (i 1) : Cert.Spec.Arr2 4096 128) :=
  (bridge_rec2 (Vent0 m) (Vent1 m) (Vent2 m) c (m ((c.tc : Thread nD τ).loc main_arg10)) (m ((c.tc : Thread nD τ).loc main_arg12)) (m ((c.tc : Thread nD τ).loc main_arg11)) (m ((c.tc : Thread nD τ).loc main_arg13))
      (Vent1_of m c main_arg2 (by decide)) (Vent1_of m c main_arg3 (by decide))
      (Vent1_main_v4_0 m c) (Vent1_main_v4_1 m c) (scal_v0 m c) (scal_v1 m c)
      (Vent1_of m c main_arg4 (by decide)) (Vent1_of m c main_arg5 (by decide))
      (Vent1_main_v4_2 m c) (Vent1_main_v4_3 m c) (scal_v2 m c) (scal_v3 m c)
      (Vent2_main_v5_2 m c)
      ((Vent2_of m c main_arg4 (by decide)).trans (Vent1_of m c main_arg4 (by decide)))
      ((Vent2_of m c main_arg9 (by decide)).trans (Vent1_of m c main_arg9 (by decide)))).trans
    (rec_arr_congr _ _ _ _ (Vent0_of m c main_arg4 (by decide)) (Vent0_of m c main_arg2 (by decide)) (Vent0_of m c main_arg3 (by decide)) (Vent0_of m c main_arg0 (by decide)) (Vent0_of m c main_arg6 (by decide)) (Vent0_of m c main_arg4 (by decide)) (Vent0_of m c main_arg5 (by decide)) (Vent0_of m c main_arg1 (by decide)) (Vent0_of m c main_arg7 (by decide)) (Vent0_of m c main_arg9 (by decide)))

end Glue

/-! ## The run -/

/-- From any memory of which the precondition holds, with zero counters: the idealized kernel runs to the end, nothing
    faulting; its five result buffers end at the reference's form of the argument arrays' launch contents (the kernel's
    form of each result is the reference's where every entry is a real number, which the precondition gives), and the
    fourteen argument arrays end unchanged. -/
theorem ker_run (m : (ℓ : Loc nD τ sig) → Buf (Elt Ideal) ℓ) (ρ : Dev nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v5_0) = Cert.Spec.latRes (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg10)) (m ((c.tc : Thread Cert.KernelIdeal.nD Cert.KernelIdeal.τ).loc Cert.KernelIdeal.main_arg12))
      ∧ r.2.mem ((c.tc : Thread Cert.KernelIdeal.nD Cert.KernelIdeal.τ).loc Cert.KernelIdeal.main_v5_1) = Cert.Spec.latRes (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg11)) (m ((c.tc : Thread Cert.KernelIdeal.nD Cert.KernelIdeal.τ).loc Cert.KernelIdeal.main_arg13))
      ∧ r.2.mem ((c.tc : Thread Cert.KernelIdeal.nD Cert.KernelIdeal.τ).loc Cert.KernelIdeal.main_v5_2) = Cert.Spec.combRes (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg12)) (m ((c.tc : Thread Cert.KernelIdeal.nD Cert.KernelIdeal.τ).loc Cert.KernelIdeal.main_arg11)) (m ((c.tc : Thread Cert.KernelIdeal.nD Cert.KernelIdeal.τ).loc Cert.KernelIdeal.main_arg13))
      ∧ r.2.mem ((c.tc : Thread Cert.KernelIdeal.nD Cert.KernelIdeal.τ).loc Cert.KernelIdeal.main_v6_0) = Cert.Spec.recRes (m ((c.tc : Thread Cert.KernelIdeal.nD Cert.KernelIdeal.τ).loc Cert.KernelIdeal.main_arg2)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg12)) (m ((c.tc : Thread Cert.KernelIdeal.nD Cert.KernelIdeal.τ).loc Cert.KernelIdeal.main_arg11)) (m ((c.tc : Thread Cert.KernelIdeal.nD Cert.KernelIdeal.τ).loc Cert.KernelIdeal.main_arg13)) (m ((c.tc : Thread Cert.KernelIdeal.nD Cert.KernelIdeal.τ).loc Cert.KernelIdeal.main_arg8))
      ∧ r.2.mem ((c.tc : Thread Cert.KernelIdeal.nD Cert.KernelIdeal.τ).loc Cert.KernelIdeal.main_v6_1) = Cert.Spec.recRes (m ((c.tc : Thread Cert.KernelIdeal.nD Cert.KernelIdeal.τ).loc Cert.KernelIdeal.main_arg4)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg12)) (m ((c.tc : Thread Cert.KernelIdeal.nD Cert.KernelIdeal.τ).loc Cert.KernelIdeal.main_arg11)) (m ((c.tc : Thread Cert.KernelIdeal.nD Cert.KernelIdeal.τ).loc Cert.KernelIdeal.main_arg13)) (m ((c.tc : Thread Cert.KernelIdeal.nD Cert.KernelIdeal.τ).loc Cert.KernelIdeal.main_arg9))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)) := by
  refine (θ_run _ _ _).mono (fun r h c => ?_) (run_main m ρ)
  obtain ⟨h0, h1, h2, h3, h4, hargs⟩ := h c
  obtain ⟨r0, r1, r2, r3, r4, r5, r6, r7, r8, r9, r10, r11, r12, r13⟩ :=
    Cert.Finite.args_real _ _ _ _ _ _ _ _ _ _ _ _ _ _ (hpre c)
  exact ⟨
    h0.trans ((res_lat1 m c).trans (congrArg (fun L : Cert.Spec.Tab32 => (fun i => L (i 0) (i 1) : Cert.Spec.Arr2 4096 32))
      (Cert.Spec.latK_eq_latR (m ((c.tc : Thread nD τ).loc main_arg2)) (m ((c.tc : Thread nD τ).loc main_arg3)) (m ((c.tc : Thread nD τ).loc main_arg0)) (m ((c.tc : Thread nD τ).loc main_arg6)) (m ((c.tc : Thread nD τ).loc main_arg10)) (m ((c.tc : Thread nD τ).loc main_arg12)) r2 r3 r0 r6 r10 r12))),
    h1.trans ((res_lat2 m c).trans (congrArg (fun L : Cert.Spec.Tab32 => (fun i => L (i 0) (i 1) : Cert.Spec.Arr2 4096 32))
      (Cert.Spec.latK_eq_latR (m ((c.tc : Thread nD τ).loc main_arg4)) (m ((c.tc : Thread nD τ).loc main_arg5)) (m ((c.tc : Thread nD τ).loc main_arg1)) (m ((c.tc : Thread nD τ).loc main_arg7)) (m ((c.tc : Thread nD τ).loc main_arg11)) (m ((c.tc : Thread nD τ).loc main_arg13)) r4 r5 r1 r7 r11 r13))),
    h2.trans ((res_comb m c).trans (congrArg (fun L : Cert.Spec.Tab32 => (fun i => L (i 0) (i 1) : Cert.Spec.Arr2 4096 32))
      (Cert.Spec.comb_chain (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg0)) (m ((c.tc : Thread nD τ).loc main_arg1)) (m ((c.tc : Thread nD τ).loc main_arg6)) (m ((c.tc : Thread nD τ).loc main_arg7)) (m ((c.tc : Thread nD τ).loc main_arg10)) (m ((c.tc : Thread nD τ).loc main_arg12)) (m ((c.tc : Thread nD τ).loc main_arg11)) (m ((c.tc : Thread nD τ).loc main_arg13)) r2 r3 r4 r5 r0 r1 r6 r7 r10 r12 r11 r13))),
    h3.trans ((res_rec1 m c).trans (congrArg (fun L : Cert.Spec.Tab128 => (fun i => L (i 0) (i 1) : Cert.Spec.Arr2 4096 128))
      (Cert.Spec.recon_chain (m ((c.tc : Thread nD τ).loc main_arg2)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg0)) (m ((c.tc : Thread nD τ).loc main_arg1)) (m ((c.tc : Thread nD τ).loc main_arg6)) (m ((c.tc : Thread nD τ).loc main_arg7)) (m ((c.tc : Thread nD τ).loc main_arg10)) (m ((c.tc : Thread nD τ).loc main_arg12)) (m ((c.tc : Thread nD τ).loc main_arg11)) (m ((c.tc : Thread nD τ).loc main_arg13)) (m ((c.tc : Thread nD τ).loc main_arg8)) r2 r8 r2 r3 r4 r5 r0 r1 r6 r7 r10 r12 r11 r13))),
    h4.trans ((res_rec2 m c).trans (congrArg (fun L : Cert.Spec.Tab128 => (fun i => L (i 0) (i 1) : Cert.Spec.Arr2 4096 128))
      (Cert.Spec.recon_chain (m ((c.tc : Thread nD τ).loc main_arg4)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg0)) (m ((c.tc : Thread nD τ).loc main_arg1)) (m ((c.tc : Thread nD τ).loc main_arg6)) (m ((c.tc : Thread nD τ).loc main_arg7)) (m ((c.tc : Thread nD τ).loc main_arg10)) (m ((c.tc : Thread nD τ).loc main_arg12)) (m ((c.tc : Thread nD τ).loc main_arg11)) (m ((c.tc : Thread nD τ).loc main_arg13)) (m ((c.tc : Thread nD τ).loc main_arg9)) r4 r9 r2 r3 r4 r5 r0 r1 r6 r7 r10 r12 r11 r13))),
    hargs⟩

end Cert.KernelIdeal.Hand

end
-- ==== Proof.RefSide.lean ====
/-
  The reference's five results, read at an index, are the specification's reference form of the argument arrays.

  Each stage of the reference is read through the chain of its operations: an encoder product is one sum over the 128
  features, an embedding one sum over the 4096 columns of an adjacency row against the encoder product, a combination
  scalar broadcast twice is the one entry of its length-1 vector, a latent is the two scaled embeddings added, the
  combined latent their sum divided by the constant two, and a reconstruction one sum over the 4096 columns of an
  adjacency row against (combined latent times decoder weight), itself one sum over the 32 latent features.
-/
import proofs.«114995_g68247030333984_cont_9to1_m_654_2_alg».proof.Proof.RefRead
import proofs.«114995_g68247030333984_cont_9to1_m_654_2_alg».proof.Proof.Spec

noncomputable section

namespace Cert.RefSide

open Idealize.ShloMosaic Idealize.ShloMosaic.ValueIdx Cert.ReferenceIdeal Cert.ReferenceIdeal.ReadP Cert.Spec

variable (x0 x1 : (⟨S4096x128, .f32⟩ : BufTy).Contents (Elt Ideal))
  (x2 x3 x4 x5 : (⟨S4096x4096, .f32⟩ : BufTy).Contents (Elt Ideal))
  (x6 x7 : (⟨S128x32, .f32⟩ : BufTy).Contents (Elt Ideal))
  (x8 x9 : (⟨S32x128, .f32⟩ : BufTy).Contents (Elt Ideal))
  (x10 x11 x12 x13 : (⟨S1, .f32⟩ : BufTy).Contents (Elt Ideal))

/-! ## The encoder products -/

/-- feat1 · W1 at (r, j), as the first embedding reads it. -/
theorem proj_v0 (r : Fin 4096) (j : Fin 32) : val_main_v0 (F := Ideal) x0 x6 (ix2 r j) = proj x0 x6 r j := by
  rw [val_main_v0_apply]
  unfold proj
  refine Finset.sum_congr rfl fun d _ => ?_
  have el : lidx_main_v0 (ix2 r j) d = ix2 r d := funext fun a => by match a with | ⟨0, _⟩ => rfl | ⟨1, _⟩ => rfl
  have er : ridx_main_v0 (ix2 r j) d = ix2 d j := funext fun a => by match a with | ⟨0, _⟩ => rfl | ⟨1, _⟩ => rfl
  rw [el, er]

/-- feat2 · W2 at (r, j), as the second latent's first embedding reads it. -/
theorem proj_v2 (r : Fin 4096) (j : Fin 32) : val_main_v2 (F := Ideal) x1 x7 (ix2 r j) = proj x1 x7 r j := by
  rw [val_main_v2_apply]
  unfold proj
  refine Finset.sum_congr rfl fun d _ => ?_
  have el : lidx_main_v2 (ix2 r j) d = ix2 r d := funext fun a => by match a with | ⟨0, _⟩ => rfl | ⟨1, _⟩ => rfl
  have er : ridx_main_v2 (ix2 r j) d = ix2 d j := funext fun a => by match a with | ⟨0, _⟩ => rfl | ⟨1, _⟩ => rfl
  rw [el, er]

/-- feat1 · W1 at (r, j), as the first latent's second embedding reads it. -/
theorem proj_v4 (r : Fin 4096) (j : Fin 32) : val_main_v4 (F := Ideal) x0 x6 (ix2 r j) = proj x0 x6 r j := by
  rw [val_main_v4_apply]
  unfold proj
  refine Finset.sum_congr rfl fun d _ => ?_
  have el : lidx_main_v4 (ix2 r j) d = ix2 r d := funext fun a => by match a with | ⟨0, _⟩ => rfl | ⟨1, _⟩ => rfl
  have er : ridx_main_v4 (ix2 r j) d = ix2 d j := funext fun a => by match a with | ⟨0, _⟩ => rfl | ⟨1, _⟩ => rfl
  rw [el, er]

/-- feat2 · W2 at (r, j), as the second latent's second embedding reads it. -/
theorem proj_v6 (r : Fin 4096) (j : Fin 32) : val_main_v6 (F := Ideal) x1 x7 (ix2 r j) = proj x1 x7 r j := by
  rw [val_main_v6_apply]
  unfold proj
  refine Finset.sum_congr rfl fun d _ => ?_
  have el : lidx_main_v6 (ix2 r j) d = ix2 r d := funext fun a => by match a with | ⟨0, _⟩ => rfl | ⟨1, _⟩ => rfl
  have er : ridx_main_v6 (ix2 r j) d = ix2 d j := funext fun a => by match a with | ⟨0, _⟩ => rfl | ⟨1, _⟩ => rfl
  rw [el, er]

/-! ## The embeddings: an adjacency against an encoder product -/

/-- a1 · (feat1 · W1) at (p, j). -/
theorem emb_v1 (p : Fin 4096) (j : Fin 32) : val_main_v1 (F := Ideal) x0 x2 x6 (ix2 p j) = Spec.embR x2 x0 x6 p j := by
  rw [val_main_v1_apply]
  unfold Spec.embR
  refine Finset.sum_congr rfl fun k _ => ?_
  have el : lidx_main_v1 (ix2 p j) k = ix2 p k := funext fun a => by match a with | ⟨0, _⟩ => rfl | ⟨1, _⟩ => rfl
  have er : ridx_main_v1 (ix2 p j) k = ix2 k j := funext fun a => by match a with | ⟨0, _⟩ => rfl | ⟨1, _⟩ => rfl
  rw [el, er, proj_v0]

/-- a2 · (feat2 · W2) at (p, j). -/
theorem emb_v3 (p : Fin 4096) (j : Fin 32) : val_main_v3 (F := Ideal) x1 x4 x7 (ix2 p j) = Spec.embR x4 x1 x7 p j := by
  rw [val_main_v3_apply]
  unfold Spec.embR
  refine Finset.sum_congr rfl fun k _ => ?_
  have el : lidx_main_v3 (ix2 p j) k = ix2 p k := funext fun a => by match a with | ⟨0, _⟩ => rfl | ⟨1, _⟩ => rfl
  have er : ridx_main_v3 (ix2 p j) k = ix2 k j := funext fun a => by match a with | ⟨0, _⟩ => rfl | ⟨1, _⟩ => rfl
  rw [el, er, proj_v2]

/-- b1 · (feat1 · W1) at (p, j). -/
theorem emb_v5 (p : Fin 4096) (j : Fin 32) : val_main_v5 (F := Ideal) x0 x3 x6 (ix2 p j) = Spec.embR x3 x0 x6 p j := by
  rw [val_main_v5_apply]
  unfold Spec.embR
  refine Finset.sum_congr rfl fun k _ => ?_
  have el : lidx_main_v5 (ix2 p j) k = ix2 p k := funext fun a => by match a with | ⟨0, _⟩ => rfl | ⟨1, _⟩ => rfl
  have er : ridx_main_v5 (ix2 p j) k = ix2 k j := funext fun a => by match a with | ⟨0, _⟩ => rfl | ⟨1, _⟩ => rfl
  rw [el, er, proj_v4]

/-- b2 · (feat2 · W2) at (p, j). -/
theorem emb_v7 (p : Fin 4096) (j : Fin 32) : val_main_v7 (F := Ideal) x1 x5 x7 (ix2 p j) = Spec.embR x5 x1 x7 p j := by
  rw [val_main_v7_apply]
  unfold Spec.embR
  refine Finset.sum_congr rfl fun k _ => ?_
  have el : lidx_main_v7 (ix2 p j) k = ix2 p k := funext fun a => by match a with | ⟨0, _⟩ => rfl | ⟨1, _⟩ => rfl
  have er : ridx_main_v7 (ix2 p j) k = ix2 k j := funext fun a => by match a with | ⟨0, _⟩ => rfl | ⟨1, _⟩ => rfl
  rw [el, er, proj_v6]

/-! ## The combination scalars: a length-1 vector broadcast to a table is its one entry everywhere -/

theorem scal_v9 (i : S4096x32.Idx) : val_main_v9 (F := Ideal) x10 i = scal x10 := by
  rw [val_main_v9_apply, val_main_v8_apply]
  exact congrArg x10 (funext fun a => by match a with | ⟨0, _⟩ => rfl)

theorem scal_v12 (i : S4096x32.Idx) : val_main_v12 (F := Ideal) x12 i = scal x12 := by
  rw [val_main_v12_apply, val_main_v11_apply]
  exact congrArg x12 (funext fun a => by match a with | ⟨0, _⟩ => rfl)

theorem scal_v16 (i : S4096x32.Idx) : val_main_v16 (F := Ideal) x11 i = scal x11 := by
  rw [val_main_v16_apply, val_main_v15_apply]
  exact congrArg x11 (funext fun a => by match a with | ⟨0, _⟩ => rfl)

theorem scal_v19 (i : S4096x32.Idx) : val_main_v19 (F := Ideal) x13 i = scal x13 := by
  rw [val_main_v19_apply, val_main_v18_apply]
  exact congrArg x13 (funext fun a => by match a with | ⟨0, _⟩ => rfl)

/-! ## The five results -/

/-- The first latent: ws1 · (a1 · (feat1 · W1)) + wf1 · (b1 · (feat1 · W1)). -/
theorem lat_v14 (p : Fin 4096) (j : Fin 32) :
    val_main_v14 (F := Ideal) x0 x2 x3 x6 x10 x12 (ix2 p j) = latR x2 x3 x0 x6 x10 x12 p j := by
  rw [val_main_v14_apply, val_main_v10_apply, val_main_v13_apply, scal_v9, scal_v12, emb_v1, emb_v5]
  rfl

/-- The second latent: ws2 · (a2 · (feat2 · W2)) + wf2 · (b2 · (feat2 · W2)). -/
theorem lat_v21 (p : Fin 4096) (j : Fin 32) :
    val_main_v21 (F := Ideal) x1 x4 x5 x7 x11 x13 (ix2 p j) = latR x4 x5 x1 x7 x11 x13 p j := by
  rw [val_main_v21_apply, val_main_v17_apply, val_main_v20_apply, scal_v16, scal_v19, emb_v3, emb_v7]
  rfl

/-- The combined latent: (first latent + second latent) / 2. -/
theorem comb_v24 (p : Fin 4096) (j : Fin 32) :
    val_main_v24 (F := Ideal) x0 x1 x2 x3 x4 x5 x6 x7 x10 x11 x12 x13 (ix2 p j)
      = combR (latR x2 x3 x0 x6 x10 x12) (latR x4 x5 x1 x7 x11 x13) p j := by
  rw [val_main_v24_apply, val_main_v22_apply, lat_v14, lat_v21, val_main_v23_apply, val_main_cst_apply]
  rfl

/-- combined · d1 at (k, q). -/
theorem dec_v25 (k : Fin 4096) (q : Fin 128) :
    val_main_v25 (F := Ideal) x0 x1 x2 x3 x4 x5 x6 x7 x8 x10 x11 x12 x13 (ix2 k q)
      = decR (combR (latR x2 x3 x0 x6 x10 x12) (latR x4 x5 x1 x7 x11 x13)) x8 k q := by
  rw [val_main_v25_apply]
  unfold decR
  refine Finset.sum_congr rfl fun j _ => ?_
  have el : lidx_main_v25 (ix2 k q) j = ix2 k j := funext fun a => by match a with | ⟨0, _⟩ => rfl | ⟨1, _⟩ => rfl
  have er : ridx_main_v25 (ix2 k q) j = ix2 j q := funext fun a => by match a with | ⟨0, _⟩ => rfl | ⟨1, _⟩ => rfl
  rw [el, er, comb_v24]

/-- combined · d2 at (k, q). -/
theorem dec_v27 (k : Fin 4096) (q : Fin 128) :
    val_main_v27 (F := Ideal) x0 x1 x2 x3 x4 x5 x6 x7 x9 x10 x11 x12 x13 (ix2 k q)
      = decR (combR (latR x2 x3 x0 x6 x10 x12) (latR x4 x5 x1 x7 x11 x13)) x9 k q := by
  rw [val_main_v27_apply]
  unfold decR
  refine Finset.sum_congr rfl fun j _ => ?_
  have el : lidx_main_v27 (ix2 k q) j = ix2 k j := funext fun a => by match a with | ⟨0, _⟩ => rfl | ⟨1, _⟩ => rfl
  have er : ridx_main_v27 (ix2 k q) j = ix2 j q := funext fun a => by match a with | ⟨0, _⟩ => rfl | ⟨1, _⟩ => rfl
  rw [el, er, comb_v24]

/-- The first reconstruction: a1 · (combined · d1). -/
theorem rec_v26 (p : Fin 4096) (q : Fin 128) :
    val_main_v26 (F := Ideal) x0 x1 x2 x3 x4 x5 x6 x7 x8 x10 x11 x12 x13 (ix2 p q)
      = reconR x2 (combR (latR x2 x3 x0 x6 x10 x12) (latR x4 x5 x1 x7 x11 x13)) x8 p q := by
  rw [val_main_v26_apply]
  unfold reconR
  refine Finset.sum_congr rfl fun k _ => ?_
  have el : lidx_main_v26 (ix2 p q) k = ix2 p k := funext fun a => by match a with | ⟨0, _⟩ => rfl | ⟨1, _⟩ => rfl
  have er : ridx_main_v26 (ix2 p q) k = ix2 k q := funext fun a => by match a with | ⟨0, _⟩ => rfl | ⟨1, _⟩ => rfl
  rw [el, er, dec_v25]

/-- The second reconstruction: a2 · (combined · d2). -/
theorem rec_v28 (p : Fin 4096) (q : Fin 128) :
    val_main_v28 (F := Ideal) x0 x1 x2 x3 x4 x5 x6 x7 x9 x10 x11 x12 x13 (ix2 p q)
      = reconR x4 (combR (latR x2 x3 x0 x6 x10 x12) (latR x4 x5 x1 x7 x11 x13)) x9 p q := by
  rw [val_main_v28_apply]
  unfold reconR
  refine Finset.sum_congr rfl fun k _ => ?_
  have el : lidx_main_v28 (ix2 p q) k = ix2 p k := funext fun a => by match a with | ⟨0, _⟩ => rfl | ⟨1, _⟩ => rfl
  have er : ridx_main_v28 (ix2 p q) k = ix2 k q := funext fun a => by match a with | ⟨0, _⟩ => rfl | ⟨1, _⟩ => rfl
  rw [el, er, dec_v27]

end Cert.RefSide

end
-- ==== Proof.RefClaim.lean ====
/-
  The reference's run, stated over the result arrays, and the reference's frame.

  Each of the reference's five result buffers ends at the specification's reference form of the launch contents of the
  argument arrays: a stage read at every index (an index of a table is the pair of its two coordinates) is the
  reference form at those coordinates. Dropping the five results from that run leaves the frame: the run terminates,
  nothing faults, and the fourteen argument arrays end unchanged.
-/
import proofs.«114995_g68247030333984_cont_9to1_m_654_2_alg».proof.Defs
import proofs.«114995_g68247030333984_cont_9to1_m_654_2_alg».proof.Proof.RefSide
import proofs.«114995_g68247030333984_cont_9to1_m_654_2_alg».proof.Proof.Results

noncomputable section

namespace Cert.RefSide

open Idealize.ShloMosaic Idealize.SL.Sem Idealize.ShloMosaic.ValueIdx Cert.ReferenceIdeal Cert.ReferenceIdeal.ReadP Cert.Spec

section Arrays

variable (x0 x1 : (⟨S4096x128, .f32⟩ : BufTy).Contents (Elt Ideal))
  (x2 x3 x4 x5 : (⟨S4096x4096, .f32⟩ : BufTy).Contents (Elt Ideal))
  (x6 x7 : (⟨S128x32, .f32⟩ : BufTy).Contents (Elt Ideal))
  (x8 x9 : (⟨S32x128, .f32⟩ : BufTy).Contents (Elt Ideal))
  (x10 x11 x12 x13 : (⟨S1, .f32⟩ : BufTy).Contents (Elt Ideal))

/-- The first latent stage is the first latent array. -/
theorem lat_v14_arr : val_main_v14 (F := Ideal) x0 x2 x3 x6 x10 x12 = latRes x2 x3 x0 x6 x10 x12 := by
  funext i
  obtain ⟨p, j, rfl⟩ : ∃ (p : Fin 4096) (j : Fin 32), i = ix2 p j := ⟨i 0, i 1, eq_ix2 i⟩
  exact lat_v14 x0 x2 x3 x6 x10 x12 p j

/-- The second latent stage is the second latent array. -/
theorem lat_v21_arr : val_main_v21 (F := Ideal) x1 x4 x5 x7 x11 x13 = latRes x4 x5 x1 x7 x11 x13 := by
  funext i
  obtain ⟨p, j, rfl⟩ : ∃ (p : Fin 4096) (j : Fin 32), i = ix2 p j := ⟨i 0, i 1, eq_ix2 i⟩
  exact lat_v21 x1 x4 x5 x7 x11 x13 p j

/-- The combined stage is the combined array. -/
theorem comb_v24_arr : val_main_v24 (F := Ideal) x0 x1 x2 x3 x4 x5 x6 x7 x10 x11 x12 x13
    = combRes x2 x3 x4 x5 x0 x1 x6 x7 x10 x12 x11 x13 := by
  funext i
  obtain ⟨p, j, rfl⟩ : ∃ (p : Fin 4096) (j : Fin 32), i = ix2 p j := ⟨i 0, i 1, eq_ix2 i⟩
  exact comb_v24 x0 x1 x2 x3 x4 x5 x6 x7 x10 x11 x12 x13 p j

/-- The first reconstruction stage is the first reconstruction array. -/
theorem rec_v26_arr : val_main_v26 (F := Ideal) x0 x1 x2 x3 x4 x5 x6 x7 x8 x10 x11 x12 x13
    = recRes x2 x2 x3 x4 x5 x0 x1 x6 x7 x10 x12 x11 x13 x8 := by
  funext i
  obtain ⟨p, q, rfl⟩ : ∃ (p : Fin 4096) (q : Fin 128), i = ix2 p q := ⟨i 0, i 1, eq_ix2 i⟩
  exact rec_v26 x0 x1 x2 x3 x4 x5 x6 x7 x8 x10 x11 x12 x13 p q

/-- The second reconstruction stage is the second reconstruction array. -/
theorem rec_v28_arr : val_main_v28 (F := Ideal) x0 x1 x2 x3 x4 x5 x6 x7 x9 x10 x11 x12 x13
    = recRes x4 x2 x3 x4 x5 x0 x1 x6 x7 x10 x12 x11 x13 x9 := by
  funext i
  obtain ⟨p, q, rfl⟩ : ∃ (p : Fin 4096) (q : Fin 128), i = ix2 p q := ⟨i 0, i 1, eq_ix2 i⟩
  exact rec_v28 x0 x1 x2 x3 x4 x5 x6 x7 x9 x10 x11 x12 x13 p q

end Arrays

/-- From any memory with zero counters the reference runs to the end, nothing faulting; its five result buffers end
    at the reference form of the argument arrays' launch contents, and the fourteen argument arrays end unchanged. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v14) = Cert.Spec.latRes (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg12))
      ∧ r.2.mem ((c.tc : Thread Cert.ReferenceIdeal.nD Cert.ReferenceIdeal.τ).loc Cert.ReferenceIdeal.main_v21) = Cert.Spec.latRes (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg13))
      ∧ r.2.mem ((c.tc : Thread Cert.ReferenceIdeal.nD Cert.ReferenceIdeal.τ).loc Cert.ReferenceIdeal.main_v24) = Cert.Spec.combRes (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg13))
      ∧ r.2.mem ((c.tc : Thread Cert.ReferenceIdeal.nD Cert.ReferenceIdeal.τ).loc Cert.ReferenceIdeal.main_v26) = Cert.Spec.recRes (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg8))
      ∧ r.2.mem ((c.tc : Thread Cert.ReferenceIdeal.nD Cert.ReferenceIdeal.τ).loc Cert.ReferenceIdeal.main_v28) = Cert.Spec.recRes (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)) := by
  refine (θ_run (Cert.ReferenceIdeal.defs (F := Ideal)) _ _).mono (fun r h c => ?_) (Cert.ReferenceIdeal.ValueP.run (F := Ideal) m' ρ')
  obtain ⟨h14, h21, h24, h26, h28, hargs⟩ := h c
  refine ⟨?_, ?_, ?_, ?_, ?_, hargs⟩
  · rw [h14, val_main_v14_eq]; exact lat_v14_arr _ _ _ _ _ _
  · rw [h21, val_main_v21_eq]; exact lat_v21_arr _ _ _ _ _ _
  · rw [h24, val_main_v24_eq]; exact comb_v24_arr _ _ _ _ _ _ _ _ _ _ _ _
  · rw [h26, val_main_v26_eq]; exact rec_v26_arr _ _ _ _ _ _ _ _ _ _ _ _ _
  · rw [h28, val_main_v28_eq]; exact rec_v28_arr _ _ _ _ _ _ _ _ _ _ _ _ _

/-- The reference's frame: its run with the five results dropped. -/
theorem frame_ref [Cert.ReferenceIdeal.Facts] [Cert.Pre_finite_inputs.Facts] : Cert.frame_ReferenceIdeal := fun m g _ =>
  (θ_run (Cert.ReferenceIdeal.defs (F := Ideal)) _ _).mono (fun _ h c => (h c).2.2.2.2.2) (Cert.ReferenceIdeal.ValueP.run (F := Ideal) m g)

end Cert.RefSide

end
-- ==== Proof.lean ====
/-
  The certificate's claim: the three frames, the (empty) idealization ledger, and the equality of the two idealized
  programs' results.

  Both frames of the kernel come from one run of its three pallas_calls, proved once for any float family: the prologue
  (the two encoder products scaled by the four combination scalars), the latent pass (each latent's row block a running
  sum over the eight column blocks, kept in its output buffer; the combined latent one half of their sum) and the decoder
  pass (adjacency · combined kept in scratch over the column blocks, then times the decoder weight). At the ideal
  instance that run's five result arrays are read as the kernel's form of the results; on inputs whose entries are all
  real numbers — which is what the precondition says — distributing the scalars, regrouping each 4096-term sum into
  eight blocks of 512, reading 0.5 · x as x / 2 and reassociating the two matrix products turn that form into jnp's,
  which is what the reference's thirty host operations compute.
-/
import proofs.«114995_g68247030333984_cont_9to1_m_654_2_alg».proof.Defs
import proofs.«114995_g68247030333984_cont_9to1_m_654_2_alg».proof.Proof.Gen.Kernel
import proofs.«114995_g68247030333984_cont_9to1_m_654_2_alg».proof.Proof.Gen.KernelIdeal
import proofs.«114995_g68247030333984_cont_9to1_m_654_2_alg».proof.Proof.Gen.ReferenceIdeal
import proofs.«114995_g68247030333984_cont_9to1_m_654_2_alg».proof.Proof.Gen.Pre_finite_inputs
import proofs.«114995_g68247030333984_cont_9to1_m_654_2_alg».proof.Proof.BLaunch
import proofs.«114995_g68247030333984_cont_9to1_m_654_2_alg».proof.Proof.KerClaim
import proofs.«114995_g68247030333984_cont_9to1_m_654_2_alg».proof.Proof.RefClaim
import Idealize.ShloMosaic.Adequacy
import Idealize.ShloMosaic.Init

noncomputable section

namespace Cert.Proof

open Idealize.ShloMosaic Idealize.ShloMosaic.TcCoe Idealize.SL.Sem

/-- The word-level kernel runs and leaves its arguments as launched: its run with the five results dropped. -/
theorem frame_kernel : Cert.frame_Kernel := fun m ρ _ =>
  (θ_run Cert.Kernel.defs _ _).mono (fun _ h c => (h c).2.2.2.2.2) (Cert.Kernel.Hand.run_main (F := Bits) m ρ)

/-- The idealized kernel likewise. -/
theorem frame_kernelIdeal : Cert.frame_KernelIdeal := fun m ρ _ =>
  (θ_run Cert.KernelIdeal.defs _ _).mono (fun _ h c => (h c).2.2.2.2.2) (Cert.KernelIdeal.Hand.run_main (F := Ideal) m ρ)

/-- The idealized reference runs and leaves its arguments as launched. -/
theorem frame_reference : Cert.frame_ReferenceIdeal := Cert.RefSide.frame_ref

/-- The ideal pass rewrote nothing: there is no conjunct to state. -/
theorem preserves : Cert.preserves_Kernel_KernelIdeal := trivial

/-- From memories agreeing on the fourteen arguments, both idealized programs end with the same five arrays: the
    reference's form of the results, read off the kernel's arguments. -/
theorem algebraic : Cert.algebraic_KernelIdeal_ReferenceIdeal := by
  intro m ρ m' ρ' hpre hagree
  refine ⟨fun c => Cert.Spec.latRes (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg10)) (m ((c.tc : Thread Cert.KernelIdeal.nD Cert.KernelIdeal.τ).loc Cert.KernelIdeal.main_arg12)),
    fun c => Cert.Spec.latRes (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg11)) (m ((c.tc : Thread Cert.KernelIdeal.nD Cert.KernelIdeal.τ).loc Cert.KernelIdeal.main_arg13)),
    fun c => Cert.Spec.combRes (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg12)) (m ((c.tc : Thread Cert.KernelIdeal.nD Cert.KernelIdeal.τ).loc Cert.KernelIdeal.main_arg11)) (m ((c.tc : Thread Cert.KernelIdeal.nD Cert.KernelIdeal.τ).loc Cert.KernelIdeal.main_arg13)),
    fun c => Cert.Spec.recRes (m ((c.tc : Thread Cert.KernelIdeal.nD Cert.KernelIdeal.τ).loc Cert.KernelIdeal.main_arg2)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg12)) (m ((c.tc : Thread Cert.KernelIdeal.nD Cert.KernelIdeal.τ).loc Cert.KernelIdeal.main_arg11)) (m ((c.tc : Thread Cert.KernelIdeal.nD Cert.KernelIdeal.τ).loc Cert.KernelIdeal.main_arg13)) (m ((c.tc : Thread Cert.KernelIdeal.nD Cert.KernelIdeal.τ).loc Cert.KernelIdeal.main_arg8)),
    fun c => Cert.Spec.recRes (m ((c.tc : Thread Cert.KernelIdeal.nD Cert.KernelIdeal.τ).loc Cert.KernelIdeal.main_arg4)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg12)) (m ((c.tc : Thread Cert.KernelIdeal.nD Cert.KernelIdeal.τ).loc Cert.KernelIdeal.main_arg11)) (m ((c.tc : Thread Cert.KernelIdeal.nD Cert.KernelIdeal.τ).loc Cert.KernelIdeal.main_arg13)) (m ((c.tc : Thread Cert.KernelIdeal.nD Cert.KernelIdeal.τ).loc Cert.KernelIdeal.main_arg9)),
    Cert.KernelIdeal.Hand.ker_run m ρ hpre, ?_⟩
  refine (θ_run Cert.ReferenceIdeal.defs _ _).mono (fun _ h c => ?_) (Cert.RefSide.ref_run m' ρ')
  obtain ⟨e0, e1, e2, e3, e4, e5, e6, e7, e8, e9, e10, e11, e12, e13⟩ := hagree c
  beta_reduce
  rw [← e0, ← e1, ← e2, ← e3, ← e4, ← e5, ← e6, ← e7, ← e8, ← e9, ← e10, ← e11, ← e12, ← e13]
  exact h c

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
